-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x16 : Shape := ⟨2, ![4194304, 16]⟩
abbrev S_ : Shape := ⟨0, ![]⟩

class Facts : Prop where
  bcast_S_S4194304x16 : S_.BroadcastsInDim S4194304x16 (![] : Fin 0 → Fin S4194304x16.rank)
  reducesTo_S4194304x16_S_d0_1 : S4194304x16.ReducesTo [0, 1] S_
  h_S_ : 0 < S_.numel

variable [Facts]

def fn {F : FTy → Type} [FloatOps F] (main_arg0 : FVec F S4194304x16 .f32) (main_arg1 : FVec F S4194304x16 .f32) : IVec S_ 1 :=
  let main_v0 : FVec F S4194304x16 .f32 := Host.absf main_arg0
  let main_cst : FVec F S_ .f32 := constant S_ .f32 0x7F800000#32
  let main_v1 : FVec F S4194304x16 .f32 := broadcastInDim S4194304x16 ![] bcast_S_S4194304x16 main_cst
  let main_v2 : IVec S4194304x16 1 := cmpf .olt main_v0 main_v1
  let main_c : IVec S_ 1 := constantI S_ 1 1#1
  let main_v3 : IVec S_ 1 := (fun x v => Host.reduce IntOp.andi x v reducesTo_S4194304x16_S_d0_1 h_S_) main_v2 main_c
  let main_v4 : FVec F S4194304x16 .f32 := Host.absf main_arg1
  let main_cst_0 : FVec F S_ .f32 := constant S_ .f32 0x7F800000#32
  let main_v5 : FVec F S4194304x16 .f32 := broadcastInDim S4194304x16 ![] bcast_S_S4194304x16 main_cst_0
  let main_v6 : IVec S4194304x16 1 := cmpf .olt main_v4 main_v5
  let main_c_1 : IVec S_ 1 := constantI S_ 1 1#1
  let main_v7 : IVec S_ 1 := (fun x v => Host.reduce IntOp.andi x v reducesTo_S4194304x16_S_d0_1 h_S_) main_v6 main_c_1
  let main_v8 : IVec S_ 1 := andi main_v3 main_v7
  main_v8
-- ==== Kernel.lean ====
abbrev S4194304x16 : Shape := ⟨2, ![4194304, 16]⟩
abbrev S80 : Shape := ⟨1, ![80]⟩
abbrev S10 : Shape := ⟨1, ![10]⟩
abbrev S32 : Shape := ⟨1, ![32]⟩
abbrev S4 : Shape := ⟨1, ![4]⟩
abbrev S524288x128 : Shape := ⟨2, ![524288, 128]⟩
abbrev S16x128 : Shape := ⟨2, ![16, 128]⟩
abbrev S256x128 : Shape := ⟨2, ![256, 128]⟩
abbrev S8192x128 : Shape := ⟨2, ![8192, 128]⟩
abbrev S8x128 : Shape := ⟨2, ![8, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S8x16 : Shape := ⟨2, ![8, 16]⟩
abbrev S16 : Shape := ⟨1, ![16]⟩
abbrev S16384 : Shape := ⟨1, ![16384]⟩
abbrev S80x1 : Shape := ⟨2, ![80, 1]⟩
abbrev S1 : Shape := ⟨1, ![1]⟩
abbrev S1x1 : Shape := ⟨2, ![1, 1]⟩
abbrev S10x8 : Shape := ⟨2, ![10, 8]⟩
abbrev S10x1 : Shape := ⟨2, ![10, 1]⟩
abbrev S32x1 : Shape := ⟨2, ![32, 1]⟩
abbrev S4x8 : Shape := ⟨2, ![4, 8]⟩
abbrev S4x1 : Shape := ⟨2, ![4, 1]⟩

abbrev nBuf : Space → Nat
  | .hbm => 199
  | .vmem => 11
  | .smem => 0
  | _ => 0

abbrev hbmTy0_0 (i : Nat) : BufTy := match i % 128 with
  | 0 => ⟨S4194304x16, .f32⟩
  | 1 => ⟨S4194304x16, .f32⟩
  | 2 => ⟨S80, .i32⟩
  | 3 => ⟨S10, .i32⟩
  | 4 => ⟨S10, .i1⟩
  | 5 => ⟨S10, .i32⟩
  | 6 => ⟨S10, .i1⟩
  | 7 => ⟨S10, .i1⟩
  | 8 => ⟨S10, .i1⟩
  | 9 => ⟨S32, .i32⟩
  | 10 => ⟨S4, .i32⟩
  | 11 => ⟨S4, .i1⟩
  | 12 => ⟨S4, .i32⟩
  | 13 => ⟨S4, .i1⟩
  | 14 => ⟨S4, .i1⟩
  | 15 => ⟨S4, .i1⟩
  | 16 => ⟨S524288x128, .f32⟩
  | 17 => ⟨S16x128, .f32⟩
  | 18 => ⟨S16x128, .f32⟩
  | 19 => ⟨S256x128, .f32⟩
  | 20 => ⟨S1x128, .f32⟩
  | 21 => ⟨S128, .f32⟩
  | 22 => ⟨S_, .f32⟩
  | 23 => ⟨S128, .f32⟩
  | 24 => ⟨S128, .f32⟩
  | 25 => ⟨S1x128, .f32⟩
  | 26 => ⟨S128, .f32⟩
  | 27 => ⟨S128, .f32⟩
  | 28 => ⟨S1x128, .f32⟩
  | 29 => ⟨S128, .f32⟩
  | 30 => ⟨S_, .f32⟩
  | 31 => ⟨S128, .f32⟩
  | 32 => ⟨S128, .f32⟩
  | 33 => ⟨S1x128, .f32⟩
  | 34 => ⟨S128, .f32⟩
  | 35 => ⟨S128, .f32⟩
  | 36 => ⟨S128x128, .f32⟩
  | 37 => ⟨S_, .f32⟩
  | 38 => ⟨S128x128, .f32⟩
  | 39 => ⟨S128x128, .f32⟩
  | 40 => ⟨S128x128, .f32⟩
  | 41 => ⟨S128x128, .f32⟩
  | 42 => ⟨S8x16, .f32⟩
  | 43 => ⟨S_, .f32⟩
  | 44 => ⟨S16, .f32⟩
  | 45 => ⟨S_, .f32⟩
  | 46 => ⟨S16, .f32⟩
  | 47 => ⟨S16, .f32⟩
  | 48 => ⟨S8x16, .f32⟩
  | 49 => ⟨S_, .f32⟩
  | 50 => ⟨S16, .f32⟩
  | 51 => ⟨S_, .f32⟩
  | 52 => ⟨S16, .f32⟩
  | 53 => ⟨S16, .f32⟩
  | 54 => ⟨S16384, .f32⟩
  | 55 => ⟨S_, .i32⟩
  | 56 => ⟨S80, .i32⟩
  | 57 => ⟨S80, .i1⟩
  | 58 => ⟨S_, .i32⟩
  | 59 => ⟨S80, .i32⟩
  | 60 => ⟨S80, .i32⟩
  | 61 => ⟨S80, .i32⟩
  | 62 => ⟨S80x1, .i32⟩
  | 63 => ⟨S1, .i32⟩
  | 64 => ⟨S_, .i32⟩
  | 65 => ⟨S80x1, .i32⟩
  | 66 => ⟨S80x1, .i1⟩
  | 67 => ⟨S1x1, .i32⟩
  | 68 => ⟨S80x1, .i32⟩
  | 69 => ⟨S80x1, .i1⟩
  | 70 => ⟨S80x1, .i1⟩
  | 71 => ⟨S_, .i1⟩
  | 72 => ⟨S80, .i1⟩
  | 73 => ⟨S80, .f32⟩
  | 74 => ⟨S_, .f32⟩
  | 75 => ⟨S80, .f32⟩
  | 76 => ⟨S80, .f32⟩
  | 77 => ⟨S10x8, .f32⟩
  | 78 => ⟨S_, .f32⟩
  | 79 => ⟨S10, .f32⟩
  | 80 => ⟨S_, .f32⟩
  | 81 => ⟨S10, .f32⟩
  | 82 => ⟨S10, .f32⟩
  | 83 => ⟨S_, .i32⟩
  | 84 => ⟨S10, .i32⟩
  | 85 => ⟨S10, .i32⟩
  | 86 => ⟨S10, .i32⟩
  | 87 => ⟨S10x1, .i32⟩
  | 88 => ⟨S10, .f32⟩
  | 89 => ⟨S_, .i32⟩
  | 90 => ⟨S10, .i32⟩
  | 91 => ⟨S10, .i32⟩
  | 92 => ⟨S10, .i32⟩
  | 93 => ⟨S10x1, .i32⟩
  | 94 => ⟨S10, .f32⟩
  | 95 => ⟨S_, .i32⟩
  | 96 => ⟨S10, .i32⟩
  | 97 => ⟨S10, .i32⟩
  | 98 => ⟨S10, .i32⟩
  | 99 => ⟨S10x1, .i32⟩
  | 100 => ⟨S10, .f32⟩
  | 101 => ⟨S_, .i32⟩
  | 102 => ⟨S10, .i32⟩
  | 103 => ⟨S10, .i32⟩
  | 104 => ⟨S10, .i32⟩
  | 105 => ⟨S10x1, .i32⟩
  | 106 => ⟨S10, .f32⟩
  | 107 => ⟨S10, .f32⟩
  | 108 => ⟨S10, .f32⟩
  | 109 => ⟨S_, .f32⟩
  | 110 => ⟨S10, .f32⟩
  | 111 => ⟨S10, .f32⟩
  | 112 => ⟨S10, .f32⟩
  | 113 => ⟨S10, .f32⟩
  | 114 => ⟨S_, .f32⟩
  | 115 => ⟨S10, .f32⟩
  | 116 => ⟨S10, .f32⟩
  | 117 => ⟨S10, .f32⟩
  | 118 => ⟨S10, .f32⟩
  | 119 => ⟨S10, .f32⟩
  | 120 => ⟨S_, .f32⟩
  | 121 => ⟨S10, .f32⟩
  | 122 => ⟨S10, .f32⟩
  | 123 => ⟨S10, .f32⟩
  | 124 => ⟨S_, .f32⟩
  | 125 => ⟨S_, .f32⟩
  | 126 => ⟨S16384, .f32⟩
  | 127 => ⟨S_, .i32⟩
  | _ => ⟨S4194304x16, .f32⟩

abbrev hbmTy0_1 (i : Nat) : BufTy := match i % 128 with
  | 0 => ⟨S32, .i32⟩
  | 1 => ⟨S32, .i1⟩
  | 2 => ⟨S_, .i32⟩
  | 3 => ⟨S32, .i32⟩
  | 4 => ⟨S32, .i32⟩
  | 5 => ⟨S32, .i32⟩
  | 6 => ⟨S32x1, .i32⟩
  | 7 => ⟨S1, .i32⟩
  | 8 => ⟨S_, .i32⟩
  | 9 => ⟨S32x1, .i32⟩
  | 10 => ⟨S32x1, .i1⟩
  | 11 => ⟨S1x1, .i32⟩
  | 12 => ⟨S32x1, .i32⟩
  | 13 => ⟨S32x1, .i1⟩
  | 14 => ⟨S32x1, .i1⟩
  | 15 => ⟨S_, .i1⟩
  | 16 => ⟨S32, .i1⟩
  | 17 => ⟨S32, .f32⟩
  | 18 => ⟨S_, .f32⟩
  | 19 => ⟨S32, .f32⟩
  | 20 => ⟨S32, .f32⟩
  | 21 => ⟨S4x8, .f32⟩
  | 22 => ⟨S_, .f32⟩
  | 23 => ⟨S4, .f32⟩
  | 24 => ⟨S_, .f32⟩
  | 25 => ⟨S4, .f32⟩
  | 26 => ⟨S4, .f32⟩
  | 27 => ⟨S_, .i32⟩
  | 28 => ⟨S4, .i32⟩
  | 29 => ⟨S4, .i32⟩
  | 30 => ⟨S4, .i32⟩
  | 31 => ⟨S4x1, .i32⟩
  | 32 => ⟨S4, .f32⟩
  | 33 => ⟨S_, .i32⟩
  | 34 => ⟨S4, .i32⟩
  | 35 => ⟨S4, .i32⟩
  | 36 => ⟨S4, .i32⟩
  | 37 => ⟨S4x1, .i32⟩
  | 38 => ⟨S4, .f32⟩
  | 39 => ⟨S_, .i32⟩
  | 40 => ⟨S4, .i32⟩
  | 41 => ⟨S4, .i32⟩
  | 42 => ⟨S4, .i32⟩
  | 43 => ⟨S4x1, .i32⟩
  | 44 => ⟨S4, .f32⟩
  | 45 => ⟨S_, .i32⟩
  | 46 => ⟨S4, .i32⟩
  | 47 => ⟨S4, .i32⟩
  | 48 => ⟨S4, .i32⟩
  | 49 => ⟨S4x1, .i32⟩
  | 50 => ⟨S4, .f32⟩
  | 51 => ⟨S4, .f32⟩
  | 52 => ⟨S4, .f32⟩
  | 53 => ⟨S_, .f32⟩
  | 54 => ⟨S4, .f32⟩
  | 55 => ⟨S4, .f32⟩
  | 56 => ⟨S4, .f32⟩
  | 57 => ⟨S4, .f32⟩
  | 58 => ⟨S_, .f32⟩
  | 59 => ⟨S4, .f32⟩
  | 60 => ⟨S4, .f32⟩
  | 61 => ⟨S4, .f32⟩
  | 62 => ⟨S4, .f32⟩
  | 63 => ⟨S4, .f32⟩
  | 64 => ⟨S_, .f32⟩
  | 65 => ⟨S4, .f32⟩
  | 66 => ⟨S4, .f32⟩
  | 67 => ⟨S4, .f32⟩
  | 68 => ⟨S_, .f32⟩
  | 69 => ⟨S_, .f32⟩
  | 70 => ⟨S_, .f32⟩
  | _ => ⟨S4194304x16, .f32⟩

abbrev hbmTy (i : Nat) : BufTy := match i / 128 with
  | 0 => hbmTy0_0 i
  | 1 => hbmTy0_1 i
  | _ => ⟨S4194304x16, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | _, _ => ⟨S4194304x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_c_8 : Ref sig .tc := ⟨.hbm, 11, rfl⟩
abbrev main_c_9 : Ref sig .tc := ⟨.hbm, 12, rfl⟩
abbrev main_c_10 : Ref sig .tc := ⟨.hbm, 13, rfl⟩
abbrev main_c_11 : Ref sig .tc := ⟨.hbm, 14, rfl⟩
abbrev main_c_12 : Ref sig .tc := ⟨.hbm, 15, rfl⟩
abbrev main_v0 : Ref sig .tc := ⟨.hbm, 16, rfl⟩
abbrev main_v1_0 : Ref sig .tc := ⟨.hbm, 17, rfl⟩
abbrev main_v1_1 : Ref sig .tc := ⟨.hbm, 18, rfl⟩
abbrev main_v1_2 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_13 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_14 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_15 : Ref sig .tc := ⟨.hbm, 43, rfl⟩
abbrev main_v22 : Ref sig .tc := ⟨.hbm, 44, rfl⟩
abbrev main_cst_16 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_17 : Ref sig .tc := ⟨.hbm, 49, rfl⟩
abbrev main_v26 : Ref sig .tc := ⟨.hbm, 50, rfl⟩
abbrev main_cst_18 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call0_c : Ref sig .tc := ⟨.hbm, 55, rfl⟩
abbrev main_call0_v0 : Ref sig .tc := ⟨.hbm, 56, rfl⟩
abbrev main_call0_v1 : Ref sig .tc := ⟨.hbm, 57, rfl⟩
abbrev main_call0_c_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_c_1 : Ref sig .tc := ⟨.hbm, 63, rfl⟩
abbrev main_call0_c_2 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_c_3 : Ref sig .tc := ⟨.hbm, 71, rfl⟩
abbrev main_call0_v12 : Ref sig .tc := ⟨.hbm, 72, rfl⟩
abbrev main_call0_v13 : Ref sig .tc := ⟨.hbm, 73, rfl⟩
abbrev main_call0_cst : Ref sig .tc := ⟨.hbm, 74, rfl⟩
abbrev main_call0_v14 : Ref sig .tc := ⟨.hbm, 75, rfl⟩
abbrev main_v30 : Ref sig .tc := ⟨.hbm, 76, rfl⟩
abbrev main_v31 : Ref sig .tc := ⟨.hbm, 77, rfl⟩
abbrev main_cst_19 : Ref sig .tc := ⟨.hbm, 78, rfl⟩
abbrev main_v32 : Ref sig .tc := ⟨.hbm, 79, rfl⟩
abbrev main_cst_20 : Ref sig .tc := ⟨.hbm, 80, rfl⟩
abbrev main_v33 : Ref sig .tc := ⟨.hbm, 81, rfl⟩
abbrev main_v34 : Ref sig .tc := ⟨.hbm, 82, rfl⟩
abbrev main_c_21 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_c_22 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_c_23 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_c_24 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_cst_25 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_cst_26 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_27 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_cst_28 : Ref sig .tc := ⟨.hbm, 124, rfl⟩
abbrev main_v69 : Ref sig .tc := ⟨.hbm, 125, rfl⟩
abbrev main_v70 : Ref sig .tc := ⟨.hbm, 126, rfl⟩
abbrev main_call1_c : Ref sig .tc := ⟨.hbm, 127, rfl⟩
abbrev main_call1_v0 : Ref sig .tc := ⟨.hbm, 128, rfl⟩
abbrev main_call1_v1 : Ref sig .tc := ⟨.hbm, 129, rfl⟩
abbrev main_call1_c_0 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_call1_v5 : Ref sig .tc := ⟨.hbm, 134, rfl⟩
abbrev main_call1_c_1 : Ref sig .tc := ⟨.hbm, 135, rfl⟩
abbrev main_call1_c_2 : Ref sig .tc := ⟨.hbm, 136, rfl⟩
abbrev main_call1_v6 : Ref sig .tc := ⟨.hbm, 137, rfl⟩
abbrev main_call1_v7 : Ref sig .tc := ⟨.hbm, 138, rfl⟩
abbrev main_call1_v8 : Ref sig .tc := ⟨.hbm, 139, rfl⟩
abbrev main_call1_v9 : Ref sig .tc := ⟨.hbm, 140, rfl⟩
abbrev main_call1_v10 : Ref sig .tc := ⟨.hbm, 141, rfl⟩
abbrev main_call1_v11 : Ref sig .tc := ⟨.hbm, 142, rfl⟩
abbrev main_call1_c_3 : Ref sig .tc := ⟨.hbm, 143, rfl⟩
abbrev main_call1_v12 : Ref sig .tc := ⟨.hbm, 144, rfl⟩
abbrev main_call1_v13 : Ref sig .tc := ⟨.hbm, 145, rfl⟩
abbrev main_call1_cst : Ref sig .tc := ⟨.hbm, 146, rfl⟩
abbrev main_call1_v14 : Ref sig .tc := ⟨.hbm, 147, rfl⟩
abbrev main_v71 : Ref sig .tc := ⟨.hbm, 148, rfl⟩
abbrev main_v72 : Ref sig .tc := ⟨.hbm, 149, rfl⟩
abbrev main_cst_29 : Ref sig .tc := ⟨.hbm, 150, rfl⟩
abbrev main_v73 : Ref sig .tc := ⟨.hbm, 151, rfl⟩
abbrev main_cst_30 : Ref sig .tc := ⟨.hbm, 152, rfl⟩
abbrev main_v74 : Ref sig .tc := ⟨.hbm, 153, rfl⟩
abbrev main_v75 : Ref sig .tc := ⟨.hbm, 154, rfl⟩
abbrev main_c_31 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_c_32 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_c_33 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_c_34 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_cst_35 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_cst_36 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_cst_37 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_cst_38 : Ref sig .tc := ⟨.hbm, 196, rfl⟩
abbrev main_v110 : Ref sig .tc := ⟨.hbm, 197, rfl⟩
abbrev main_v111 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v31 : BitVec 1 := Scalar.cmpi .eq arg1 c31_i32
  let v32 : BitVec 32 := Scalar.extui v31
  let c0_i32_19 : BitVec 32 := 0#32
  let v33 : BitVec 1 := Scalar.cmpi .ne v32 c0_i32_19
  v33

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4194304x16_S524288x128 : S4194304x16.ShapeCasts S524288x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  broadcasts_S1x128_S8x128 : S1x128.Broadcasts S8x128
  inb_S8x128_S8x128_0_0 : ∀ a, (![0, 0] : Fin 2 → Nat) a + S8x128.size a ≤ S8x128.size a
  h_S8x128 : 0 < S8x128.numel
  slices_S16x128_S1x128_0_0 : S16x128.Slices ![0, 0] S1x128
  shapeCasts_S1x128_S128 : S1x128.ShapeCasts S128
  bcast_S_S128 : S_.BroadcastsInDim S128 (![] : Fin 0 → Fin S128.rank)
  slices_S16x128_S1x128_8_0 : S16x128.Slices ![8, 0] S1x128
  slices_S256x128_S128x128_0_0 : S256x128.Slices ![0, 0] S128x128
  bcast_S_S128x128 : S_.BroadcastsInDim S128x128 (![] : Fin 0 → Fin S128x128.rank)
  slices_S256x128_S128x128_128_0 : S256x128.Slices ![128, 0] S128x128
  shapeCasts_S128_S8x16 : S128.ShapeCasts S8x16
  reducesTo_S8x16_S16_d0 : S8x16.ReducesTo [0] S16
  h_S_ : 0 < S_.numel
  bcast_S_S16 : S_.BroadcastsInDim S16 (![] : Fin 0 → Fin S16.rank)
  shapeCasts_S128x128_S16384 : S128x128.ShapeCasts S16384
  bcast_S_S80 : S_.BroadcastsInDim S80 (![] : Fin 0 → Fin S80.rank)
  bcast_S80_S80x1_0 : S80.BroadcastsInDim S80x1 (![0] : Fin 1 → Fin S80x1.rank)
  bcast_S_S80x1 : S_.BroadcastsInDim S80x1 (![] : Fin 0 → Fin S80x1.rank)
  bcast_S1_S1x1_1 : S1.BroadcastsInDim S1x1 (![1] : Fin 1 → Fin S1x1.rank)
  bcast_S1x1_S80x1_0_1 : S1x1.BroadcastsInDim S80x1 (![0, 1] : Fin 2 → Fin S80x1.rank)
  reducesTo_S80x1_S80_d1 : S80x1.ReducesTo [1] S80
  shapeCasts_S80_S10x8 : S80.ShapeCasts S10x8
  reducesTo_S10x8_S10_d1 : S10x8.ReducesTo [1] S10
  bcast_S_S10 : S_.BroadcastsInDim S10 (![] : Fin 0 → Fin S10.rank)
  bcast_S10_S10x1_0 : S10.BroadcastsInDim S10x1 (![0] : Fin 1 → Fin S10x1.rank)
  reducesTo_S10_S_d0 : S10.ReducesTo [0] S_
  bcast_S_S32 : S_.BroadcastsInDim S32 (![] : Fin 0 → Fin S32.rank)
  bcast_S32_S32x1_0 : S32.BroadcastsInDim S32x1 (![0] : Fin 1 → Fin S32x1.rank)
  bcast_S_S32x1 : S_.BroadcastsInDim S32x1 (![] : Fin 0 → Fin S32x1.rank)
  bcast_S1x1_S32x1_0_1 : S1x1.BroadcastsInDim S32x1 (![0, 1] : Fin 2 → Fin S32x1.rank)
  reducesTo_S32x1_S32_d1 : S32x1.ReducesTo [1] S32
  shapeCasts_S32_S4x8 : S32.ShapeCasts S4x8
  reducesTo_S4x8_S4_d1 : S4x8.ReducesTo [1] S4
  bcast_S_S4 : S_.BroadcastsInDim S4 (![] : Fin 0 → Fin S4.rank)
  bcast_S4_S4x1_0 : S4.BroadcastsInDim S4x1 (![0] : Fin 1 → Fin S4x1.rank)
  reducesTo_S4_S_d0 : S4.ReducesTo [0] S_
  dot_S8192x128_S8192x128_S128x128_0_0_1_1_n_n_wf : DotDims.WF S8192x128 S8192x128 S128x128 [0] [0] [1] [1] [] []
  gather_S16384_S80x1_S80_n_0_n_n_0_1_1_wf : GatherDims.WF S16384 S80x1 S80 [] [0] [] [0] [] 1 ![1]
  gather_S16_S10x1_S10_n_0_n_n_0_1_1_wf : GatherDims.WF S16 S10x1 S10 [] [0] [] [0] [] 1 ![1]
  gather_S16384_S32x1_S32_n_0_n_n_0_1_1_wf : GatherDims.WF S16384 S32x1 S32 [] [0] [] [0] [] 1 ![1]
  gather_S16_S4x1_S4_n_0_n_n_0_1_1_wf : GatherDims.WF S16 S4x1 S4 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x128.size a
  hwx0_1 : ∀ i : grid0.Coords, EltTy.bits .f32 = 32 ∨ (Rect.block (s := S16x128) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S256x128.size a
  hwx0_3 : ∀ i : grid0.Coords, EltTy.bits .f32 = 32 ∨ (Rect.block (s := S256x128) S128x128.size (cc0_transform_3 i) (hinb0_3 i)).WholeWords (EltTy.packing .f32)

variable [Facts₀]

def dot_S8192x128_S8192x128_S128x128_0_0_1_1_n_n : DotDims S8192x128 S8192x128 S128x128 where
  lhsContracting := [0]
  rhsContracting := [0]
  lhsNonContracting := [1]
  rhsNonContracting := [1]
  lhsBatch := []
  rhsBatch := []
  wf := dot_S8192x128_S8192x128_S128x128_0_0_1_1_n_n_wf
def gather_S16384_S80x1_S80_n_0_n_n_0_1_1 : GatherDims S16384 S80x1 S80 where
  offsetDims := []
  collapsedSliceDims := [0]
  operandBatchingDims := []
  startIndicesBatchingDims := []
  startIndexMap := [0]
  indexVectorDim := 1
  sliceSizes := ![1]
  wf := gather_S16384_S80x1_S80_n_0_n_n_0_1_1_wf
def gather_S16_S10x1_S10_n_0_n_n_0_1_1 : GatherDims S16 S10x1 S10 where
  offsetDims := []
  collapsedSliceDims := [0]
  operandBatchingDims := []
  startIndicesBatchingDims := []
  startIndexMap := [0]
  indexVectorDim := 1
  sliceSizes := ![1]
  wf := gather_S16_S10x1_S10_n_0_n_n_0_1_1_wf
def gather_S16384_S32x1_S32_n_0_n_n_0_1_1 : GatherDims S16384 S32x1 S32 where
  offsetDims := []
  collapsedSliceDims := [0]
  operandBatchingDims := []
  startIndicesBatchingDims := []
  startIndexMap := [0]
  indexVectorDim := 1
  sliceSizes := ![1]
  wf := gather_S16384_S32x1_S32_n_0_n_n_0_1_1_wf
def gather_S16_S4x1_S4_n_0_n_n_0_1_1 : GatherDims S16 S4x1 S4 where
  offsetDims := []
  collapsedSliceDims := [0]
  operandBatchingDims := []
  startIndicesBatchingDims := []
  startIndexMap := [0]
  indexVectorDim := 1
  sliceSizes := ![1]
  wf := gather_S16_S4x1_S4_n_0_n_n_0_1_1_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S8x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_2) S128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun i => !(k0_cond2 i == 1#1) | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4194304x16 : Shape := ⟨2, ![4194304, 16]⟩
abbrev S10 : Shape := ⟨1, ![10]⟩
abbrev S4 : Shape := ⟨1, ![4]⟩
abbrev S_ : Shape := ⟨0, ![]⟩
abbrev S16 : Shape := ⟨1, ![16]⟩
abbrev S10x1 : Shape := ⟨2, ![10, 1]⟩
abbrev S4194304x10 : Shape := ⟨2, ![4194304, 10]⟩
abbrev S4x1 : Shape := ⟨2, ![4, 1]⟩
abbrev S4194304x4 : Shape := ⟨2, ![4194304, 4]⟩

abbrev nBuf : Space → Nat
  | .hbm => 205
  | .vmem => 0
  | .smem => 0
  | _ => 0

abbrev hbmTy0_0 (i : Nat) : BufTy := match i % 128 with
  | 0 => ⟨S4194304x16, .f32⟩
  | 1 => ⟨S4194304x16, .f32⟩
  | 2 => ⟨S10, .i32⟩
  | 3 => ⟨S10, .i1⟩
  | 4 => ⟨S10, .i32⟩
  | 5 => ⟨S10, .i1⟩
  | 6 => ⟨S10, .i1⟩
  | 7 => ⟨S10, .i1⟩
  | 8 => ⟨S10, .i1⟩
  | 9 => ⟨S10, .i1⟩
  | 10 => ⟨S4, .i32⟩
  | 11 => ⟨S4, .i1⟩
  | 12 => ⟨S4, .i32⟩
  | 13 => ⟨S4, .i1⟩
  | 14 => ⟨S4, .i1⟩
  | 15 => ⟨S4, .i1⟩
  | 16 => ⟨S4, .i1⟩
  | 17 => ⟨S4, .i1⟩
  | 18 => ⟨S_, .f32⟩
  | 19 => ⟨S4194304x16, .f32⟩
  | 20 => ⟨S4194304x16, .i1⟩
  | 21 => ⟨S_, .f32⟩
  | 22 => ⟨S_, .f32⟩
  | 23 => ⟨S4194304x16, .f32⟩
  | 24 => ⟨S4194304x16, .f32⟩
  | 25 => ⟨S_, .f32⟩
  | 26 => ⟨S16, .f32⟩
  | 27 => ⟨S_, .f32⟩
  | 28 => ⟨S16, .f32⟩
  | 29 => ⟨S16, .f32⟩
  | 30 => ⟨S_, .f32⟩
  | 31 => ⟨S_, .f32⟩
  | 32 => ⟨S4194304x16, .f32⟩
  | 33 => ⟨S4194304x16, .f32⟩
  | 34 => ⟨S_, .f32⟩
  | 35 => ⟨S16, .f32⟩
  | 36 => ⟨S_, .f32⟩
  | 37 => ⟨S16, .f32⟩
  | 38 => ⟨S16, .f32⟩
  | 39 => ⟨S_, .i32⟩
  | 40 => ⟨S10, .i32⟩
  | 41 => ⟨S10, .i32⟩
  | 42 => ⟨S10, .i32⟩
  | 43 => ⟨S10x1, .i32⟩
  | 44 => ⟨S4194304x10, .f32⟩
  | 45 => ⟨S_, .i32⟩
  | 46 => ⟨S10, .i32⟩
  | 47 => ⟨S10, .i32⟩
  | 48 => ⟨S10, .i32⟩
  | 49 => ⟨S10x1, .i32⟩
  | 50 => ⟨S4194304x10, .f32⟩
  | 51 => ⟨S_, .f32⟩
  | 52 => ⟨S4194304x10, .f32⟩
  | 53 => ⟨S4194304x10, .i1⟩
  | 54 => ⟨S_, .f32⟩
  | 55 => ⟨S4194304x10, .f32⟩
  | 56 => ⟨S4194304x10, .i1⟩
  | 57 => ⟨S4194304x10, .i1⟩
  | 58 => ⟨S4194304x10, .f32⟩
  | 59 => ⟨S_, .f32⟩
  | 60 => ⟨S_, .f32⟩
  | 61 => ⟨S4194304x10, .f32⟩
  | 62 => ⟨S4194304x10, .f32⟩
  | 63 => ⟨S_, .f32⟩
  | 64 => ⟨S10, .f32⟩
  | 65 => ⟨S_, .f32⟩
  | 66 => ⟨S10, .f32⟩
  | 67 => ⟨S10, .f32⟩
  | 68 => ⟨S_, .i32⟩
  | 69 => ⟨S10, .i32⟩
  | 70 => ⟨S10, .i32⟩
  | 71 => ⟨S10, .i32⟩
  | 72 => ⟨S10x1, .i32⟩
  | 73 => ⟨S10, .f32⟩
  | 74 => ⟨S_, .i32⟩
  | 75 => ⟨S10, .i32⟩
  | 76 => ⟨S10, .i32⟩
  | 77 => ⟨S10, .i32⟩
  | 78 => ⟨S10x1, .i32⟩
  | 79 => ⟨S10, .f32⟩
  | 80 => ⟨S_, .i32⟩
  | 81 => ⟨S10, .i32⟩
  | 82 => ⟨S10, .i32⟩
  | 83 => ⟨S10, .i32⟩
  | 84 => ⟨S10x1, .i32⟩
  | 85 => ⟨S10, .f32⟩
  | 86 => ⟨S_, .i32⟩
  | 87 => ⟨S10, .i32⟩
  | 88 => ⟨S10, .i32⟩
  | 89 => ⟨S10, .i32⟩
  | 90 => ⟨S10x1, .i32⟩
  | 91 => ⟨S10, .f32⟩
  | 92 => ⟨S10, .f32⟩
  | 93 => ⟨S10, .f32⟩
  | 94 => ⟨S_, .f32⟩
  | 95 => ⟨S10, .f32⟩
  | 96 => ⟨S10, .f32⟩
  | 97 => ⟨S10, .f32⟩
  | 98 => ⟨S10, .f32⟩
  | 99 => ⟨S_, .f32⟩
  | 100 => ⟨S10, .f32⟩
  | 101 => ⟨S10, .f32⟩
  | 102 => ⟨S10, .f32⟩
  | 103 => ⟨S10, .f32⟩
  | 104 => ⟨S10, .f32⟩
  | 105 => ⟨S_, .f32⟩
  | 106 => ⟨S10, .f32⟩
  | 107 => ⟨S10, .f32⟩
  | 108 => ⟨S10, .f32⟩
  | 109 => ⟨S_, .f32⟩
  | 110 => ⟨S_, .f32⟩
  | 111 => ⟨S_, .f32⟩
  | 112 => ⟨S4194304x16, .f32⟩
  | 113 => ⟨S4194304x16, .i1⟩
  | 114 => ⟨S_, .f32⟩
  | 115 => ⟨S_, .f32⟩
  | 116 => ⟨S4194304x16, .f32⟩
  | 117 => ⟨S4194304x16, .f32⟩
  | 118 => ⟨S_, .f32⟩
  | 119 => ⟨S16, .f32⟩
  | 120 => ⟨S_, .f32⟩
  | 121 => ⟨S16, .f32⟩
  | 122 => ⟨S16, .f32⟩
  | 123 => ⟨S_, .f32⟩
  | 124 => ⟨S_, .f32⟩
  | 125 => ⟨S4194304x16, .f32⟩
  | 126 => ⟨S4194304x16, .f32⟩
  | 127 => ⟨S_, .f32⟩
  | _ => ⟨S4194304x16, .f32⟩

abbrev hbmTy0_1 (i : Nat) : BufTy := match i % 128 with
  | 0 => ⟨S16, .f32⟩
  | 1 => ⟨S_, .f32⟩
  | 2 => ⟨S16, .f32⟩
  | 3 => ⟨S16, .f32⟩
  | 4 => ⟨S_, .i32⟩
  | 5 => ⟨S4, .i32⟩
  | 6 => ⟨S4, .i32⟩
  | 7 => ⟨S4, .i32⟩
  | 8 => ⟨S4x1, .i32⟩
  | 9 => ⟨S4194304x4, .f32⟩
  | 10 => ⟨S_, .i32⟩
  | 11 => ⟨S4, .i32⟩
  | 12 => ⟨S4, .i32⟩
  | 13 => ⟨S4, .i32⟩
  | 14 => ⟨S4x1, .i32⟩
  | 15 => ⟨S4194304x4, .f32⟩
  | 16 => ⟨S_, .f32⟩
  | 17 => ⟨S4194304x4, .f32⟩
  | 18 => ⟨S4194304x4, .i1⟩
  | 19 => ⟨S_, .f32⟩
  | 20 => ⟨S4194304x4, .f32⟩
  | 21 => ⟨S4194304x4, .i1⟩
  | 22 => ⟨S4194304x4, .i1⟩
  | 23 => ⟨S4194304x4, .f32⟩
  | 24 => ⟨S_, .f32⟩
  | 25 => ⟨S_, .f32⟩
  | 26 => ⟨S4194304x4, .f32⟩
  | 27 => ⟨S4194304x4, .f32⟩
  | 28 => ⟨S_, .f32⟩
  | 29 => ⟨S4, .f32⟩
  | 30 => ⟨S_, .f32⟩
  | 31 => ⟨S4, .f32⟩
  | 32 => ⟨S4, .f32⟩
  | 33 => ⟨S_, .i32⟩
  | 34 => ⟨S4, .i32⟩
  | 35 => ⟨S4, .i32⟩
  | 36 => ⟨S4, .i32⟩
  | 37 => ⟨S4x1, .i32⟩
  | 38 => ⟨S4, .f32⟩
  | 39 => ⟨S_, .i32⟩
  | 40 => ⟨S4, .i32⟩
  | 41 => ⟨S4, .i32⟩
  | 42 => ⟨S4, .i32⟩
  | 43 => ⟨S4x1, .i32⟩
  | 44 => ⟨S4, .f32⟩
  | 45 => ⟨S_, .i32⟩
  | 46 => ⟨S4, .i32⟩
  | 47 => ⟨S4, .i32⟩
  | 48 => ⟨S4, .i32⟩
  | 49 => ⟨S4x1, .i32⟩
  | 50 => ⟨S4, .f32⟩
  | 51 => ⟨S_, .i32⟩
  | 52 => ⟨S4, .i32⟩
  | 53 => ⟨S4, .i32⟩
  | 54 => ⟨S4, .i32⟩
  | 55 => ⟨S4x1, .i32⟩
  | 56 => ⟨S4, .f32⟩
  | 57 => ⟨S4, .f32⟩
  | 58 => ⟨S4, .f32⟩
  | 59 => ⟨S_, .f32⟩
  | 60 => ⟨S4, .f32⟩
  | 61 => ⟨S4, .f32⟩
  | 62 => ⟨S4, .f32⟩
  | 63 => ⟨S4, .f32⟩
  | 64 => ⟨S_, .f32⟩
  | 65 => ⟨S4, .f32⟩
  | 66 => ⟨S4, .f32⟩
  | 67 => ⟨S4, .f32⟩
  | 68 => ⟨S4, .f32⟩
  | 69 => ⟨S4, .f32⟩
  | 70 => ⟨S_, .f32⟩
  | 71 => ⟨S4, .f32⟩
  | 72 => ⟨S4, .f32⟩
  | 73 => ⟨S4, .f32⟩
  | 74 => ⟨S_, .f32⟩
  | 75 => ⟨S_, .f32⟩
  | 76 => ⟨S_, .f32⟩
  | _ => ⟨S4194304x16, .f32⟩

abbrev hbmTy (i : Nat) : BufTy := match i / 128 with
  | 0 => hbmTy0_0 i
  | 1 => hbmTy0_1 i
  | _ => ⟨S4194304x16, .f32⟩

abbrev bufTy : (tb : Table) → Fin (tcTables nBuf tb) → BufTy
  | .hbm, ⟨i, _⟩ => hbmTy i
  | _, _ => ⟨S4194304x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_c_8 : Ref sig .tc := ⟨.hbm, 11, rfl⟩
abbrev main_c_9 : Ref sig .tc := ⟨.hbm, 12, rfl⟩
abbrev main_c_10 : Ref sig .tc := ⟨.hbm, 13, rfl⟩
abbrev main_c_11 : Ref sig .tc := ⟨.hbm, 14, rfl⟩
abbrev main_c_12 : Ref sig .tc := ⟨.hbm, 15, rfl⟩
abbrev main_c_13 : Ref sig .tc := ⟨.hbm, 16, rfl⟩
abbrev main_c_14 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_cst_15 : Ref sig .tc := ⟨.hbm, 21, rfl⟩
abbrev main_call0_v0 : Ref sig .tc := ⟨.hbm, 22, rfl⟩
abbrev main_call0_v1 : Ref sig .tc := ⟨.hbm, 23, rfl⟩
abbrev main_v2 : Ref sig .tc := ⟨.hbm, 24, rfl⟩
abbrev main_cst_16 : Ref sig .tc := ⟨.hbm, 25, rfl⟩
abbrev main_v3 : Ref sig .tc := ⟨.hbm, 26, rfl⟩
abbrev main_cst_17 : Ref sig .tc := ⟨.hbm, 27, rfl⟩
abbrev main_v4 : Ref sig .tc := ⟨.hbm, 28, rfl⟩
abbrev main_v5 : Ref sig .tc := ⟨.hbm, 29, rfl⟩
abbrev main_cst_18 : Ref sig .tc := ⟨.hbm, 30, rfl⟩
abbrev main_call1_v0 : Ref sig .tc := ⟨.hbm, 31, rfl⟩
abbrev main_call1_v1 : Ref sig .tc := ⟨.hbm, 32, rfl⟩
abbrev main_v6 : Ref sig .tc := ⟨.hbm, 33, rfl⟩
abbrev main_cst_19 : Ref sig .tc := ⟨.hbm, 34, rfl⟩
abbrev main_v7 : Ref sig .tc := ⟨.hbm, 35, rfl⟩
abbrev main_cst_20 : Ref sig .tc := ⟨.hbm, 36, rfl⟩
abbrev main_v8 : Ref sig .tc := ⟨.hbm, 37, rfl⟩
abbrev main_v9 : Ref sig .tc := ⟨.hbm, 38, rfl⟩
abbrev main_c_21 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_c_22 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_23 : Ref sig .tc := ⟨.hbm, 51, rfl⟩
abbrev main_v20 : Ref sig .tc := ⟨.hbm, 52, rfl⟩
abbrev main_v21 : Ref sig .tc := ⟨.hbm, 53, rfl⟩
abbrev main_cst_24 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_25 : Ref sig .tc := ⟨.hbm, 59, rfl⟩
abbrev main_call2_v0 : Ref sig .tc := ⟨.hbm, 60, rfl⟩
abbrev main_call2_v1 : Ref sig .tc := ⟨.hbm, 61, rfl⟩
abbrev main_v26 : Ref sig .tc := ⟨.hbm, 62, rfl⟩
abbrev main_cst_26 : Ref sig .tc := ⟨.hbm, 63, rfl⟩
abbrev main_v27 : Ref sig .tc := ⟨.hbm, 64, rfl⟩
abbrev main_cst_27 : Ref sig .tc := ⟨.hbm, 65, rfl⟩
abbrev main_v28 : Ref sig .tc := ⟨.hbm, 66, rfl⟩
abbrev main_v29 : Ref sig .tc := ⟨.hbm, 67, rfl⟩
abbrev main_c_28 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c_29 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_c_30 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_c_31 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_32 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_33 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_34 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_35 : Ref sig .tc := ⟨.hbm, 109, rfl⟩
abbrev main_v64 : Ref sig .tc := ⟨.hbm, 110, rfl⟩
abbrev main_cst_36 : Ref sig .tc := ⟨.hbm, 111, rfl⟩
abbrev main_v65 : Ref sig .tc := ⟨.hbm, 112, rfl⟩
abbrev main_v66 : Ref sig .tc := ⟨.hbm, 113, rfl⟩
abbrev main_cst_37 : Ref sig .tc := ⟨.hbm, 114, rfl⟩
abbrev main_call3_v0 : Ref sig .tc := ⟨.hbm, 115, rfl⟩
abbrev main_call3_v1 : Ref sig .tc := ⟨.hbm, 116, rfl⟩
abbrev main_v67 : Ref sig .tc := ⟨.hbm, 117, rfl⟩
abbrev main_cst_38 : Ref sig .tc := ⟨.hbm, 118, rfl⟩
abbrev main_v68 : Ref sig .tc := ⟨.hbm, 119, rfl⟩
abbrev main_cst_39 : Ref sig .tc := ⟨.hbm, 120, rfl⟩
abbrev main_v69 : Ref sig .tc := ⟨.hbm, 121, rfl⟩
abbrev main_v70 : Ref sig .tc := ⟨.hbm, 122, rfl⟩
abbrev main_cst_40 : Ref sig .tc := ⟨.hbm, 123, rfl⟩
abbrev main_call4_v0 : Ref sig .tc := ⟨.hbm, 124, rfl⟩
abbrev main_call4_v1 : Ref sig .tc := ⟨.hbm, 125, rfl⟩
abbrev main_v71 : Ref sig .tc := ⟨.hbm, 126, rfl⟩
abbrev main_cst_41 : Ref sig .tc := ⟨.hbm, 127, rfl⟩
abbrev main_v72 : Ref sig .tc := ⟨.hbm, 128, rfl⟩
abbrev main_cst_42 : Ref sig .tc := ⟨.hbm, 129, rfl⟩
abbrev main_v73 : Ref sig .tc := ⟨.hbm, 130, rfl⟩
abbrev main_v74 : Ref sig .tc := ⟨.hbm, 131, rfl⟩
abbrev main_c_43 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_c_44 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_cst_45 : Ref sig .tc := ⟨.hbm, 144, rfl⟩
abbrev main_v85 : Ref sig .tc := ⟨.hbm, 145, rfl⟩
abbrev main_v86 : Ref sig .tc := ⟨.hbm, 146, rfl⟩
abbrev main_cst_46 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_cst_47 : Ref sig .tc := ⟨.hbm, 152, rfl⟩
abbrev main_call5_v0 : Ref sig .tc := ⟨.hbm, 153, rfl⟩
abbrev main_call5_v1 : Ref sig .tc := ⟨.hbm, 154, rfl⟩
abbrev main_v91 : Ref sig .tc := ⟨.hbm, 155, rfl⟩
abbrev main_cst_48 : Ref sig .tc := ⟨.hbm, 156, rfl⟩
abbrev main_v92 : Ref sig .tc := ⟨.hbm, 157, rfl⟩
abbrev main_cst_49 : Ref sig .tc := ⟨.hbm, 158, rfl⟩
abbrev main_v93 : Ref sig .tc := ⟨.hbm, 159, rfl⟩
abbrev main_v94 : Ref sig .tc := ⟨.hbm, 160, rfl⟩
abbrev main_c_50 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_c_51 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_c_52 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_c_53 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_cst_54 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_cst_55 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_cst_56 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_cst_57 : Ref sig .tc := ⟨.hbm, 202, rfl⟩
abbrev main_v129 : Ref sig .tc := ⟨.hbm, 203, rfl⟩
abbrev main_v130 : Ref sig .tc := ⟨.hbm, 204, rfl⟩

abbrev nD : Nat := 1
abbrev τ : Topo := Topo.v7x

variable {F : FTy → Type} [FloatOps F]

class Facts₀ : Prop where
  bcast_S_S4194304x16 : S_.BroadcastsInDim S4194304x16 (![] : Fin 0 → Fin S4194304x16.rank)
  reducesTo_S4194304x16_S16_d0 : S4194304x16.ReducesTo [0] S16
  h_S_ : 0 < S_.numel
  bcast_S_S16 : S_.BroadcastsInDim S16 (![] : Fin 0 → Fin S16.rank)
  bcast_S_S10 : S_.BroadcastsInDim S10 (![] : Fin 0 → Fin S10.rank)
  bcast_S10_S10x1_0 : S10.BroadcastsInDim S10x1 (![0] : Fin 1 → Fin S10x1.rank)
  bcast_S_S4194304x10 : S_.BroadcastsInDim S4194304x10 (![] : Fin 0 → Fin S4194304x10.rank)
  reducesTo_S4194304x10_S10_d0 : S4194304x10.ReducesTo [0] S10
  reducesTo_S10_S_d0 : S10.ReducesTo [0] S_
  bcast_S_S4 : S_.BroadcastsInDim S4 (![] : Fin 0 → Fin S4.rank)
  bcast_S4_S4x1_0 : S4.BroadcastsInDim S4x1 (![0] : Fin 1 → Fin S4x1.rank)
  bcast_S_S4194304x4 : S_.BroadcastsInDim S4194304x4 (![] : Fin 0 → Fin S4194304x4.rank)
  reducesTo_S4194304x4_S4_d0 : S4194304x4.ReducesTo [0] S4
  reducesTo_S4_S_d0 : S4.ReducesTo [0] S_
  gather_S4194304x16_S10x1_S4194304x10_0_1_n_n_1_1_41943041_wf : GatherDims.WF S4194304x16 S10x1 S4194304x10 [0] [1] [] [1] [] 1 ![4194304, 1]
  gather_S16_S10x1_S10_n_0_n_n_0_1_1_wf : GatherDims.WF S16 S10x1 S10 [] [0] [] [0] [] 1 ![1]
  gather_S4194304x16_S4x1_S4194304x4_0_1_n_n_1_1_41943041_wf : GatherDims.WF S4194304x16 S4x1 S4194304x4 [0] [1] [] [1] [] 1 ![4194304, 1]
  gather_S16_S4x1_S4_n_0_n_n_0_1_1_wf : GatherDims.WF S16 S4x1 S4 [] [0] [] [0] [] 1 ![1]

variable [Facts₀]

def gather_S4194304x16_S10x1_S4194304x10_0_1_n_n_1_1_41943041 : GatherDims S4194304x16 S10x1 S4194304x10 where
  offsetDims := [0]
  collapsedSliceDims := [1]
  operandBatchingDims := []
  startIndicesBatchingDims := []
  startIndexMap := [1]
  indexVectorDim := 1
  sliceSizes := ![4194304, 1]
  wf := gather_S4194304x16_S10x1_S4194304x10_0_1_n_n_1_1_41943041_wf
def gather_S16_S10x1_S10_n_0_n_n_0_1_1 : GatherDims S16 S10x1 S10 where
  offsetDims := []
  collapsedSliceDims := [0]
  operandBatchingDims := []
  startIndicesBatchingDims := []
  startIndexMap := [0]
  indexVectorDim := 1
  sliceSizes := ![1]
  wf := gather_S16_S10x1_S10_n_0_n_n_0_1_1_wf
def gather_S4194304x16_S4x1_S4194304x4_0_1_n_n_1_1_41943041 : GatherDims S4194304x16 S4x1 S4194304x4 where
  offsetDims := [0]
  collapsedSliceDims := [1]
  operandBatchingDims := []
  startIndicesBatchingDims := []
  startIndexMap := [1]
  indexVectorDim := 1
  sliceSizes := ![4194304, 1]
  wf := gather_S4194304x16_S4x1_S4194304x4_0_1_n_n_1_1_41943041_wf
def gather_S16_S4x1_S4_n_0_n_n_0_1_1 : GatherDims S16 S4x1 S4 where
  offsetDims := []
  collapsedSliceDims := [0]
  operandBatchingDims := []
  startIndicesBatchingDims := []
  startIndexMap := [0]
  indexVectorDim := 1
  sliceSizes := ![1]
  wf := gather_S16_S4x1_S4_n_0_n_n_0_1_1_wf

class Facts : Prop extends Facts₀ where

variable [Facts]
-- ==== Proof.Kernel.Kit.lean ====
/-
  The pipeline of the column-statistics kernel, set up for its frame run (any float instance).
  @main is fifteen host lines (the literal index tables and the reshape of the 4194304 x 16 input to
  524288 x 128), the region on a 2 x 32 grid, and 179 host lines in five stretches that fold the three
  result arrays into one number. Here: the buffer contents on entry to the region, @main as "lines, region,
  lines", the later lines' side conditions (they touch unscoped TensorCore buffers only, allocate nothing,
  and none writes one of the region's four arrays), a window's block at a grid point, the two branch
  conditions of the body in closed form (first step of a shard: t % 32 = 0; last step: t % 32 = 31), where
  the three result windows are idle, and the region invariant as the three scratch accumulators owned at
  some contents beside the generator register.
-/
import proofs.«416933_j15582141350755_3_alg».proof.Proof.Gen.Kernel.Launch
import proofs.«416933_j15582141350755_3_alg».proof.Proof.Gen.Kernel.Skeleton
import proofs.«416933_j15582141350755_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The five stretches of host lines after the region, in order. -/
abbrev tailOps : List (List (HloOp τ sig (Elt F))) := [hostOps1, hostOps1_1, hostOps1_2, hostOps1_3, hostOps1_4]

/-- Core `c`'s TensorCore buffers on entry to the region: the launch contents after the fifteen lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main reduces to the region continued by the later lines, the buffers at their contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps hostOps0_sub hostOps0_fresh main_chain

/-- The later lines touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-! ## No later line writes one of the region's arrays -/

theorem keeps1 : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide)

theorem keeps1_1 : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide)

theorem keeps1_2 : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide)

theorem keeps1_3 : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide)

theorem keeps1_4 : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide)

/-- Each later line writes only its own result buffer, which is none of the four arrays. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact keeps1 op hop
  · exact keeps1_1 op hop
  · exact keeps1_2 op hop
  · exact keeps1_3 op hop
  · exact keeps1_4 op hop

/-! ## The argument arrays -/

/-- No line before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

/-- No line after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

/-- No line after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run to the frame claim's post: both argument arrays bypass the region and no line writes them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's two branch conditions -/

/-- The first `scf.if` (reset the accumulators): the step coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- The second `scf.if` (write the three results): the step coordinate is 31. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem noFlush0_1 : ∀ t : Fin cfg0.N, ¬cond0_1 (grid0.coords t) → (cfg0.win 1).flush t = false := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
theorem liveAt0_1 : ∀ t : Fin cfg0.N, cond0_1 (grid0.coords t) → cfg0.idle 1 (grid0.coords t) = false := by decide +kernel
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

abbrev VO0_1 : View sig .tc .vmem S8x128 .f32 := (Memref.whole cc0_stg1_0 : Memref sig .tc .vmem S8x128 .f32).view
abbrev VO0_2 : View sig .tc .vmem S8x128 .f32 := (Memref.whole cc0_stg2_0 : Memref sig .tc .vmem S8x128 .f32).view
abbrev VO0_3 : View sig .tc .vmem S128x128 .f32 := (Memref.whole cc0_stg3_0 : Memref sig .tc .vmem S128x128 .f32).view
abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
/-- The three scratch accumulators: the two 1 x 128 column sums and the 128 x 128 Gram sum. -/
abbrev scM0_0 : Memref sig .tc .vmem S1x128 .f32 := Memref.whole cc0_scratch0
abbrev scM0_1 : Memref sig .tc .vmem S1x128 .f32 := Memref.whole cc0_scratch1
abbrev scM0_2 : Memref sig .tc .vmem S128x128 .f32 := Memref.whole cc0_scratch2
abbrev VS0_0 : View sig .tc .vmem S1x128 .f32 := scM0_0.view
abbrev VS0_1 : View sig .tc .vmem S1x128 .f32 := scM0_1.view
abbrev VS0_2 : View sig .tc .vmem S128x128 .f32 := scM0_2.view

/-- What the launch hands the region: the three scratch accumulators owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Fr

end
-- ==== Proof.Kernel.RunA.lean ====
/-
  The kernel body run symbolically in one of its three cases (the first step of a shard: the accumulators are reset, nothing is written to the results): the weakest-precondition
  triple of the body on whole memrefs, with the lists of pieces its stores leave in each written buffer
  (last store first), determined by executing the body symbolically.
-/
import proofs.«416933_j15582141350755_3_alg».proof.Proof.Kernel.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first step of a shard. The input block and the three idle result buffers are handed back as they were; the
    three accumulators, received at any contents, end with the pieces of the zero store and of the accumulating store. -/
noncomputable def kernelRun0_A (c : Dev nD) (i : grid0.Coords) (arg2 : Memref sig .tc .vmem S8192x128 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (hc0 : cond0_0 i) (hc1 : ¬cond0_1 i)
    (x0 : Vec F S8192x128 .f32) :
    Σ' (LS0 : List (View.Piece (Elt F) S1x128 .f32)) (LS1 : List (View.Piece (Elt F) S1x128 .f32)), { LS2 : List (View.Piece (Elt F) S128x128 .f32) //
      ∀ (xi1 xi2 : Vec F S8x128 .f32) (xi3 : Vec F S128x128 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare xi1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__reduce_kernel i arg2 harg2 arg3 harg3 arg4 harg4 arg5 harg5 arg6 harg6 arg7 harg7 arg8 harg8) K } := by
  refine ⟨?_, ?_, ?_, fun xi1 xi2 xi3 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Fr

end
-- ==== Proof.Kernel.RunB.lean ====
/-
  The kernel body run symbolically in one of its three cases (a middle step of a shard: neither reset nor written out): the weakest-precondition
  triple of the body on whole memrefs, with the lists of pieces its stores leave in each written buffer
  (last store first), determined by executing the body symbolically.
-/
import proofs.«416933_j15582141350755_3_alg».proof.Proof.Kernel.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle step of a shard. The input block and the three idle result buffers are handed back as they were; the
    three accumulators, received at the contents the step before left, end with the piece of the accumulating store. -/
noncomputable def kernelRun0_B (c : Dev nD) (i : grid0.Coords) (arg2 : Memref sig .tc .vmem S8192x128 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (hc0 : ¬cond0_0 i) (hc1 : ¬cond0_1 i)
    (x0 : Vec F S8192x128 .f32) (xs0 xs1 : Vec F S1x128 .f32) (xs2 : Vec F S128x128 .f32) :
    Σ' (LS0 : List (View.Piece (Elt F) S1x128 .f32)) (LS1 : List (View.Piece (Elt F) S1x128 .f32)), { LS2 : List (View.Piece (Elt F) S128x128 .f32) //
      ∀ (xi1 xi2 : Vec F S8x128 .f32) (xi3 : Vec F S128x128 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare xi1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__reduce_kernel i arg2 harg2 arg3 harg3 arg4 harg4 arg5 harg5 arg6 harg6 arg7 harg7 arg8 harg8) K } := by
  refine ⟨?_, ?_, ?_, fun xi1 xi2 xi3 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Fr

end
-- ==== Proof.Kernel.RunC.lean ====
/-
  The kernel body run symbolically in one of its three cases (the last step of a shard: the accumulators are written out to the three results): the weakest-precondition
  triple of the body on whole memrefs, with the lists of pieces its stores leave in each written buffer
  (last store first), determined by executing the body symbolically.
-/
import proofs.«416933_j15582141350755_3_alg».proof.Proof.Kernel.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last step of a shard. The input block is handed back as it was; the three accumulators, received at the
    contents the step before left, end with the piece of the accumulating store; the three result buffers, received
    at any contents, end with the piece of the store that writes the accumulators out. -/
noncomputable def kernelRun0_C (c : Dev nD) (i : grid0.Coords) (arg2 : Memref sig .tc .vmem S8192x128 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (hc0 : ¬cond0_0 i) (hc1 : cond0_1 i)
    (x0 : Vec F S8192x128 .f32) (xs0 xs1 : Vec F S1x128 .f32) (xs2 : Vec F S128x128 .f32) :
    Σ' (L1 : List (View.Piece (Elt F) S8x128 .f32)) (L2 : List (View.Piece (Elt F) S8x128 .f32)) (L3 : List (View.Piece (Elt F) S128x128 .f32))
       (LS0 : List (View.Piece (Elt F) S1x128 .f32)) (LS1 : List (View.Piece (Elt F) S1x128 .f32)), { LS2 : List (View.Piece (Elt F) S128x128 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__reduce_kernel i arg2 harg2 arg3 harg3 arg4 harg4 arg5 harg5 arg6 harg6 arg7 harg7 arg8 harg8) K } := by
  refine ⟨?_, ?_, ?_, ?_, ?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%d2, %f2, -, H2⟩, ⟨%d3, %f3, -, H3⟩, ⟨%fs0, %hfs0, HS0⟩, ⟨%fs1, %hfs1, HS1⟩, ⟨%fs2, %hfs2, HS2⟩, Hk⟩
    obtain rfl := harg2.eq_unread hf0
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [HS0]; · iexists _; iexact HS0
    isplitl [HS1]; · iexists _; iexact HS1
    iexists _; iexact HS2

end Cert.Kernel.Fr

end
-- ==== Proof.Kernel.Frame.lean ====
/-
  The frame run of the column-statistics kernel (any float instance).
  The three scratch accumulators are carried from one grid point to the next: after point n they hold what the
  body's stores at n leave over what point n - 1 left (at the first step of a shard the body overwrites them
  whole first, so nothing older is read). The three result windows are stored only at the last step of a
  shard (t % 32 = 31), where the pipeline writes them back; elsewhere they are idle. With the accumulators'
  contents named point by point, the body's three runs (first step, middle step, last step) give the
  pipeline's body obligation at every point, and the library's launch theorem for "host lines, region,
  host lines" gives the run of @main and, from it, the frame.
-/
import proofs.«416933_j15582141350755_3_alg».proof.Proof.Kernel.RunA
import proofs.«416933_j15582141350755_3_alg».proof.Proof.Kernel.RunB
import proofs.«416933_j15582141350755_3_alg».proof.Proof.Kernel.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three accumulators' contents: column sums of the kept entries, of the dropped entries, and the Gram sum. -/
abbrev Sc (F : FTy → Type) [FloatOps F] := Vec F S1x128 .f32 × Vec F S1x128 .f32 × Vec F S128x128 .f32
/-- The three result blocks. -/
abbrev Ou (F : FTy → Type) [FloatOps F] := Vec F S8x128 .f32 × Vec F S8x128 .f32 × Vec F S128x128 .f32

/-! ## What each case leaves -/

/-- First step of a shard: the accumulators after the reset and the block's contribution. -/
def scA (c : Dev nD) (t : Fin cfg0.N) (h0 : t.val % 32 = 0) (h1 : ¬t.val % 32 = 31) : Sc F :=
  (VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t)).1),
   VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t)).2.1),
   VS0_2.read (Elt F) (VS0_2.writes (Elt F) VS0_2.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t)).2.2.1))

/-- Middle step: the accumulators after the block's contribution over what the step before left (`xs`). -/
def scB (c : Dev nD) (t : Fin cfg0.N) (h0 : ¬t.val % 32 = 0) (h1 : ¬t.val % 32 = 31) (xs : Sc F) : Sc F :=
  (VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2).1),
   VS0_1.read (Elt F) (VS0_1.writes (Elt F) VS0_1.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2).2.1),
   VS0_2.read (Elt F) (VS0_2.writes (Elt F) VS0_2.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2).2.2.1))

/-- Last step: the accumulators likewise, -/
def scC (c : Dev nD) (t : Fin cfg0.N) (h0 : ¬t.val % 32 = 0) (h1 : t.val % 32 = 31) (xs : Sc F) : Sc F :=
  (VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.2.1),
   VS0_1.read (Elt F) (VS0_1.writes (Elt F) VS0_1.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.2.2.1),
   VS0_2.read (Elt F) (VS0_2.writes (Elt F) VS0_2.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.2.2.2.1))

/-- and the three result blocks it stores. -/
def outC (c : Dev nD) (t : Fin cfg0.N) (h0 : ¬t.val % 32 = 0) (h1 : t.val % 32 = 31) (xs : Sc F) : Ou F :=
  (VO0_1.read (Elt F) (VO0_1.writes (Elt F) VO0_1.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).1),
   VO0_2.read (Elt F) (VO0_2.writes (Elt F) VO0_2.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.1),
   VO0_3.read (Elt F) (VO0_3.writes (Elt F) VO0_3.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.1))

/-! ## The stores of each case cover what they write -/

theorem scoverA_0 (c : Dev nD) (t : Fin cfg0.N) (h0 : t.val % 32 = 0) (h1 : ¬t.val % 32 = 31) (y : S1x128.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t)).1, y ∈ pc.1.set :=
  View.cover_of_tiledL (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t)).1 S1x128.size (by sl_kernel_rfl) y
theorem scoverA_1 (c : Dev nD) (t : Fin cfg0.N) (h0 : t.val % 32 = 0) (h1 : ¬t.val % 32 = 31) (y : S1x128.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t)).2.1, y ∈ pc.1.set :=
  View.cover_of_tiledL (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t)).2.1 S1x128.size (by sl_kernel_rfl) y
theorem scoverA_2 (c : Dev nD) (t : Fin cfg0.N) (h0 : t.val % 32 = 0) (h1 : ¬t.val % 32 = 31) (y : S128x128.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t)).2.2.1, y ∈ pc.1.set :=
  View.cover_of_tiledL (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t)).2.2.1 S128x128.size (by sl_kernel_rfl) y

theorem scoverB_0 (c : Dev nD) (t : Fin cfg0.N) (h0 : ¬t.val % 32 = 0) (h1 : ¬t.val % 32 = 31) (xs : Sc F) (y : S1x128.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2).1, y ∈ pc.1.set :=
  View.cover_of_tiledL (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2).1 S1x128.size (by sl_kernel_rfl) y
theorem scoverB_1 (c : Dev nD) (t : Fin cfg0.N) (h0 : ¬t.val % 32 = 0) (h1 : ¬t.val % 32 = 31) (xs : Sc F) (y : S1x128.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2).2.1, y ∈ pc.1.set :=
  View.cover_of_tiledL (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2).2.1 S1x128.size (by sl_kernel_rfl) y
theorem scoverB_2 (c : Dev nD) (t : Fin cfg0.N) (h0 : ¬t.val % 32 = 0) (h1 : ¬t.val % 32 = 31) (xs : Sc F) (y : S128x128.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2).2.2.1, y ∈ pc.1.set :=
  View.cover_of_tiledL (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2).2.2.1 S128x128.size (by sl_kernel_rfl) y

theorem coverC_1 (c : Dev nD) (t : Fin cfg0.N) (h0 : ¬t.val % 32 = 0) (h1 : t.val % 32 = 31) (xs : Sc F) (y : S8x128.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).1, y ∈ pc.1.set :=
  View.cover_of_tiledL (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).1 S8x128.size (by sl_kernel_rfl) y
theorem coverC_2 (c : Dev nD) (t : Fin cfg0.N) (h0 : ¬t.val % 32 = 0) (h1 : t.val % 32 = 31) (xs : Sc F) (y : S8x128.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.1, y ∈ pc.1.set :=
  View.cover_of_tiledL (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.1 S8x128.size (by sl_kernel_rfl) y
theorem coverC_3 (c : Dev nD) (t : Fin cfg0.N) (h0 : ¬t.val % 32 = 0) (h1 : t.val % 32 = 31) (xs : Sc F) (y : S128x128.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.1, y ∈ pc.1.set :=
  View.cover_of_tiledL (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.1 S128x128.size (by sl_kernel_rfl) y
theorem scoverC_0 (c : Dev nD) (t : Fin cfg0.N) (h0 : ¬t.val % 32 = 0) (h1 : t.val % 32 = 31) (xs : Sc F) (y : S1x128.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.2.1, y ∈ pc.1.set :=
  View.cover_of_tiledL (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.2.1 S1x128.size (by sl_kernel_rfl) y
theorem scoverC_1 (c : Dev nD) (t : Fin cfg0.N) (h0 : ¬t.val % 32 = 0) (h1 : t.val % 32 = 31) (xs : Sc F) (y : S1x128.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.2.2.1, y ∈ pc.1.set :=
  View.cover_of_tiledL (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.2.2.1 S1x128.size (by sl_kernel_rfl) y
theorem scoverC_2 (c : Dev nD) (t : Fin cfg0.N) (h0 : ¬t.val % 32 = 0) (h1 : t.val % 32 = 31) (xs : Sc F) (y : S128x128.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.2.2.2.1, y ∈ pc.1.set :=
  View.cover_of_tiledL (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.2.2.2.1 S128x128.size (by sl_kernel_rfl) y

/-! ## The accumulators point by point -/

/-- What the three accumulators hold after the body at position `n`: the case the closed forms select, a later
    step reading what the step before left. -/
def scAt (c : Dev nD) : (n : ℕ) → n < cfg0.N → Sc F
  | 0, hn => scA m c ⟨0, hn⟩ (Nat.zero_mod _) (by show ¬(0 % 32 = 31); decide)
  | n + 1, hn =>
    if h0 : (n + 1) % 32 = 0 then
      if h1 : (n + 1) % 32 = 31 then False.elim (by omega)
      else scA m c ⟨n + 1, hn⟩ h0 h1
    else
      if h1 : (n + 1) % 32 = 31 then scC m c ⟨n + 1, hn⟩ h0 h1 (scAt c n (Nat.lt_of_succ_lt hn))
      else scB m c ⟨n + 1, hn⟩ h0 h1 (scAt c n (Nat.lt_of_succ_lt hn))

/-- What the step before `t` left (at `t = 0`: a value nothing consults). -/
def prevSc (c : Dev nD) (t : Fin cfg0.N) : Sc F := scAt m c (t.val - 1) (Nat.lt_of_le_of_lt (Nat.sub_le _ _) t.isLt)

theorem scAt_A (c : Dev nD) (t : Fin cfg0.N) (h0 : t.val % 32 = 0) (h1 : ¬t.val % 32 = 31) :
    scAt m c t.val t.isLt = scA m c t h0 h1 := by
  obtain ⟨n, hn⟩ := t
  cases n with
  | zero => exact rfl
  | succ n => exact (dif_pos h0).trans ((dif_neg h1).trans rfl)

theorem scAt_B (c : Dev nD) (t : Fin cfg0.N) (h0 : ¬t.val % 32 = 0) (h1 : ¬t.val % 32 = 31) :
    scAt m c t.val t.isLt = scB m c t h0 h1 (prevSc m c t) := by
  obtain ⟨n, hn⟩ := t
  cases n with
  | zero => exact (by exfalso; (try dsimp only at h0); exact absurd (Nat.zero_mod _) h0)
  | succ n => exact (dif_neg h0).trans ((dif_neg h1).trans rfl)

theorem scAt_C (c : Dev nD) (t : Fin cfg0.N) (h0 : ¬t.val % 32 = 0) (h1 : t.val % 32 = 31) :
    scAt m c t.val t.isLt = scC m c t h0 h1 (prevSc m c t) := by
  obtain ⟨n, hn⟩ := t
  cases n with
  | zero => exact (by exfalso; (try dsimp only at h0); exact absurd (Nat.zero_mod _) h0)
  | succ n => exact (dif_neg h0).trans ((dif_pos h1).trans rfl)

/-- The three result blocks after point `t`: stored at the last step of a shard; elsewhere a value nothing consults. -/
def outAt (c : Dev nD) (t : Fin cfg0.N) : Ou F :=
  if h1 : t.val % 32 = 31 then outC m c t (by omega) h1 (prevSc m c t)
  else (VO0_1.read (Elt F) VO0_1.junk, VO0_2.read (Elt F) VO0_2.junk, VO0_3.read (Elt F) VO0_3.junk)

theorem outAt_C (c : Dev nD) (t : Fin cfg0.N) (h0 : ¬t.val % 32 = 0) (h1 : t.val % 32 = 31) :
    outAt m c t = outC m c t h0 h1 (prevSc m c t) := dif_pos h1

/-! ## The region invariant -/

/-- Before position `n`: at the region's entry the three accumulators at anything; afterwards at what the point
    before left; beside them the generator register at some state. -/
def PhiS (c : Dev nD) : (n : ℕ) → n ≤ cfg0.N → sProp 𝕄
  | 0, _ => Pipeline.ΦA spec0 c
  | n + 1, hn => iprop(iprop(owns (c : Thread nD τ) scM0_0 fullShare ((scAt m c n hn).1) ∗ owns (c : Thread nD τ) scM0_1 fullShare ((scAt m c n hn).2.1) ∗ owns (c : Thread nD τ) scM0_2 fullShare ((scAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scAt m c n hn).1) ∗ owns (c : Thread nD τ) scM0_1 fullShare ((scAt m c n hn).2.1) ∗ owns (c : Thread nD τ) scM0_2 fullShare ((scAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((scAt m c (n - 1) (by omega)).1) ∗ owns (c : Thread nD τ) scM0_1 fullShare ((scAt m c (n - 1) (by omega)).2.1) ∗ owns (c : Thread nD τ) scM0_2 fullShare ((scAt m c (n - 1) (by omega)).2.2)) ∗ (∃ r, prngReg c r)) := by
  cases n with
  | zero => exact absurd rfl hz
  | succ n => rfl

/-! ## The pipeline's proof data -/

/-- On core `c`: the arrays as the region finds them; after the body at point `t` the input's buffer at its block
    and the results' at `outAt`; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outAt m c t).1
    | ⟨2, _⟩ => (outAt m c t).2.1
    | ⟨3, _⟩ => (outAt m c t).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outAt m c t).1 := by dsimp only [dats]
theorem after0_2 (c : Dev nD) (t : Fin cfg0.N) : (dats m 0 c).after 2 t = (outAt m c t).2.1 := by dsimp only [dats]
theorem after0_3 (c : Dev nD) (t : Fin cfg0.N) : (dats m 0 c).after 3 t = (outAt m c t).2.2 := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The input's buffer holds its block; the closed forms say which of the three cases the
    point is in; the invariant hands the body the accumulators at what the point before left (at anything at the very
    first point, and a first step of a shard overwrites them anyway) and takes them back at this point's contents; an
    idle result window is handed back untouched, a stored one with its stores read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  by_cases h1 : t.val % 32 = 31
  · have h0 : ¬t.val % 32 = 0 := by omega
    have hz : t.val ≠ 0 := by omega
    rw [show (dats m 0 c).leavesExact 1 t = owns (c : Thread nD τ) (ms0_1 t) fullShare ((dats m 0 c).after 1 t) from by
        unfold Dat.leavesExact; rw [liveAt0_1 t ((hcond0_1 t).mpr h1)], after0_1,
      show (dats m 0 c).leavesExact 2 t = owns (c : Thread nD τ) (ms0_2 t) fullShare ((dats m 0 c).after 2 t) from by
        unfold Dat.leavesExact; rw [liveAt0_2 t ((hcond0_1 t).mpr h1)], after0_2,
      show (dats m 0 c).leavesExact 3 t = owns (c : Thread nD τ) (ms0_3 t) fullShare ((dats m 0 c).after 3 t) from by
        unfold Dat.leavesExact; rw [liveAt0_3 t ((hcond0_1 t).mpr h1)], after0_3]
    rw [scAt_C m c t h0 h1, outAt_C m c t h0 h1]
    unfold scC outC; (try dsimp only)
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩⟩
    iapply ((kernelRun0_C c (grid0.coords t) _ _ _ _ _ _ _ _ _ _ _ _ _ _ (fun h => h0 ((hcond0_0 t).mp h)) ((hcond0_1 t).mpr h1) (iblk m c 0 t) _ _ _).2.2.2.2.2.2 Set.univ _)
    isplitl [H0]; · iexact H0
    isplitl [H1]; · iexists _; iexact H1
    isplitl [H2]; · iexists _; iexact H2
    isplitl [H3]; · iexists _; iexact H3
    isplitl [HS0]; · iexact HS0
    isplitl [HS1]; · iexact HS1
    isplitl [HS2]; · iexact HS2
    iintro ⟨H0, ⟨%e1, H1⟩, ⟨%e2, H2⟩, ⟨%e3, H3⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (scoverC_0 m c t h0 h1 _)
        isplitl [HS1]
        · unfold owns; iexists _; isplitr
          swap; · iexact HS1
          ipureintro; exact View.read_writes_of_cover _ _ _ _ _ (scoverC_1 m c t h0 h1 _)
        · unfold owns; iexists _; isplitr
          swap; · iexact HS2
          ipureintro; exact View.read_writes_of_cover _ _ _ _ _ (scoverC_2 m c t h0 h1 _)
      iexact Hg
    isplitl [Ho]; · iexact Ho
    isplitl [H0]; · iexact H0
    isplitl [H1]
    · unfold owns; iexists _; isplitr
      swap; · iexact H1
      ipureintro; exact View.read_writes_of_cover _ _ _ _ _ (coverC_1 m c t h0 h1 _)
    isplitl [H2]
    · unfold owns; iexists _; isplitr
      swap; · iexact H2
      ipureintro; exact View.read_writes_of_cover _ _ _ _ _ (coverC_2 m c t h0 h1 _)
    · unfold owns; iexists _; isplitr
      swap; · iexact H3
      ipureintro; exact View.read_writes_of_cover _ _ _ _ _ (coverC_3 m c t h0 h1 _)
  · rw [Dat.leavesExact_idle (dats m 0 c) 1 t (idleAt0_1 t (fun h => h1 ((hcond0_1 t).mp h))) (noFlush0_1 t (fun h => h1 ((hcond0_1 t).mp h))),
      Dat.leavesExact_idle (dats m 0 c) 2 t (idleAt0_2 t (fun h => h1 ((hcond0_1 t).mp h))) (noFlush0_2 t (fun h => h1 ((hcond0_1 t).mp h))),
      Dat.leavesExact_idle (dats m 0 c) 3 t (idleAt0_3 t (fun h => h1 ((hcond0_1 t).mp h))) (noFlush0_3 t (fun h => h1 ((hcond0_1 t).mp h)))]
    by_cases h0 : t.val % 32 = 0
    · rw [scAt_A m c t h0 h1]
      unfold scA; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ ((hcond0_0 t).mpr h0) (fun h => h1 ((hcond0_1 t).mp h)) (iblk m c 0 t)).2.2.2 _ _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scoverA_0 m c t h0 h1)
            isplitl [HS1]
            · unfold owns; iexists _; isplitr
              swap; · iexact HS1
              ipureintro; exact View.read_writes_of_cover _ _ _ _ _ (scoverA_1 m c t h0 h1)
            · unfold owns; iexists _; isplitr
              swap; · iexact HS2
              ipureintro; exact View.read_writes_of_cover _ _ _ _ _ (scoverA_2 m c t h0 h1)
          iexact Hg
        isplitl [Ho]; · iexact Ho
        isplitl [H0]; · iexact H0
        isplitl [H1]; · iexists _; iexact H1
        isplitl [H2]; · iexists _; iexact H2
        iexists _; iexact H3
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ ((hcond0_0 t).mpr h0) (fun h => h1 ((hcond0_1 t).mp h)) (iblk m c 0 t)).2.2.2 _ _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scoverA_0 m c t h0 h1)
            isplitl [HS1]
            · unfold owns; iexists _; isplitr
              swap; · iexact HS1
              ipureintro; exact View.read_writes_of_cover _ _ _ _ _ (scoverA_1 m c t h0 h1)
            · unfold owns; iexists _; isplitr
              swap; · iexact HS2
              ipureintro; exact View.read_writes_of_cover _ _ _ _ _ (scoverA_2 m c t h0 h1)
          iexact Hg
        isplitl [Ho]; · iexact Ho
        isplitl [H0]; · iexact H0
        isplitl [H1]; · iexists _; iexact H1
        isplitl [H2]; · iexists _; iexact H2
        iexists _; iexact H3
    · have hz : t.val ≠ 0 := by omega
      rw [scAt_B m c t h0 h1]
      unfold scB; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ (fun h => h0 ((hcond0_0 t).mp h)) (fun h => h1 ((hcond0_1 t).mp h)) (iblk m c 0 t) _ _ _).2.2.2 _ _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverB_0 m c t h0 h1 _)
          isplitl [HS1]
          · unfold owns; iexists _; isplitr
            swap; · iexact HS1
            ipureintro; exact View.read_writes_of_cover _ _ _ _ _ (scoverB_1 m c t h0 h1 _)
          · unfold owns; iexists _; isplitr
            swap; · iexact HS2
            ipureintro; exact View.read_writes_of_cover _ _ _ _ _ (scoverB_2 m c t h0 h1 _)
        iexact Hg
      isplitl [Ho]; · iexact Ho
      isplitl [H0]; · iexact H0
      isplitl [H1]; · iexists _; iexact H1
      isplitl [H2]; · iexists _; iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back what the launch handed over: the accumulators' named
    contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and in every final state each of the region's arrays holds what the
    library computes from the proof data and every other unscoped buffer what the later lines leave in it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the program runs to the end and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Fr

end
-- ==== Proof.KernelIdeal.Kit.lean ====
/-
  The pipeline of the column-statistics kernel, set up for its frame run (any float instance).
  @main is fifteen host lines (the literal index tables and the reshape of the 4194304 x 16 input to
  524288 x 128), the region on a 2 x 32 grid, and 179 host lines in five stretches that fold the three
  result arrays into one number. Here: the buffer contents on entry to the region, @main as "lines, region,
  lines", the later lines' side conditions (they touch unscoped TensorCore buffers only, allocate nothing,
  and none writes one of the region's four arrays), a window's block at a grid point, the two branch
  conditions of the body in closed form (first step of a shard: t % 32 = 0; last step: t % 32 = 31), where
  the three result windows are idle, and the region invariant as the three scratch accumulators owned at
  some contents beside the generator register.
-/
import proofs.«416933_j15582141350755_3_alg».proof.Proof.Gen.KernelIdeal.Launch
import proofs.«416933_j15582141350755_3_alg».proof.Proof.Gen.KernelIdeal.Skeleton
import proofs.«416933_j15582141350755_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The five stretches of host lines after the region, in order. -/
abbrev tailOps : List (List (HloOp τ sig (Elt F))) := [hostOps1, hostOps1_1, hostOps1_2, hostOps1_3, hostOps1_4]

/-- Core `c`'s TensorCore buffers on entry to the region: the launch contents after the fifteen lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main reduces to the region continued by the later lines, the buffers at their contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps hostOps0_sub hostOps0_fresh main_chain

/-- The later lines touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-! ## No later line writes one of the region's arrays -/

theorem keeps1 : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide)

theorem keeps1_1 : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide)

theorem keeps1_2 : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide)

theorem keeps1_3 : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide)

theorem keeps1_4 : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide)

/-- Each later line writes only its own result buffer, which is none of the four arrays. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact keeps1 op hop
  · exact keeps1_1 op hop
  · exact keeps1_2 op hop
  · exact keeps1_3 op hop
  · exact keeps1_4 op hop

/-! ## The argument arrays -/

/-- No line before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

/-- No line after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

/-- No line after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a frame run to the frame claim's post: both argument arrays bypass the region and no line writes them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's two branch conditions -/

/-- The first `scf.if` (reset the accumulators): the step coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- The second `scf.if` (write the three results): the step coordinate is 31. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem noFlush0_1 : ∀ t : Fin cfg0.N, ¬cond0_1 (grid0.coords t) → (cfg0.win 1).flush t = false := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
theorem liveAt0_1 : ∀ t : Fin cfg0.N, cond0_1 (grid0.coords t) → cfg0.idle 1 (grid0.coords t) = false := by decide +kernel
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

abbrev VO0_1 : View sig .tc .vmem S8x128 .f32 := (Memref.whole cc0_stg1_0 : Memref sig .tc .vmem S8x128 .f32).view
abbrev VO0_2 : View sig .tc .vmem S8x128 .f32 := (Memref.whole cc0_stg2_0 : Memref sig .tc .vmem S8x128 .f32).view
abbrev VO0_3 : View sig .tc .vmem S128x128 .f32 := (Memref.whole cc0_stg3_0 : Memref sig .tc .vmem S128x128 .f32).view
abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
/-- The three scratch accumulators: the two 1 x 128 column sums and the 128 x 128 Gram sum. -/
abbrev scM0_0 : Memref sig .tc .vmem S1x128 .f32 := Memref.whole cc0_scratch0
abbrev scM0_1 : Memref sig .tc .vmem S1x128 .f32 := Memref.whole cc0_scratch1
abbrev scM0_2 : Memref sig .tc .vmem S128x128 .f32 := Memref.whole cc0_scratch2
abbrev VS0_0 : View sig .tc .vmem S1x128 .f32 := scM0_0.view
abbrev VS0_1 : View sig .tc .vmem S1x128 .f32 := scM0_1.view
abbrev VS0_2 : View sig .tc .vmem S128x128 .f32 := scM0_2.view

/-- What the launch hands the region: the three scratch accumulators owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Fr

end
-- ==== Proof.KernelIdeal.RunA.lean ====
/-
  The kernel body run symbolically in one of its three cases (the first step of a shard: the accumulators are reset, nothing is written to the results): the weakest-precondition
  triple of the body on whole memrefs, with the lists of pieces its stores leave in each written buffer
  (last store first), determined by executing the body symbolically.
-/
import proofs.«416933_j15582141350755_3_alg».proof.Proof.KernelIdeal.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first step of a shard. The input block and the three idle result buffers are handed back as they were; the
    three accumulators, received at any contents, end with the pieces of the zero store and of the accumulating store. -/
noncomputable def kernelRun0_A (c : Dev nD) (i : grid0.Coords) (arg2 : Memref sig .tc .vmem S8192x128 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (hc0 : cond0_0 i) (hc1 : ¬cond0_1 i)
    (x0 : Vec F S8192x128 .f32) :
    Σ' (LS0 : List (View.Piece (Elt F) S1x128 .f32)) (LS1 : List (View.Piece (Elt F) S1x128 .f32)), { LS2 : List (View.Piece (Elt F) S128x128 .f32) //
      ∀ (xi1 xi2 : Vec F S8x128 .f32) (xi3 : Vec F S128x128 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare xi1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__reduce_kernel i arg2 harg2 arg3 harg3 arg4 harg4 arg5 harg5 arg6 harg6 arg7 harg7 arg8 harg8) K } := by
  refine ⟨?_, ?_, ?_, fun xi1 xi2 xi3 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Fr

end
-- ==== Proof.KernelIdeal.RunB.lean ====
/-
  The kernel body run symbolically in one of its three cases (a middle step of a shard: neither reset nor written out): the weakest-precondition
  triple of the body on whole memrefs, with the lists of pieces its stores leave in each written buffer
  (last store first), determined by executing the body symbolically.
-/
import proofs.«416933_j15582141350755_3_alg».proof.Proof.KernelIdeal.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle step of a shard. The input block and the three idle result buffers are handed back as they were; the
    three accumulators, received at the contents the step before left, end with the piece of the accumulating store. -/
noncomputable def kernelRun0_B (c : Dev nD) (i : grid0.Coords) (arg2 : Memref sig .tc .vmem S8192x128 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (hc0 : ¬cond0_0 i) (hc1 : ¬cond0_1 i)
    (x0 : Vec F S8192x128 .f32) (xs0 xs1 : Vec F S1x128 .f32) (xs2 : Vec F S128x128 .f32) :
    Σ' (LS0 : List (View.Piece (Elt F) S1x128 .f32)) (LS1 : List (View.Piece (Elt F) S1x128 .f32)), { LS2 : List (View.Piece (Elt F) S128x128 .f32) //
      ∀ (xi1 xi2 : Vec F S8x128 .f32) (xi3 : Vec F S128x128 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare xi1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__reduce_kernel i arg2 harg2 arg3 harg3 arg4 harg4 arg5 harg5 arg6 harg6 arg7 harg7 arg8 harg8) K } := by
  refine ⟨?_, ?_, ?_, fun xi1 xi2 xi3 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Fr

end
-- ==== Proof.KernelIdeal.RunC.lean ====
/-
  The kernel body run symbolically in one of its three cases (the last step of a shard: the accumulators are written out to the three results): the weakest-precondition
  triple of the body on whole memrefs, with the lists of pieces its stores leave in each written buffer
  (last store first), determined by executing the body symbolically.
-/
import proofs.«416933_j15582141350755_3_alg».proof.Proof.KernelIdeal.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last step of a shard. The input block is handed back as it was; the three accumulators, received at the
    contents the step before left, end with the piece of the accumulating store; the three result buffers, received
    at any contents, end with the piece of the store that writes the accumulators out. -/
noncomputable def kernelRun0_C (c : Dev nD) (i : grid0.Coords) (arg2 : Memref sig .tc .vmem S8192x128 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (hc0 : ¬cond0_0 i) (hc1 : cond0_1 i)
    (x0 : Vec F S8192x128 .f32) (xs0 xs1 : Vec F S1x128 .f32) (xs2 : Vec F S128x128 .f32) :
    Σ' (L1 : List (View.Piece (Elt F) S8x128 .f32)) (L2 : List (View.Piece (Elt F) S8x128 .f32)) (L3 : List (View.Piece (Elt F) S128x128 .f32))
       (LS0 : List (View.Piece (Elt F) S1x128 .f32)) (LS1 : List (View.Piece (Elt F) S1x128 .f32)), { LS2 : List (View.Piece (Elt F) S128x128 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__reduce_kernel i arg2 harg2 arg3 harg3 arg4 harg4 arg5 harg5 arg6 harg6 arg7 harg7 arg8 harg8) K } := by
  refine ⟨?_, ?_, ?_, ?_, ?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%d2, %f2, -, H2⟩, ⟨%d3, %f3, -, H3⟩, ⟨%fs0, %hfs0, HS0⟩, ⟨%fs1, %hfs1, HS1⟩, ⟨%fs2, %hfs2, HS2⟩, Hk⟩
    obtain rfl := harg2.eq_unread hf0
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [HS0]; · iexists _; iexact HS0
    isplitl [HS1]; · iexists _; iexact HS1
    iexists _; iexact HS2

end Cert.KernelIdeal.Fr

end
-- ==== Proof.KernelIdeal.Frame.lean ====
/-
  The frame run of the column-statistics kernel (any float instance).
  The three scratch accumulators are carried from one grid point to the next: after point n they hold what the
  body's stores at n leave over what point n - 1 left (at the first step of a shard the body overwrites them
  whole first, so nothing older is read). The three result windows are stored only at the last step of a
  shard (t % 32 = 31), where the pipeline writes them back; elsewhere they are idle. With the accumulators'
  contents named point by point, the body's three runs (first step, middle step, last step) give the
  pipeline's body obligation at every point, and the library's launch theorem for "host lines, region,
  host lines" gives the run of @main and, from it, the frame.
-/
import proofs.«416933_j15582141350755_3_alg».proof.Proof.KernelIdeal.RunA
import proofs.«416933_j15582141350755_3_alg».proof.Proof.KernelIdeal.RunB
import proofs.«416933_j15582141350755_3_alg».proof.Proof.KernelIdeal.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three accumulators' contents: column sums of the kept entries, of the dropped entries, and the Gram sum. -/
abbrev Sc (F : FTy → Type) [FloatOps F] := Vec F S1x128 .f32 × Vec F S1x128 .f32 × Vec F S128x128 .f32
/-- The three result blocks. -/
abbrev Ou (F : FTy → Type) [FloatOps F] := Vec F S8x128 .f32 × Vec F S8x128 .f32 × Vec F S128x128 .f32

/-! ## What each case leaves -/

/-- First step of a shard: the accumulators after the reset and the block's contribution. -/
def scA (c : Dev nD) (t : Fin cfg0.N) (h0 : t.val % 32 = 0) (h1 : ¬t.val % 32 = 31) : Sc F :=
  (VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t)).1),
   VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t)).2.1),
   VS0_2.read (Elt F) (VS0_2.writes (Elt F) VS0_2.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t)).2.2.1))

/-- Middle step: the accumulators after the block's contribution over what the step before left (`xs`). -/
def scB (c : Dev nD) (t : Fin cfg0.N) (h0 : ¬t.val % 32 = 0) (h1 : ¬t.val % 32 = 31) (xs : Sc F) : Sc F :=
  (VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2).1),
   VS0_1.read (Elt F) (VS0_1.writes (Elt F) VS0_1.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2).2.1),
   VS0_2.read (Elt F) (VS0_2.writes (Elt F) VS0_2.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2).2.2.1))

/-- Last step: the accumulators likewise, -/
def scC (c : Dev nD) (t : Fin cfg0.N) (h0 : ¬t.val % 32 = 0) (h1 : t.val % 32 = 31) (xs : Sc F) : Sc F :=
  (VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.2.1),
   VS0_1.read (Elt F) (VS0_1.writes (Elt F) VS0_1.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.2.2.1),
   VS0_2.read (Elt F) (VS0_2.writes (Elt F) VS0_2.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.2.2.2.1))

/-- and the three result blocks it stores. -/
def outC (c : Dev nD) (t : Fin cfg0.N) (h0 : ¬t.val % 32 = 0) (h1 : t.val % 32 = 31) (xs : Sc F) : Ou F :=
  (VO0_1.read (Elt F) (VO0_1.writes (Elt F) VO0_1.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).1),
   VO0_2.read (Elt F) (VO0_2.writes (Elt F) VO0_2.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.1),
   VO0_3.read (Elt F) (VO0_3.writes (Elt F) VO0_3.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.1))

/-! ## The stores of each case cover what they write -/

theorem scoverA_0 (c : Dev nD) (t : Fin cfg0.N) (h0 : t.val % 32 = 0) (h1 : ¬t.val % 32 = 31) (y : S1x128.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t)).1, y ∈ pc.1.set :=
  View.cover_of_tiledL (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t)).1 S1x128.size (by sl_kernel_rfl) y
theorem scoverA_1 (c : Dev nD) (t : Fin cfg0.N) (h0 : t.val % 32 = 0) (h1 : ¬t.val % 32 = 31) (y : S1x128.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t)).2.1, y ∈ pc.1.set :=
  View.cover_of_tiledL (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t)).2.1 S1x128.size (by sl_kernel_rfl) y
theorem scoverA_2 (c : Dev nD) (t : Fin cfg0.N) (h0 : t.val % 32 = 0) (h1 : ¬t.val % 32 = 31) (y : S128x128.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t)).2.2.1, y ∈ pc.1.set :=
  View.cover_of_tiledL (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t)).2.2.1 S128x128.size (by sl_kernel_rfl) y

theorem scoverB_0 (c : Dev nD) (t : Fin cfg0.N) (h0 : ¬t.val % 32 = 0) (h1 : ¬t.val % 32 = 31) (xs : Sc F) (y : S1x128.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2).1, y ∈ pc.1.set :=
  View.cover_of_tiledL (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2).1 S1x128.size (by sl_kernel_rfl) y
theorem scoverB_1 (c : Dev nD) (t : Fin cfg0.N) (h0 : ¬t.val % 32 = 0) (h1 : ¬t.val % 32 = 31) (xs : Sc F) (y : S1x128.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2).2.1, y ∈ pc.1.set :=
  View.cover_of_tiledL (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2).2.1 S1x128.size (by sl_kernel_rfl) y
theorem scoverB_2 (c : Dev nD) (t : Fin cfg0.N) (h0 : ¬t.val % 32 = 0) (h1 : ¬t.val % 32 = 31) (xs : Sc F) (y : S128x128.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2).2.2.1, y ∈ pc.1.set :=
  View.cover_of_tiledL (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2).2.2.1 S128x128.size (by sl_kernel_rfl) y

theorem coverC_1 (c : Dev nD) (t : Fin cfg0.N) (h0 : ¬t.val % 32 = 0) (h1 : t.val % 32 = 31) (xs : Sc F) (y : S8x128.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).1, y ∈ pc.1.set :=
  View.cover_of_tiledL (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).1 S8x128.size (by sl_kernel_rfl) y
theorem coverC_2 (c : Dev nD) (t : Fin cfg0.N) (h0 : ¬t.val % 32 = 0) (h1 : t.val % 32 = 31) (xs : Sc F) (y : S8x128.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.1, y ∈ pc.1.set :=
  View.cover_of_tiledL (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.1 S8x128.size (by sl_kernel_rfl) y
theorem coverC_3 (c : Dev nD) (t : Fin cfg0.N) (h0 : ¬t.val % 32 = 0) (h1 : t.val % 32 = 31) (xs : Sc F) (y : S128x128.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.1, y ∈ pc.1.set :=
  View.cover_of_tiledL (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.1 S128x128.size (by sl_kernel_rfl) y
theorem scoverC_0 (c : Dev nD) (t : Fin cfg0.N) (h0 : ¬t.val % 32 = 0) (h1 : t.val % 32 = 31) (xs : Sc F) (y : S1x128.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.2.1, y ∈ pc.1.set :=
  View.cover_of_tiledL (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.2.1 S1x128.size (by sl_kernel_rfl) y
theorem scoverC_1 (c : Dev nD) (t : Fin cfg0.N) (h0 : ¬t.val % 32 = 0) (h1 : t.val % 32 = 31) (xs : Sc F) (y : S1x128.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.2.2.1, y ∈ pc.1.set :=
  View.cover_of_tiledL (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.2.2.1 S1x128.size (by sl_kernel_rfl) y
theorem scoverC_2 (c : Dev nD) (t : Fin cfg0.N) (h0 : ¬t.val % 32 = 0) (h1 : t.val % 32 = 31) (xs : Sc F) (y : S128x128.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.2.2.2.1, y ∈ pc.1.set :=
  View.cover_of_tiledL (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2).2.2.2.2.2.1 S128x128.size (by sl_kernel_rfl) y

/-! ## The accumulators point by point -/

/-- What the three accumulators hold after the body at position `n`: the case the closed forms select, a later
    step reading what the step before left. -/
def scAt (c : Dev nD) : (n : ℕ) → n < cfg0.N → Sc F
  | 0, hn => scA m c ⟨0, hn⟩ (Nat.zero_mod _) (by show ¬(0 % 32 = 31); decide)
  | n + 1, hn =>
    if h0 : (n + 1) % 32 = 0 then
      if h1 : (n + 1) % 32 = 31 then False.elim (by omega)
      else scA m c ⟨n + 1, hn⟩ h0 h1
    else
      if h1 : (n + 1) % 32 = 31 then scC m c ⟨n + 1, hn⟩ h0 h1 (scAt c n (Nat.lt_of_succ_lt hn))
      else scB m c ⟨n + 1, hn⟩ h0 h1 (scAt c n (Nat.lt_of_succ_lt hn))

/-- What the step before `t` left (at `t = 0`: a value nothing consults). -/
def prevSc (c : Dev nD) (t : Fin cfg0.N) : Sc F := scAt m c (t.val - 1) (Nat.lt_of_le_of_lt (Nat.sub_le _ _) t.isLt)

theorem scAt_A (c : Dev nD) (t : Fin cfg0.N) (h0 : t.val % 32 = 0) (h1 : ¬t.val % 32 = 31) :
    scAt m c t.val t.isLt = scA m c t h0 h1 := by
  obtain ⟨n, hn⟩ := t
  cases n with
  | zero => exact rfl
  | succ n => exact (dif_pos h0).trans ((dif_neg h1).trans rfl)

theorem scAt_B (c : Dev nD) (t : Fin cfg0.N) (h0 : ¬t.val % 32 = 0) (h1 : ¬t.val % 32 = 31) :
    scAt m c t.val t.isLt = scB m c t h0 h1 (prevSc m c t) := by
  obtain ⟨n, hn⟩ := t
  cases n with
  | zero => exact (by exfalso; (try dsimp only at h0); exact absurd (Nat.zero_mod _) h0)
  | succ n => exact (dif_neg h0).trans ((dif_neg h1).trans rfl)

theorem scAt_C (c : Dev nD) (t : Fin cfg0.N) (h0 : ¬t.val % 32 = 0) (h1 : t.val % 32 = 31) :
    scAt m c t.val t.isLt = scC m c t h0 h1 (prevSc m c t) := by
  obtain ⟨n, hn⟩ := t
  cases n with
  | zero => exact (by exfalso; (try dsimp only at h0); exact absurd (Nat.zero_mod _) h0)
  | succ n => exact (dif_neg h0).trans ((dif_pos h1).trans rfl)

/-- The three result blocks after point `t`: stored at the last step of a shard; elsewhere a value nothing consults. -/
def outAt (c : Dev nD) (t : Fin cfg0.N) : Ou F :=
  if h1 : t.val % 32 = 31 then outC m c t (by omega) h1 (prevSc m c t)
  else (VO0_1.read (Elt F) VO0_1.junk, VO0_2.read (Elt F) VO0_2.junk, VO0_3.read (Elt F) VO0_3.junk)

theorem outAt_C (c : Dev nD) (t : Fin cfg0.N) (h0 : ¬t.val % 32 = 0) (h1 : t.val % 32 = 31) :
    outAt m c t = outC m c t h0 h1 (prevSc m c t) := dif_pos h1

/-! ## The region invariant -/

/-- Before position `n`: at the region's entry the three accumulators at anything; afterwards at what the point
    before left; beside them the generator register at some state. -/
def PhiS (c : Dev nD) : (n : ℕ) → n ≤ cfg0.N → sProp 𝕄
  | 0, _ => Pipeline.ΦA spec0 c
  | n + 1, hn => iprop(iprop(owns (c : Thread nD τ) scM0_0 fullShare ((scAt m c n hn).1) ∗ owns (c : Thread nD τ) scM0_1 fullShare ((scAt m c n hn).2.1) ∗ owns (c : Thread nD τ) scM0_2 fullShare ((scAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scAt m c n hn).1) ∗ owns (c : Thread nD τ) scM0_1 fullShare ((scAt m c n hn).2.1) ∗ owns (c : Thread nD τ) scM0_2 fullShare ((scAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((scAt m c (n - 1) (by omega)).1) ∗ owns (c : Thread nD τ) scM0_1 fullShare ((scAt m c (n - 1) (by omega)).2.1) ∗ owns (c : Thread nD τ) scM0_2 fullShare ((scAt m c (n - 1) (by omega)).2.2)) ∗ (∃ r, prngReg c r)) := by
  cases n with
  | zero => exact absurd rfl hz
  | succ n => rfl

/-! ## The pipeline's proof data -/

/-- On core `c`: the arrays as the region finds them; after the body at point `t` the input's buffer at its block
    and the results' at `outAt`; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outAt m c t).1
    | ⟨2, _⟩ => (outAt m c t).2.1
    | ⟨3, _⟩ => (outAt m c t).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outAt m c t).1 := by dsimp only [dats]
theorem after0_2 (c : Dev nD) (t : Fin cfg0.N) : (dats m 0 c).after 2 t = (outAt m c t).2.1 := by dsimp only [dats]
theorem after0_3 (c : Dev nD) (t : Fin cfg0.N) : (dats m 0 c).after 3 t = (outAt m c t).2.2 := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The input's buffer holds its block; the closed forms say which of the three cases the
    point is in; the invariant hands the body the accumulators at what the point before left (at anything at the very
    first point, and a first step of a shard overwrites them anyway) and takes them back at this point's contents; an
    idle result window is handed back untouched, a stored one with its stores read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  by_cases h1 : t.val % 32 = 31
  · have h0 : ¬t.val % 32 = 0 := by omega
    have hz : t.val ≠ 0 := by omega
    rw [show (dats m 0 c).leavesExact 1 t = owns (c : Thread nD τ) (ms0_1 t) fullShare ((dats m 0 c).after 1 t) from by
        unfold Dat.leavesExact; rw [liveAt0_1 t ((hcond0_1 t).mpr h1)], after0_1,
      show (dats m 0 c).leavesExact 2 t = owns (c : Thread nD τ) (ms0_2 t) fullShare ((dats m 0 c).after 2 t) from by
        unfold Dat.leavesExact; rw [liveAt0_2 t ((hcond0_1 t).mpr h1)], after0_2,
      show (dats m 0 c).leavesExact 3 t = owns (c : Thread nD τ) (ms0_3 t) fullShare ((dats m 0 c).after 3 t) from by
        unfold Dat.leavesExact; rw [liveAt0_3 t ((hcond0_1 t).mpr h1)], after0_3]
    rw [scAt_C m c t h0 h1, outAt_C m c t h0 h1]
    unfold scC outC; (try dsimp only)
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩⟩
    iapply ((kernelRun0_C c (grid0.coords t) _ _ _ _ _ _ _ _ _ _ _ _ _ _ (fun h => h0 ((hcond0_0 t).mp h)) ((hcond0_1 t).mpr h1) (iblk m c 0 t) _ _ _).2.2.2.2.2.2 Set.univ _)
    isplitl [H0]; · iexact H0
    isplitl [H1]; · iexists _; iexact H1
    isplitl [H2]; · iexists _; iexact H2
    isplitl [H3]; · iexists _; iexact H3
    isplitl [HS0]; · iexact HS0
    isplitl [HS1]; · iexact HS1
    isplitl [HS2]; · iexact HS2
    iintro ⟨H0, ⟨%e1, H1⟩, ⟨%e2, H2⟩, ⟨%e3, H3⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (scoverC_0 m c t h0 h1 _)
        isplitl [HS1]
        · unfold owns; iexists _; isplitr
          swap; · iexact HS1
          ipureintro; exact View.read_writes_of_cover _ _ _ _ _ (scoverC_1 m c t h0 h1 _)
        · unfold owns; iexists _; isplitr
          swap; · iexact HS2
          ipureintro; exact View.read_writes_of_cover _ _ _ _ _ (scoverC_2 m c t h0 h1 _)
      iexact Hg
    isplitl [Ho]; · iexact Ho
    isplitl [H0]; · iexact H0
    isplitl [H1]
    · unfold owns; iexists _; isplitr
      swap; · iexact H1
      ipureintro; exact View.read_writes_of_cover _ _ _ _ _ (coverC_1 m c t h0 h1 _)
    isplitl [H2]
    · unfold owns; iexists _; isplitr
      swap; · iexact H2
      ipureintro; exact View.read_writes_of_cover _ _ _ _ _ (coverC_2 m c t h0 h1 _)
    · unfold owns; iexists _; isplitr
      swap; · iexact H3
      ipureintro; exact View.read_writes_of_cover _ _ _ _ _ (coverC_3 m c t h0 h1 _)
  · rw [Dat.leavesExact_idle (dats m 0 c) 1 t (idleAt0_1 t (fun h => h1 ((hcond0_1 t).mp h))) (noFlush0_1 t (fun h => h1 ((hcond0_1 t).mp h))),
      Dat.leavesExact_idle (dats m 0 c) 2 t (idleAt0_2 t (fun h => h1 ((hcond0_1 t).mp h))) (noFlush0_2 t (fun h => h1 ((hcond0_1 t).mp h))),
      Dat.leavesExact_idle (dats m 0 c) 3 t (idleAt0_3 t (fun h => h1 ((hcond0_1 t).mp h))) (noFlush0_3 t (fun h => h1 ((hcond0_1 t).mp h)))]
    by_cases h0 : t.val % 32 = 0
    · rw [scAt_A m c t h0 h1]
      unfold scA; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ ((hcond0_0 t).mpr h0) (fun h => h1 ((hcond0_1 t).mp h)) (iblk m c 0 t)).2.2.2 _ _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scoverA_0 m c t h0 h1)
            isplitl [HS1]
            · unfold owns; iexists _; isplitr
              swap; · iexact HS1
              ipureintro; exact View.read_writes_of_cover _ _ _ _ _ (scoverA_1 m c t h0 h1)
            · unfold owns; iexists _; isplitr
              swap; · iexact HS2
              ipureintro; exact View.read_writes_of_cover _ _ _ _ _ (scoverA_2 m c t h0 h1)
          iexact Hg
        isplitl [Ho]; · iexact Ho
        isplitl [H0]; · iexact H0
        isplitl [H1]; · iexists _; iexact H1
        isplitl [H2]; · iexists _; iexact H2
        iexists _; iexact H3
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ ((hcond0_0 t).mpr h0) (fun h => h1 ((hcond0_1 t).mp h)) (iblk m c 0 t)).2.2.2 _ _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scoverA_0 m c t h0 h1)
            isplitl [HS1]
            · unfold owns; iexists _; isplitr
              swap; · iexact HS1
              ipureintro; exact View.read_writes_of_cover _ _ _ _ _ (scoverA_1 m c t h0 h1)
            · unfold owns; iexists _; isplitr
              swap; · iexact HS2
              ipureintro; exact View.read_writes_of_cover _ _ _ _ _ (scoverA_2 m c t h0 h1)
          iexact Hg
        isplitl [Ho]; · iexact Ho
        isplitl [H0]; · iexact H0
        isplitl [H1]; · iexists _; iexact H1
        isplitl [H2]; · iexists _; iexact H2
        iexists _; iexact H3
    · have hz : t.val ≠ 0 := by omega
      rw [scAt_B m c t h0 h1]
      unfold scB; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ (fun h => h0 ((hcond0_0 t).mp h)) (fun h => h1 ((hcond0_1 t).mp h)) (iblk m c 0 t) _ _ _).2.2.2 _ _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scoverB_0 m c t h0 h1 _)
          isplitl [HS1]
          · unfold owns; iexists _; isplitr
            swap; · iexact HS1
            ipureintro; exact View.read_writes_of_cover _ _ _ _ _ (scoverB_1 m c t h0 h1 _)
          · unfold owns; iexists _; isplitr
            swap; · iexact HS2
            ipureintro; exact View.read_writes_of_cover _ _ _ _ _ (scoverB_2 m c t h0 h1 _)
        iexact Hg
      isplitl [Ho]; · iexact Ho
      isplitl [H0]; · iexact H0
      isplitl [H1]; · iexists _; iexact H1
      isplitl [H2]; · iexists _; iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back what the launch handed over: the accumulators' named
    contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and in every final state each of the region's arrays holds what the
    library computes from the proof data and every other unscoped buffer what the later lines leave in it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the program runs to the end and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Fr

end
-- ==== Proof.KernelIdeal.Tail.lean ====
/-
  The 179 lines after the region, as functions of the three result arrays. The two 16 x 128 accumulators hold, in
  rows 0 and 8, the two shards' 128 lane sums of the positive and of the negative parts; the 256 x 128 one holds,
  in its two halves, the two shards' 128 x 128 Gram sums. The lines add the shards, fold the 128 lanes to the 16
  columns (8 groups of 16) and scale by 2^-22 to means; take 80 (then 32) entries of the flattened Gram sum at
  literal positions, fold each run of 8 and scale to pair means; gather the column means at literal column tables,
  and add up the positive parts of product-minus-pair-mean expressions into one number per family, and the two
  numbers. Here each named intermediate is a function of the arrays, composed exactly of the printed operations
  with the literal tables in place, and the buffer contents after the five stretches are read off stretch by
  stretch: what a stretch computes from the contents before it, and what it leaves alone.
-/
import proofs.«416933_j15582141350755_3_alg».proof.Proof.KernelIdeal.Kit
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the later lines compute -/

/-- The 16 column means of the positive parts, from the first 16 x 128 accumulator: rows 0 and 8 (one per shard)
    added onto zero, the 128 lanes read as 8 x 16 and summed over the 8 groups, times 2^-22. -/
def posK (a1 : (⟨S16x128, .f32⟩ : BufTy).Contents (Elt F)) : (⟨S16, .f32⟩ : BufTy).Contents (Elt F) :=
  mulf
    (Host.reduceAdd
      (shapeCast S8x16
        (addf
          (addf (broadcastInDim S128 ![] bcast_S_S128 (constant (F := F) S_ .f32 0x00000000#32))
            (shapeCast S128 (extractStridedSlice S1x128 ![0, 0] a1 slices_S16x128_S1x128_0_0) shapeCasts_S1x128_S128))
          (shapeCast S128 (extractStridedSlice S1x128 ![8, 0] a1 slices_S16x128_S1x128_8_0) shapeCasts_S1x128_S128))
        shapeCasts_S128_S8x16)
      (constant (F := F) S_ .f32 0x00000000#32) reducesTo_S8x16_S16_d0 h_S_)
    (broadcastInDim S16 ![] bcast_S_S16 (constant (F := F) S_ .f32 0x34800000#32))

/-- The same of the negative parts, from the second accumulator. -/
def negK (a2 : (⟨S16x128, .f32⟩ : BufTy).Contents (Elt F)) : (⟨S16, .f32⟩ : BufTy).Contents (Elt F) :=
  mulf
    (Host.reduceAdd
      (shapeCast S8x16
        (addf
          (addf (broadcastInDim S128 ![] bcast_S_S128 (constant (F := F) S_ .f32 0x00000000#32))
            (shapeCast S128 (extractStridedSlice S1x128 ![0, 0] a2 slices_S16x128_S1x128_0_0) shapeCasts_S1x128_S128))
          (shapeCast S128 (extractStridedSlice S1x128 ![8, 0] a2 slices_S16x128_S1x128_8_0) shapeCasts_S1x128_S128))
        shapeCasts_S128_S8x16)
      (constant (F := F) S_ .f32 0x00000000#32) reducesTo_S8x16_S16_d0 h_S_)
    (broadcastInDim S16 ![] bcast_S_S16 (constant (F := F) S_ .f32 0x34800000#32))

/-- The 128 x 128 Gram sum: the two shards' halves of the 256 x 128 accumulator added onto zero. -/
def gramK (a3 : (⟨S256x128, .f32⟩ : BufTy).Contents (Elt F)) : (⟨S128x128, .f32⟩ : BufTy).Contents (Elt F) :=
  addf
    (addf (broadcastInDim S128x128 ![] bcast_S_S128x128 (constant (F := F) S_ .f32 0x00000000#32))
      (extractStridedSlice S128x128 ![0, 0] a3 slices_S256x128_S128x128_0_0))
    (extractStridedSlice S128x128 ![128, 0] a3 slices_S256x128_S128x128_128_0)

/-- The Gram sum flattened row by row. -/
def flatK (a3 : (⟨S256x128, .f32⟩ : BufTy).Contents (Elt F)) : (⟨S16384, .f32⟩ : BufTy).Contents (Elt F) :=
  shapeCast S16384 (gramK a3) shapeCasts_S128x128_S16384

/-- The 80 literal flat positions as `take` normalises them (a negative one moved up by 16384), as a column. -/
def idx80 : IVec S80x1 32 :=
  broadcastInDim S80x1 ![0] bcast_S80_S80x1_0
    (select (cmpi .slt (fun i => lit0 (S80.rowMajor i)) (broadcastInDim S80 ![] bcast_S_S80 (constantI S_ 32 0#32)))
      (addi (fun i => lit0 (S80.rowMajor i)) (broadcastInDim S80 ![] bcast_S_S80 (constantI S_ 32 16384#32)))
      (fun i => lit0 (S80.rowMajor i)))

/-- The take of 80 entries of a 16384-vector at those positions: the gathered entry where the position lies in
    0 … 16383, the NaN fill elsewhere. -/
def take80K (g : (⟨S16384, .f32⟩ : BufTy).Contents (Elt F)) : (⟨S80, .f32⟩ : BufTy).Contents (Elt F) :=
  select
    (Host.reduce IntOp.andi
      (andi (cmpi .sge idx80 (broadcastInDim S80x1 ![] bcast_S_S80x1 (constantI S_ 32 0#32)))
        (cmpi .sle idx80
          (broadcastInDim S80x1 ![0, 1] bcast_S1x1_S80x1_0_1 (broadcastInDim S1x1 ![1] bcast_S1_S1x1_1 (constantI S1 32 16383#32)))))
      (constantI S_ 1 1#1) reducesTo_S80x1_S80_d1 h_S_)
    (Host.gather gather_S16384_S80x1_S80_n_0_n_n_0_1_1 g idx80)
    (broadcastInDim S80 ![] bcast_S_S80 (constant (F := F) S_ .f32 0x7FC00000#32))

/-- The 32 literal flat positions as `take` normalises them (a negative one moved up by 16384), as a column. -/
def idx32 : IVec S32x1 32 :=
  broadcastInDim S32x1 ![0] bcast_S32_S32x1_0
    (select (cmpi .slt (fun i => lit3 (S32.rowMajor i)) (broadcastInDim S32 ![] bcast_S_S32 (constantI S_ 32 0#32)))
      (addi (fun i => lit3 (S32.rowMajor i)) (broadcastInDim S32 ![] bcast_S_S32 (constantI S_ 32 16384#32)))
      (fun i => lit3 (S32.rowMajor i)))

/-- The take of 32 entries of a 16384-vector at those positions: the gathered entry where the position lies in
    0 … 16383, the NaN fill elsewhere. -/
def take32K (g : (⟨S16384, .f32⟩ : BufTy).Contents (Elt F)) : (⟨S32, .f32⟩ : BufTy).Contents (Elt F) :=
  select
    (Host.reduce IntOp.andi
      (andi (cmpi .sge idx32 (broadcastInDim S32x1 ![] bcast_S_S32x1 (constantI S_ 32 0#32)))
        (cmpi .sle idx32
          (broadcastInDim S32x1 ![0, 1] bcast_S1x1_S32x1_0_1 (broadcastInDim S1x1 ![1] bcast_S1_S1x1_1 (constantI S1 32 16383#32)))))
      (constantI S_ 1 1#1) reducesTo_S32x1_S32_d1 h_S_)
    (Host.gather gather_S16384_S32x1_S32_n_0_n_n_0_1_1 g idx32)
    (broadcastInDim S32 ![] bcast_S_S32 (constant (F := F) S_ .f32 0x7FC00000#32))

/-- The 10 pair means of the first family: the 80 taken entries read as 10 x 8, summed over the 8, times 2^-22. -/
def pp10K (a3 : (⟨S256x128, .f32⟩ : BufTy).Contents (Elt F)) : (⟨S10, .f32⟩ : BufTy).Contents (Elt F) :=
  mulf
    (Host.reduceAdd (shapeCast S10x8 (take80K (flatK a3)) shapeCasts_S80_S10x8)
      (constant (F := F) S_ .f32 0x00000000#32) reducesTo_S10x8_S10_d1 h_S_)
    (broadcastInDim S10 ![] bcast_S_S10 (constant (F := F) S_ .f32 0x34800000#32))

/-- The 4 pair means of the second family: the 32 taken entries read as 4 x 8, summed over the 8, times 2^-22. -/
def pp4K (a3 : (⟨S256x128, .f32⟩ : BufTy).Contents (Elt F)) : (⟨S4, .f32⟩ : BufTy).Contents (Elt F) :=
  mulf
    (Host.reduceAdd (shapeCast S4x8 (take32K (flatK a3)) shapeCasts_S32_S4x8)
      (constant (F := F) S_ .f32 0x00000000#32) reducesTo_S4x8_S4_d1 h_S_)
    (broadcastInDim S4 ![] bcast_S_S4 (constant (F := F) S_ .f32 0x34800000#32))

/-- The first column table of the 10 pairs as the gather reads it (the literal mask being false, the table itself), as a column. -/
def colA10 : IVec S10x1 32 :=
  broadcastInDim S10x1 ![0] bcast_S10_S10x1_0
    (select (constantI S10 1 0#1)
      (addi (fun i => lit1 (S10.rowMajor i)) (broadcastInDim S10 ![] bcast_S_S10 (constantI S_ 32 16#32)))
      (fun i => lit1 (S10.rowMajor i)))

/-- The second column table of the 10 pairs as the gather reads it (the literal mask being false, the table itself), as a column. -/
def colB10 : IVec S10x1 32 :=
  broadcastInDim S10x1 ![0] bcast_S10_S10x1_0
    (select (constantI S10 1 0#1)
      (addi (fun i => lit2 (S10.rowMajor i)) (broadcastInDim S10 ![] bcast_S_S10 (constantI S_ 32 16#32)))
      (fun i => lit2 (S10.rowMajor i)))

/-- The first column table of the 4 pairs as the gather reads it (the literal mask being false, the table itself), as a column. -/
def colA4 : IVec S4x1 32 :=
  broadcastInDim S4x1 ![0] bcast_S4_S4x1_0
    (select (constantI S4 1 0#1)
      (addi (fun i => lit4 (S4.rowMajor i)) (broadcastInDim S4 ![] bcast_S_S4 (constantI S_ 32 16#32)))
      (fun i => lit4 (S4.rowMajor i)))

/-- The second column table of the 4 pairs as the gather reads it (the literal mask being false, the table itself), as a column. -/
def colB4 : IVec S4x1 32 :=
  broadcastInDim S4x1 ![0] bcast_S4_S4x1_0
    (select (constantI S4 1 0#1)
      (addi (fun i => lit5 (S4.rowMajor i)) (broadcastInDim S4 ![] bcast_S_S4 (constantI S_ 32 16#32)))
      (fun i => lit5 (S4.rowMajor i)))

/-- The first family's number: over its 10 pairs (i, j), the sum of the positive parts of
    pos i * pos j - pp, neg i * pos j - pp and pos i * neg j - pp, added in that order. -/
def tailPosK (pos neg : (⟨S16, .f32⟩ : BufTy).Contents (Elt F)) (pp : (⟨S10, .f32⟩ : BufTy).Contents (Elt F)) : (⟨S_, .f32⟩ : BufTy).Contents (Elt F) :=
  Host.reduceAdd
    (addf
      (addf
        (maximumf
          (subf (mulf (Host.gather gather_S16_S10x1_S10_n_0_n_n_0_1_1 pos colA10) (Host.gather gather_S16_S10x1_S10_n_0_n_n_0_1_1 pos colB10)) pp)
          (broadcastInDim S10 ![] bcast_S_S10 (constant (F := F) S_ .f32 0x00000000#32)))
        (maximumf
          (subf (mulf (Host.gather gather_S16_S10x1_S10_n_0_n_n_0_1_1 neg colA10) (Host.gather gather_S16_S10x1_S10_n_0_n_n_0_1_1 pos colB10)) pp)
          (broadcastInDim S10 ![] bcast_S_S10 (constant (F := F) S_ .f32 0x00000000#32))))
      (maximumf
        (subf (mulf (Host.gather gather_S16_S10x1_S10_n_0_n_n_0_1_1 pos colA10) (Host.gather gather_S16_S10x1_S10_n_0_n_n_0_1_1 neg colB10)) pp)
        (broadcastInDim S10 ![] bcast_S_S10 (constant (F := F) S_ .f32 0x00000000#32))))
    (constant (F := F) S_ .f32 0x00000000#32) reducesTo_S10_S_d0 h_S_

/-- The second family's number: over its 4 pairs (i, j), the sum of the positive parts of
    pos i * pos j - pp, pp - neg i * pos j and pp - pos i * neg j, added in that order. -/
def tailNegK (pos neg : (⟨S16, .f32⟩ : BufTy).Contents (Elt F)) (pp : (⟨S4, .f32⟩ : BufTy).Contents (Elt F)) : (⟨S_, .f32⟩ : BufTy).Contents (Elt F) :=
  Host.reduceAdd
    (addf
      (addf
        (maximumf
          (subf (mulf (Host.gather gather_S16_S4x1_S4_n_0_n_n_0_1_1 pos colA4) (Host.gather gather_S16_S4x1_S4_n_0_n_n_0_1_1 pos colB4)) pp)
          (broadcastInDim S4 ![] bcast_S_S4 (constant (F := F) S_ .f32 0x00000000#32)))
        (maximumf
          (subf pp (mulf (Host.gather gather_S16_S4x1_S4_n_0_n_n_0_1_1 neg colA4) (Host.gather gather_S16_S4x1_S4_n_0_n_n_0_1_1 pos colB4)))
          (broadcastInDim S4 ![] bcast_S_S4 (constant (F := F) S_ .f32 0x00000000#32))))
      (maximumf
        (subf pp (mulf (Host.gather gather_S16_S4x1_S4_n_0_n_n_0_1_1 pos colA4) (Host.gather gather_S16_S4x1_S4_n_0_n_n_0_1_1 neg colB4)))
        (broadcastInDim S4 ![] bcast_S_S4 (constant (F := F) S_ .f32 0x00000000#32))))
    (constant (F := F) S_ .f32 0x00000000#32) reducesTo_S4_S_d0 h_S_

/-- The program's result from the three arrays: the two families' numbers added. -/
def tailOut (a1 a2 : (⟨S16x128, .f32⟩ : BufTy).Contents (Elt F)) (a3 : (⟨S256x128, .f32⟩ : BufTy).Contents (Elt F)) : (⟨S_, .f32⟩ : BufTy).Contents (Elt F) :=
  addf (tailPosK (posK a1) (negK a2) (pp10K a3)) (tailNegK (posK a1) (negK a2) (pp4K a3))

/-! ## The buffer contents, stretch by stretch

`W` is what the buffers hold when the region is left. Each stretch's contents are read off the contents before it:
a buffer the stretch writes is its operations' term over what they read, any other buffer is kept. -/

/-- The literal tables the lines before the region wrote, as a fact about contents `W`. -/
structure Tabs (W : Valuation τ sig (Elt F)) : Prop where
  c : W (Proc.devRef .tc main_c) = fun i => lit0 (S80.rowMajor i)
  c_0 : W (Proc.devRef .tc main_c_0) = fun i => lit1 (S10.rowMajor i)
  c_1 : W (Proc.devRef .tc main_c_1) = constantI S10 1 0#1
  c_2 : W (Proc.devRef .tc main_c_2) = fun i => lit2 (S10.rowMajor i)
  c_3 : W (Proc.devRef .tc main_c_3) = constantI S10 1 0#1
  c_4 : W (Proc.devRef .tc main_c_4) = constantI S10 1 0#1
  c_5 : W (Proc.devRef .tc main_c_5) = constantI S10 1 0#1
  c_6 : W (Proc.devRef .tc main_c_6) = fun i => lit3 (S32.rowMajor i)
  c_7 : W (Proc.devRef .tc main_c_7) = fun i => lit4 (S4.rowMajor i)
  c_8 : W (Proc.devRef .tc main_c_8) = constantI S4 1 0#1
  c_9 : W (Proc.devRef .tc main_c_9) = fun i => lit5 (S4.rowMajor i)
  c_10 : W (Proc.devRef .tc main_c_10) = constantI S4 1 0#1
  c_11 : W (Proc.devRef .tc main_c_11) = constantI S4 1 0#1
  c_12 : W (Proc.devRef .tc main_c_12) = constantI S4 1 0#1

variable (W : Valuation τ sig (Elt F))

/-- The contents after the first stretch. -/
def val1 : Valuation τ sig (Elt F) := StableHlo.after hostOps1 W
/-- The buffers that stretch writes. -/
abbrev W1 : List (Ref sig .tc) :=
  [main_v2, main_v3, main_cst, main_v4, main_v5, main_v6, main_v7, main_v8, main_v9, main_v10, main_cst_13,
   main_v11, main_v12, main_v13, main_v14, main_v15, main_v16, main_cst_14, main_v17, main_v18, main_v19,
   main_v20, main_v21, main_cst_15, main_v22, main_cst_16, main_v23, main_v24, main_v25, main_cst_17, main_v26,
   main_cst_18, main_v27, main_v28, main_v29]
theorem writes1 : (hostOps1 : List (HloOp τ sig (Elt F))).Forall fun op => op.writes ⊆ (W1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer it does not write keeps its contents through it. -/
theorem val1_keep (r : Ref sig .tc) (h : r ∉ W1) : val1 W (Proc.devRef .tc r) = W (Proc.devRef .tc r) :=
  StableHlo.after_of_writes_sub hostOps1 _ writes1 h
theorem val1_c (hT : Tabs W) : val1 W (no_index (Proc.devRef .tc main_c)) = fun i => lit0 (S80.rowMajor i) :=
  (val1_keep W main_c (by decide)).trans (hT.c)
theorem val1_c_0 (hT : Tabs W) : val1 W (no_index (Proc.devRef .tc main_c_0)) = fun i => lit1 (S10.rowMajor i) :=
  (val1_keep W main_c_0 (by decide)).trans (hT.c_0)
theorem val1_c_1 (hT : Tabs W) : val1 W (no_index (Proc.devRef .tc main_c_1)) = constantI S10 1 0#1 :=
  (val1_keep W main_c_1 (by decide)).trans (hT.c_1)
theorem val1_c_2 (hT : Tabs W) : val1 W (no_index (Proc.devRef .tc main_c_2)) = fun i => lit2 (S10.rowMajor i) :=
  (val1_keep W main_c_2 (by decide)).trans (hT.c_2)
theorem val1_c_3 (hT : Tabs W) : val1 W (no_index (Proc.devRef .tc main_c_3)) = constantI S10 1 0#1 :=
  (val1_keep W main_c_3 (by decide)).trans (hT.c_3)
theorem val1_c_4 (hT : Tabs W) : val1 W (no_index (Proc.devRef .tc main_c_4)) = constantI S10 1 0#1 :=
  (val1_keep W main_c_4 (by decide)).trans (hT.c_4)
theorem val1_c_5 (hT : Tabs W) : val1 W (no_index (Proc.devRef .tc main_c_5)) = constantI S10 1 0#1 :=
  (val1_keep W main_c_5 (by decide)).trans (hT.c_5)
theorem val1_c_6 (hT : Tabs W) : val1 W (no_index (Proc.devRef .tc main_c_6)) = fun i => lit3 (S32.rowMajor i) :=
  (val1_keep W main_c_6 (by decide)).trans (hT.c_6)
theorem val1_c_7 (hT : Tabs W) : val1 W (no_index (Proc.devRef .tc main_c_7)) = fun i => lit4 (S4.rowMajor i) :=
  (val1_keep W main_c_7 (by decide)).trans (hT.c_7)
theorem val1_c_8 (hT : Tabs W) : val1 W (no_index (Proc.devRef .tc main_c_8)) = constantI S4 1 0#1 :=
  (val1_keep W main_c_8 (by decide)).trans (hT.c_8)
theorem val1_c_9 (hT : Tabs W) : val1 W (no_index (Proc.devRef .tc main_c_9)) = fun i => lit5 (S4.rowMajor i) :=
  (val1_keep W main_c_9 (by decide)).trans (hT.c_9)
theorem val1_c_10 (hT : Tabs W) : val1 W (no_index (Proc.devRef .tc main_c_10)) = constantI S4 1 0#1 :=
  (val1_keep W main_c_10 (by decide)).trans (hT.c_10)
theorem val1_c_11 (hT : Tabs W) : val1 W (no_index (Proc.devRef .tc main_c_11)) = constantI S4 1 0#1 :=
  (val1_keep W main_c_11 (by decide)).trans (hT.c_11)
theorem val1_c_12 (hT : Tabs W) : val1 W (no_index (Proc.devRef .tc main_c_12)) = constantI S4 1 0#1 :=
  (val1_keep W main_c_12 (by decide)).trans (hT.c_12)
theorem val1_v24 : val1 W (no_index (Proc.devRef .tc main_v24)) = posK (W (Proc.devRef .tc main_v1_0)) := by
  unfold val1
  simp only [hostOps1]
  after_results_simp
  all_goals rfl
theorem val1_v28 : val1 W (no_index (Proc.devRef .tc main_v28)) = negK (W (Proc.devRef .tc main_v1_1)) := by
  unfold val1
  simp only [hostOps1]
  after_results_simp
  all_goals rfl
theorem val1_v20 : val1 W (no_index (Proc.devRef .tc main_v20)) = gramK (W (Proc.devRef .tc main_v1_2)) := by
  unfold val1
  simp only [hostOps1]
  after_results_simp
  all_goals rfl
theorem val1_v29 : val1 W (no_index (Proc.devRef .tc main_v29)) = flatK (W (Proc.devRef .tc main_v1_2)) := by
  unfold val1
  simp only [hostOps1]
  after_results_simp
  all_goals rfl

/-- The contents after the second stretch. -/
def val2 : Valuation τ sig (Elt F) := StableHlo.after hostOps1_1 (val1 W)
/-- The buffers that stretch writes. -/
abbrev W2 : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_cst, main_call0_v14,
   main_v30]
theorem writes2 : (hostOps1_1 : List (HloOp τ sig (Elt F))).Forall fun op => op.writes ⊆ (W2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer it does not write keeps its contents through it. -/
theorem val2_keep (r : Ref sig .tc) (h : r ∉ W2) : val2 W (Proc.devRef .tc r) = (val1 W) (Proc.devRef .tc r) :=
  StableHlo.after_of_writes_sub hostOps1_1 _ writes2 h
theorem val2_v24 : val2 W (no_index (Proc.devRef .tc main_v24)) = posK (W (Proc.devRef .tc main_v1_0)) :=
  (val2_keep W main_v24 (by decide)).trans (val1_v24 W)
theorem val2_v28 : val2 W (no_index (Proc.devRef .tc main_v28)) = negK (W (Proc.devRef .tc main_v1_1)) :=
  (val2_keep W main_v28 (by decide)).trans (val1_v28 W)
theorem val2_v20 : val2 W (no_index (Proc.devRef .tc main_v20)) = gramK (W (Proc.devRef .tc main_v1_2)) :=
  (val2_keep W main_v20 (by decide)).trans (val1_v20 W)
theorem val2_c_0 (hT : Tabs W) : val2 W (no_index (Proc.devRef .tc main_c_0)) = fun i => lit1 (S10.rowMajor i) :=
  (val2_keep W main_c_0 (by decide)).trans (val1_c_0 W hT)
theorem val2_c_1 (hT : Tabs W) : val2 W (no_index (Proc.devRef .tc main_c_1)) = constantI S10 1 0#1 :=
  (val2_keep W main_c_1 (by decide)).trans (val1_c_1 W hT)
theorem val2_c_2 (hT : Tabs W) : val2 W (no_index (Proc.devRef .tc main_c_2)) = fun i => lit2 (S10.rowMajor i) :=
  (val2_keep W main_c_2 (by decide)).trans (val1_c_2 W hT)
theorem val2_c_3 (hT : Tabs W) : val2 W (no_index (Proc.devRef .tc main_c_3)) = constantI S10 1 0#1 :=
  (val2_keep W main_c_3 (by decide)).trans (val1_c_3 W hT)
theorem val2_c_4 (hT : Tabs W) : val2 W (no_index (Proc.devRef .tc main_c_4)) = constantI S10 1 0#1 :=
  (val2_keep W main_c_4 (by decide)).trans (val1_c_4 W hT)
theorem val2_c_5 (hT : Tabs W) : val2 W (no_index (Proc.devRef .tc main_c_5)) = constantI S10 1 0#1 :=
  (val2_keep W main_c_5 (by decide)).trans (val1_c_5 W hT)
theorem val2_c_6 (hT : Tabs W) : val2 W (no_index (Proc.devRef .tc main_c_6)) = fun i => lit3 (S32.rowMajor i) :=
  (val2_keep W main_c_6 (by decide)).trans (val1_c_6 W hT)
theorem val2_c_7 (hT : Tabs W) : val2 W (no_index (Proc.devRef .tc main_c_7)) = fun i => lit4 (S4.rowMajor i) :=
  (val2_keep W main_c_7 (by decide)).trans (val1_c_7 W hT)
theorem val2_c_8 (hT : Tabs W) : val2 W (no_index (Proc.devRef .tc main_c_8)) = constantI S4 1 0#1 :=
  (val2_keep W main_c_8 (by decide)).trans (val1_c_8 W hT)
theorem val2_c_9 (hT : Tabs W) : val2 W (no_index (Proc.devRef .tc main_c_9)) = fun i => lit5 (S4.rowMajor i) :=
  (val2_keep W main_c_9 (by decide)).trans (val1_c_9 W hT)
theorem val2_c_10 (hT : Tabs W) : val2 W (no_index (Proc.devRef .tc main_c_10)) = constantI S4 1 0#1 :=
  (val2_keep W main_c_10 (by decide)).trans (val1_c_10 W hT)
theorem val2_c_11 (hT : Tabs W) : val2 W (no_index (Proc.devRef .tc main_c_11)) = constantI S4 1 0#1 :=
  (val2_keep W main_c_11 (by decide)).trans (val1_c_11 W hT)
theorem val2_c_12 (hT : Tabs W) : val2 W (no_index (Proc.devRef .tc main_c_12)) = constantI S4 1 0#1 :=
  (val2_keep W main_c_12 (by decide)).trans (val1_c_12 W hT)
theorem val2_v30 (hT : Tabs W) : val2 W (no_index (Proc.devRef .tc main_v30)) = take80K (flatK (W (Proc.devRef .tc main_v1_2))) := by
  unfold val2
  simp only [hostOps1_1]
  after_results_simp
  simp only [val1_v29 W, val1_c W hT]
  simp only [StableHlo.TRef.ofBuf, StableHlo.TRef.toBuf, cast_eq]
  rfl

/-- The contents after the third stretch. -/
def val3 : Valuation τ sig (Elt F) := StableHlo.after hostOps1_2 (val2 W)
/-- The buffers that stretch writes. -/
abbrev W3 : List (Ref sig .tc) :=
  [main_v31, main_cst_19, main_v32, main_cst_20, main_v33, main_v34, main_c_21, main_v35, main_v36, main_v37,
   main_v38, main_v39, main_c_22, main_v40, main_v41, main_v42, main_v43, main_v44, main_c_23, main_v45, main_v46,
   main_v47, main_v48, main_v49, main_c_24, main_v50, main_v51, main_v52, main_v53, main_v54, main_v55, main_v56,
   main_cst_25, main_v57, main_v58, main_v59, main_v60, main_cst_26, main_v61, main_v62, main_v63, main_v64,
   main_v65, main_cst_27, main_v66, main_v67, main_v68, main_cst_28, main_v69, main_v70]
theorem writes3 : (hostOps1_2 : List (HloOp τ sig (Elt F))).Forall fun op => op.writes ⊆ (W3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer it does not write keeps its contents through it. -/
theorem val3_keep (r : Ref sig .tc) (h : r ∉ W3) : val3 W (Proc.devRef .tc r) = (val2 W) (Proc.devRef .tc r) :=
  StableHlo.after_of_writes_sub hostOps1_2 _ writes3 h
theorem val3_v24 : val3 W (no_index (Proc.devRef .tc main_v24)) = posK (W (Proc.devRef .tc main_v1_0)) :=
  (val3_keep W main_v24 (by decide)).trans (val2_v24 W)
theorem val3_v28 : val3 W (no_index (Proc.devRef .tc main_v28)) = negK (W (Proc.devRef .tc main_v1_1)) :=
  (val3_keep W main_v28 (by decide)).trans (val2_v28 W)
theorem val3_c_6 (hT : Tabs W) : val3 W (no_index (Proc.devRef .tc main_c_6)) = fun i => lit3 (S32.rowMajor i) :=
  (val3_keep W main_c_6 (by decide)).trans (val2_c_6 W hT)
theorem val3_c_7 (hT : Tabs W) : val3 W (no_index (Proc.devRef .tc main_c_7)) = fun i => lit4 (S4.rowMajor i) :=
  (val3_keep W main_c_7 (by decide)).trans (val2_c_7 W hT)
theorem val3_c_8 (hT : Tabs W) : val3 W (no_index (Proc.devRef .tc main_c_8)) = constantI S4 1 0#1 :=
  (val3_keep W main_c_8 (by decide)).trans (val2_c_8 W hT)
theorem val3_c_9 (hT : Tabs W) : val3 W (no_index (Proc.devRef .tc main_c_9)) = fun i => lit5 (S4.rowMajor i) :=
  (val3_keep W main_c_9 (by decide)).trans (val2_c_9 W hT)
theorem val3_c_10 (hT : Tabs W) : val3 W (no_index (Proc.devRef .tc main_c_10)) = constantI S4 1 0#1 :=
  (val3_keep W main_c_10 (by decide)).trans (val2_c_10 W hT)
theorem val3_c_11 (hT : Tabs W) : val3 W (no_index (Proc.devRef .tc main_c_11)) = constantI S4 1 0#1 :=
  (val3_keep W main_c_11 (by decide)).trans (val2_c_11 W hT)
theorem val3_c_12 (hT : Tabs W) : val3 W (no_index (Proc.devRef .tc main_c_12)) = constantI S4 1 0#1 :=
  (val3_keep W main_c_12 (by decide)).trans (val2_c_12 W hT)
theorem val3_v69 (hT : Tabs W) : val3 W (no_index (Proc.devRef .tc main_v69)) = tailPosK (posK (W (Proc.devRef .tc main_v1_0))) (negK (W (Proc.devRef .tc main_v1_1))) (pp10K (W (Proc.devRef .tc main_v1_2))) := by
  unfold val3
  simp only [hostOps1_2]
  after_results_simp
  simp only [val2_v24 W, val2_v28 W, val2_v30 W hT, val2_c_0 W hT, val2_c_1 W hT, val2_c_2 W hT, val2_c_3 W hT, val2_c_4 W hT, val2_c_5 W hT] <;> rfl
theorem val3_v70 : val3 W (no_index (Proc.devRef .tc main_v70)) = flatK (W (Proc.devRef .tc main_v1_2)) := by
  unfold val3
  simp only [hostOps1_2]
  after_results_simp
  simp only [val2_v20 W] <;> rfl

/-- The contents after the fourth stretch. -/
def val4 : Valuation τ sig (Elt F) := StableHlo.after hostOps1_3 (val3 W)
/-- The buffers that stretch writes. -/
abbrev W4 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_cst, main_call1_v14,
   main_v71]
theorem writes4 : (hostOps1_3 : List (HloOp τ sig (Elt F))).Forall fun op => op.writes ⊆ (W4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer it does not write keeps its contents through it. -/
theorem val4_keep (r : Ref sig .tc) (h : r ∉ W4) : val4 W (Proc.devRef .tc r) = (val3 W) (Proc.devRef .tc r) :=
  StableHlo.after_of_writes_sub hostOps1_3 _ writes4 h
theorem val4_v24 : val4 W (no_index (Proc.devRef .tc main_v24)) = posK (W (Proc.devRef .tc main_v1_0)) :=
  (val4_keep W main_v24 (by decide)).trans (val3_v24 W)
theorem val4_v28 : val4 W (no_index (Proc.devRef .tc main_v28)) = negK (W (Proc.devRef .tc main_v1_1)) :=
  (val4_keep W main_v28 (by decide)).trans (val3_v28 W)
theorem val4_v69 (hT : Tabs W) : val4 W (no_index (Proc.devRef .tc main_v69)) = tailPosK (posK (W (Proc.devRef .tc main_v1_0))) (negK (W (Proc.devRef .tc main_v1_1))) (pp10K (W (Proc.devRef .tc main_v1_2))) :=
  (val4_keep W main_v69 (by decide)).trans (val3_v69 W hT)
theorem val4_c_7 (hT : Tabs W) : val4 W (no_index (Proc.devRef .tc main_c_7)) = fun i => lit4 (S4.rowMajor i) :=
  (val4_keep W main_c_7 (by decide)).trans (val3_c_7 W hT)
theorem val4_c_8 (hT : Tabs W) : val4 W (no_index (Proc.devRef .tc main_c_8)) = constantI S4 1 0#1 :=
  (val4_keep W main_c_8 (by decide)).trans (val3_c_8 W hT)
theorem val4_c_9 (hT : Tabs W) : val4 W (no_index (Proc.devRef .tc main_c_9)) = fun i => lit5 (S4.rowMajor i) :=
  (val4_keep W main_c_9 (by decide)).trans (val3_c_9 W hT)
theorem val4_c_10 (hT : Tabs W) : val4 W (no_index (Proc.devRef .tc main_c_10)) = constantI S4 1 0#1 :=
  (val4_keep W main_c_10 (by decide)).trans (val3_c_10 W hT)
theorem val4_c_11 (hT : Tabs W) : val4 W (no_index (Proc.devRef .tc main_c_11)) = constantI S4 1 0#1 :=
  (val4_keep W main_c_11 (by decide)).trans (val3_c_11 W hT)
theorem val4_c_12 (hT : Tabs W) : val4 W (no_index (Proc.devRef .tc main_c_12)) = constantI S4 1 0#1 :=
  (val4_keep W main_c_12 (by decide)).trans (val3_c_12 W hT)
theorem val4_v71 (hT : Tabs W) : val4 W (no_index (Proc.devRef .tc main_v71)) = take32K (flatK (W (Proc.devRef .tc main_v1_2))) := by
  unfold val4
  simp only [hostOps1_3]
  after_results_simp
  simp only [val3_v70 W, val3_c_6 W hT]
  simp only [StableHlo.TRef.ofBuf, StableHlo.TRef.toBuf, cast_eq]
  rfl

/-- The contents after the fifth stretch. -/
def val5 : Valuation τ sig (Elt F) := StableHlo.after hostOps1_4 (val4 W)
/-- The buffers that stretch writes. -/
abbrev W5 : List (Ref sig .tc) :=
  [main_v72, main_cst_29, main_v73, main_cst_30, main_v74, main_v75, main_c_31, main_v76, main_v77, main_v78,
   main_v79, main_v80, main_c_32, main_v81, main_v82, main_v83, main_v84, main_v85, main_c_33, main_v86, main_v87,
   main_v88, main_v89, main_v90, main_c_34, main_v91, main_v92, main_v93, main_v94, main_v95, main_v96, main_v97,
   main_cst_35, main_v98, main_v99, main_v100, main_v101, main_cst_36, main_v102, main_v103, main_v104, main_v105,
   main_v106, main_cst_37, main_v107, main_v108, main_v109, main_cst_38, main_v110, main_v111]
theorem writes5 : (hostOps1_4 : List (HloOp τ sig (Elt F))).Forall fun op => op.writes ⊆ (W5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer it does not write keeps its contents through it. -/
theorem val5_keep (r : Ref sig .tc) (h : r ∉ W5) : val5 W (Proc.devRef .tc r) = (val4 W) (Proc.devRef .tc r) :=
  StableHlo.after_of_writes_sub hostOps1_4 _ writes5 h
theorem val5_v111 (hT : Tabs W) : val5 W (no_index (Proc.devRef .tc main_v111)) = tailOut (W (Proc.devRef .tc main_v1_0)) (W (Proc.devRef .tc main_v1_1)) (W (Proc.devRef .tc main_v1_2)) := by
  unfold val5
  simp only [hostOps1_4]
  after_results_simp
  simp only [val4_v69 W hT, val4_v24 W, val4_v28 W, val4_v71 W hT, val4_c_7 W hT, val4_c_8 W hT, val4_c_9 W hT, val4_c_10 W hT, val4_c_11 W hT, val4_c_12 W hT] <;> rfl

/-! ## The result -/

omit W in
/-- Five stretches in a row are run one after the other. -/
theorem after_flatten5 (l₁ l₂ l₃ l₄ l₅ : List (HloOp τ sig (Elt F))) (X : Valuation τ sig (Elt F)) :
    StableHlo.after (List.flatten [l₁, l₂, l₃, l₄, l₅]) X
      = StableHlo.after l₅ (StableHlo.after l₄ (StableHlo.after l₃ (StableHlo.after l₂ (StableHlo.after l₁ X)))) := by
  simp only [List.flatten_cons, List.flatten_nil, List.append_nil, StableHlo.after_append]

/-- After all the later lines the result buffer holds the two families' numbers added, over whatever contents hold the tables. -/
theorem tail_of (hT : Tabs W) :
    StableHlo.after (List.flatten tailOps) W (Proc.devRef .tc main_v111)
      = tailOut (W (Proc.devRef .tc main_v1_0)) (W (Proc.devRef .tc main_v1_1)) (W (Proc.devRef .tc main_v1_2)) := by
  rw [after_flatten5]
  exact val5_v111 W hT

omit W
theorem V0_c (c : Dev nD) : V0 m c (Proc.devRef .tc main_c) = fun i => lit0 (S80.rowMajor i) := by
  show StableHlo.after (List.flatten [hostOps0]) _ _ = _
  simp only [hostOps0, List.flatten_cons, List.flatten_nil, List.append_nil]
  after_results_simp <;> rfl
theorem V0_c_0 (c : Dev nD) : V0 m c (Proc.devRef .tc main_c_0) = fun i => lit1 (S10.rowMajor i) := by
  show StableHlo.after (List.flatten [hostOps0]) _ _ = _
  simp only [hostOps0, List.flatten_cons, List.flatten_nil, List.append_nil]
  after_results_simp <;> rfl
theorem V0_c_1 (c : Dev nD) : V0 m c (Proc.devRef .tc main_c_1) = constantI S10 1 0#1 := by
  show StableHlo.after (List.flatten [hostOps0]) _ _ = _
  simp only [hostOps0, List.flatten_cons, List.flatten_nil, List.append_nil]
  after_results_simp <;> rfl
theorem V0_c_2 (c : Dev nD) : V0 m c (Proc.devRef .tc main_c_2) = fun i => lit2 (S10.rowMajor i) := by
  show StableHlo.after (List.flatten [hostOps0]) _ _ = _
  simp only [hostOps0, List.flatten_cons, List.flatten_nil, List.append_nil]
  after_results_simp <;> rfl
theorem V0_c_3 (c : Dev nD) : V0 m c (Proc.devRef .tc main_c_3) = constantI S10 1 0#1 := by
  show StableHlo.after (List.flatten [hostOps0]) _ _ = _
  simp only [hostOps0, List.flatten_cons, List.flatten_nil, List.append_nil]
  after_results_simp <;> rfl
theorem V0_c_4 (c : Dev nD) : V0 m c (Proc.devRef .tc main_c_4) = constantI S10 1 0#1 := by
  show StableHlo.after (List.flatten [hostOps0]) _ _ = _
  simp only [hostOps0, List.flatten_cons, List.flatten_nil, List.append_nil]
  after_results_simp <;> rfl
theorem V0_c_5 (c : Dev nD) : V0 m c (Proc.devRef .tc main_c_5) = constantI S10 1 0#1 := by
  show StableHlo.after (List.flatten [hostOps0]) _ _ = _
  simp only [hostOps0, List.flatten_cons, List.flatten_nil, List.append_nil]
  after_results_simp <;> rfl
theorem V0_c_6 (c : Dev nD) : V0 m c (Proc.devRef .tc main_c_6) = fun i => lit3 (S32.rowMajor i) := by
  show StableHlo.after (List.flatten [hostOps0]) _ _ = _
  simp only [hostOps0, List.flatten_cons, List.flatten_nil, List.append_nil]
  after_results_simp <;> rfl
theorem V0_c_7 (c : Dev nD) : V0 m c (Proc.devRef .tc main_c_7) = fun i => lit4 (S4.rowMajor i) := by
  show StableHlo.after (List.flatten [hostOps0]) _ _ = _
  simp only [hostOps0, List.flatten_cons, List.flatten_nil, List.append_nil]
  after_results_simp <;> rfl
theorem V0_c_8 (c : Dev nD) : V0 m c (Proc.devRef .tc main_c_8) = constantI S4 1 0#1 := by
  show StableHlo.after (List.flatten [hostOps0]) _ _ = _
  simp only [hostOps0, List.flatten_cons, List.flatten_nil, List.append_nil]
  after_results_simp <;> rfl
theorem V0_c_9 (c : Dev nD) : V0 m c (Proc.devRef .tc main_c_9) = fun i => lit5 (S4.rowMajor i) := by
  show StableHlo.after (List.flatten [hostOps0]) _ _ = _
  simp only [hostOps0, List.flatten_cons, List.flatten_nil, List.append_nil]
  after_results_simp <;> rfl
theorem V0_c_10 (c : Dev nD) : V0 m c (Proc.devRef .tc main_c_10) = constantI S4 1 0#1 := by
  show StableHlo.after (List.flatten [hostOps0]) _ _ = _
  simp only [hostOps0, List.flatten_cons, List.flatten_nil, List.append_nil]
  after_results_simp <;> rfl
theorem V0_c_11 (c : Dev nD) : V0 m c (Proc.devRef .tc main_c_11) = constantI S4 1 0#1 := by
  show StableHlo.after (List.flatten [hostOps0]) _ _ = _
  simp only [hostOps0, List.flatten_cons, List.flatten_nil, List.append_nil]
  after_results_simp <;> rfl
theorem V0_c_12 (c : Dev nD) : V0 m c (Proc.devRef .tc main_c_12) = constantI S4 1 0#1 := by
  show StableHlo.after (List.flatten [hostOps0]) _ _ = _
  simp only [hostOps0, List.flatten_cons, List.flatten_nil, List.append_nil]
  after_results_simp <;> rfl

/-- The contents the region leaves hold the tables: they are the entry contents but at the region's four arrays. -/
theorem tabs_exit (dats : (p : Fin 1) → (c : Dev nD) → Dat τ (Elt F) Unit ℕ (UR sig nD τ) ℕ (cfgs p) c) (c : Dev nD) : Tabs (Pipeline.withArrays (cfgs 0).spec c (V0 m c) fun w => (dats 0 c).arrAt w (cfgs 0).N) where
  c := (Pipeline.withArrays_of_ne _ c (V0 m c) _ main_c (by exact (by decide : ∀ w, Pipeline.arrRef spec0 w ≠ main_c))).trans (V0_c m c)
  c_0 := (Pipeline.withArrays_of_ne _ c (V0 m c) _ main_c_0 (by exact (by decide : ∀ w, Pipeline.arrRef spec0 w ≠ main_c_0))).trans (V0_c_0 m c)
  c_1 := (Pipeline.withArrays_of_ne _ c (V0 m c) _ main_c_1 (by exact (by decide : ∀ w, Pipeline.arrRef spec0 w ≠ main_c_1))).trans (V0_c_1 m c)
  c_2 := (Pipeline.withArrays_of_ne _ c (V0 m c) _ main_c_2 (by exact (by decide : ∀ w, Pipeline.arrRef spec0 w ≠ main_c_2))).trans (V0_c_2 m c)
  c_3 := (Pipeline.withArrays_of_ne _ c (V0 m c) _ main_c_3 (by exact (by decide : ∀ w, Pipeline.arrRef spec0 w ≠ main_c_3))).trans (V0_c_3 m c)
  c_4 := (Pipeline.withArrays_of_ne _ c (V0 m c) _ main_c_4 (by exact (by decide : ∀ w, Pipeline.arrRef spec0 w ≠ main_c_4))).trans (V0_c_4 m c)
  c_5 := (Pipeline.withArrays_of_ne _ c (V0 m c) _ main_c_5 (by exact (by decide : ∀ w, Pipeline.arrRef spec0 w ≠ main_c_5))).trans (V0_c_5 m c)
  c_6 := (Pipeline.withArrays_of_ne _ c (V0 m c) _ main_c_6 (by exact (by decide : ∀ w, Pipeline.arrRef spec0 w ≠ main_c_6))).trans (V0_c_6 m c)
  c_7 := (Pipeline.withArrays_of_ne _ c (V0 m c) _ main_c_7 (by exact (by decide : ∀ w, Pipeline.arrRef spec0 w ≠ main_c_7))).trans (V0_c_7 m c)
  c_8 := (Pipeline.withArrays_of_ne _ c (V0 m c) _ main_c_8 (by exact (by decide : ∀ w, Pipeline.arrRef spec0 w ≠ main_c_8))).trans (V0_c_8 m c)
  c_9 := (Pipeline.withArrays_of_ne _ c (V0 m c) _ main_c_9 (by exact (by decide : ∀ w, Pipeline.arrRef spec0 w ≠ main_c_9))).trans (V0_c_9 m c)
  c_10 := (Pipeline.withArrays_of_ne _ c (V0 m c) _ main_c_10 (by exact (by decide : ∀ w, Pipeline.arrRef spec0 w ≠ main_c_10))).trans (V0_c_10 m c)
  c_11 := (Pipeline.withArrays_of_ne _ c (V0 m c) _ main_c_11 (by exact (by decide : ∀ w, Pipeline.arrRef spec0 w ≠ main_c_11))).trans (V0_c_11 m c)
  c_12 := (Pipeline.withArrays_of_ne _ c (V0 m c) _ main_c_12 (by exact (by decide : ∀ w, Pipeline.arrRef spec0 w ≠ main_c_12))).trans (V0_c_12 m c)

/-- The program's result buffer after the later lines, from the three arrays the region leaves. -/
theorem tail_result (dats : (p : Fin 1) → (c : Dev nD) → Dat τ (Elt F) Unit ℕ (UR sig nD τ) ℕ (cfgs p) c) (c : Dev nD) :
    Pipeline.afterTail₀ cfgs dats 0 (V0 m) tailOps c main_v111
      = tailOut ((dats 0 c).arrAt 1 cfg0.N) ((dats 0 c).arrAt 2 cfg0.N) ((dats 0 c).arrAt 3 cfg0.N) := by
  unfold Pipeline.afterTail₀
  refine (tail_of _ (tabs_exit m dats c)).trans ?_
  have h1 := Pipeline.withArrays_arr spec0 launch0.win.arr_inj c (V0 m c) (fun w => (dats 0 c).arrAt w cfg0.N) 1
  have h2 := Pipeline.withArrays_arr spec0 launch0.win.arr_inj c (V0 m c) (fun w => (dats 0 c).arrAt w cfg0.N) 2
  have h3 := Pipeline.withArrays_arr spec0 launch0.win.arr_inj c (V0 m c) (fun w => (dats 0 c).arrAt w cfg0.N) 3
  exact congr (congr (congrArg tailOut h1) h2) h3

end Cert.KernelIdeal.Fr

end
-- ==== Proof.KernelIdeal.Value.lean ====
/-
  The run of the column-statistics program with its result named: in every final state the scalar result buffer
  holds what the 179 host lines after the region compute from the region's three result arrays (the two
  16 x 128 arrays of column sums and the 256 x 128 array of Gram sums) as the pipeline's proof data leaves
  them, and both argument arrays end as launched.
-/
import proofs.«416933_j15582141350755_3_alg».proof.Proof.KernelIdeal.Frame
import proofs.«416933_j15582141350755_3_alg».proof.Proof.KernelIdeal.Tail

set_option maxRecDepth 16384

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- The frame run read at the result buffer and at the two argument arrays: all three bypass the region, so each ends
    at what the later lines leave in it. -/
theorem value_run : θ_run defs (onTc (τ := τ) (main (F := F))) ⟨m, fun _ => 0, ρ⟩ (fun r => ∀ c : Dev nD,
      r.2.mem ((c.tc : Thread nD τ).loc main_v111)
        = tailOut ((dats m 0 c).arrAt 1 cfg0.N) ((dats m 0 c).arrAt 2 cfg0.N) ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v111 (Pipeline.mem_restRefs_of main_v111 (by decide) (by decide))).trans (tail_result m (dats m) c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Fr

end
-- ==== Proof.Reference.Run.lean ====
/- The reference program's run.

   @main is a straight line of 203 host operations (the six calls of the outlined selects stand as the callee's three
   operations over the call's own buffers). This module lists them, in eight consecutive stretches, proves @main equal to
   their sequence, and reads the result buffer after the run as a closed pure term of the first argument's contents:

     pos x  = (sum over rows of (x ≥ 1/2 ? x : 0)) · 2⁻²²            (16 columns)
     neg x  = (sum over rows of (x ≥ 1/2 ? 0 : x)) · 2⁻²²            (16 columns)
     pp x   = (sum over rows of (x_a ≥ 1/2 ∧ x_b ≥ 1/2 ? x_a · x_b : 0)) · 2⁻²²   per column pair (a, b)
     out x  = Σ_pairs₁₀ [max(pos_a·pos_b − pp, 0) + max(neg_a·pos_b − pp, 0) + max(pos_a·neg_b − pp, 0)]
            + Σ_pairs₄  [max(pos_a·pos_b − pp, 0) + max(pp − neg_a·pos_b, 0) + max(pp − pos_a·neg_b, 0)]

   Each named function below is the composed term of the program's operations, with the program's literals and the
   column-index tables inlined; the sums over rows and the column gathers stay the library's opaque host operations. -/
import proofs.«416933_j15582141350755_3_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The pure functions -/

set_option maxRecDepth 8192 in
/-- Per column: the sum over the rows of the entries that are at least one half (the others counted as zero), times 2⁻²². -/
def posR (x : (⟨S4194304x16, .f32⟩ : BufTy).Contents (Elt F)) : (⟨S16, .f32⟩ : BufTy).Contents (Elt F) :=
  (mulf (Host.reduceAdd (select (cmpf (F := F) .oge x (broadcastInDim S4194304x16 ![] bcast_S_S4194304x16 (constant S_ .f32 0x3F000000#32 : (⟨S_, .f32⟩ : BufTy).Contents (Elt F)) : (⟨S4194304x16, .f32⟩ : BufTy).Contents (Elt F)) : (⟨S4194304x16, .i1⟩ : BufTy).Contents (Elt F)) x (broadcastInDim S4194304x16 ![] bcast_S_S4194304x16 (constant S_ .f32 0x00000000#32 : (⟨S_, .f32⟩ : BufTy).Contents (Elt F)) : (⟨S4194304x16, .f32⟩ : BufTy).Contents (Elt F)) : (⟨S4194304x16, .f32⟩ : BufTy).Contents (Elt F)) (constant S_ .f32 0x00000000#32 : (⟨S_, .f32⟩ : BufTy).Contents (Elt F)) reducesTo_S4194304x16_S16_d0 h_S_ : (⟨S16, .f32⟩ : BufTy).Contents (Elt F)) (broadcastInDim S16 ![] bcast_S_S16 (constant S_ .f32 0x34800000#32 : (⟨S_, .f32⟩ : BufTy).Contents (Elt F)) : (⟨S16, .f32⟩ : BufTy).Contents (Elt F)) : (⟨S16, .f32⟩ : BufTy).Contents (Elt F))

set_option maxRecDepth 8192 in
/-- Per column: the sum over the rows of the entries that are below one half (the others counted as zero), times 2⁻²². -/
def negR (x : (⟨S4194304x16, .f32⟩ : BufTy).Contents (Elt F)) : (⟨S16, .f32⟩ : BufTy).Contents (Elt F) :=
  (mulf (Host.reduceAdd (select (cmpf (F := F) .oge x (broadcastInDim S4194304x16 ![] bcast_S_S4194304x16 (constant S_ .f32 0x3F000000#32 : (⟨S_, .f32⟩ : BufTy).Contents (Elt F)) : (⟨S4194304x16, .f32⟩ : BufTy).Contents (Elt F)) : (⟨S4194304x16, .i1⟩ : BufTy).Contents (Elt F)) (broadcastInDim S4194304x16 ![] bcast_S_S4194304x16 (constant S_ .f32 0x00000000#32 : (⟨S_, .f32⟩ : BufTy).Contents (Elt F)) : (⟨S4194304x16, .f32⟩ : BufTy).Contents (Elt F)) x : (⟨S4194304x16, .f32⟩ : BufTy).Contents (Elt F)) (constant S_ .f32 0x00000000#32 : (⟨S_, .f32⟩ : BufTy).Contents (Elt F)) reducesTo_S4194304x16_S16_d0 h_S_ : (⟨S16, .f32⟩ : BufTy).Contents (Elt F)) (broadcastInDim S16 ![] bcast_S_S16 (constant S_ .f32 0x34800000#32 : (⟨S_, .f32⟩ : BufTy).Contents (Elt F)) : (⟨S16, .f32⟩ : BufTy).Contents (Elt F)) : (⟨S16, .f32⟩ : BufTy).Contents (Elt F))

set_option maxRecDepth 8192 in
/-- Per pair (a, b) of the ten column pairs (0,1) (2,5) (2,6) (5,6) (4,8) (6,11) (9,11) (9,14) (11,14) (13,14): the sum over the rows of x_a · x_b where both entries are at least one half (zero elsewhere), times 2⁻²². -/
def pp10R (x : (⟨S4194304x16, .f32⟩ : BufTy).Contents (Elt F)) : (⟨S10, .f32⟩ : BufTy).Contents (Elt F) :=
  (mulf (Host.reduceAdd (select (andi (cmpf (F := F) .oge (Host.gather gather_S4194304x16_S10x1_S4194304x10_0_1_n_n_1_1_41943041 x (broadcastInDim S10x1 ![0] bcast_S10_S10x1_0 (select (constantI S10 1 0#1 : (⟨S10, .i1⟩ : BufTy).Contents (Elt F)) (addi ((fun i => lit0 (S10.rowMajor i)) : (⟨S10, .i32⟩ : BufTy).Contents (Elt F)) (broadcastInDim S10 ![] bcast_S_S10 (constantI S_ 32 16#32 : (⟨S_, .i32⟩ : BufTy).Contents (Elt F)) : (⟨S10, .i32⟩ : BufTy).Contents (Elt F)) : (⟨S10, .i32⟩ : BufTy).Contents (Elt F)) ((fun i => lit0 (S10.rowMajor i)) : (⟨S10, .i32⟩ : BufTy).Contents (Elt F)) : (⟨S10, .i32⟩ : BufTy).Contents (Elt F)) : (⟨S10x1, .i32⟩ : BufTy).Contents (Elt F)) : (⟨S4194304x10, .f32⟩ : BufTy).Contents (Elt F)) (broadcastInDim S4194304x10 ![] bcast_S_S4194304x10 (constant S_ .f32 0x3F000000#32 : (⟨S_, .f32⟩ : BufTy).Contents (Elt F)) : (⟨S4194304x10, .f32⟩ : BufTy).Contents (Elt F)) : (⟨S4194304x10, .i1⟩ : BufTy).Contents (Elt F)) (cmpf (F := F) .oge (Host.gather gather_S4194304x16_S10x1_S4194304x10_0_1_n_n_1_1_41943041 x (broadcastInDim S10x1 ![0] bcast_S10_S10x1_0 (select (constantI S10 1 0#1 : (⟨S10, .i1⟩ : BufTy).Contents (Elt F)) (addi ((fun i => lit1 (S10.rowMajor i)) : (⟨S10, .i32⟩ : BufTy).Contents (Elt F)) (broadcastInDim S10 ![] bcast_S_S10 (constantI S_ 32 16#32 : (⟨S_, .i32⟩ : BufTy).Contents (Elt F)) : (⟨S10, .i32⟩ : BufTy).Contents (Elt F)) : (⟨S10, .i32⟩ : BufTy).Contents (Elt F)) ((fun i => lit1 (S10.rowMajor i)) : (⟨S10, .i32⟩ : BufTy).Contents (Elt F)) : (⟨S10, .i32⟩ : BufTy).Contents (Elt F)) : (⟨S10x1, .i32⟩ : BufTy).Contents (Elt F)) : (⟨S4194304x10, .f32⟩ : BufTy).Contents (Elt F)) (broadcastInDim S4194304x10 ![] bcast_S_S4194304x10 (constant S_ .f32 0x3F000000#32 : (⟨S_, .f32⟩ : BufTy).Contents (Elt F)) : (⟨S4194304x10, .f32⟩ : BufTy).Contents (Elt F)) : (⟨S4194304x10, .i1⟩ : BufTy).Contents (Elt F)) : (⟨S4194304x10, .i1⟩ : BufTy).Contents (Elt F)) (mulf (Host.gather gather_S4194304x16_S10x1_S4194304x10_0_1_n_n_1_1_41943041 x (broadcastInDim S10x1 ![0] bcast_S10_S10x1_0 (select (constantI S10 1 0#1 : (⟨S10, .i1⟩ : BufTy).Contents (Elt F)) (addi ((fun i => lit0 (S10.rowMajor i)) : (⟨S10, .i32⟩ : BufTy).Contents (Elt F)) (broadcastInDim S10 ![] bcast_S_S10 (constantI S_ 32 16#32 : (⟨S_, .i32⟩ : BufTy).Contents (Elt F)) : (⟨S10, .i32⟩ : BufTy).Contents (Elt F)) : (⟨S10, .i32⟩ : BufTy).Contents (Elt F)) ((fun i => lit0 (S10.rowMajor i)) : (⟨S10, .i32⟩ : BufTy).Contents (Elt F)) : (⟨S10, .i32⟩ : BufTy).Contents (Elt F)) : (⟨S10x1, .i32⟩ : BufTy).Contents (Elt F)) : (⟨S4194304x10, .f32⟩ : BufTy).Contents (Elt F)) (Host.gather gather_S4194304x16_S10x1_S4194304x10_0_1_n_n_1_1_41943041 x (broadcastInDim S10x1 ![0] bcast_S10_S10x1_0 (select (constantI S10 1 0#1 : (⟨S10, .i1⟩ : BufTy).Contents (Elt F)) (addi ((fun i => lit1 (S10.rowMajor i)) : (⟨S10, .i32⟩ : BufTy).Contents (Elt F)) (broadcastInDim S10 ![] bcast_S_S10 (constantI S_ 32 16#32 : (⟨S_, .i32⟩ : BufTy).Contents (Elt F)) : (⟨S10, .i32⟩ : BufTy).Contents (Elt F)) : (⟨S10, .i32⟩ : BufTy).Contents (Elt F)) ((fun i => lit1 (S10.rowMajor i)) : (⟨S10, .i32⟩ : BufTy).Contents (Elt F)) : (⟨S10, .i32⟩ : BufTy).Contents (Elt F)) : (⟨S10x1, .i32⟩ : BufTy).Contents (Elt F)) : (⟨S4194304x10, .f32⟩ : BufTy).Contents (Elt F)) : (⟨S4194304x10, .f32⟩ : BufTy).Contents (Elt F)) (broadcastInDim S4194304x10 ![] bcast_S_S4194304x10 (constant S_ .f32 0x00000000#32 : (⟨S_, .f32⟩ : BufTy).Contents (Elt F)) : (⟨S4194304x10, .f32⟩ : BufTy).Contents (Elt F)) : (⟨S4194304x10, .f32⟩ : BufTy).Contents (Elt F)) (constant S_ .f32 0x00000000#32 : (⟨S_, .f32⟩ : BufTy).Contents (Elt F)) reducesTo_S4194304x10_S10_d0 h_S_ : (⟨S10, .f32⟩ : BufTy).Contents (Elt F)) (broadcastInDim S10 ![] bcast_S_S10 (constant S_ .f32 0x34800000#32 : (⟨S_, .f32⟩ : BufTy).Contents (Elt F)) : (⟨S10, .f32⟩ : BufTy).Contents (Elt F)) : (⟨S10, .f32⟩ : BufTy).Contents (Elt F))

set_option maxRecDepth 8192 in
/-- Per pair (a, b) of the four column pairs (1,4) (1,5) (8,9) (8,11): the sum over the rows of x_a · x_b where both entries are at least one half (zero elsewhere), times 2⁻²². -/
def pp4R (x : (⟨S4194304x16, .f32⟩ : BufTy).Contents (Elt F)) : (⟨S4, .f32⟩ : BufTy).Contents (Elt F) :=
  (mulf (Host.reduceAdd (select (andi (cmpf (F := F) .oge (Host.gather gather_S4194304x16_S4x1_S4194304x4_0_1_n_n_1_1_41943041 x (broadcastInDim S4x1 ![0] bcast_S4_S4x1_0 (select (constantI S4 1 0#1 : (⟨S4, .i1⟩ : BufTy).Contents (Elt F)) (addi ((fun i => lit2 (S4.rowMajor i)) : (⟨S4, .i32⟩ : BufTy).Contents (Elt F)) (broadcastInDim S4 ![] bcast_S_S4 (constantI S_ 32 16#32 : (⟨S_, .i32⟩ : BufTy).Contents (Elt F)) : (⟨S4, .i32⟩ : BufTy).Contents (Elt F)) : (⟨S4, .i32⟩ : BufTy).Contents (Elt F)) ((fun i => lit2 (S4.rowMajor i)) : (⟨S4, .i32⟩ : BufTy).Contents (Elt F)) : (⟨S4, .i32⟩ : BufTy).Contents (Elt F)) : (⟨S4x1, .i32⟩ : BufTy).Contents (Elt F)) : (⟨S4194304x4, .f32⟩ : BufTy).Contents (Elt F)) (broadcastInDim S4194304x4 ![] bcast_S_S4194304x4 (constant S_ .f32 0x3F000000#32 : (⟨S_, .f32⟩ : BufTy).Contents (Elt F)) : (⟨S4194304x4, .f32⟩ : BufTy).Contents (Elt F)) : (⟨S4194304x4, .i1⟩ : BufTy).Contents (Elt F)) (cmpf (F := F) .oge (Host.gather gather_S4194304x16_S4x1_S4194304x4_0_1_n_n_1_1_41943041 x (broadcastInDim S4x1 ![0] bcast_S4_S4x1_0 (select (constantI S4 1 0#1 : (⟨S4, .i1⟩ : BufTy).Contents (Elt F)) (addi ((fun i => lit3 (S4.rowMajor i)) : (⟨S4, .i32⟩ : BufTy).Contents (Elt F)) (broadcastInDim S4 ![] bcast_S_S4 (constantI S_ 32 16#32 : (⟨S_, .i32⟩ : BufTy).Contents (Elt F)) : (⟨S4, .i32⟩ : BufTy).Contents (Elt F)) : (⟨S4, .i32⟩ : BufTy).Contents (Elt F)) ((fun i => lit3 (S4.rowMajor i)) : (⟨S4, .i32⟩ : BufTy).Contents (Elt F)) : (⟨S4, .i32⟩ : BufTy).Contents (Elt F)) : (⟨S4x1, .i32⟩ : BufTy).Contents (Elt F)) : (⟨S4194304x4, .f32⟩ : BufTy).Contents (Elt F)) (broadcastInDim S4194304x4 ![] bcast_S_S4194304x4 (constant S_ .f32 0x3F000000#32 : (⟨S_, .f32⟩ : BufTy).Contents (Elt F)) : (⟨S4194304x4, .f32⟩ : BufTy).Contents (Elt F)) : (⟨S4194304x4, .i1⟩ : BufTy).Contents (Elt F)) : (⟨S4194304x4, .i1⟩ : BufTy).Contents (Elt F)) (mulf (Host.gather gather_S4194304x16_S4x1_S4194304x4_0_1_n_n_1_1_41943041 x (broadcastInDim S4x1 ![0] bcast_S4_S4x1_0 (select (constantI S4 1 0#1 : (⟨S4, .i1⟩ : BufTy).Contents (Elt F)) (addi ((fun i => lit2 (S4.rowMajor i)) : (⟨S4, .i32⟩ : BufTy).Contents (Elt F)) (broadcastInDim S4 ![] bcast_S_S4 (constantI S_ 32 16#32 : (⟨S_, .i32⟩ : BufTy).Contents (Elt F)) : (⟨S4, .i32⟩ : BufTy).Contents (Elt F)) : (⟨S4, .i32⟩ : BufTy).Contents (Elt F)) ((fun i => lit2 (S4.rowMajor i)) : (⟨S4, .i32⟩ : BufTy).Contents (Elt F)) : (⟨S4, .i32⟩ : BufTy).Contents (Elt F)) : (⟨S4x1, .i32⟩ : BufTy).Contents (Elt F)) : (⟨S4194304x4, .f32⟩ : BufTy).Contents (Elt F)) (Host.gather gather_S4194304x16_S4x1_S4194304x4_0_1_n_n_1_1_41943041 x (broadcastInDim S4x1 ![0] bcast_S4_S4x1_0 (select (constantI S4 1 0#1 : (⟨S4, .i1⟩ : BufTy).Contents (Elt F)) (addi ((fun i => lit3 (S4.rowMajor i)) : (⟨S4, .i32⟩ : BufTy).Contents (Elt F)) (broadcastInDim S4 ![] bcast_S_S4 (constantI S_ 32 16#32 : (⟨S_, .i32⟩ : BufTy).Contents (Elt F)) : (⟨S4, .i32⟩ : BufTy).Contents (Elt F)) : (⟨S4, .i32⟩ : BufTy).Contents (Elt F)) ((fun i => lit3 (S4.rowMajor i)) : (⟨S4, .i32⟩ : BufTy).Contents (Elt F)) : (⟨S4, .i32⟩ : BufTy).Contents (Elt F)) : (⟨S4x1, .i32⟩ : BufTy).Contents (Elt F)) : (⟨S4194304x4, .f32⟩ : BufTy).Contents (Elt F)) : (⟨S4194304x4, .f32⟩ : BufTy).Contents (Elt F)) (broadcastInDim S4194304x4 ![] bcast_S_S4194304x4 (constant S_ .f32 0x00000000#32 : (⟨S_, .f32⟩ : BufTy).Contents (Elt F)) : (⟨S4194304x4, .f32⟩ : BufTy).Contents (Elt F)) : (⟨S4194304x4, .f32⟩ : BufTy).Contents (Elt F)) (constant S_ .f32 0x00000000#32 : (⟨S_, .f32⟩ : BufTy).Contents (Elt F)) reducesTo_S4194304x4_S4_d0 h_S_ : (⟨S4, .f32⟩ : BufTy).Contents (Elt F)) (broadcastInDim S4 ![] bcast_S_S4 (constant S_ .f32 0x34800000#32 : (⟨S_, .f32⟩ : BufTy).Contents (Elt F)) : (⟨S4, .f32⟩ : BufTy).Contents (Elt F)) : (⟨S4, .f32⟩ : BufTy).Contents (Elt F))

set_option maxRecDepth 8192 in
/-- Over the ten pairs (a, b): the sum of max(pos_a·pos_b − pp, 0) + max(neg_a·pos_b − pp, 0) + max(pos_a·neg_b − pp, 0). -/
def tailPosR (pos neg : (⟨S16, .f32⟩ : BufTy).Contents (Elt F)) (pp : (⟨S10, .f32⟩ : BufTy).Contents (Elt F)) : (⟨S_, .f32⟩ : BufTy).Contents (Elt F) :=
  (Host.reduceAdd (addf (addf (maximumf (subf (mulf (Host.gather gather_S16_S10x1_S10_n_0_n_n_0_1_1 pos (broadcastInDim S10x1 ![0] bcast_S10_S10x1_0 (select (constantI S10 1 0#1 : (⟨S10, .i1⟩ : BufTy).Contents (Elt F)) (addi ((fun i => lit0 (S10.rowMajor i)) : (⟨S10, .i32⟩ : BufTy).Contents (Elt F)) (broadcastInDim S10 ![] bcast_S_S10 (constantI S_ 32 16#32 : (⟨S_, .i32⟩ : BufTy).Contents (Elt F)) : (⟨S10, .i32⟩ : BufTy).Contents (Elt F)) : (⟨S10, .i32⟩ : BufTy).Contents (Elt F)) ((fun i => lit0 (S10.rowMajor i)) : (⟨S10, .i32⟩ : BufTy).Contents (Elt F)) : (⟨S10, .i32⟩ : BufTy).Contents (Elt F)) : (⟨S10x1, .i32⟩ : BufTy).Contents (Elt F)) : (⟨S10, .f32⟩ : BufTy).Contents (Elt F)) (Host.gather gather_S16_S10x1_S10_n_0_n_n_0_1_1 pos (broadcastInDim S10x1 ![0] bcast_S10_S10x1_0 (select (constantI S10 1 0#1 : (⟨S10, .i1⟩ : BufTy).Contents (Elt F)) (addi ((fun i => lit1 (S10.rowMajor i)) : (⟨S10, .i32⟩ : BufTy).Contents (Elt F)) (broadcastInDim S10 ![] bcast_S_S10 (constantI S_ 32 16#32 : (⟨S_, .i32⟩ : BufTy).Contents (Elt F)) : (⟨S10, .i32⟩ : BufTy).Contents (Elt F)) : (⟨S10, .i32⟩ : BufTy).Contents (Elt F)) ((fun i => lit1 (S10.rowMajor i)) : (⟨S10, .i32⟩ : BufTy).Contents (Elt F)) : (⟨S10, .i32⟩ : BufTy).Contents (Elt F)) : (⟨S10x1, .i32⟩ : BufTy).Contents (Elt F)) : (⟨S10, .f32⟩ : BufTy).Contents (Elt F)) : (⟨S10, .f32⟩ : BufTy).Contents (Elt F)) pp : (⟨S10, .f32⟩ : BufTy).Contents (Elt F)) (broadcastInDim S10 ![] bcast_S_S10 (constant S_ .f32 0x00000000#32 : (⟨S_, .f32⟩ : BufTy).Contents (Elt F)) : (⟨S10, .f32⟩ : BufTy).Contents (Elt F)) : (⟨S10, .f32⟩ : BufTy).Contents (Elt F)) (maximumf (subf (mulf (Host.gather gather_S16_S10x1_S10_n_0_n_n_0_1_1 neg (broadcastInDim S10x1 ![0] bcast_S10_S10x1_0 (select (constantI S10 1 0#1 : (⟨S10, .i1⟩ : BufTy).Contents (Elt F)) (addi ((fun i => lit0 (S10.rowMajor i)) : (⟨S10, .i32⟩ : BufTy).Contents (Elt F)) (broadcastInDim S10 ![] bcast_S_S10 (constantI S_ 32 16#32 : (⟨S_, .i32⟩ : BufTy).Contents (Elt F)) : (⟨S10, .i32⟩ : BufTy).Contents (Elt F)) : (⟨S10, .i32⟩ : BufTy).Contents (Elt F)) ((fun i => lit0 (S10.rowMajor i)) : (⟨S10, .i32⟩ : BufTy).Contents (Elt F)) : (⟨S10, .i32⟩ : BufTy).Contents (Elt F)) : (⟨S10x1, .i32⟩ : BufTy).Contents (Elt F)) : (⟨S10, .f32⟩ : BufTy).Contents (Elt F)) (Host.gather gather_S16_S10x1_S10_n_0_n_n_0_1_1 pos (broadcastInDim S10x1 ![0] bcast_S10_S10x1_0 (select (constantI S10 1 0#1 : (⟨S10, .i1⟩ : BufTy).Contents (Elt F)) (addi ((fun i => lit1 (S10.rowMajor i)) : (⟨S10, .i32⟩ : BufTy).Contents (Elt F)) (broadcastInDim S10 ![] bcast_S_S10 (constantI S_ 32 16#32 : (⟨S_, .i32⟩ : BufTy).Contents (Elt F)) : (⟨S10, .i32⟩ : BufTy).Contents (Elt F)) : (⟨S10, .i32⟩ : BufTy).Contents (Elt F)) ((fun i => lit1 (S10.rowMajor i)) : (⟨S10, .i32⟩ : BufTy).Contents (Elt F)) : (⟨S10, .i32⟩ : BufTy).Contents (Elt F)) : (⟨S10x1, .i32⟩ : BufTy).Contents (Elt F)) : (⟨S10, .f32⟩ : BufTy).Contents (Elt F)) : (⟨S10, .f32⟩ : BufTy).Contents (Elt F)) pp : (⟨S10, .f32⟩ : BufTy).Contents (Elt F)) (broadcastInDim S10 ![] bcast_S_S10 (constant S_ .f32 0x00000000#32 : (⟨S_, .f32⟩ : BufTy).Contents (Elt F)) : (⟨S10, .f32⟩ : BufTy).Contents (Elt F)) : (⟨S10, .f32⟩ : BufTy).Contents (Elt F)) : (⟨S10, .f32⟩ : BufTy).Contents (Elt F)) (maximumf (subf (mulf (Host.gather gather_S16_S10x1_S10_n_0_n_n_0_1_1 pos (broadcastInDim S10x1 ![0] bcast_S10_S10x1_0 (select (constantI S10 1 0#1 : (⟨S10, .i1⟩ : BufTy).Contents (Elt F)) (addi ((fun i => lit0 (S10.rowMajor i)) : (⟨S10, .i32⟩ : BufTy).Contents (Elt F)) (broadcastInDim S10 ![] bcast_S_S10 (constantI S_ 32 16#32 : (⟨S_, .i32⟩ : BufTy).Contents (Elt F)) : (⟨S10, .i32⟩ : BufTy).Contents (Elt F)) : (⟨S10, .i32⟩ : BufTy).Contents (Elt F)) ((fun i => lit0 (S10.rowMajor i)) : (⟨S10, .i32⟩ : BufTy).Contents (Elt F)) : (⟨S10, .i32⟩ : BufTy).Contents (Elt F)) : (⟨S10x1, .i32⟩ : BufTy).Contents (Elt F)) : (⟨S10, .f32⟩ : BufTy).Contents (Elt F)) (Host.gather gather_S16_S10x1_S10_n_0_n_n_0_1_1 neg (broadcastInDim S10x1 ![0] bcast_S10_S10x1_0 (select (constantI S10 1 0#1 : (⟨S10, .i1⟩ : BufTy).Contents (Elt F)) (addi ((fun i => lit1 (S10.rowMajor i)) : (⟨S10, .i32⟩ : BufTy).Contents (Elt F)) (broadcastInDim S10 ![] bcast_S_S10 (constantI S_ 32 16#32 : (⟨S_, .i32⟩ : BufTy).Contents (Elt F)) : (⟨S10, .i32⟩ : BufTy).Contents (Elt F)) : (⟨S10, .i32⟩ : BufTy).Contents (Elt F)) ((fun i => lit1 (S10.rowMajor i)) : (⟨S10, .i32⟩ : BufTy).Contents (Elt F)) : (⟨S10, .i32⟩ : BufTy).Contents (Elt F)) : (⟨S10x1, .i32⟩ : BufTy).Contents (Elt F)) : (⟨S10, .f32⟩ : BufTy).Contents (Elt F)) : (⟨S10, .f32⟩ : BufTy).Contents (Elt F)) pp : (⟨S10, .f32⟩ : BufTy).Contents (Elt F)) (broadcastInDim S10 ![] bcast_S_S10 (constant S_ .f32 0x00000000#32 : (⟨S_, .f32⟩ : BufTy).Contents (Elt F)) : (⟨S10, .f32⟩ : BufTy).Contents (Elt F)) : (⟨S10, .f32⟩ : BufTy).Contents (Elt F)) : (⟨S10, .f32⟩ : BufTy).Contents (Elt F)) (constant S_ .f32 0x00000000#32 : (⟨S_, .f32⟩ : BufTy).Contents (Elt F)) reducesTo_S10_S_d0 h_S_ : (⟨S_, .f32⟩ : BufTy).Contents (Elt F))

set_option maxRecDepth 8192 in
/-- Over the four pairs (a, b): the sum of max(pos_a·pos_b − pp, 0) + max(pp − neg_a·pos_b, 0) + max(pp − pos_a·neg_b, 0). -/
def tailNegR (pos neg : (⟨S16, .f32⟩ : BufTy).Contents (Elt F)) (pp : (⟨S4, .f32⟩ : BufTy).Contents (Elt F)) : (⟨S_, .f32⟩ : BufTy).Contents (Elt F) :=
  (Host.reduceAdd (addf (addf (maximumf (subf (mulf (Host.gather gather_S16_S4x1_S4_n_0_n_n_0_1_1 pos (broadcastInDim S4x1 ![0] bcast_S4_S4x1_0 (select (constantI S4 1 0#1 : (⟨S4, .i1⟩ : BufTy).Contents (Elt F)) (addi ((fun i => lit2 (S4.rowMajor i)) : (⟨S4, .i32⟩ : BufTy).Contents (Elt F)) (broadcastInDim S4 ![] bcast_S_S4 (constantI S_ 32 16#32 : (⟨S_, .i32⟩ : BufTy).Contents (Elt F)) : (⟨S4, .i32⟩ : BufTy).Contents (Elt F)) : (⟨S4, .i32⟩ : BufTy).Contents (Elt F)) ((fun i => lit2 (S4.rowMajor i)) : (⟨S4, .i32⟩ : BufTy).Contents (Elt F)) : (⟨S4, .i32⟩ : BufTy).Contents (Elt F)) : (⟨S4x1, .i32⟩ : BufTy).Contents (Elt F)) : (⟨S4, .f32⟩ : BufTy).Contents (Elt F)) (Host.gather gather_S16_S4x1_S4_n_0_n_n_0_1_1 pos (broadcastInDim S4x1 ![0] bcast_S4_S4x1_0 (select (constantI S4 1 0#1 : (⟨S4, .i1⟩ : BufTy).Contents (Elt F)) (addi ((fun i => lit3 (S4.rowMajor i)) : (⟨S4, .i32⟩ : BufTy).Contents (Elt F)) (broadcastInDim S4 ![] bcast_S_S4 (constantI S_ 32 16#32 : (⟨S_, .i32⟩ : BufTy).Contents (Elt F)) : (⟨S4, .i32⟩ : BufTy).Contents (Elt F)) : (⟨S4, .i32⟩ : BufTy).Contents (Elt F)) ((fun i => lit3 (S4.rowMajor i)) : (⟨S4, .i32⟩ : BufTy).Contents (Elt F)) : (⟨S4, .i32⟩ : BufTy).Contents (Elt F)) : (⟨S4x1, .i32⟩ : BufTy).Contents (Elt F)) : (⟨S4, .f32⟩ : BufTy).Contents (Elt F)) : (⟨S4, .f32⟩ : BufTy).Contents (Elt F)) pp : (⟨S4, .f32⟩ : BufTy).Contents (Elt F)) (broadcastInDim S4 ![] bcast_S_S4 (constant S_ .f32 0x00000000#32 : (⟨S_, .f32⟩ : BufTy).Contents (Elt F)) : (⟨S4, .f32⟩ : BufTy).Contents (Elt F)) : (⟨S4, .f32⟩ : BufTy).Contents (Elt F)) (maximumf (subf pp (mulf (Host.gather gather_S16_S4x1_S4_n_0_n_n_0_1_1 neg (broadcastInDim S4x1 ![0] bcast_S4_S4x1_0 (select (constantI S4 1 0#1 : (⟨S4, .i1⟩ : BufTy).Contents (Elt F)) (addi ((fun i => lit2 (S4.rowMajor i)) : (⟨S4, .i32⟩ : BufTy).Contents (Elt F)) (broadcastInDim S4 ![] bcast_S_S4 (constantI S_ 32 16#32 : (⟨S_, .i32⟩ : BufTy).Contents (Elt F)) : (⟨S4, .i32⟩ : BufTy).Contents (Elt F)) : (⟨S4, .i32⟩ : BufTy).Contents (Elt F)) ((fun i => lit2 (S4.rowMajor i)) : (⟨S4, .i32⟩ : BufTy).Contents (Elt F)) : (⟨S4, .i32⟩ : BufTy).Contents (Elt F)) : (⟨S4x1, .i32⟩ : BufTy).Contents (Elt F)) : (⟨S4, .f32⟩ : BufTy).Contents (Elt F)) (Host.gather gather_S16_S4x1_S4_n_0_n_n_0_1_1 pos (broadcastInDim S4x1 ![0] bcast_S4_S4x1_0 (select (constantI S4 1 0#1 : (⟨S4, .i1⟩ : BufTy).Contents (Elt F)) (addi ((fun i => lit3 (S4.rowMajor i)) : (⟨S4, .i32⟩ : BufTy).Contents (Elt F)) (broadcastInDim S4 ![] bcast_S_S4 (constantI S_ 32 16#32 : (⟨S_, .i32⟩ : BufTy).Contents (Elt F)) : (⟨S4, .i32⟩ : BufTy).Contents (Elt F)) : (⟨S4, .i32⟩ : BufTy).Contents (Elt F)) ((fun i => lit3 (S4.rowMajor i)) : (⟨S4, .i32⟩ : BufTy).Contents (Elt F)) : (⟨S4, .i32⟩ : BufTy).Contents (Elt F)) : (⟨S4x1, .i32⟩ : BufTy).Contents (Elt F)) : (⟨S4, .f32⟩ : BufTy).Contents (Elt F)) : (⟨S4, .f32⟩ : BufTy).Contents (Elt F)) : (⟨S4, .f32⟩ : BufTy).Contents (Elt F)) (broadcastInDim S4 ![] bcast_S_S4 (constant S_ .f32 0x00000000#32 : (⟨S_, .f32⟩ : BufTy).Contents (Elt F)) : (⟨S4, .f32⟩ : BufTy).Contents (Elt F)) : (⟨S4, .f32⟩ : BufTy).Contents (Elt F)) : (⟨S4, .f32⟩ : BufTy).Contents (Elt F)) (maximumf (subf pp (mulf (Host.gather gather_S16_S4x1_S4_n_0_n_n_0_1_1 pos (broadcastInDim S4x1 ![0] bcast_S4_S4x1_0 (select (constantI S4 1 0#1 : (⟨S4, .i1⟩ : BufTy).Contents (Elt F)) (addi ((fun i => lit2 (S4.rowMajor i)) : (⟨S4, .i32⟩ : BufTy).Contents (Elt F)) (broadcastInDim S4 ![] bcast_S_S4 (constantI S_ 32 16#32 : (⟨S_, .i32⟩ : BufTy).Contents (Elt F)) : (⟨S4, .i32⟩ : BufTy).Contents (Elt F)) : (⟨S4, .i32⟩ : BufTy).Contents (Elt F)) ((fun i => lit2 (S4.rowMajor i)) : (⟨S4, .i32⟩ : BufTy).Contents (Elt F)) : (⟨S4, .i32⟩ : BufTy).Contents (Elt F)) : (⟨S4x1, .i32⟩ : BufTy).Contents (Elt F)) : (⟨S4, .f32⟩ : BufTy).Contents (Elt F)) (Host.gather gather_S16_S4x1_S4_n_0_n_n_0_1_1 neg (broadcastInDim S4x1 ![0] bcast_S4_S4x1_0 (select (constantI S4 1 0#1 : (⟨S4, .i1⟩ : BufTy).Contents (Elt F)) (addi ((fun i => lit3 (S4.rowMajor i)) : (⟨S4, .i32⟩ : BufTy).Contents (Elt F)) (broadcastInDim S4 ![] bcast_S_S4 (constantI S_ 32 16#32 : (⟨S_, .i32⟩ : BufTy).Contents (Elt F)) : (⟨S4, .i32⟩ : BufTy).Contents (Elt F)) : (⟨S4, .i32⟩ : BufTy).Contents (Elt F)) ((fun i => lit3 (S4.rowMajor i)) : (⟨S4, .i32⟩ : BufTy).Contents (Elt F)) : (⟨S4, .i32⟩ : BufTy).Contents (Elt F)) : (⟨S4x1, .i32⟩ : BufTy).Contents (Elt F)) : (⟨S4, .f32⟩ : BufTy).Contents (Elt F)) : (⟨S4, .f32⟩ : BufTy).Contents (Elt F)) : (⟨S4, .f32⟩ : BufTy).Contents (Elt F)) (broadcastInDim S4 ![] bcast_S_S4 (constant S_ .f32 0x00000000#32 : (⟨S_, .f32⟩ : BufTy).Contents (Elt F)) : (⟨S4, .f32⟩ : BufTy).Contents (Elt F)) : (⟨S4, .f32⟩ : BufTy).Contents (Elt F)) : (⟨S4, .f32⟩ : BufTy).Contents (Elt F)) (constant S_ .f32 0x00000000#32 : (⟨S_, .f32⟩ : BufTy).Contents (Elt F)) reducesTo_S4_S_d0 h_S_ : (⟨S_, .f32⟩ : BufTy).Contents (Elt F))

/-- The program's result as a function of its first argument: the two sums over column pairs, added. -/
def refOut (x : (⟨S4194304x16, .f32⟩ : BufTy).Contents (Elt F)) : (⟨S_, .f32⟩ : BufTy).Contents (Elt F) :=
  (addf (tailPosR (posR x) (negR x) (pp10R x)) (tailNegR (posR x) (negR x) (pp4R x)) : (⟨S_, .f32⟩ : BufTy).Contents (Elt F))

/-! ## The operations -/

/-- Operations 1 … 16 of 203: the sixteen index and mask constants. -/
abbrev seg0 : List (HloOp τ sig (Elt F)) :=
  [ nullary main_c (fun i => lit0 (S10.rowMajor i)),
    nullary main_c_0 (constantI S10 1 0#1),
    nullary main_c_1 (fun i => lit1 (S10.rowMajor i)),
    nullary main_c_2 (constantI S10 1 0#1),
    nullary main_c_3 (constantI S10 1 0#1),
    nullary main_c_4 (constantI S10 1 0#1),
    nullary main_c_5 (constantI S10 1 0#1),
    nullary main_c_6 (constantI S10 1 0#1),
    nullary main_c_7 (fun i => lit2 (S4.rowMajor i)),
    nullary main_c_8 (constantI S4 1 0#1),
    nullary main_c_9 (fun i => lit3 (S4.rowMajor i)),
    nullary main_c_10 (constantI S4 1 0#1),
    nullary main_c_11 (constantI S4 1 0#1),
    nullary main_c_12 (constantI S4 1 0#1),
    nullary main_c_13 (constantI S4 1 0#1),
    nullary main_c_14 (constantI S4 1 0#1) ]

/-- Operations 17 … 37 of 203: the mask, the two masked row sums and their scaling (pos, neg). -/
abbrev seg1 : List (HloOp τ sig (Elt F)) :=
  [ nullary main_cst (constant S_ .f32 0x3F000000#32),
    unary main_cst main_v0 (broadcastInDim S4194304x16 ![] bcast_S_S4194304x16 : (⟨S_, .f32⟩ : BufTy).Contents (Elt F) → (⟨S4194304x16, .f32⟩ : BufTy).Contents (Elt F)),
    binary main_arg0 main_v0 main_v1 (cmpf .oge : (⟨S4194304x16, .f32⟩ : BufTy).Contents (Elt F) → (⟨S4194304x16, .f32⟩ : BufTy).Contents (Elt F) → (⟨S4194304x16, .i1⟩ : BufTy).Contents (Elt F)),
    nullary main_cst_15 (constant S_ .f32 0x00000000#32),
    unary main_cst_15 main_call0_v0 (id : (⟨S_, .f32⟩ : BufTy).Contents (Elt F) → (⟨S_, .f32⟩ : BufTy).Contents (Elt F)),
    unary main_call0_v0 main_call0_v1 (broadcastInDim S4194304x16 ![] bcast_S_S4194304x16 : (⟨S_, .f32⟩ : BufTy).Contents (Elt F) → (⟨S4194304x16, .f32⟩ : BufTy).Contents (Elt F)),
    ternary main_v1 main_arg0 main_call0_v1 main_v2 (select : (⟨S4194304x16, .i1⟩ : BufTy).Contents (Elt F) → (⟨S4194304x16, .f32⟩ : BufTy).Contents (Elt F) → (⟨S4194304x16, .f32⟩ : BufTy).Contents (Elt F) → (⟨S4194304x16, .f32⟩ : BufTy).Contents (Elt F)),
    nullary main_cst_16 (constant S_ .f32 0x00000000#32),
    binary main_v2 main_cst_16 main_v3 ((fun x v => Host.reduceAdd x v reducesTo_S4194304x16_S16_d0 h_S_) : (⟨S4194304x16, .f32⟩ : BufTy).Contents (Elt F) → (⟨S_, .f32⟩ : BufTy).Contents (Elt F) → (⟨S16, .f32⟩ : BufTy).Contents (Elt F)),
    nullary main_cst_17 (constant S_ .f32 0x34800000#32),
    unary main_cst_17 main_v4 (broadcastInDim S16 ![] bcast_S_S16 : (⟨S_, .f32⟩ : BufTy).Contents (Elt F) → (⟨S16, .f32⟩ : BufTy).Contents (Elt F)),
    binary main_v3 main_v4 main_v5 (mulf : (⟨S16, .f32⟩ : BufTy).Contents (Elt F) → (⟨S16, .f32⟩ : BufTy).Contents (Elt F) → (⟨S16, .f32⟩ : BufTy).Contents (Elt F)),
    nullary main_cst_18 (constant S_ .f32 0x00000000#32),
    unary main_cst_18 main_call1_v0 (id : (⟨S_, .f32⟩ : BufTy).Contents (Elt F) → (⟨S_, .f32⟩ : BufTy).Contents (Elt F)),
    unary main_call1_v0 main_call1_v1 (broadcastInDim S4194304x16 ![] bcast_S_S4194304x16 : (⟨S_, .f32⟩ : BufTy).Contents (Elt F) → (⟨S4194304x16, .f32⟩ : BufTy).Contents (Elt F)),
    ternary main_v1 main_call1_v1 main_arg0 main_v6 (select : (⟨S4194304x16, .i1⟩ : BufTy).Contents (Elt F) → (⟨S4194304x16, .f32⟩ : BufTy).Contents (Elt F) → (⟨S4194304x16, .f32⟩ : BufTy).Contents (Elt F) → (⟨S4194304x16, .f32⟩ : BufTy).Contents (Elt F)),
    nullary main_cst_19 (constant S_ .f32 0x00000000#32),
    binary main_v6 main_cst_19 main_v7 ((fun x v => Host.reduceAdd x v reducesTo_S4194304x16_S16_d0 h_S_) : (⟨S4194304x16, .f32⟩ : BufTy).Contents (Elt F) → (⟨S_, .f32⟩ : BufTy).Contents (Elt F) → (⟨S16, .f32⟩ : BufTy).Contents (Elt F)),
    nullary main_cst_20 (constant S_ .f32 0x34800000#32),
    unary main_cst_20 main_v8 (broadcastInDim S16 ![] bcast_S_S16 : (⟨S_, .f32⟩ : BufTy).Contents (Elt F) → (⟨S16, .f32⟩ : BufTy).Contents (Elt F)),
    binary main_v7 main_v8 main_v9 (mulf : (⟨S16, .f32⟩ : BufTy).Contents (Elt F) → (⟨S16, .f32⟩ : BufTy).Contents (Elt F) → (⟨S16, .f32⟩ : BufTy).Contents (Elt F)) ]

/-- Operations 38 … 66 of 203: the ten pairs' gathered columns, their joint mask, product, masked row sum and scaling. -/
abbrev seg2 : List (HloOp τ sig (Elt F)) :=
  [ nullary main_c_21 (constantI S_ 32 16#32),
    unary main_c_21 main_v10 (broadcastInDim S10 ![] bcast_S_S10 : (⟨S_, .i32⟩ : BufTy).Contents (Elt F) → (⟨S10, .i32⟩ : BufTy).Contents (Elt F)),
    binary main_c main_v10 main_v11 (addi : (⟨S10, .i32⟩ : BufTy).Contents (Elt F) → (⟨S10, .i32⟩ : BufTy).Contents (Elt F) → (⟨S10, .i32⟩ : BufTy).Contents (Elt F)),
    ternary main_c_0 main_v11 main_c main_v12 (select : (⟨S10, .i1⟩ : BufTy).Contents (Elt F) → (⟨S10, .i32⟩ : BufTy).Contents (Elt F) → (⟨S10, .i32⟩ : BufTy).Contents (Elt F) → (⟨S10, .i32⟩ : BufTy).Contents (Elt F)),
    unary main_v12 main_v13 (broadcastInDim S10x1 ![0] bcast_S10_S10x1_0 : (⟨S10, .i32⟩ : BufTy).Contents (Elt F) → (⟨S10x1, .i32⟩ : BufTy).Contents (Elt F)),
    binary main_arg0 main_v13 main_v14 ((fun x i => Host.gather gather_S4194304x16_S10x1_S4194304x10_0_1_n_n_1_1_41943041 x i) : (⟨S4194304x16, .f32⟩ : BufTy).Contents (Elt F) → (⟨S10x1, .i32⟩ : BufTy).Contents (Elt F) → (⟨S4194304x10, .f32⟩ : BufTy).Contents (Elt F)),
    nullary main_c_22 (constantI S_ 32 16#32),
    unary main_c_22 main_v15 (broadcastInDim S10 ![] bcast_S_S10 : (⟨S_, .i32⟩ : BufTy).Contents (Elt F) → (⟨S10, .i32⟩ : BufTy).Contents (Elt F)),
    binary main_c_1 main_v15 main_v16 (addi : (⟨S10, .i32⟩ : BufTy).Contents (Elt F) → (⟨S10, .i32⟩ : BufTy).Contents (Elt F) → (⟨S10, .i32⟩ : BufTy).Contents (Elt F)),
    ternary main_c_2 main_v16 main_c_1 main_v17 (select : (⟨S10, .i1⟩ : BufTy).Contents (Elt F) → (⟨S10, .i32⟩ : BufTy).Contents (Elt F) → (⟨S10, .i32⟩ : BufTy).Contents (Elt F) → (⟨S10, .i32⟩ : BufTy).Contents (Elt F)),
    unary main_v17 main_v18 (broadcastInDim S10x1 ![0] bcast_S10_S10x1_0 : (⟨S10, .i32⟩ : BufTy).Contents (Elt F) → (⟨S10x1, .i32⟩ : BufTy).Contents (Elt F)),
    binary main_arg0 main_v18 main_v19 ((fun x i => Host.gather gather_S4194304x16_S10x1_S4194304x10_0_1_n_n_1_1_41943041 x i) : (⟨S4194304x16, .f32⟩ : BufTy).Contents (Elt F) → (⟨S10x1, .i32⟩ : BufTy).Contents (Elt F) → (⟨S4194304x10, .f32⟩ : BufTy).Contents (Elt F)),
    nullary main_cst_23 (constant S_ .f32 0x3F000000#32),
    unary main_cst_23 main_v20 (broadcastInDim S4194304x10 ![] bcast_S_S4194304x10 : (⟨S_, .f32⟩ : BufTy).Contents (Elt F) → (⟨S4194304x10, .f32⟩ : BufTy).Contents (Elt F)),
    binary main_v14 main_v20 main_v21 (cmpf .oge : (⟨S4194304x10, .f32⟩ : BufTy).Contents (Elt F) → (⟨S4194304x10, .f32⟩ : BufTy).Contents (Elt F) → (⟨S4194304x10, .i1⟩ : BufTy).Contents (Elt F)),
    nullary main_cst_24 (constant S_ .f32 0x3F000000#32),
    unary main_cst_24 main_v22 (broadcastInDim S4194304x10 ![] bcast_S_S4194304x10 : (⟨S_, .f32⟩ : BufTy).Contents (Elt F) → (⟨S4194304x10, .f32⟩ : BufTy).Contents (Elt F)),
    binary main_v19 main_v22 main_v23 (cmpf .oge : (⟨S4194304x10, .f32⟩ : BufTy).Contents (Elt F) → (⟨S4194304x10, .f32⟩ : BufTy).Contents (Elt F) → (⟨S4194304x10, .i1⟩ : BufTy).Contents (Elt F)),
    binary main_v21 main_v23 main_v24 (andi : (⟨S4194304x10, .i1⟩ : BufTy).Contents (Elt F) → (⟨S4194304x10, .i1⟩ : BufTy).Contents (Elt F) → (⟨S4194304x10, .i1⟩ : BufTy).Contents (Elt F)),
    binary main_v14 main_v19 main_v25 (mulf : (⟨S4194304x10, .f32⟩ : BufTy).Contents (Elt F) → (⟨S4194304x10, .f32⟩ : BufTy).Contents (Elt F) → (⟨S4194304x10, .f32⟩ : BufTy).Contents (Elt F)),
    nullary main_cst_25 (constant S_ .f32 0x00000000#32),
    unary main_cst_25 main_call2_v0 (id : (⟨S_, .f32⟩ : BufTy).Contents (Elt F) → (⟨S_, .f32⟩ : BufTy).Contents (Elt F)),
    unary main_call2_v0 main_call2_v1 (broadcastInDim S4194304x10 ![] bcast_S_S4194304x10 : (⟨S_, .f32⟩ : BufTy).Contents (Elt F) → (⟨S4194304x10, .f32⟩ : BufTy).Contents (Elt F)),
    ternary main_v24 main_v25 main_call2_v1 main_v26 (select : (⟨S4194304x10, .i1⟩ : BufTy).Contents (Elt F) → (⟨S4194304x10, .f32⟩ : BufTy).Contents (Elt F) → (⟨S4194304x10, .f32⟩ : BufTy).Contents (Elt F) → (⟨S4194304x10, .f32⟩ : BufTy).Contents (Elt F)),
    nullary main_cst_26 (constant S_ .f32 0x00000000#32),
    binary main_v26 main_cst_26 main_v27 ((fun x v => Host.reduceAdd x v reducesTo_S4194304x10_S10_d0 h_S_) : (⟨S4194304x10, .f32⟩ : BufTy).Contents (Elt F) → (⟨S_, .f32⟩ : BufTy).Contents (Elt F) → (⟨S10, .f32⟩ : BufTy).Contents (Elt F)),
    nullary main_cst_27 (constant S_ .f32 0x34800000#32),
    unary main_cst_27 main_v28 (broadcastInDim S10 ![] bcast_S_S10 : (⟨S_, .f32⟩ : BufTy).Contents (Elt F) → (⟨S10, .f32⟩ : BufTy).Contents (Elt F)),
    binary main_v27 main_v28 main_v29 (mulf : (⟨S10, .f32⟩ : BufTy).Contents (Elt F) → (⟨S10, .f32⟩ : BufTy).Contents (Elt F) → (⟨S10, .f32⟩ : BufTy).Contents (Elt F)) ]

/-- Operations 67 … 109 of 203: the first sum over pairs. -/
abbrev seg3 : List (HloOp τ sig (Elt F)) :=
  [ nullary main_c_28 (constantI S_ 32 16#32),
    unary main_c_28 main_v30 (broadcastInDim S10 ![] bcast_S_S10 : (⟨S_, .i32⟩ : BufTy).Contents (Elt F) → (⟨S10, .i32⟩ : BufTy).Contents (Elt F)),
    binary main_c main_v30 main_v31 (addi : (⟨S10, .i32⟩ : BufTy).Contents (Elt F) → (⟨S10, .i32⟩ : BufTy).Contents (Elt F) → (⟨S10, .i32⟩ : BufTy).Contents (Elt F)),
    ternary main_c_3 main_v31 main_c main_v32 (select : (⟨S10, .i1⟩ : BufTy).Contents (Elt F) → (⟨S10, .i32⟩ : BufTy).Contents (Elt F) → (⟨S10, .i32⟩ : BufTy).Contents (Elt F) → (⟨S10, .i32⟩ : BufTy).Contents (Elt F)),
    unary main_v32 main_v33 (broadcastInDim S10x1 ![0] bcast_S10_S10x1_0 : (⟨S10, .i32⟩ : BufTy).Contents (Elt F) → (⟨S10x1, .i32⟩ : BufTy).Contents (Elt F)),
    binary main_v5 main_v33 main_v34 ((fun x i => Host.gather gather_S16_S10x1_S10_n_0_n_n_0_1_1 x i) : (⟨S16, .f32⟩ : BufTy).Contents (Elt F) → (⟨S10x1, .i32⟩ : BufTy).Contents (Elt F) → (⟨S10, .f32⟩ : BufTy).Contents (Elt F)),
    nullary main_c_29 (constantI S_ 32 16#32),
    unary main_c_29 main_v35 (broadcastInDim S10 ![] bcast_S_S10 : (⟨S_, .i32⟩ : BufTy).Contents (Elt F) → (⟨S10, .i32⟩ : BufTy).Contents (Elt F)),
    binary main_c_1 main_v35 main_v36 (addi : (⟨S10, .i32⟩ : BufTy).Contents (Elt F) → (⟨S10, .i32⟩ : BufTy).Contents (Elt F) → (⟨S10, .i32⟩ : BufTy).Contents (Elt F)),
    ternary main_c_4 main_v36 main_c_1 main_v37 (select : (⟨S10, .i1⟩ : BufTy).Contents (Elt F) → (⟨S10, .i32⟩ : BufTy).Contents (Elt F) → (⟨S10, .i32⟩ : BufTy).Contents (Elt F) → (⟨S10, .i32⟩ : BufTy).Contents (Elt F)),
    unary main_v37 main_v38 (broadcastInDim S10x1 ![0] bcast_S10_S10x1_0 : (⟨S10, .i32⟩ : BufTy).Contents (Elt F) → (⟨S10x1, .i32⟩ : BufTy).Contents (Elt F)),
    binary main_v5 main_v38 main_v39 ((fun x i => Host.gather gather_S16_S10x1_S10_n_0_n_n_0_1_1 x i) : (⟨S16, .f32⟩ : BufTy).Contents (Elt F) → (⟨S10x1, .i32⟩ : BufTy).Contents (Elt F) → (⟨S10, .f32⟩ : BufTy).Contents (Elt F)),
    nullary main_c_30 (constantI S_ 32 16#32),
    unary main_c_30 main_v40 (broadcastInDim S10 ![] bcast_S_S10 : (⟨S_, .i32⟩ : BufTy).Contents (Elt F) → (⟨S10, .i32⟩ : BufTy).Contents (Elt F)),
    binary main_c main_v40 main_v41 (addi : (⟨S10, .i32⟩ : BufTy).Contents (Elt F) → (⟨S10, .i32⟩ : BufTy).Contents (Elt F) → (⟨S10, .i32⟩ : BufTy).Contents (Elt F)),
    ternary main_c_5 main_v41 main_c main_v42 (select : (⟨S10, .i1⟩ : BufTy).Contents (Elt F) → (⟨S10, .i32⟩ : BufTy).Contents (Elt F) → (⟨S10, .i32⟩ : BufTy).Contents (Elt F) → (⟨S10, .i32⟩ : BufTy).Contents (Elt F)),
    unary main_v42 main_v43 (broadcastInDim S10x1 ![0] bcast_S10_S10x1_0 : (⟨S10, .i32⟩ : BufTy).Contents (Elt F) → (⟨S10x1, .i32⟩ : BufTy).Contents (Elt F)),
    binary main_v9 main_v43 main_v44 ((fun x i => Host.gather gather_S16_S10x1_S10_n_0_n_n_0_1_1 x i) : (⟨S16, .f32⟩ : BufTy).Contents (Elt F) → (⟨S10x1, .i32⟩ : BufTy).Contents (Elt F) → (⟨S10, .f32⟩ : BufTy).Contents (Elt F)),
    nullary main_c_31 (constantI S_ 32 16#32),
    unary main_c_31 main_v45 (broadcastInDim S10 ![] bcast_S_S10 : (⟨S_, .i32⟩ : BufTy).Contents (Elt F) → (⟨S10, .i32⟩ : BufTy).Contents (Elt F)),
    binary main_c_1 main_v45 main_v46 (addi : (⟨S10, .i32⟩ : BufTy).Contents (Elt F) → (⟨S10, .i32⟩ : BufTy).Contents (Elt F) → (⟨S10, .i32⟩ : BufTy).Contents (Elt F)),
    ternary main_c_6 main_v46 main_c_1 main_v47 (select : (⟨S10, .i1⟩ : BufTy).Contents (Elt F) → (⟨S10, .i32⟩ : BufTy).Contents (Elt F) → (⟨S10, .i32⟩ : BufTy).Contents (Elt F) → (⟨S10, .i32⟩ : BufTy).Contents (Elt F)),
    unary main_v47 main_v48 (broadcastInDim S10x1 ![0] bcast_S10_S10x1_0 : (⟨S10, .i32⟩ : BufTy).Contents (Elt F) → (⟨S10x1, .i32⟩ : BufTy).Contents (Elt F)),
    binary main_v9 main_v48 main_v49 ((fun x i => Host.gather gather_S16_S10x1_S10_n_0_n_n_0_1_1 x i) : (⟨S16, .f32⟩ : BufTy).Contents (Elt F) → (⟨S10x1, .i32⟩ : BufTy).Contents (Elt F) → (⟨S10, .f32⟩ : BufTy).Contents (Elt F)),
    binary main_v34 main_v39 main_v50 (mulf : (⟨S10, .f32⟩ : BufTy).Contents (Elt F) → (⟨S10, .f32⟩ : BufTy).Contents (Elt F) → (⟨S10, .f32⟩ : BufTy).Contents (Elt F)),
    binary main_v50 main_v29 main_v51 (subf : (⟨S10, .f32⟩ : BufTy).Contents (Elt F) → (⟨S10, .f32⟩ : BufTy).Contents (Elt F) → (⟨S10, .f32⟩ : BufTy).Contents (Elt F)),
    nullary main_cst_32 (constant S_ .f32 0x00000000#32),
    unary main_cst_32 main_v52 (broadcastInDim S10 ![] bcast_S_S10 : (⟨S_, .f32⟩ : BufTy).Contents (Elt F) → (⟨S10, .f32⟩ : BufTy).Contents (Elt F)),
    binary main_v51 main_v52 main_v53 (maximumf : (⟨S10, .f32⟩ : BufTy).Contents (Elt F) → (⟨S10, .f32⟩ : BufTy).Contents (Elt F) → (⟨S10, .f32⟩ : BufTy).Contents (Elt F)),
    binary main_v44 main_v39 main_v54 (mulf : (⟨S10, .f32⟩ : BufTy).Contents (Elt F) → (⟨S10, .f32⟩ : BufTy).Contents (Elt F) → (⟨S10, .f32⟩ : BufTy).Contents (Elt F)),
    binary main_v54 main_v29 main_v55 (subf : (⟨S10, .f32⟩ : BufTy).Contents (Elt F) → (⟨S10, .f32⟩ : BufTy).Contents (Elt F) → (⟨S10, .f32⟩ : BufTy).Contents (Elt F)),
    nullary main_cst_33 (constant S_ .f32 0x00000000#32),
    unary main_cst_33 main_v56 (broadcastInDim S10 ![] bcast_S_S10 : (⟨S_, .f32⟩ : BufTy).Contents (Elt F) → (⟨S10, .f32⟩ : BufTy).Contents (Elt F)),
    binary main_v55 main_v56 main_v57 (maximumf : (⟨S10, .f32⟩ : BufTy).Contents (Elt F) → (⟨S10, .f32⟩ : BufTy).Contents (Elt F) → (⟨S10, .f32⟩ : BufTy).Contents (Elt F)),
    binary main_v53 main_v57 main_v58 (addf : (⟨S10, .f32⟩ : BufTy).Contents (Elt F) → (⟨S10, .f32⟩ : BufTy).Contents (Elt F) → (⟨S10, .f32⟩ : BufTy).Contents (Elt F)),
    binary main_v34 main_v49 main_v59 (mulf : (⟨S10, .f32⟩ : BufTy).Contents (Elt F) → (⟨S10, .f32⟩ : BufTy).Contents (Elt F) → (⟨S10, .f32⟩ : BufTy).Contents (Elt F)),
    binary main_v59 main_v29 main_v60 (subf : (⟨S10, .f32⟩ : BufTy).Contents (Elt F) → (⟨S10, .f32⟩ : BufTy).Contents (Elt F) → (⟨S10, .f32⟩ : BufTy).Contents (Elt F)),
    nullary main_cst_34 (constant S_ .f32 0x00000000#32),
    unary main_cst_34 main_v61 (broadcastInDim S10 ![] bcast_S_S10 : (⟨S_, .f32⟩ : BufTy).Contents (Elt F) → (⟨S10, .f32⟩ : BufTy).Contents (Elt F)),
    binary main_v60 main_v61 main_v62 (maximumf : (⟨S10, .f32⟩ : BufTy).Contents (Elt F) → (⟨S10, .f32⟩ : BufTy).Contents (Elt F) → (⟨S10, .f32⟩ : BufTy).Contents (Elt F)),
    binary main_v58 main_v62 main_v63 (addf : (⟨S10, .f32⟩ : BufTy).Contents (Elt F) → (⟨S10, .f32⟩ : BufTy).Contents (Elt F) → (⟨S10, .f32⟩ : BufTy).Contents (Elt F)),
    nullary main_cst_35 (constant S_ .f32 0x00000000#32),
    binary main_v63 main_cst_35 main_v64 ((fun x v => Host.reduceAdd x v reducesTo_S10_S_d0 h_S_) : (⟨S10, .f32⟩ : BufTy).Contents (Elt F) → (⟨S_, .f32⟩ : BufTy).Contents (Elt F) → (⟨S_, .f32⟩ : BufTy).Contents (Elt F)) ]

/-- Operations 110 … 130 of 203: the mask and the two masked row sums again. -/
abbrev seg4 : List (HloOp τ sig (Elt F)) :=
  [ nullary main_cst_36 (constant S_ .f32 0x3F000000#32),
    unary main_cst_36 main_v65 (broadcastInDim S4194304x16 ![] bcast_S_S4194304x16 : (⟨S_, .f32⟩ : BufTy).Contents (Elt F) → (⟨S4194304x16, .f32⟩ : BufTy).Contents (Elt F)),
    binary main_arg0 main_v65 main_v66 (cmpf .oge : (⟨S4194304x16, .f32⟩ : BufTy).Contents (Elt F) → (⟨S4194304x16, .f32⟩ : BufTy).Contents (Elt F) → (⟨S4194304x16, .i1⟩ : BufTy).Contents (Elt F)),
    nullary main_cst_37 (constant S_ .f32 0x00000000#32),
    unary main_cst_37 main_call3_v0 (id : (⟨S_, .f32⟩ : BufTy).Contents (Elt F) → (⟨S_, .f32⟩ : BufTy).Contents (Elt F)),
    unary main_call3_v0 main_call3_v1 (broadcastInDim S4194304x16 ![] bcast_S_S4194304x16 : (⟨S_, .f32⟩ : BufTy).Contents (Elt F) → (⟨S4194304x16, .f32⟩ : BufTy).Contents (Elt F)),
    ternary main_v66 main_arg0 main_call3_v1 main_v67 (select : (⟨S4194304x16, .i1⟩ : BufTy).Contents (Elt F) → (⟨S4194304x16, .f32⟩ : BufTy).Contents (Elt F) → (⟨S4194304x16, .f32⟩ : BufTy).Contents (Elt F) → (⟨S4194304x16, .f32⟩ : BufTy).Contents (Elt F)),
    nullary main_cst_38 (constant S_ .f32 0x00000000#32),
    binary main_v67 main_cst_38 main_v68 ((fun x v => Host.reduceAdd x v reducesTo_S4194304x16_S16_d0 h_S_) : (⟨S4194304x16, .f32⟩ : BufTy).Contents (Elt F) → (⟨S_, .f32⟩ : BufTy).Contents (Elt F) → (⟨S16, .f32⟩ : BufTy).Contents (Elt F)),
    nullary main_cst_39 (constant S_ .f32 0x34800000#32),
    unary main_cst_39 main_v69 (broadcastInDim S16 ![] bcast_S_S16 : (⟨S_, .f32⟩ : BufTy).Contents (Elt F) → (⟨S16, .f32⟩ : BufTy).Contents (Elt F)),
    binary main_v68 main_v69 main_v70 (mulf : (⟨S16, .f32⟩ : BufTy).Contents (Elt F) → (⟨S16, .f32⟩ : BufTy).Contents (Elt F) → (⟨S16, .f32⟩ : BufTy).Contents (Elt F)),
    nullary main_cst_40 (constant S_ .f32 0x00000000#32),
    unary main_cst_40 main_call4_v0 (id : (⟨S_, .f32⟩ : BufTy).Contents (Elt F) → (⟨S_, .f32⟩ : BufTy).Contents (Elt F)),
    unary main_call4_v0 main_call4_v1 (broadcastInDim S4194304x16 ![] bcast_S_S4194304x16 : (⟨S_, .f32⟩ : BufTy).Contents (Elt F) → (⟨S4194304x16, .f32⟩ : BufTy).Contents (Elt F)),
    ternary main_v66 main_call4_v1 main_arg0 main_v71 (select : (⟨S4194304x16, .i1⟩ : BufTy).Contents (Elt F) → (⟨S4194304x16, .f32⟩ : BufTy).Contents (Elt F) → (⟨S4194304x16, .f32⟩ : BufTy).Contents (Elt F) → (⟨S4194304x16, .f32⟩ : BufTy).Contents (Elt F)),
    nullary main_cst_41 (constant S_ .f32 0x00000000#32),
    binary main_v71 main_cst_41 main_v72 ((fun x v => Host.reduceAdd x v reducesTo_S4194304x16_S16_d0 h_S_) : (⟨S4194304x16, .f32⟩ : BufTy).Contents (Elt F) → (⟨S_, .f32⟩ : BufTy).Contents (Elt F) → (⟨S16, .f32⟩ : BufTy).Contents (Elt F)),
    nullary main_cst_42 (constant S_ .f32 0x34800000#32),
    unary main_cst_42 main_v73 (broadcastInDim S16 ![] bcast_S_S16 : (⟨S_, .f32⟩ : BufTy).Contents (Elt F) → (⟨S16, .f32⟩ : BufTy).Contents (Elt F)),
    binary main_v72 main_v73 main_v74 (mulf : (⟨S16, .f32⟩ : BufTy).Contents (Elt F) → (⟨S16, .f32⟩ : BufTy).Contents (Elt F) → (⟨S16, .f32⟩ : BufTy).Contents (Elt F)) ]

/-- Operations 131 … 159 of 203: the four pairs' gathered columns, their joint mask, product, masked row sum and scaling. -/
abbrev seg5 : List (HloOp τ sig (Elt F)) :=
  [ nullary main_c_43 (constantI S_ 32 16#32),
    unary main_c_43 main_v75 (broadcastInDim S4 ![] bcast_S_S4 : (⟨S_, .i32⟩ : BufTy).Contents (Elt F) → (⟨S4, .i32⟩ : BufTy).Contents (Elt F)),
    binary main_c_7 main_v75 main_v76 (addi : (⟨S4, .i32⟩ : BufTy).Contents (Elt F) → (⟨S4, .i32⟩ : BufTy).Contents (Elt F) → (⟨S4, .i32⟩ : BufTy).Contents (Elt F)),
    ternary main_c_8 main_v76 main_c_7 main_v77 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v77 main_v78 (broadcastInDim S4x1 ![0] bcast_S4_S4x1_0 : (⟨S4, .i32⟩ : BufTy).Contents (Elt F) → (⟨S4x1, .i32⟩ : BufTy).Contents (Elt F)),
    binary main_arg0 main_v78 main_v79 ((fun x i => Host.gather gather_S4194304x16_S4x1_S4194304x4_0_1_n_n_1_1_41943041 x i) : (⟨S4194304x16, .f32⟩ : BufTy).Contents (Elt F) → (⟨S4x1, .i32⟩ : BufTy).Contents (Elt F) → (⟨S4194304x4, .f32⟩ : BufTy).Contents (Elt F)),
    nullary main_c_44 (constantI S_ 32 16#32),
    unary main_c_44 main_v80 (broadcastInDim S4 ![] bcast_S_S4 : (⟨S_, .i32⟩ : BufTy).Contents (Elt F) → (⟨S4, .i32⟩ : BufTy).Contents (Elt F)),
    binary main_c_9 main_v80 main_v81 (addi : (⟨S4, .i32⟩ : BufTy).Contents (Elt F) → (⟨S4, .i32⟩ : BufTy).Contents (Elt F) → (⟨S4, .i32⟩ : BufTy).Contents (Elt F)),
    ternary main_c_10 main_v81 main_c_9 main_v82 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v82 main_v83 (broadcastInDim S4x1 ![0] bcast_S4_S4x1_0 : (⟨S4, .i32⟩ : BufTy).Contents (Elt F) → (⟨S4x1, .i32⟩ : BufTy).Contents (Elt F)),
    binary main_arg0 main_v83 main_v84 ((fun x i => Host.gather gather_S4194304x16_S4x1_S4194304x4_0_1_n_n_1_1_41943041 x i) : (⟨S4194304x16, .f32⟩ : BufTy).Contents (Elt F) → (⟨S4x1, .i32⟩ : BufTy).Contents (Elt F) → (⟨S4194304x4, .f32⟩ : BufTy).Contents (Elt F)),
    nullary main_cst_45 (constant S_ .f32 0x3F000000#32),
    unary main_cst_45 main_v85 (broadcastInDim S4194304x4 ![] bcast_S_S4194304x4 : (⟨S_, .f32⟩ : BufTy).Contents (Elt F) → (⟨S4194304x4, .f32⟩ : BufTy).Contents (Elt F)),
    binary main_v79 main_v85 main_v86 (cmpf .oge : (⟨S4194304x4, .f32⟩ : BufTy).Contents (Elt F) → (⟨S4194304x4, .f32⟩ : BufTy).Contents (Elt F) → (⟨S4194304x4, .i1⟩ : BufTy).Contents (Elt F)),
    nullary main_cst_46 (constant S_ .f32 0x3F000000#32),
    unary main_cst_46 main_v87 (broadcastInDim S4194304x4 ![] bcast_S_S4194304x4 : (⟨S_, .f32⟩ : BufTy).Contents (Elt F) → (⟨S4194304x4, .f32⟩ : BufTy).Contents (Elt F)),
    binary main_v84 main_v87 main_v88 (cmpf .oge : (⟨S4194304x4, .f32⟩ : BufTy).Contents (Elt F) → (⟨S4194304x4, .f32⟩ : BufTy).Contents (Elt F) → (⟨S4194304x4, .i1⟩ : BufTy).Contents (Elt F)),
    binary main_v86 main_v88 main_v89 (andi : (⟨S4194304x4, .i1⟩ : BufTy).Contents (Elt F) → (⟨S4194304x4, .i1⟩ : BufTy).Contents (Elt F) → (⟨S4194304x4, .i1⟩ : BufTy).Contents (Elt F)),
    binary main_v79 main_v84 main_v90 (mulf : (⟨S4194304x4, .f32⟩ : BufTy).Contents (Elt F) → (⟨S4194304x4, .f32⟩ : BufTy).Contents (Elt F) → (⟨S4194304x4, .f32⟩ : BufTy).Contents (Elt F)),
    nullary main_cst_47 (constant S_ .f32 0x00000000#32),
    unary main_cst_47 main_call5_v0 (id : (⟨S_, .f32⟩ : BufTy).Contents (Elt F) → (⟨S_, .f32⟩ : BufTy).Contents (Elt F)),
    unary main_call5_v0 main_call5_v1 (broadcastInDim S4194304x4 ![] bcast_S_S4194304x4 : (⟨S_, .f32⟩ : BufTy).Contents (Elt F) → (⟨S4194304x4, .f32⟩ : BufTy).Contents (Elt F)),
    ternary main_v89 main_v90 main_call5_v1 main_v91 (select : (⟨S4194304x4, .i1⟩ : BufTy).Contents (Elt F) → (⟨S4194304x4, .f32⟩ : BufTy).Contents (Elt F) → (⟨S4194304x4, .f32⟩ : BufTy).Contents (Elt F) → (⟨S4194304x4, .f32⟩ : BufTy).Contents (Elt F)),
    nullary main_cst_48 (constant S_ .f32 0x00000000#32),
    binary main_v91 main_cst_48 main_v92 ((fun x v => Host.reduceAdd x v reducesTo_S4194304x4_S4_d0 h_S_) : (⟨S4194304x4, .f32⟩ : BufTy).Contents (Elt F) → (⟨S_, .f32⟩ : BufTy).Contents (Elt F) → (⟨S4, .f32⟩ : BufTy).Contents (Elt F)),
    nullary main_cst_49 (constant S_ .f32 0x34800000#32),
    unary main_cst_49 main_v93 (broadcastInDim S4 ![] bcast_S_S4 : (⟨S_, .f32⟩ : BufTy).Contents (Elt F) → (⟨S4, .f32⟩ : BufTy).Contents (Elt F)),
    binary main_v92 main_v93 main_v94 (mulf : (⟨S4, .f32⟩ : BufTy).Contents (Elt F) → (⟨S4, .f32⟩ : BufTy).Contents (Elt F) → (⟨S4, .f32⟩ : BufTy).Contents (Elt F)) ]

/-- Operations 160 … 192 of 203: the second sum over pairs, up to the last difference's zero. -/
abbrev seg6 : List (HloOp τ sig (Elt F)) :=
  [ nullary main_c_50 (constantI S_ 32 16#32),
    unary main_c_50 main_v95 (broadcastInDim S4 ![] bcast_S_S4 : (⟨S_, .i32⟩ : BufTy).Contents (Elt F) → (⟨S4, .i32⟩ : BufTy).Contents (Elt F)),
    binary main_c_7 main_v95 main_v96 (addi : (⟨S4, .i32⟩ : BufTy).Contents (Elt F) → (⟨S4, .i32⟩ : BufTy).Contents (Elt F) → (⟨S4, .i32⟩ : BufTy).Contents (Elt F)),
    ternary main_c_11 main_v96 main_c_7 main_v97 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v97 main_v98 (broadcastInDim S4x1 ![0] bcast_S4_S4x1_0 : (⟨S4, .i32⟩ : BufTy).Contents (Elt F) → (⟨S4x1, .i32⟩ : BufTy).Contents (Elt F)),
    binary main_v70 main_v98 main_v99 ((fun x i => Host.gather gather_S16_S4x1_S4_n_0_n_n_0_1_1 x i) : (⟨S16, .f32⟩ : BufTy).Contents (Elt F) → (⟨S4x1, .i32⟩ : BufTy).Contents (Elt F) → (⟨S4, .f32⟩ : BufTy).Contents (Elt F)),
    nullary main_c_51 (constantI S_ 32 16#32),
    unary main_c_51 main_v100 (broadcastInDim S4 ![] bcast_S_S4 : (⟨S_, .i32⟩ : BufTy).Contents (Elt F) → (⟨S4, .i32⟩ : BufTy).Contents (Elt F)),
    binary main_c_9 main_v100 main_v101 (addi : (⟨S4, .i32⟩ : BufTy).Contents (Elt F) → (⟨S4, .i32⟩ : BufTy).Contents (Elt F) → (⟨S4, .i32⟩ : BufTy).Contents (Elt F)),
    ternary main_c_12 main_v101 main_c_9 main_v102 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v102 main_v103 (broadcastInDim S4x1 ![0] bcast_S4_S4x1_0 : (⟨S4, .i32⟩ : BufTy).Contents (Elt F) → (⟨S4x1, .i32⟩ : BufTy).Contents (Elt F)),
    binary main_v70 main_v103 main_v104 ((fun x i => Host.gather gather_S16_S4x1_S4_n_0_n_n_0_1_1 x i) : (⟨S16, .f32⟩ : BufTy).Contents (Elt F) → (⟨S4x1, .i32⟩ : BufTy).Contents (Elt F) → (⟨S4, .f32⟩ : BufTy).Contents (Elt F)),
    nullary main_c_52 (constantI S_ 32 16#32),
    unary main_c_52 main_v105 (broadcastInDim S4 ![] bcast_S_S4 : (⟨S_, .i32⟩ : BufTy).Contents (Elt F) → (⟨S4, .i32⟩ : BufTy).Contents (Elt F)),
    binary main_c_7 main_v105 main_v106 (addi : (⟨S4, .i32⟩ : BufTy).Contents (Elt F) → (⟨S4, .i32⟩ : BufTy).Contents (Elt F) → (⟨S4, .i32⟩ : BufTy).Contents (Elt F)),
    ternary main_c_13 main_v106 main_c_7 main_v107 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v107 main_v108 (broadcastInDim S4x1 ![0] bcast_S4_S4x1_0 : (⟨S4, .i32⟩ : BufTy).Contents (Elt F) → (⟨S4x1, .i32⟩ : BufTy).Contents (Elt F)),
    binary main_v74 main_v108 main_v109 ((fun x i => Host.gather gather_S16_S4x1_S4_n_0_n_n_0_1_1 x i) : (⟨S16, .f32⟩ : BufTy).Contents (Elt F) → (⟨S4x1, .i32⟩ : BufTy).Contents (Elt F) → (⟨S4, .f32⟩ : BufTy).Contents (Elt F)),
    nullary main_c_53 (constantI S_ 32 16#32),
    unary main_c_53 main_v110 (broadcastInDim S4 ![] bcast_S_S4 : (⟨S_, .i32⟩ : BufTy).Contents (Elt F) → (⟨S4, .i32⟩ : BufTy).Contents (Elt F)),
    binary main_c_9 main_v110 main_v111 (addi : (⟨S4, .i32⟩ : BufTy).Contents (Elt F) → (⟨S4, .i32⟩ : BufTy).Contents (Elt F) → (⟨S4, .i32⟩ : BufTy).Contents (Elt F)),
    ternary main_c_14 main_v111 main_c_9 main_v112 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v112 main_v113 (broadcastInDim S4x1 ![0] bcast_S4_S4x1_0 : (⟨S4, .i32⟩ : BufTy).Contents (Elt F) → (⟨S4x1, .i32⟩ : BufTy).Contents (Elt F)),
    binary main_v74 main_v113 main_v114 ((fun x i => Host.gather gather_S16_S4x1_S4_n_0_n_n_0_1_1 x i) : (⟨S16, .f32⟩ : BufTy).Contents (Elt F) → (⟨S4x1, .i32⟩ : BufTy).Contents (Elt F) → (⟨S4, .f32⟩ : BufTy).Contents (Elt F)),
    binary main_v99 main_v104 main_v115 (mulf : (⟨S4, .f32⟩ : BufTy).Contents (Elt F) → (⟨S4, .f32⟩ : BufTy).Contents (Elt F) → (⟨S4, .f32⟩ : BufTy).Contents (Elt F)),
    binary main_v115 main_v94 main_v116 (subf : (⟨S4, .f32⟩ : BufTy).Contents (Elt F) → (⟨S4, .f32⟩ : BufTy).Contents (Elt F) → (⟨S4, .f32⟩ : BufTy).Contents (Elt F)),
    nullary main_cst_54 (constant S_ .f32 0x00000000#32),
    unary main_cst_54 main_v117 (broadcastInDim S4 ![] bcast_S_S4 : (⟨S_, .f32⟩ : BufTy).Contents (Elt F) → (⟨S4, .f32⟩ : BufTy).Contents (Elt F)),
    binary main_v116 main_v117 main_v118 (maximumf : (⟨S4, .f32⟩ : BufTy).Contents (Elt F) → (⟨S4, .f32⟩ : BufTy).Contents (Elt F) → (⟨S4, .f32⟩ : BufTy).Contents (Elt F)),
    binary main_v109 main_v104 main_v119 (mulf : (⟨S4, .f32⟩ : BufTy).Contents (Elt F) → (⟨S4, .f32⟩ : BufTy).Contents (Elt F) → (⟨S4, .f32⟩ : BufTy).Contents (Elt F)),
    binary main_v94 main_v119 main_v120 (subf : (⟨S4, .f32⟩ : BufTy).Contents (Elt F) → (⟨S4, .f32⟩ : BufTy).Contents (Elt F) → (⟨S4, .f32⟩ : BufTy).Contents (Elt F)),
    nullary main_cst_55 (constant S_ .f32 0x00000000#32),
    unary main_cst_55 main_v121 (broadcastInDim S4 ![] bcast_S_S4 : (⟨S_, .f32⟩ : BufTy).Contents (Elt F) → (⟨S4, .f32⟩ : BufTy).Contents (Elt F)) ]

/-- Operations 193 … 203 of 203: the second sum over pairs, its end, and the final addition. -/
abbrev seg7 : List (HloOp τ sig (Elt F)) :=
  [ binary main_v120 main_v121 main_v122 (maximumf : (⟨S4, .f32⟩ : BufTy).Contents (Elt F) → (⟨S4, .f32⟩ : BufTy).Contents (Elt F) → (⟨S4, .f32⟩ : BufTy).Contents (Elt F)),
    binary main_v118 main_v122 main_v123 (addf : (⟨S4, .f32⟩ : BufTy).Contents (Elt F) → (⟨S4, .f32⟩ : BufTy).Contents (Elt F) → (⟨S4, .f32⟩ : BufTy).Contents (Elt F)),
    binary main_v99 main_v114 main_v124 (mulf : (⟨S4, .f32⟩ : BufTy).Contents (Elt F) → (⟨S4, .f32⟩ : BufTy).Contents (Elt F) → (⟨S4, .f32⟩ : BufTy).Contents (Elt F)),
    binary main_v94 main_v124 main_v125 (subf : (⟨S4, .f32⟩ : BufTy).Contents (Elt F) → (⟨S4, .f32⟩ : BufTy).Contents (Elt F) → (⟨S4, .f32⟩ : BufTy).Contents (Elt F)),
    nullary main_cst_56 (constant S_ .f32 0x00000000#32),
    unary main_cst_56 main_v126 (broadcastInDim S4 ![] bcast_S_S4 : (⟨S_, .f32⟩ : BufTy).Contents (Elt F) → (⟨S4, .f32⟩ : BufTy).Contents (Elt F)),
    binary main_v125 main_v126 main_v127 (maximumf : (⟨S4, .f32⟩ : BufTy).Contents (Elt F) → (⟨S4, .f32⟩ : BufTy).Contents (Elt F) → (⟨S4, .f32⟩ : BufTy).Contents (Elt F)),
    binary main_v123 main_v127 main_v128 (addf : (⟨S4, .f32⟩ : BufTy).Contents (Elt F) → (⟨S4, .f32⟩ : BufTy).Contents (Elt F) → (⟨S4, .f32⟩ : BufTy).Contents (Elt F)),
    nullary main_cst_57 (constant S_ .f32 0x00000000#32),
    binary main_v128 main_cst_57 main_v129 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    binary main_v64 main_v129 main_v130 (addf : (⟨S_, .f32⟩ : BufTy).Contents (Elt F) → (⟨S_, .f32⟩ : BufTy).Contents (Elt F) → (⟨S_, .f32⟩ : BufTy).Contents (Elt F)) ]

/-- The operations of @main's four parts, and all of them. -/
def ops0 : List (HloOp τ sig (Elt F)) := seg0 ++ (seg1 ++ seg2)
def ops1 : List (HloOp τ sig (Elt F)) := seg3 ++ seg4
def ops2 : List (HloOp τ sig (Elt F)) := seg5 ++ seg6
def ops3 : List (HloOp τ sig (Elt F)) := seg7
def ops : List (HloOp τ sig (Elt F)) := ops0 ++ (ops1 ++ (ops2 ++ ops3))

/-! ## @main is their sequence -/

theorem main_part0_eq (c : Dev nD) : main_part0 (F := F) c = seq ops0 := by chain_rfl
theorem main_part1_eq (c : Dev nD) : main_part1 (F := F) c = seq ops1 := by chain_rfl
theorem main_part2_eq (c : Dev nD) : main_part2 (F := F) c = seq ops2 := by chain_rfl
theorem main_part3_eq (c : Dev nD) : main_part3 (F := F) c = seq ops3 := by chain_rfl

theorem main_eq (c : Dev nD) : main (F := F) c = seq ops := by
  rw [ops, seq_append, seq_append, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only and determines its results -/

set_option maxRecDepth 8192 in
theorem seg0_sub : (seg0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub ..⟩
set_option maxRecDepth 8192 in
theorem seg0_fresh : (seg0 : List (HloOp τ sig (Elt F))).Forall fun op => op.fresh = ∅ :=
  ⟨rfl, rfl, rfl, rfl, rfl, rfl, rfl, rfl, rfl, rfl, rfl, rfl, rfl, rfl, rfl, rfl⟩

set_option maxRecDepth 8192 in
theorem seg1_sub : (seg1 : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub ..⟩
set_option maxRecDepth 8192 in
theorem seg1_fresh : (seg1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

set_option maxRecDepth 8192 in
theorem seg2_sub : (seg2 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., unary_bufs_sub .., ternary_bufs_sub .., nullary_bufs_sub .., binary_bufs_sub .., nullary_bufs_sub .., unary_bufs_sub .., binary_bufs_sub ..⟩
set_option maxRecDepth 8192 in
theorem seg2_fresh : (seg2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem seg3_sub : (seg3 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., nullary_bufs_sub .., binary_bufs_sub ..⟩
set_option maxRecDepth 8192 in
theorem seg3_fresh : (seg3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem seg4_sub : (seg4 : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub ..⟩
set_option maxRecDepth 8192 in
theorem seg4_fresh : (seg4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

set_option maxRecDepth 8192 in
theorem seg5_sub : (seg5 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., unary_bufs_sub .., ternary_bufs_sub .., nullary_bufs_sub .., binary_bufs_sub .., nullary_bufs_sub .., unary_bufs_sub .., binary_bufs_sub ..⟩
set_option maxRecDepth 8192 in
theorem seg5_fresh : (seg5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem seg6_sub : (seg6 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub ..⟩
set_option maxRecDepth 8192 in
theorem seg6_fresh : (seg6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem seg7_sub : (seg7 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., binary_bufs_sub .., nullary_bufs_sub .., binary_bufs_sub .., binary_bufs_sub ..⟩
set_option maxRecDepth 8192 in
theorem seg7_fresh : (seg7 : List (HloOp τ sig (Elt F))).Forall fun op => op.fresh = ∅ :=
  ⟨rfl, rfl, rfl, rfl, rfl, rfl, rfl, rfl, rfl, rfl, rfl⟩

theorem ops_sub : (ops : List (HloOp τ sig (Elt F))).Forall fun op => op.bufs ⊆ tcRefs τ sig :=
  List.forall_iff_forall_mem.mpr fun op h => by
    simp only [ops, ops0, ops1, ops2, ops3, List.mem_append] at h
    rcases h with (h | h | h) | (h | h) | (h | h) | h
    exacts [List.forall_iff_forall_mem.mp seg0_sub op h, List.forall_iff_forall_mem.mp seg1_sub op h, List.forall_iff_forall_mem.mp seg2_sub op h, List.forall_iff_forall_mem.mp seg3_sub op h, List.forall_iff_forall_mem.mp seg4_sub op h, List.forall_iff_forall_mem.mp seg5_sub op h, List.forall_iff_forall_mem.mp seg6_sub op h, List.forall_iff_forall_mem.mp seg7_sub op h]

theorem ops_fresh : ∀ op ∈ (ops : List (HloOp τ sig (Elt F))), op.fresh = ∅ := fun op h => by
  simp only [ops, ops0, ops1, ops2, ops3, List.mem_append] at h
  rcases h with (h | h | h) | (h | h) | (h | h) | h
  exacts [List.forall_iff_forall_mem.mp seg0_fresh op h, List.forall_iff_forall_mem.mp seg1_fresh op h, List.forall_iff_forall_mem.mp seg2_fresh op h, List.forall_iff_forall_mem.mp seg3_fresh op h, List.forall_iff_forall_mem.mp seg4_fresh op h, List.forall_iff_forall_mem.mp seg5_fresh op h, List.forall_iff_forall_mem.mp seg6_fresh op h, List.forall_iff_forall_mem.mp seg7_fresh op h]

/-! ## What each stretch writes, and what it keeps -/

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The buffers stretch 0 writes. -/
abbrev seg0_W : List (Ref sig .tc) := [main_c, main_c_0, main_c_1, main_c_2, main_c_3, main_c_4, main_c_5, main_c_6, main_c_7, main_c_8, main_c_9, main_c_10, main_c_11, main_c_12, main_c_13, main_c_14]
set_option maxRecDepth 8192 in
theorem seg0_writes : (seg0 : List (HloOp τ sig (Elt F))).Forall fun op => op.writes ⊆ (seg0_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- The buffers stretch 1 writes. -/
abbrev seg1_W : List (Ref sig .tc) := [main_cst, main_v0, main_v1, main_cst_15, main_call0_v0, main_call0_v1, main_v2, main_cst_16, main_v3, main_cst_17, main_v4, main_v5, main_cst_18, main_call1_v0, main_call1_v1, main_v6, main_cst_19, main_v7, main_cst_20, main_v8, main_v9]
set_option maxRecDepth 8192 in
theorem seg1_writes : (seg1 : List (HloOp τ sig (Elt F))).Forall fun op => op.writes ⊆ (seg1_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- The buffers stretch 2 writes. -/
abbrev seg2_W : List (Ref sig .tc) := [main_c_21, main_v10, main_v11, main_v12, main_v13, main_v14, main_c_22, main_v15, main_v16, main_v17, main_v18, main_v19, main_cst_23, main_v20, main_v21, main_cst_24, main_v22, main_v23, main_v24, main_v25, main_cst_25, main_call2_v0, main_call2_v1, main_v26, main_cst_26, main_v27, main_cst_27, main_v28, main_v29]
set_option maxRecDepth 8192 in
theorem seg2_writes : (seg2 : List (HloOp τ sig (Elt F))).Forall fun op => op.writes ⊆ (seg2_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- The buffers stretch 3 writes. -/
abbrev seg3_W : List (Ref sig .tc) := [main_c_28, main_v30, main_v31, main_v32, main_v33, main_v34, main_c_29, main_v35, main_v36, main_v37, main_v38, main_v39, main_c_30, main_v40, main_v41, main_v42, main_v43, main_v44, main_c_31, main_v45, main_v46, main_v47, main_v48, main_v49, main_v50, main_v51, main_cst_32, main_v52, main_v53, main_v54, main_v55, main_cst_33, main_v56, main_v57, main_v58, main_v59, main_v60, main_cst_34, main_v61, main_v62, main_v63, main_cst_35, main_v64]
set_option maxRecDepth 8192 in
theorem seg3_writes : (seg3 : List (HloOp τ sig (Elt F))).Forall fun op => op.writes ⊆ (seg3_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- The buffers stretch 4 writes. -/
abbrev seg4_W : List (Ref sig .tc) := [main_cst_36, main_v65, main_v66, main_cst_37, main_call3_v0, main_call3_v1, main_v67, main_cst_38, main_v68, main_cst_39, main_v69, main_v70, main_cst_40, main_call4_v0, main_call4_v1, main_v71, main_cst_41, main_v72, main_cst_42, main_v73, main_v74]
set_option maxRecDepth 8192 in
theorem seg4_writes : (seg4 : List (HloOp τ sig (Elt F))).Forall fun op => op.writes ⊆ (seg4_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- The buffers stretch 5 writes. -/
abbrev seg5_W : List (Ref sig .tc) := [main_c_43, main_v75, main_v76, main_v77, main_v78, main_v79, main_c_44, main_v80, main_v81, main_v82, main_v83, main_v84, main_cst_45, main_v85, main_v86, main_cst_46, main_v87, main_v88, main_v89, main_v90, main_cst_47, main_call5_v0, main_call5_v1, main_v91, main_cst_48, main_v92, main_cst_49, main_v93, main_v94]
set_option maxRecDepth 8192 in
theorem seg5_writes : (seg5 : List (HloOp τ sig (Elt F))).Forall fun op => op.writes ⊆ (seg5_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- The buffers stretch 6 writes. -/
abbrev seg6_W : List (Ref sig .tc) := [main_c_50, main_v95, main_v96, main_v97, main_v98, main_v99, main_c_51, main_v100, main_v101, main_v102, main_v103, main_v104, main_c_52, main_v105, main_v106, main_v107, main_v108, main_v109, main_c_53, main_v110, main_v111, main_v112, main_v113, main_v114, main_v115, main_v116, main_cst_54, main_v117, main_v118, main_v119, main_v120, main_cst_55, main_v121]
set_option maxRecDepth 8192 in
theorem seg6_writes : (seg6 : List (HloOp τ sig (Elt F))).Forall fun op => op.writes ⊆ (seg6_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- The buffers stretch 7 writes. -/
abbrev seg7_W : List (Ref sig .tc) := [main_v122, main_v123, main_v124, main_v125, main_cst_56, main_v126, main_v127, main_v128, main_cst_57, main_v129, main_v130]
set_option maxRecDepth 8192 in
theorem seg7_writes : (seg7 : List (HloOp τ sig (Elt F))).Forall fun op => op.writes ⊆ (seg7_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-! ## The buffers' contents after each stretch, from any contents `V` -/

/-- The contents after stretches 0 … 0. -/
def val0 (V : Valuation τ sig (Elt F)) : Valuation τ sig (Elt F) := after seg0 V
theorem val0_keep (V : Valuation τ sig (Elt F)) (r : Ref sig .tc) (h : r ∉ seg0_W) :
    val0 V (Proc.devRef .tc r) = V (Proc.devRef .tc r) :=
  after_of_writes_sub seg0 _ seg0_writes h
theorem val0_main_arg0 (V : Valuation τ sig (Elt F)) : val0 V (no_index (Proc.devRef .tc main_arg0)) = (V (Proc.devRef .tc main_arg0)) :=
  val0_keep V main_arg0 (by decide)
theorem val0_main_arg1 (V : Valuation τ sig (Elt F)) : val0 V (no_index (Proc.devRef .tc main_arg1)) = (V (Proc.devRef .tc main_arg1)) :=
  val0_keep V main_arg1 (by decide)
set_option maxRecDepth 8192 in
set_option maxHeartbeats 1600000 in
theorem val0_main_c (V : Valuation τ sig (Elt F)) : val0 V (no_index (Proc.devRef .tc main_c)) = ((fun i => lit0 (S10.rowMajor i)) : (⟨S10, .i32⟩ : BufTy).Contents (Elt F)) := by
  unfold val0
  simp only [seg0]
  after_results_simp <;> rfl
set_option maxRecDepth 8192 in
set_option maxHeartbeats 1600000 in
theorem val0_main_c_0 (V : Valuation τ sig (Elt F)) : val0 V (no_index (Proc.devRef .tc main_c_0)) = (constantI S10 1 0#1 : (⟨S10, .i1⟩ : BufTy).Contents (Elt F)) := by
  unfold val0
  simp only [seg0]
  after_results_simp <;> rfl
set_option maxRecDepth 8192 in
set_option maxHeartbeats 1600000 in
theorem val0_main_c_1 (V : Valuation τ sig (Elt F)) : val0 V (no_index (Proc.devRef .tc main_c_1)) = ((fun i => lit1 (S10.rowMajor i)) : (⟨S10, .i32⟩ : BufTy).Contents (Elt F)) := by
  unfold val0
  simp only [seg0]
  after_results_simp <;> rfl
set_option maxRecDepth 8192 in
set_option maxHeartbeats 1600000 in
theorem val0_main_c_2 (V : Valuation τ sig (Elt F)) : val0 V (no_index (Proc.devRef .tc main_c_2)) = (constantI S10 1 0#1 : (⟨S10, .i1⟩ : BufTy).Contents (Elt F)) := by
  unfold val0
  simp only [seg0]
  after_results_simp <;> rfl
set_option maxRecDepth 8192 in
set_option maxHeartbeats 1600000 in
theorem val0_main_c_3 (V : Valuation τ sig (Elt F)) : val0 V (no_index (Proc.devRef .tc main_c_3)) = (constantI S10 1 0#1 : (⟨S10, .i1⟩ : BufTy).Contents (Elt F)) := by
  unfold val0
  simp only [seg0]
  after_results_simp <;> rfl
set_option maxRecDepth 8192 in
set_option maxHeartbeats 1600000 in
theorem val0_main_c_4 (V : Valuation τ sig (Elt F)) : val0 V (no_index (Proc.devRef .tc main_c_4)) = (constantI S10 1 0#1 : (⟨S10, .i1⟩ : BufTy).Contents (Elt F)) := by
  unfold val0
  simp only [seg0]
  after_results_simp <;> rfl
set_option maxRecDepth 8192 in
set_option maxHeartbeats 1600000 in
theorem val0_main_c_5 (V : Valuation τ sig (Elt F)) : val0 V (no_index (Proc.devRef .tc main_c_5)) = (constantI S10 1 0#1 : (⟨S10, .i1⟩ : BufTy).Contents (Elt F)) := by
  unfold val0
  simp only [seg0]
  after_results_simp <;> rfl
set_option maxRecDepth 8192 in
set_option maxHeartbeats 1600000 in
theorem val0_main_c_6 (V : Valuation τ sig (Elt F)) : val0 V (no_index (Proc.devRef .tc main_c_6)) = (constantI S10 1 0#1 : (⟨S10, .i1⟩ : BufTy).Contents (Elt F)) := by
  unfold val0
  simp only [seg0]
  after_results_simp <;> rfl
set_option maxRecDepth 8192 in
set_option maxHeartbeats 1600000 in
theorem val0_main_c_7 (V : Valuation τ sig (Elt F)) : val0 V (no_index (Proc.devRef .tc main_c_7)) = ((fun i => lit2 (S4.rowMajor i)) : (⟨S4, .i32⟩ : BufTy).Contents (Elt F)) := by
  unfold val0
  simp only [seg0]
  after_results_simp <;> rfl
set_option maxRecDepth 8192 in
set_option maxHeartbeats 1600000 in
theorem val0_main_c_8 (V : Valuation τ sig (Elt F)) : val0 V (no_index (Proc.devRef .tc main_c_8)) = (constantI S4 1 0#1 : (⟨S4, .i1⟩ : BufTy).Contents (Elt F)) := by
  unfold val0
  simp only [seg0]
  after_results_simp <;> rfl
set_option maxRecDepth 8192 in
set_option maxHeartbeats 1600000 in
theorem val0_main_c_9 (V : Valuation τ sig (Elt F)) : val0 V (no_index (Proc.devRef .tc main_c_9)) = ((fun i => lit3 (S4.rowMajor i)) : (⟨S4, .i32⟩ : BufTy).Contents (Elt F)) := by
  unfold val0
  simp only [seg0]
  after_results_simp <;> rfl
set_option maxRecDepth 8192 in
set_option maxHeartbeats 1600000 in
theorem val0_main_c_10 (V : Valuation τ sig (Elt F)) : val0 V (no_index (Proc.devRef .tc main_c_10)) = (constantI S4 1 0#1 : (⟨S4, .i1⟩ : BufTy).Contents (Elt F)) := by
  unfold val0
  simp only [seg0]
  after_results_simp <;> rfl
set_option maxRecDepth 8192 in
set_option maxHeartbeats 1600000 in
theorem val0_main_c_11 (V : Valuation τ sig (Elt F)) : val0 V (no_index (Proc.devRef .tc main_c_11)) = (constantI S4 1 0#1 : (⟨S4, .i1⟩ : BufTy).Contents (Elt F)) := by
  unfold val0
  simp only [seg0]
  after_results_simp <;> rfl
set_option maxRecDepth 8192 in
set_option maxHeartbeats 1600000 in
theorem val0_main_c_12 (V : Valuation τ sig (Elt F)) : val0 V (no_index (Proc.devRef .tc main_c_12)) = (constantI S4 1 0#1 : (⟨S4, .i1⟩ : BufTy).Contents (Elt F)) := by
  unfold val0
  simp only [seg0]
  after_results_simp <;> rfl
set_option maxRecDepth 8192 in
set_option maxHeartbeats 1600000 in
theorem val0_main_c_13 (V : Valuation τ sig (Elt F)) : val0 V (no_index (Proc.devRef .tc main_c_13)) = (constantI S4 1 0#1 : (⟨S4, .i1⟩ : BufTy).Contents (Elt F)) := by
  unfold val0
  simp only [seg0]
  after_results_simp <;> rfl
set_option maxRecDepth 8192 in
set_option maxHeartbeats 1600000 in
theorem val0_main_c_14 (V : Valuation τ sig (Elt F)) : val0 V (no_index (Proc.devRef .tc main_c_14)) = (constantI S4 1 0#1 : (⟨S4, .i1⟩ : BufTy).Contents (Elt F)) := by
  unfold val0
  simp only [seg0]
  after_results_simp <;> rfl

/-- The contents after stretches 0 … 1. -/
def val1 (V : Valuation τ sig (Elt F)) : Valuation τ sig (Elt F) := after seg1 (val0 V)
theorem val1_keep (V : Valuation τ sig (Elt F)) (r : Ref sig .tc) (h : r ∉ seg1_W) :
    val1 V (Proc.devRef .tc r) = val0 V (Proc.devRef .tc r) :=
  after_of_writes_sub seg1 _ seg1_writes h
theorem val1_main_arg0 (V : Valuation τ sig (Elt F)) : val1 V (no_index (Proc.devRef .tc main_arg0)) = (V (Proc.devRef .tc main_arg0)) :=
  (val1_keep V main_arg0 (by decide)).trans (val0_main_arg0 V)
theorem val1_main_arg1 (V : Valuation τ sig (Elt F)) : val1 V (no_index (Proc.devRef .tc main_arg1)) = (V (Proc.devRef .tc main_arg1)) :=
  (val1_keep V main_arg1 (by decide)).trans (val0_main_arg1 V)
theorem val1_main_c (V : Valuation τ sig (Elt F)) : val1 V (no_index (Proc.devRef .tc main_c)) = ((fun i => lit0 (S10.rowMajor i)) : (⟨S10, .i32⟩ : BufTy).Contents (Elt F)) :=
  (val1_keep V main_c (by decide)).trans (val0_main_c V)
theorem val1_main_c_0 (V : Valuation τ sig (Elt F)) : val1 V (no_index (Proc.devRef .tc main_c_0)) = (constantI S10 1 0#1 : (⟨S10, .i1⟩ : BufTy).Contents (Elt F)) :=
  (val1_keep V main_c_0 (by decide)).trans (val0_main_c_0 V)
theorem val1_main_c_1 (V : Valuation τ sig (Elt F)) : val1 V (no_index (Proc.devRef .tc main_c_1)) = ((fun i => lit1 (S10.rowMajor i)) : (⟨S10, .i32⟩ : BufTy).Contents (Elt F)) :=
  (val1_keep V main_c_1 (by decide)).trans (val0_main_c_1 V)
theorem val1_main_c_2 (V : Valuation τ sig (Elt F)) : val1 V (no_index (Proc.devRef .tc main_c_2)) = (constantI S10 1 0#1 : (⟨S10, .i1⟩ : BufTy).Contents (Elt F)) :=
  (val1_keep V main_c_2 (by decide)).trans (val0_main_c_2 V)
theorem val1_main_c_3 (V : Valuation τ sig (Elt F)) : val1 V (no_index (Proc.devRef .tc main_c_3)) = (constantI S10 1 0#1 : (⟨S10, .i1⟩ : BufTy).Contents (Elt F)) :=
  (val1_keep V main_c_3 (by decide)).trans (val0_main_c_3 V)
theorem val1_main_c_4 (V : Valuation τ sig (Elt F)) : val1 V (no_index (Proc.devRef .tc main_c_4)) = (constantI S10 1 0#1 : (⟨S10, .i1⟩ : BufTy).Contents (Elt F)) :=
  (val1_keep V main_c_4 (by decide)).trans (val0_main_c_4 V)
theorem val1_main_c_5 (V : Valuation τ sig (Elt F)) : val1 V (no_index (Proc.devRef .tc main_c_5)) = (constantI S10 1 0#1 : (⟨S10, .i1⟩ : BufTy).Contents (Elt F)) :=
  (val1_keep V main_c_5 (by decide)).trans (val0_main_c_5 V)
theorem val1_main_c_6 (V : Valuation τ sig (Elt F)) : val1 V (no_index (Proc.devRef .tc main_c_6)) = (constantI S10 1 0#1 : (⟨S10, .i1⟩ : BufTy).Contents (Elt F)) :=
  (val1_keep V main_c_6 (by decide)).trans (val0_main_c_6 V)
theorem val1_main_c_7 (V : Valuation τ sig (Elt F)) : val1 V (no_index (Proc.devRef .tc main_c_7)) = ((fun i => lit2 (S4.rowMajor i)) : (⟨S4, .i32⟩ : BufTy).Contents (Elt F)) :=
  (val1_keep V main_c_7 (by decide)).trans (val0_main_c_7 V)
theorem val1_main_c_8 (V : Valuation τ sig (Elt F)) : val1 V (no_index (Proc.devRef .tc main_c_8)) = (constantI S4 1 0#1 : (⟨S4, .i1⟩ : BufTy).Contents (Elt F)) :=
  (val1_keep V main_c_8 (by decide)).trans (val0_main_c_8 V)
theorem val1_main_c_9 (V : Valuation τ sig (Elt F)) : val1 V (no_index (Proc.devRef .tc main_c_9)) = ((fun i => lit3 (S4.rowMajor i)) : (⟨S4, .i32⟩ : BufTy).Contents (Elt F)) :=
  (val1_keep V main_c_9 (by decide)).trans (val0_main_c_9 V)
theorem val1_main_c_10 (V : Valuation τ sig (Elt F)) : val1 V (no_index (Proc.devRef .tc main_c_10)) = (constantI S4 1 0#1 : (⟨S4, .i1⟩ : BufTy).Contents (Elt F)) :=
  (val1_keep V main_c_10 (by decide)).trans (val0_main_c_10 V)
theorem val1_main_c_11 (V : Valuation τ sig (Elt F)) : val1 V (no_index (Proc.devRef .tc main_c_11)) = (constantI S4 1 0#1 : (⟨S4, .i1⟩ : BufTy).Contents (Elt F)) :=
  (val1_keep V main_c_11 (by decide)).trans (val0_main_c_11 V)
theorem val1_main_c_12 (V : Valuation τ sig (Elt F)) : val1 V (no_index (Proc.devRef .tc main_c_12)) = (constantI S4 1 0#1 : (⟨S4, .i1⟩ : BufTy).Contents (Elt F)) :=
  (val1_keep V main_c_12 (by decide)).trans (val0_main_c_12 V)
theorem val1_main_c_13 (V : Valuation τ sig (Elt F)) : val1 V (no_index (Proc.devRef .tc main_c_13)) = (constantI S4 1 0#1 : (⟨S4, .i1⟩ : BufTy).Contents (Elt F)) :=
  (val1_keep V main_c_13 (by decide)).trans (val0_main_c_13 V)
theorem val1_main_c_14 (V : Valuation τ sig (Elt F)) : val1 V (no_index (Proc.devRef .tc main_c_14)) = (constantI S4 1 0#1 : (⟨S4, .i1⟩ : BufTy).Contents (Elt F)) :=
  (val1_keep V main_c_14 (by decide)).trans (val0_main_c_14 V)
set_option maxRecDepth 8192 in
set_option maxHeartbeats 2100000 in
theorem val1_main_v5 (V : Valuation τ sig (Elt F)) : val1 V (no_index (Proc.devRef .tc main_v5)) = (posR (V (Proc.devRef .tc main_arg0))) := by
  unfold val1
  simp only [seg1]
  after_results_simp
  simp only [val0_main_arg0] <;> rfl
set_option maxRecDepth 8192 in
set_option maxHeartbeats 2100000 in
theorem val1_main_v9 (V : Valuation τ sig (Elt F)) : val1 V (no_index (Proc.devRef .tc main_v9)) = (negR (V (Proc.devRef .tc main_arg0))) := by
  unfold val1
  simp only [seg1]
  after_results_simp
  simp only [val0_main_arg0] <;> rfl

/-- The contents after stretches 0 … 2. -/
def val2 (V : Valuation τ sig (Elt F)) : Valuation τ sig (Elt F) := after seg2 (val1 V)
theorem val2_keep (V : Valuation τ sig (Elt F)) (r : Ref sig .tc) (h : r ∉ seg2_W) :
    val2 V (Proc.devRef .tc r) = val1 V (Proc.devRef .tc r) :=
  after_of_writes_sub seg2 _ seg2_writes h
theorem val2_main_arg0 (V : Valuation τ sig (Elt F)) : val2 V (no_index (Proc.devRef .tc main_arg0)) = (V (Proc.devRef .tc main_arg0)) :=
  (val2_keep V main_arg0 (by decide)).trans (val1_main_arg0 V)
theorem val2_main_arg1 (V : Valuation τ sig (Elt F)) : val2 V (no_index (Proc.devRef .tc main_arg1)) = (V (Proc.devRef .tc main_arg1)) :=
  (val2_keep V main_arg1 (by decide)).trans (val1_main_arg1 V)
theorem val2_main_c (V : Valuation τ sig (Elt F)) : val2 V (no_index (Proc.devRef .tc main_c)) = ((fun i => lit0 (S10.rowMajor i)) : (⟨S10, .i32⟩ : BufTy).Contents (Elt F)) :=
  (val2_keep V main_c (by decide)).trans (val1_main_c V)
theorem val2_main_c_1 (V : Valuation τ sig (Elt F)) : val2 V (no_index (Proc.devRef .tc main_c_1)) = ((fun i => lit1 (S10.rowMajor i)) : (⟨S10, .i32⟩ : BufTy).Contents (Elt F)) :=
  (val2_keep V main_c_1 (by decide)).trans (val1_main_c_1 V)
theorem val2_main_c_3 (V : Valuation τ sig (Elt F)) : val2 V (no_index (Proc.devRef .tc main_c_3)) = (constantI S10 1 0#1 : (⟨S10, .i1⟩ : BufTy).Contents (Elt F)) :=
  (val2_keep V main_c_3 (by decide)).trans (val1_main_c_3 V)
theorem val2_main_c_4 (V : Valuation τ sig (Elt F)) : val2 V (no_index (Proc.devRef .tc main_c_4)) = (constantI S10 1 0#1 : (⟨S10, .i1⟩ : BufTy).Contents (Elt F)) :=
  (val2_keep V main_c_4 (by decide)).trans (val1_main_c_4 V)
theorem val2_main_c_5 (V : Valuation τ sig (Elt F)) : val2 V (no_index (Proc.devRef .tc main_c_5)) = (constantI S10 1 0#1 : (⟨S10, .i1⟩ : BufTy).Contents (Elt F)) :=
  (val2_keep V main_c_5 (by decide)).trans (val1_main_c_5 V)
theorem val2_main_c_6 (V : Valuation τ sig (Elt F)) : val2 V (no_index (Proc.devRef .tc main_c_6)) = (constantI S10 1 0#1 : (⟨S10, .i1⟩ : BufTy).Contents (Elt F)) :=
  (val2_keep V main_c_6 (by decide)).trans (val1_main_c_6 V)
theorem val2_main_c_7 (V : Valuation τ sig (Elt F)) : val2 V (no_index (Proc.devRef .tc main_c_7)) = ((fun i => lit2 (S4.rowMajor i)) : (⟨S4, .i32⟩ : BufTy).Contents (Elt F)) :=
  (val2_keep V main_c_7 (by decide)).trans (val1_main_c_7 V)
theorem val2_main_c_8 (V : Valuation τ sig (Elt F)) : val2 V (no_index (Proc.devRef .tc main_c_8)) = (constantI S4 1 0#1 : (⟨S4, .i1⟩ : BufTy).Contents (Elt F)) :=
  (val2_keep V main_c_8 (by decide)).trans (val1_main_c_8 V)
theorem val2_main_c_9 (V : Valuation τ sig (Elt F)) : val2 V (no_index (Proc.devRef .tc main_c_9)) = ((fun i => lit3 (S4.rowMajor i)) : (⟨S4, .i32⟩ : BufTy).Contents (Elt F)) :=
  (val2_keep V main_c_9 (by decide)).trans (val1_main_c_9 V)
theorem val2_main_c_10 (V : Valuation τ sig (Elt F)) : val2 V (no_index (Proc.devRef .tc main_c_10)) = (constantI S4 1 0#1 : (⟨S4, .i1⟩ : BufTy).Contents (Elt F)) :=
  (val2_keep V main_c_10 (by decide)).trans (val1_main_c_10 V)
theorem val2_main_c_11 (V : Valuation τ sig (Elt F)) : val2 V (no_index (Proc.devRef .tc main_c_11)) = (constantI S4 1 0#1 : (⟨S4, .i1⟩ : BufTy).Contents (Elt F)) :=
  (val2_keep V main_c_11 (by decide)).trans (val1_main_c_11 V)
theorem val2_main_c_12 (V : Valuation τ sig (Elt F)) : val2 V (no_index (Proc.devRef .tc main_c_12)) = (constantI S4 1 0#1 : (⟨S4, .i1⟩ : BufTy).Contents (Elt F)) :=
  (val2_keep V main_c_12 (by decide)).trans (val1_main_c_12 V)
theorem val2_main_c_13 (V : Valuation τ sig (Elt F)) : val2 V (no_index (Proc.devRef .tc main_c_13)) = (constantI S4 1 0#1 : (⟨S4, .i1⟩ : BufTy).Contents (Elt F)) :=
  (val2_keep V main_c_13 (by decide)).trans (val1_main_c_13 V)
theorem val2_main_c_14 (V : Valuation τ sig (Elt F)) : val2 V (no_index (Proc.devRef .tc main_c_14)) = (constantI S4 1 0#1 : (⟨S4, .i1⟩ : BufTy).Contents (Elt F)) :=
  (val2_keep V main_c_14 (by decide)).trans (val1_main_c_14 V)
theorem val2_main_v5 (V : Valuation τ sig (Elt F)) : val2 V (no_index (Proc.devRef .tc main_v5)) = (posR (V (Proc.devRef .tc main_arg0))) :=
  (val2_keep V main_v5 (by decide)).trans (val1_main_v5 V)
theorem val2_main_v9 (V : Valuation τ sig (Elt F)) : val2 V (no_index (Proc.devRef .tc main_v9)) = (negR (V (Proc.devRef .tc main_arg0))) :=
  (val2_keep V main_v9 (by decide)).trans (val1_main_v9 V)
set_option maxRecDepth 8192 in
set_option maxHeartbeats 2900000 in
theorem val2_main_v29 (V : Valuation τ sig (Elt F)) : val2 V (no_index (Proc.devRef .tc main_v29)) = (pp10R (V (Proc.devRef .tc main_arg0))) := by
  unfold val2
  simp only [seg2]
  after_results_simp
  simp only [val1_main_c_1, val1_main_c_2, val1_main_arg0, val1_main_c, val1_main_c_0] <;> rfl

/-- The contents after stretches 0 … 3. -/
def val3 (V : Valuation τ sig (Elt F)) : Valuation τ sig (Elt F) := after seg3 (val2 V)
theorem val3_keep (V : Valuation τ sig (Elt F)) (r : Ref sig .tc) (h : r ∉ seg3_W) :
    val3 V (Proc.devRef .tc r) = val2 V (Proc.devRef .tc r) :=
  after_of_writes_sub seg3 _ seg3_writes h
theorem val3_main_arg0 (V : Valuation τ sig (Elt F)) : val3 V (no_index (Proc.devRef .tc main_arg0)) = (V (Proc.devRef .tc main_arg0)) :=
  (val3_keep V main_arg0 (by decide)).trans (val2_main_arg0 V)
theorem val3_main_arg1 (V : Valuation τ sig (Elt F)) : val3 V (no_index (Proc.devRef .tc main_arg1)) = (V (Proc.devRef .tc main_arg1)) :=
  (val3_keep V main_arg1 (by decide)).trans (val2_main_arg1 V)
theorem val3_main_c_7 (V : Valuation τ sig (Elt F)) : val3 V (no_index (Proc.devRef .tc main_c_7)) = ((fun i => lit2 (S4.rowMajor i)) : (⟨S4, .i32⟩ : BufTy).Contents (Elt F)) :=
  (val3_keep V main_c_7 (by decide)).trans (val2_main_c_7 V)
theorem val3_main_c_8 (V : Valuation τ sig (Elt F)) : val3 V (no_index (Proc.devRef .tc main_c_8)) = (constantI S4 1 0#1 : (⟨S4, .i1⟩ : BufTy).Contents (Elt F)) :=
  (val3_keep V main_c_8 (by decide)).trans (val2_main_c_8 V)
theorem val3_main_c_9 (V : Valuation τ sig (Elt F)) : val3 V (no_index (Proc.devRef .tc main_c_9)) = ((fun i => lit3 (S4.rowMajor i)) : (⟨S4, .i32⟩ : BufTy).Contents (Elt F)) :=
  (val3_keep V main_c_9 (by decide)).trans (val2_main_c_9 V)
theorem val3_main_c_10 (V : Valuation τ sig (Elt F)) : val3 V (no_index (Proc.devRef .tc main_c_10)) = (constantI S4 1 0#1 : (⟨S4, .i1⟩ : BufTy).Contents (Elt F)) :=
  (val3_keep V main_c_10 (by decide)).trans (val2_main_c_10 V)
theorem val3_main_c_11 (V : Valuation τ sig (Elt F)) : val3 V (no_index (Proc.devRef .tc main_c_11)) = (constantI S4 1 0#1 : (⟨S4, .i1⟩ : BufTy).Contents (Elt F)) :=
  (val3_keep V main_c_11 (by decide)).trans (val2_main_c_11 V)
theorem val3_main_c_12 (V : Valuation τ sig (Elt F)) : val3 V (no_index (Proc.devRef .tc main_c_12)) = (constantI S4 1 0#1 : (⟨S4, .i1⟩ : BufTy).Contents (Elt F)) :=
  (val3_keep V main_c_12 (by decide)).trans (val2_main_c_12 V)
theorem val3_main_c_13 (V : Valuation τ sig (Elt F)) : val3 V (no_index (Proc.devRef .tc main_c_13)) = (constantI S4 1 0#1 : (⟨S4, .i1⟩ : BufTy).Contents (Elt F)) :=
  (val3_keep V main_c_13 (by decide)).trans (val2_main_c_13 V)
theorem val3_main_c_14 (V : Valuation τ sig (Elt F)) : val3 V (no_index (Proc.devRef .tc main_c_14)) = (constantI S4 1 0#1 : (⟨S4, .i1⟩ : BufTy).Contents (Elt F)) :=
  (val3_keep V main_c_14 (by decide)).trans (val2_main_c_14 V)
set_option maxRecDepth 8192 in
set_option maxHeartbeats 4000000 in
theorem val3_main_v64 (V : Valuation τ sig (Elt F)) : val3 V (no_index (Proc.devRef .tc main_v64)) = (tailPosR (posR (V (Proc.devRef .tc main_arg0))) (negR (V (Proc.devRef .tc main_arg0))) (pp10R (V (Proc.devRef .tc main_arg0)))) := by
  unfold val3
  simp only [seg3]
  after_results_simp
  simp only [val2_main_v29, val2_main_c_1, val2_main_c_6, val2_main_v9, val2_main_c, val2_main_c_3, val2_main_v5, val2_main_c_4, val2_main_c_5] <;> rfl

/-- The contents after stretches 0 … 4. -/
def val4 (V : Valuation τ sig (Elt F)) : Valuation τ sig (Elt F) := after seg4 (val3 V)
theorem val4_keep (V : Valuation τ sig (Elt F)) (r : Ref sig .tc) (h : r ∉ seg4_W) :
    val4 V (Proc.devRef .tc r) = val3 V (Proc.devRef .tc r) :=
  after_of_writes_sub seg4 _ seg4_writes h
theorem val4_main_arg0 (V : Valuation τ sig (Elt F)) : val4 V (no_index (Proc.devRef .tc main_arg0)) = (V (Proc.devRef .tc main_arg0)) :=
  (val4_keep V main_arg0 (by decide)).trans (val3_main_arg0 V)
theorem val4_main_arg1 (V : Valuation τ sig (Elt F)) : val4 V (no_index (Proc.devRef .tc main_arg1)) = (V (Proc.devRef .tc main_arg1)) :=
  (val4_keep V main_arg1 (by decide)).trans (val3_main_arg1 V)
theorem val4_main_c_7 (V : Valuation τ sig (Elt F)) : val4 V (no_index (Proc.devRef .tc main_c_7)) = ((fun i => lit2 (S4.rowMajor i)) : (⟨S4, .i32⟩ : BufTy).Contents (Elt F)) :=
  (val4_keep V main_c_7 (by decide)).trans (val3_main_c_7 V)
theorem val4_main_c_8 (V : Valuation τ sig (Elt F)) : val4 V (no_index (Proc.devRef .tc main_c_8)) = (constantI S4 1 0#1 : (⟨S4, .i1⟩ : BufTy).Contents (Elt F)) :=
  (val4_keep V main_c_8 (by decide)).trans (val3_main_c_8 V)
theorem val4_main_c_9 (V : Valuation τ sig (Elt F)) : val4 V (no_index (Proc.devRef .tc main_c_9)) = ((fun i => lit3 (S4.rowMajor i)) : (⟨S4, .i32⟩ : BufTy).Contents (Elt F)) :=
  (val4_keep V main_c_9 (by decide)).trans (val3_main_c_9 V)
theorem val4_main_c_10 (V : Valuation τ sig (Elt F)) : val4 V (no_index (Proc.devRef .tc main_c_10)) = (constantI S4 1 0#1 : (⟨S4, .i1⟩ : BufTy).Contents (Elt F)) :=
  (val4_keep V main_c_10 (by decide)).trans (val3_main_c_10 V)
theorem val4_main_c_11 (V : Valuation τ sig (Elt F)) : val4 V (no_index (Proc.devRef .tc main_c_11)) = (constantI S4 1 0#1 : (⟨S4, .i1⟩ : BufTy).Contents (Elt F)) :=
  (val4_keep V main_c_11 (by decide)).trans (val3_main_c_11 V)
theorem val4_main_c_12 (V : Valuation τ sig (Elt F)) : val4 V (no_index (Proc.devRef .tc main_c_12)) = (constantI S4 1 0#1 : (⟨S4, .i1⟩ : BufTy).Contents (Elt F)) :=
  (val4_keep V main_c_12 (by decide)).trans (val3_main_c_12 V)
theorem val4_main_c_13 (V : Valuation τ sig (Elt F)) : val4 V (no_index (Proc.devRef .tc main_c_13)) = (constantI S4 1 0#1 : (⟨S4, .i1⟩ : BufTy).Contents (Elt F)) :=
  (val4_keep V main_c_13 (by decide)).trans (val3_main_c_13 V)
theorem val4_main_c_14 (V : Valuation τ sig (Elt F)) : val4 V (no_index (Proc.devRef .tc main_c_14)) = (constantI S4 1 0#1 : (⟨S4, .i1⟩ : BufTy).Contents (Elt F)) :=
  (val4_keep V main_c_14 (by decide)).trans (val3_main_c_14 V)
theorem val4_main_v64 (V : Valuation τ sig (Elt F)) : val4 V (no_index (Proc.devRef .tc main_v64)) = (tailPosR (posR (V (Proc.devRef .tc main_arg0))) (negR (V (Proc.devRef .tc main_arg0))) (pp10R (V (Proc.devRef .tc main_arg0)))) :=
  (val4_keep V main_v64 (by decide)).trans (val3_main_v64 V)
set_option maxRecDepth 8192 in
set_option maxHeartbeats 2100000 in
theorem val4_main_v70 (V : Valuation τ sig (Elt F)) : val4 V (no_index (Proc.devRef .tc main_v70)) = (posR (V (Proc.devRef .tc main_arg0))) := by
  unfold val4
  simp only [seg4]
  after_results_simp
  simp only [val3_main_arg0] <;> rfl
set_option maxRecDepth 8192 in
set_option maxHeartbeats 2100000 in
theorem val4_main_v74 (V : Valuation τ sig (Elt F)) : val4 V (no_index (Proc.devRef .tc main_v74)) = (negR (V (Proc.devRef .tc main_arg0))) := by
  unfold val4
  simp only [seg4]
  after_results_simp
  simp only [val3_main_arg0] <;> rfl

/-- The contents after stretches 0 … 5. -/
def val5 (V : Valuation τ sig (Elt F)) : Valuation τ sig (Elt F) := after seg5 (val4 V)
theorem val5_keep (V : Valuation τ sig (Elt F)) (r : Ref sig .tc) (h : r ∉ seg5_W) :
    val5 V (Proc.devRef .tc r) = val4 V (Proc.devRef .tc r) :=
  after_of_writes_sub seg5 _ seg5_writes h
theorem val5_main_arg0 (V : Valuation τ sig (Elt F)) : val5 V (no_index (Proc.devRef .tc main_arg0)) = (V (Proc.devRef .tc main_arg0)) :=
  (val5_keep V main_arg0 (by decide)).trans (val4_main_arg0 V)
theorem val5_main_arg1 (V : Valuation τ sig (Elt F)) : val5 V (no_index (Proc.devRef .tc main_arg1)) = (V (Proc.devRef .tc main_arg1)) :=
  (val5_keep V main_arg1 (by decide)).trans (val4_main_arg1 V)
theorem val5_main_c_7 (V : Valuation τ sig (Elt F)) : val5 V (no_index (Proc.devRef .tc main_c_7)) = ((fun i => lit2 (S4.rowMajor i)) : (⟨S4, .i32⟩ : BufTy).Contents (Elt F)) :=
  (val5_keep V main_c_7 (by decide)).trans (val4_main_c_7 V)
theorem val5_main_c_9 (V : Valuation τ sig (Elt F)) : val5 V (no_index (Proc.devRef .tc main_c_9)) = ((fun i => lit3 (S4.rowMajor i)) : (⟨S4, .i32⟩ : BufTy).Contents (Elt F)) :=
  (val5_keep V main_c_9 (by decide)).trans (val4_main_c_9 V)
theorem val5_main_c_11 (V : Valuation τ sig (Elt F)) : val5 V (no_index (Proc.devRef .tc main_c_11)) = (constantI S4 1 0#1 : (⟨S4, .i1⟩ : BufTy).Contents (Elt F)) :=
  (val5_keep V main_c_11 (by decide)).trans (val4_main_c_11 V)
theorem val5_main_c_12 (V : Valuation τ sig (Elt F)) : val5 V (no_index (Proc.devRef .tc main_c_12)) = (constantI S4 1 0#1 : (⟨S4, .i1⟩ : BufTy).Contents (Elt F)) :=
  (val5_keep V main_c_12 (by decide)).trans (val4_main_c_12 V)
theorem val5_main_c_13 (V : Valuation τ sig (Elt F)) : val5 V (no_index (Proc.devRef .tc main_c_13)) = (constantI S4 1 0#1 : (⟨S4, .i1⟩ : BufTy).Contents (Elt F)) :=
  (val5_keep V main_c_13 (by decide)).trans (val4_main_c_13 V)
theorem val5_main_c_14 (V : Valuation τ sig (Elt F)) : val5 V (no_index (Proc.devRef .tc main_c_14)) = (constantI S4 1 0#1 : (⟨S4, .i1⟩ : BufTy).Contents (Elt F)) :=
  (val5_keep V main_c_14 (by decide)).trans (val4_main_c_14 V)
theorem val5_main_v64 (V : Valuation τ sig (Elt F)) : val5 V (no_index (Proc.devRef .tc main_v64)) = (tailPosR (posR (V (Proc.devRef .tc main_arg0))) (negR (V (Proc.devRef .tc main_arg0))) (pp10R (V (Proc.devRef .tc main_arg0)))) :=
  (val5_keep V main_v64 (by decide)).trans (val4_main_v64 V)
theorem val5_main_v70 (V : Valuation τ sig (Elt F)) : val5 V (no_index (Proc.devRef .tc main_v70)) = (posR (V (Proc.devRef .tc main_arg0))) :=
  (val5_keep V main_v70 (by decide)).trans (val4_main_v70 V)
theorem val5_main_v74 (V : Valuation τ sig (Elt F)) : val5 V (no_index (Proc.devRef .tc main_v74)) = (negR (V (Proc.devRef .tc main_arg0))) :=
  (val5_keep V main_v74 (by decide)).trans (val4_main_v74 V)
set_option maxRecDepth 8192 in
set_option maxHeartbeats 2900000 in
theorem val5_main_v94 (V : Valuation τ sig (Elt F)) : val5 V (no_index (Proc.devRef .tc main_v94)) = (pp4R (V (Proc.devRef .tc main_arg0))) := by
  unfold val5
  simp only [seg5]
  after_results_simp
  simp only [val4_main_c_9, val4_main_c_10, val4_main_arg0, val4_main_c_7, val4_main_c_8] <;> rfl

/-- The contents after all the stretches. -/
def val6 (V : Valuation τ sig (Elt F)) : Valuation τ sig (Elt F) := after seg7 (after seg6 (val5 V))
theorem val6_keep (V : Valuation τ sig (Elt F)) (r : Ref sig .tc) (h6 : r ∉ seg6_W) (h7 : r ∉ seg7_W) :
    val6 V (Proc.devRef .tc r) = val5 V (Proc.devRef .tc r) :=
  (after_of_writes_sub seg7 _ seg7_writes h7).trans (after_of_writes_sub seg6 _ seg6_writes h6)
theorem val6_main_arg0 (V : Valuation τ sig (Elt F)) : val6 V (no_index (Proc.devRef .tc main_arg0)) = (V (Proc.devRef .tc main_arg0)) :=
  (val6_keep V main_arg0 (by decide) (by decide)).trans (val5_main_arg0 V)
theorem val6_main_arg1 (V : Valuation τ sig (Elt F)) : val6 V (no_index (Proc.devRef .tc main_arg1)) = (V (Proc.devRef .tc main_arg1)) :=
  (val6_keep V main_arg1 (by decide) (by decide)).trans (val5_main_arg1 V)
set_option maxRecDepth 8192 in
set_option maxHeartbeats 4000000 in
theorem val6_main_v130 (V : Valuation τ sig (Elt F)) : val6 V (no_index (Proc.devRef .tc main_v130)) = (refOut (V (Proc.devRef .tc main_arg0))) := by
  unfold val6
  simp only [seg6, seg7]
  after_results_simp
  simp only [val5_main_c_9, val5_main_c_14, val5_main_v74, val5_main_c_7, val5_main_c_11, val5_main_v70, val5_main_v94, val5_main_c_12, val5_main_c_13, val5_main_v64] <;> rfl

theorem after_ops (V : Valuation τ sig (Elt F)) : after ops V = val6 V := by
  simp only [ops, ops0, ops1, ops2, ops3, after_app]
  rfl

/-! ## The run -/

/-- On every device, for any float values, from any memory with zero counters: every weakly fair execution of @main
    terminates with the result at `refOut` of the first argument's contents, and both arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v130) = refOut (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v130).trans (by simp only [after_ops]; exact val6_main_v130 (launchContents m c)),
      (h c main_arg0).trans (by simp only [after_ops]; exact val6_main_arg0 (launchContents m c)),
      (h c main_arg1).trans (by simp only [after_ops]; exact val6_main_arg1 (launchContents m c))⟩)
    (run_seq scopedRefs_eq scopedSems_eq defs main (fun _ => ops) main_eq (fun _ => ops_sub) m ρ (fun _ => ops_fresh))

end Cert.ReferenceIdeal.Hand

end
-- ==== Proof.KernelIdeal.Payload.lean ====
/-
  The arithmetic of the column-statistics kernel's body, read at an index, at the ideal values
  (a float is an extended real). With x the 8192 x 128 block of the input and 1/2 the literal the
  kernel compares with: an entry e of x is KEPT when 1/2 ≤ e and DROPPED otherwise. keepP e is e
  where it is kept and 0 where it is dropped; keepN e is 0 where it is kept and e where it is
  dropped, so that keepP e + keepN e = e. The body adds to three running accumulators:
    * the column sums of the kept entries       acc(0, l) + ∑ r, keepP x(r, l)
    * the column sums of the dropped entries    acc(0, l) + ∑ r, keepN x(r, l)
    * the Gram matrix of the kept entries       acc(p, q) + ∑ r, keepP x(r, p) * keepP x(r, q)
  (the product of the transposed kept block with itself: both operands are contracted along their
  row axis). The remaining values are the zero rows and the zero matrix the accumulators start from
  and a 1 x 128 row repeated over eight rows. Every coordinate is a literal Fin 1, Fin 8, Fin 128 or
  Fin 8192, and every index is built from its coordinates.
-/
import proofs.«416933_j15582141350755_3_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Val

open Cert.KernelIdeal Cert.KernelIdeal.Gen Idealize.ShloMosaic Idealize.ShloMosaic.ValueIdx
open scoped BigOperators

/-! ### The two scalar functions: an entry where it is kept, an entry where it is dropped -/

/-- The kept entry: e where the comparison "e is at least the literal 1/2" answers 1, and 0 elsewhere. -/
def keepP (e : EReal) : EReal :=
  Scalar.select (Ideal.cmp .oge e (Ideal.ofBits .f32 0x3F000000#32)) e 0

/-- The dropped entry: 0 where the same comparison answers 1, and e elsewhere. -/
def keepN (e : EReal) : EReal :=
  Scalar.select (Ideal.cmp .oge e (Ideal.ofBits .f32 0x3F000000#32)) 0 e

/-! ### The block, its mask, and the two selections -/

/-- A cast of the block to its own shape is the block. -/
theorem pay6_eq (x : Vec Ideal S8192x128 .f32) : k0_pay6 (F := Ideal) x = x :=
  shapeCast_self x shapeCasts_S8192x128_S8192x128

/-- The selection "x where kept, else 0" holds, at (r, l), the kept entry of x(r, l). -/
theorem pay8_apply (x : Vec Ideal S8192x128 .f32) (r : Fin 8192) (l : Fin 128) :
    k0_pay8 (F := Ideal) x (ix2 r l) = keepP (x (ix2 r l)) := by
  unfold k0_pay8 k0_pay7
  rw [pay6_eq]
  show Scalar.select (Ideal.cmp .oge (x (ix2 r l)) (Ideal.ofBits .f32 0x3F000000#32)) (x (ix2 r l))
      (Ideal.ofBits .f32 0x00000000#32) = _
  rw [Ideal.ofBits_zero_f32]
  rfl

/-- The selection "0 where kept, else x" holds, at (r, l), the dropped entry of x(r, l). -/
theorem dropped_apply (x : Vec Ideal S8192x128 .f32) (r : Fin 8192) (l : Fin 128) :
    select (k0_pay7 (F := Ideal) x) (broadcast S8192x128 (Scalar.ofBits (F := Ideal) .f32 0x00000000#32)) (k0_pay6 (F := Ideal) x)
      (ix2 r l) = keepN (x (ix2 r l)) := by
  unfold k0_pay7
  rw [pay6_eq]
  show Scalar.select (Ideal.cmp .oge (x (ix2 r l)) (Ideal.ofBits .f32 0x3F000000#32))
      (Ideal.ofBits .f32 0x00000000#32) (x (ix2 r l)) = _
  rw [Ideal.ofBits_zero_f32]
  rfl

/-! ### Column sums -/

/-- The sum of an 8192 x 128 array over its rows is, at column l, the sum over r of the entries (r, l):
    the index with row r inserted in front of the column index l is (r, l). -/
theorem colsum_apply (v : FVec Ideal S8192x128 .f32) (hφ : FKind.Formats .f32)
    (hacc : (0x00000000#32 : BitVec 32) = 0x00000000#32) (l : Fin 128) :
    multiReduction (F := Ideal) .add [0] S128 v 0x00000000#32 reduces_S8192x128_S128 hφ hacc (ix1 l)
      = ∑ r : Fin 8192, v (ix2 r l) := by
  refine (Ideal.multiReduction_add_single v 0x00000000#32 reduces_S8192x128_S128 hφ hacc (ix1 l)).trans ?_
  refine Finset.sum_congr rfl fun r _ => congrArg v ?_
  funext a
  match a with
  | ⟨0, _⟩ => rfl
  | ⟨1, _⟩ => rfl

/-- The first accumulator after a step: its entry at column l plus the column sum of the kept entries. -/
theorem pay9_apply (x : Vec Ideal S8192x128 .f32) (acc : Vec Ideal S1x128 .f32) (l : Fin 128) :
    k0_pay9 (F := Ideal) x acc (ix2 (0 : Fin 1) l)
      = acc (ix2 (0 : Fin 1) l) + ∑ r : Fin 8192, keepP (x (ix2 r l)) := by
  unfold k0_pay9
  refine (congrFun (shapeCast_self _ shapeCasts_S1x128_S1x128) (ix2 (0 : Fin 1) l)).trans ?_
  refine (addf_apply _ _ _).trans ?_
  refine congrArg (fun e : EReal => acc (ix2 (0 : Fin 1) l) + e) ?_
  refine (shapeCast_a_1a_apply _ shapeCasts_S128_S1x128 (0 : Fin 1) l).trans ?_
  refine (colsum_apply _ _ _ l).trans ?_
  exact Finset.sum_congr rfl fun r _ => pay8_apply x r l

/-- The second accumulator after a step: its entry at column l plus the column sum of the dropped entries. -/
theorem pay10_apply (x : Vec Ideal S8192x128 .f32) (acc : Vec Ideal S1x128 .f32) (l : Fin 128) :
    k0_pay10 (F := Ideal) x acc (ix2 (0 : Fin 1) l)
      = acc (ix2 (0 : Fin 1) l) + ∑ r : Fin 8192, keepN (x (ix2 r l)) := by
  unfold k0_pay10
  refine (congrFun (shapeCast_self _ shapeCasts_S1x128_S1x128) (ix2 (0 : Fin 1) l)).trans ?_
  refine (addf_apply _ _ _).trans ?_
  refine congrArg (fun e : EReal => acc (ix2 (0 : Fin 1) l) + e) ?_
  refine (shapeCast_a_1a_apply _ shapeCasts_S128_S1x128 (0 : Fin 1) l).trans ?_
  refine (colsum_apply _ _ _ l).trans ?_
  exact Finset.sum_congr rfl fun r _ => dropped_apply x r l

/-! ### The Gram matrix: both operands contracted along their row axis

At output index (p, q) and contraction position k the left operand is read at (k, p) and the right
operand at (k, q): axis 0 of each operand is the contracted one, axis 1 of the left operand is the
output's axis 0 and axis 1 of the right operand is the output's axis 1. -/

theorem lhs_gram_0 (j : S128x128.Idx) (k : dot_S8192x128_S8192x128_S128x128_0_0_1_1_n_n.contr.Idx) :
    (dot_S8192x128_S8192x128_S128x128_0_0_1_1_n_n.lhsIdx j k 0 : ℕ) = k ⟨0, by decide⟩ := by
  simp [DotDims.lhsIdx, dot_S8192x128_S8192x128_S128x128_0_0_1_1_n_n]; rfl
theorem lhs_gram_1 (j : S128x128.Idx) (k : dot_S8192x128_S8192x128_S128x128_0_0_1_1_n_n.contr.Idx) :
    (dot_S8192x128_S8192x128_S128x128_0_0_1_1_n_n.lhsIdx j k 1 : ℕ) = j 0 := by
  simp [DotDims.lhsIdx, dot_S8192x128_S8192x128_S128x128_0_0_1_1_n_n]; rfl
theorem rhs_gram_0 (j : S128x128.Idx) (k : dot_S8192x128_S8192x128_S128x128_0_0_1_1_n_n.contr.Idx) :
    (dot_S8192x128_S8192x128_S128x128_0_0_1_1_n_n.rhsIdx j k 0 : ℕ) = k ⟨0, by decide⟩ := by
  simp [DotDims.rhsIdx, dot_S8192x128_S8192x128_S128x128_0_0_1_1_n_n]; rfl
theorem rhs_gram_1 (j : S128x128.Idx) (k : dot_S8192x128_S8192x128_S128x128_0_0_1_1_n_n.contr.Idx) :
    (dot_S8192x128_S8192x128_S128x128_0_0_1_1_n_n.rhsIdx j k 1 : ℕ) = j 1 := by
  simp [DotDims.rhsIdx, dot_S8192x128_S8192x128_S128x128_0_0_1_1_n_n]; rfl

/-- The product AᵀB of two 8192 x 128 arrays into a zero accumulator is, at (p, q), the sum over the
    rows r of A(r, p) * B(r, q): the contraction positions are re-indexed by the row r. -/
theorem gram_apply (prec : Option ContractPrecision) (A B : FVec Ideal S8192x128 .f32) (p q : Fin 128) :
    matmul (F := Ideal) dot_S8192x128_S8192x128_S128x128_0_0_1_1_n_n prec A B
        (constant (F := Ideal) S128x128 .f32 0x00000000#32) (ix2 p q)
      = ∑ r : Fin 8192, A (ix2 r p) * B (ix2 r q) := by
  refine (Ideal.matmul_constant_zero_apply dot_S8192x128_S8192x128_S128x128_0_0_1_1_n_n prec A B (ix2 p q)).trans ?_
  rw [← Equiv.sum_comp (contrEquiv1 dot_S8192x128_S8192x128_S128x128_0_0_1_1_n_n 8192 rfl rfl).symm]
  refine Finset.sum_congr rfl fun r _ => ?_
  have hk := contrEquiv1_symm_val dot_S8192x128_S8192x128_S128x128_0_0_1_1_n_n 8192 rfl rfl r
  have hl : dot_S8192x128_S8192x128_S128x128_0_0_1_1_n_n.lhsIdx (ix2 p q)
      ((contrEquiv1 dot_S8192x128_S8192x128_S128x128_0_0_1_1_n_n 8192 rfl rfl).symm r) = ix2 r p := by
    funext ax; apply Fin.ext
    match ax with
    | ⟨0, _⟩ => exact (lhs_gram_0 _ _).trans hk
    | ⟨1, _⟩ => exact lhs_gram_1 _ _
  have hr : dot_S8192x128_S8192x128_S128x128_0_0_1_1_n_n.rhsIdx (ix2 p q)
      ((contrEquiv1 dot_S8192x128_S8192x128_S128x128_0_0_1_1_n_n 8192 rfl rfl).symm r) = ix2 r q := by
    funext ax; apply Fin.ext
    match ax with
    | ⟨0, _⟩ => exact (rhs_gram_0 _ _).trans hk
    | ⟨1, _⟩ => exact rhs_gram_1 _ _
  rw [hl, hr]

/-- The third accumulator after a step: its entry at (p, q) plus the (p, q) entry of the Gram matrix of
    the kept entries. -/
theorem pay11_apply (x : Vec Ideal S8192x128 .f32) (acc : Vec Ideal S128x128 .f32) (p q : Fin 128) :
    k0_pay11 (F := Ideal) x acc (ix2 p q)
      = acc (ix2 p q) + ∑ r : Fin 8192, keepP (x (ix2 r p)) * keepP (x (ix2 r q)) := by
  unfold k0_pay11
  refine (congrFun (shapeCast_self _ shapeCasts_S128x128_S128x128) (ix2 p q)).trans ?_
  refine (addf_apply _ _ _).trans ?_
  refine congrArg (fun e : EReal => acc (ix2 p q) + e) ?_
  refine (gram_apply _ _ _ p q).trans ?_
  exact Finset.sum_congr rfl fun r _ => by rw [pay8_apply x r p, pay8_apply x r q]

/-! ### What the accumulators start from: zero everywhere -/

theorem pay3_apply (l : Fin 128) : k0_pay3 (F := Ideal) (ix2 (0 : Fin 1) l) = 0 := by
  unfold k0_pay3
  refine (congrFun (shapeCast_self _ shapeCasts_S1x128_S1x128) (ix2 (0 : Fin 1) l)).trans ?_
  exact Ideal.ofBits_zero_f32

theorem pay4_apply (l : Fin 128) : k0_pay4 (F := Ideal) (ix2 (0 : Fin 1) l) = 0 := by
  unfold k0_pay4
  refine (congrFun (shapeCast_self _ shapeCasts_S1x128_S1x128) (ix2 (0 : Fin 1) l)).trans ?_
  exact Ideal.ofBits_zero_f32

theorem pay5_apply (p q : Fin 128) : k0_pay5 (F := Ideal) (ix2 p q) = 0 := by
  unfold k0_pay5
  refine (congrFun (shapeCast_self _ shapeCasts_S128x128_S128x128) (ix2 p q)).trans ?_
  exact Ideal.ofBits_zero_f32

/-! ### A row of 128 entries repeated over eight rows: every row reads the one row -/

theorem pay1_apply (v : Vec Ideal S1x128 .f32) (k : Fin 8) (l : Fin 128) :
    k0_pay1 (F := Ideal) v (ix2 k l) = v (ix2 (0 : Fin 1) l) := by
  unfold k0_pay1
  refine (broadcastTo_1b_ab_apply _ broadcasts_S1x128_S8x128 k l).trans ?_
  exact congrFun (shapeCast_self v shapeCasts_S1x128_S1x128) (ix2 (0 : Fin 1) l)

theorem pay2_apply (v : Vec Ideal S1x128 .f32) (k : Fin 8) (l : Fin 128) :
    k0_pay2 (F := Ideal) v (ix2 k l) = v (ix2 (0 : Fin 1) l) := by
  unfold k0_pay2
  refine (broadcastTo_1b_ab_apply _ broadcasts_S1x128_S8x128 k l).trans ?_
  exact congrFun (shapeCast_self v shapeCasts_S1x128_S1x128) (ix2 (0 : Fin 1) l)

end Cert.KernelIdeal.Val

end
-- ==== Proof.KernelIdeal.Acc.lean ====
/-
  The three running accumulators of the column-statistics kernel in closed form, over an abstract
  sequence of 8192 x 128 blocks X 0, X 1, …, at the ideal values. The steps come in runs of 32: at a
  step n that starts a run (n % 32 = 0) an accumulator is reset to zero before the step's contribution
  is added, at any other step the contribution is added to what the step before left. So after step
  n = 32 * s + j the accumulator holds the contributions of the steps 32 * s, …, 32 * s + j of its run
  and nothing else; after the last step of a run (j = 31) it holds the whole run's 32 contributions.
  The contributions: the column sums of the kept entries, the column sums of the dropped entries, the
  Gram matrix of the kept entries. Only 0 + a = a and the associativity of + on the extended reals
  are used.
-/
import proofs.«416933_j15582141350755_3_alg».proof.Proof.KernelIdeal.Payload

noncomputable section

namespace Cert.KernelIdeal.Val

open Cert.KernelIdeal Cert.KernelIdeal.Gen Idealize.ShloMosaic Idealize.ShloMosaic.ValueIdx
open scoped BigOperators

/-! ### A sequence that restarts every 32 steps and otherwise adds: its closed form -/

/-- If a n is f n at the start of a run of 32 and a n plus f (n + 1) one step later inside a run, then
    a n is the sum of f over the steps of n's run up to n. -/
theorem run_sum {M : Type*} [AddCommMonoid M] (a f : ℕ → M) (h0 : ∀ n, n % 32 = 0 → a n = f n)
    (hs : ∀ n, (n + 1) % 32 ≠ 0 → a (n + 1) = a n + f (n + 1)) :
    ∀ n, a n = ∑ i ∈ Finset.range (n % 32 + 1), f (32 * (n / 32) + i) := by
  intro n
  induction n with
  | zero => rw [h0 0 rfl]; simp
  | succ n ih =>
    by_cases h : (n + 1) % 32 = 0
    · rw [h0 _ h, h, Finset.sum_range_one]
      exact congrArg f (by omega)
    · have h1 : (n + 1) % 32 = n % 32 + 1 := by omega
      have h2 : (n + 1) / 32 = n / 32 := by omega
      rw [hs n h, ih, h1, h2, Finset.sum_range_succ (fun i => f (32 * (n / 32) + i)) (n % 32 + 1),
        show 32 * (n / 32) + (n % 32 + 1) = n + 1 by omega]

/-- At the last step of run s the sum is over the run's 32 steps. -/
theorem run_sum_last {M : Type*} [AddCommMonoid M] (a f : ℕ → M) (h0 : ∀ n, n % 32 = 0 → a n = f n)
    (hs : ∀ n, (n + 1) % 32 ≠ 0 → a (n + 1) = a n + f (n + 1)) (s : ℕ) :
    a (32 * s + 31) = ∑ j : Fin 32, f (32 * s + j.val) := by
  rw [run_sum a f h0 hs (32 * s + 31), show (32 * s + 31) % 32 + 1 = 32 by omega,
    show (32 * s + 31) / 32 = s by omega]
  exact (Finset.sum_range fun i => f (32 * s + i))

/-! ### The three accumulators after step n -/

/-- The column sums of the kept entries, accumulated over the steps of a run. -/
def accP (X : ℕ → Vec Ideal S8192x128 .f32) : ℕ → Vec Ideal S1x128 .f32
  | 0 => k0_pay9 (F := Ideal) (X 0) (k0_pay3 (F := Ideal))
  | n + 1 => if (n + 1) % 32 = 0 then k0_pay9 (F := Ideal) (X (n + 1)) (k0_pay3 (F := Ideal))
      else k0_pay9 (F := Ideal) (X (n + 1)) (accP X n)

/-- The column sums of the dropped entries, accumulated over the steps of a run. -/
def accN (X : ℕ → Vec Ideal S8192x128 .f32) : ℕ → Vec Ideal S1x128 .f32
  | 0 => k0_pay10 (F := Ideal) (X 0) (k0_pay4 (F := Ideal))
  | n + 1 => if (n + 1) % 32 = 0 then k0_pay10 (F := Ideal) (X (n + 1)) (k0_pay4 (F := Ideal))
      else k0_pay10 (F := Ideal) (X (n + 1)) (accN X n)

/-- The Gram matrix of the kept entries, accumulated over the steps of a run. -/
def accG (X : ℕ → Vec Ideal S8192x128 .f32) : ℕ → Vec Ideal S128x128 .f32
  | 0 => k0_pay11 (F := Ideal) (X 0) (k0_pay5 (F := Ideal))
  | n + 1 => if (n + 1) % 32 = 0 then k0_pay11 (F := Ideal) (X (n + 1)) (k0_pay5 (F := Ideal))
      else k0_pay11 (F := Ideal) (X (n + 1)) (accG X n)

variable (X : ℕ → Vec Ideal S8192x128 .f32)

/-- At the first step of a run the accumulator is the step's contribution added to zero. -/
theorem accP_reset (n : ℕ) (h : n % 32 = 0) : accP X n = k0_pay9 (F := Ideal) (X n) (k0_pay3 (F := Ideal)) := by
  cases n with
  | zero => rfl
  | succ k => show (if _ then _ else _) = _; rw [if_pos h]
/-- At any other step it is the step's contribution added to the accumulator of the step before. -/
theorem accP_step (n : ℕ) (h : (n + 1) % 32 ≠ 0) : accP X (n + 1) = k0_pay9 (F := Ideal) (X (n + 1)) (accP X n) := by
  show (if _ then _ else _) = _; rw [if_neg h]

theorem accN_reset (n : ℕ) (h : n % 32 = 0) : accN X n = k0_pay10 (F := Ideal) (X n) (k0_pay4 (F := Ideal)) := by
  cases n with
  | zero => rfl
  | succ k => show (if _ then _ else _) = _; rw [if_pos h]
theorem accN_step (n : ℕ) (h : (n + 1) % 32 ≠ 0) : accN X (n + 1) = k0_pay10 (F := Ideal) (X (n + 1)) (accN X n) := by
  show (if _ then _ else _) = _; rw [if_neg h]

theorem accG_reset (n : ℕ) (h : n % 32 = 0) : accG X n = k0_pay11 (F := Ideal) (X n) (k0_pay5 (F := Ideal)) := by
  cases n with
  | zero => rfl
  | succ k => show (if _ then _ else _) = _; rw [if_pos h]
theorem accG_step (n : ℕ) (h : (n + 1) % 32 ≠ 0) : accG X (n + 1) = k0_pay11 (F := Ideal) (X (n + 1)) (accG X n) := by
  show (if _ then _ else _) = _; rw [if_neg h]

/-! ### One step's contribution, and the two step equations at an index -/

/-- Step n's column sum of the kept entries at column l. -/
def stepP (n : ℕ) (l : Fin 128) : EReal := ∑ r : Fin 8192, keepP (X n (ix2 r l))
/-- Step n's column sum of the dropped entries at column l. -/
def stepN (n : ℕ) (l : Fin 128) : EReal := ∑ r : Fin 8192, keepN (X n (ix2 r l))
/-- Step n's Gram entry (p, q) of the kept entries. -/
def stepG (n : ℕ) (p q : Fin 128) : EReal := ∑ r : Fin 8192, keepP (X n (ix2 r p)) * keepP (X n (ix2 r q))

theorem accP_reset_apply (l : Fin 128) (n : ℕ) (h : n % 32 = 0) : accP X n (ix2 (0 : Fin 1) l) = stepP X n l := by
  rw [accP_reset X n h, pay9_apply, pay3_apply, zero_add]; rfl
theorem accP_step_apply (l : Fin 128) (n : ℕ) (h : (n + 1) % 32 ≠ 0) :
    accP X (n + 1) (ix2 (0 : Fin 1) l) = accP X n (ix2 (0 : Fin 1) l) + stepP X (n + 1) l := by
  rw [accP_step X n h, pay9_apply]; rfl

theorem accN_reset_apply (l : Fin 128) (n : ℕ) (h : n % 32 = 0) : accN X n (ix2 (0 : Fin 1) l) = stepN X n l := by
  rw [accN_reset X n h, pay10_apply, pay4_apply, zero_add]; rfl
theorem accN_step_apply (l : Fin 128) (n : ℕ) (h : (n + 1) % 32 ≠ 0) :
    accN X (n + 1) (ix2 (0 : Fin 1) l) = accN X n (ix2 (0 : Fin 1) l) + stepN X (n + 1) l := by
  rw [accN_step X n h, pay10_apply]; rfl

theorem accG_reset_apply (p q : Fin 128) (n : ℕ) (h : n % 32 = 0) : accG X n (ix2 p q) = stepG X n p q := by
  rw [accG_reset X n h, pay11_apply, pay5_apply, zero_add]; rfl
theorem accG_step_apply (p q : Fin 128) (n : ℕ) (h : (n + 1) % 32 ≠ 0) :
    accG X (n + 1) (ix2 p q) = accG X n (ix2 p q) + stepG X (n + 1) p q := by
  rw [accG_step X n h, pay11_apply]; rfl

/-! ### The closed forms -/

/-- After step n the first accumulator holds, at column l, the kept column sums of the steps of n's run up to n. -/
theorem accP_apply (n : ℕ) (l : Fin 128) :
    accP X n (ix2 (0 : Fin 1) l)
      = ∑ i ∈ Finset.range (n % 32 + 1), ∑ r : Fin 8192, keepP (X (32 * (n / 32) + i) (ix2 r l)) :=
  run_sum (fun n => accP X n (ix2 (0 : Fin 1) l)) (fun n => stepP X n l)
    (accP_reset_apply X l) (accP_step_apply X l) n

/-- After step n the second accumulator holds, at column l, the dropped column sums of the steps of n's run up to n. -/
theorem accN_apply (n : ℕ) (l : Fin 128) :
    accN X n (ix2 (0 : Fin 1) l)
      = ∑ i ∈ Finset.range (n % 32 + 1), ∑ r : Fin 8192, keepN (X (32 * (n / 32) + i) (ix2 r l)) :=
  run_sum (fun n => accN X n (ix2 (0 : Fin 1) l)) (fun n => stepN X n l)
    (accN_reset_apply X l) (accN_step_apply X l) n

/-- After step n the third accumulator holds, at (p, q), the kept Gram entries of the steps of n's run up to n. -/
theorem accG_apply (n : ℕ) (p q : Fin 128) :
    accG X n (ix2 p q)
      = ∑ i ∈ Finset.range (n % 32 + 1),
          ∑ r : Fin 8192, keepP (X (32 * (n / 32) + i) (ix2 r p)) * keepP (X (32 * (n / 32) + i) (ix2 r q)) :=
  run_sum (fun n => accG X n (ix2 p q)) (fun n => stepG X n p q)
    (accG_reset_apply X p q) (accG_step_apply X p q) n

/-- After the last step of run s: the kept column sums of the run's 32 steps. -/
theorem accP_last (s : ℕ) (l : Fin 128) :
    accP X (32 * s + 31) (ix2 (0 : Fin 1) l)
      = ∑ j : Fin 32, ∑ r : Fin 8192, keepP (X (32 * s + j.val) (ix2 r l)) :=
  run_sum_last (fun n => accP X n (ix2 (0 : Fin 1) l)) (fun n => stepP X n l)
    (accP_reset_apply X l) (accP_step_apply X l) s

/-- After the last step of run s: the dropped column sums of the run's 32 steps. -/
theorem accN_last (s : ℕ) (l : Fin 128) :
    accN X (32 * s + 31) (ix2 (0 : Fin 1) l)
      = ∑ j : Fin 32, ∑ r : Fin 8192, keepN (X (32 * s + j.val) (ix2 r l)) :=
  run_sum_last (fun n => accN X n (ix2 (0 : Fin 1) l)) (fun n => stepN X n l)
    (accN_reset_apply X l) (accN_step_apply X l) s

/-- After the last step of run s: the kept Gram entries of the run's 32 steps. -/
theorem accG_last (s : ℕ) (p q : Fin 128) :
    accG X (32 * s + 31) (ix2 p q)
      = ∑ j : Fin 32, ∑ r : Fin 8192, keepP (X (32 * s + j.val) (ix2 r p)) * keepP (X (32 * s + j.val) (ix2 r q)) :=
  run_sum_last (fun n => accG X n (ix2 p q)) (fun n => stepG X n p q)
    (accG_reset_apply X p q) (accG_step_apply X p q) s

end Cert.KernelIdeal.Val

end
-- ==== Proof.KernelIdeal.Input.lean ====
/-
  The region's input array and its blocks, coordinate by coordinate (any float instance). The fifteen
  host lines before the region end with the reshape of the 4194304 x 16 argument to 524288 x 128: a
  row-major regrouping, eight source rows of 16 to one row of 128, so the entry (R, l) of the reshaped
  array is the argument's entry (8 R + l / 16, l % 16). The input window's block at grid point t is
  the 8192 rows 8192 t, …, 8192 t + 8191 of that array: the window's block index at t is (t, 0), and a
  block's coordinate is the block index times the block size plus the coordinate inside the block.
-/
import proofs.«416933_j15582141350755_3_alg».proof.Proof.KernelIdeal.Kit
import Idealize.ShloMosaic.Lib.ValueIdx
import Idealize.ShloMosaic.Lib.Pipeline.Value
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The region's input array is the reshape of the argument. -/
theorem V_main_v0 (c : Dev nD) :
    (V m c main_v0 : S524288x128.Idx → Elt F .f32)
      = shapeCast S524288x128 (m ((c : Thread nD τ).loc main_arg0) : S4194304x16.Idx → Elt F .f32)
          shapeCasts_S4194304x16_S524288x128 := by
  show StableHlo.after hostOps0 (fun b => m (c, b)) (Proc.devRef .tc main_v0) = _
  after_results
  rfl

/-- Entry (R, l) of the region's input array is the argument's entry (8 R + l / 16, l % 16): both sit at
    row-major position 128 R + l. -/
theorem x2_apply (c : Dev nD) (R : Fin 524288) (l : Fin 128) :
    V m c main_v0 (ix2 R l)
      = m ((c : Thread nD τ).loc main_arg0)
          (ix2 (⟨8 * R.val + l.val / 16, by omega⟩ : Fin 4194304) (⟨l.val % 16, by omega⟩ : Fin 16)) := by
  refine (congrFun (V_main_v0 m c) (ix2 R l)).trans ?_
  refine shapeCast_apply _ shapeCasts_S4194304x16_S524288x128 (ix2 R l) _ ?_
  rw [Shape.rowMajor_val_two, Shape.rowMajor_val_two]
  show (8 * R.val + l.val / 16) * 16 + l.val % 16 = R.val * 128 + l.val
  omega

/-- The input window's block index at grid point t is (t, 0). -/
theorem index0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry (r, l) of the input window's block at grid point t is entry (8192 t + r, l) of the region's input array. -/
theorem iblk_apply (c : Dev nD) (t : Fin cfg0.N) (r : Fin 8192) (l : Fin 128) :
    (iblk m c 0 t : Vec F S8192x128 .f32) (ix2 r l)
      = V m c main_v0 (ix2 (⟨8192 * t.val + r.val, by have := t.isLt; have : cfg0.N = 64 := N_0; omega⟩ : Fin 524288) l) := by
  have hi := index0_0 t
  unfold iblk
  rw [View.read_apply]
  show V m c main_v0 _ = V m c main_v0 _
  congr 1
  funext a
  apply Fin.ext
  match a with
  | ⟨0, _⟩ => show win0_0.index t 0 * 8192 + 1 * r.val = 8192 * t.val + r.val; rw [hi.1]; omega
  | ⟨1, _⟩ => show win0_0.index t 1 * 128 + 1 * l.val = l.val; rw [hi.2]; omega

end Cert.KernelIdeal.Fr

end
-- ==== Proof.KernelIdeal.Arrays.lean ====
/-
  The three result arrays of the column-statistics kernel, at the ideal values.
  The grid is 2 shards of 32 steps; point t = 32 s + j loads rows 8192 t … 8192 t + 8191 of the input x
  (524288 x 128). With keepP e the entry e where it is kept (1/2 ≤ e) and 0 elsewhere, keepN e the entry where it is
  dropped and 0 elsewhere:
    * each control case of the body leaves, in the three accumulators, the body's arithmetic of the point's block
      over what the point before left (a first step of a shard: over zero), and a last step stores the two
      column-sum rows, repeated over eight rows, and the Gram accumulator into the result blocks;
    * hence, by induction on the point, the accumulators after point n are the running sums over the blocks of
      n's shard up to n, and after the last step of shard s the sums over all its 32 blocks;
    * the last step of shard s writes rows 8 s … 8 s + 7 of result arrays 1 and 2 and rows 128 s … 128 s + 127 of
      result array 3, and these blocks tile the arrays, so
        array 1 (8 s + k, l)   = ∑ j < 32, ∑ r < 8192, keepP x((32 s + j) 8192 + r, l)
        array 2 (8 s + k, l)   = ∑ j < 32, ∑ r < 8192, keepN x((32 s + j) 8192 + r, l)
        array 3 (128 s + p, q) = ∑ j < 32, ∑ r < 8192, keepP x((32 s + j) 8192 + r, p) * keepP x((32 s + j) 8192 + r, q).
-/
import proofs.«416933_j15582141350755_3_alg».proof.Proof.KernelIdeal.Frame
import proofs.«416933_j15582141350755_3_alg».proof.Proof.KernelIdeal.Payload
import proofs.«416933_j15582141350755_3_alg».proof.Proof.KernelIdeal.Acc
import proofs.«416933_j15582141350755_3_alg».proof.Proof.KernelIdeal.Input
import Idealize.ShloMosaic.Lib.Pipeline.Value
import Idealize.ShloMosaic.Lib.ValueIdx
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## The pieces each run of the body found, read as payloads -/

variable {F : FTy → Type} [FloatOps F]

theorem offs00 : (![0, 0] : Fin 2 → Nat) = fun _ => 0 := funext fun a => by fin_cases a <;> rfl

/-- A first step of a shard: each accumulator is zeroed and then updated, the update reading the zero back. -/
theorem canonA (c : Dev nD) (i : grid0.Coords)
    (a2 : Memref sig .tc .vmem S8192x128 .f32) (h2 : a2.IsWhole) (a3 : Memref sig .tc .vmem S8x128 .f32) (h3 : a3.IsWhole)
    (a4 : Memref sig .tc .vmem S8x128 .f32) (h4 : a4.IsWhole) (a5 : Memref sig .tc .vmem S128x128 .f32) (h5 : a5.IsWhole)
    (a6 : Memref sig .tc .vmem S1x128 .f32) (h6 : a6.IsWhole) (a7 : Memref sig .tc .vmem S1x128 .f32) (h7 : a7.IsWhole)
    (a8 : Memref sig .tc .vmem S128x128 .f32) (h8 : a8.IsWhole) (hc0 : cond0_0 i) (hc1 : ¬cond0_1 i)
    (x0 : Vec F S8192x128 .f32) :
    View.canon (kernelRun0_A c i a2 h2 a3 h3 a4 h4 a5 h5 a6 h6 a7 h7 a8 h8 hc0 hc1 x0).1 = k0_pay9 x0 k0_pay3
    ∧ View.canon (kernelRun0_A c i a2 h2 a3 h3 a4 h4 a5 h5 a6 h6 a7 h7 a8 h8 hc0 hc1 x0).2.1 = k0_pay10 x0 k0_pay4
    ∧ View.canon (kernelRun0_A c i a2 h2 a3 h3 a4 h4 a5 h5 a6 h6 a7 h7 a8 h8 hc0 hc1 x0).2.2.1 = k0_pay11 x0 k0_pay5 := by
  unfold kernelRun0_A
  dsimp only
  sl_unfold_words
  refine ⟨?_, ?_, ?_⟩
  · rw [View.canon_cons_unit_zero (S := S1x128) offs00]
    simp only [View.readAt_eq_ld, h2.read_unread, h6.read_unread, h7.read_unread, h8.read_unread,
    View.ld_unit_zero (S := S8192x128) offs00, View.ld_unit_zero (S := S1x128) offs00, View.ld_unit_zero (S := S128x128) offs00,
    View.readCov_unit_zero (S := S1x128) _ offs00, View.readCov_unit_zero (S := S128x128) _ offs00]
  · rw [View.canon_cons_unit_zero (S := S1x128) offs00]
    simp only [View.readAt_eq_ld, h2.read_unread, h6.read_unread, h7.read_unread, h8.read_unread,
    View.ld_unit_zero (S := S8192x128) offs00, View.ld_unit_zero (S := S1x128) offs00, View.ld_unit_zero (S := S128x128) offs00,
    View.readCov_unit_zero (S := S1x128) _ offs00, View.readCov_unit_zero (S := S128x128) _ offs00]
  · rw [View.canon_cons_unit_zero (S := S128x128) offs00]
    simp only [View.readAt_eq_ld, h2.read_unread, h6.read_unread, h7.read_unread, h8.read_unread,
    View.ld_unit_zero (S := S8192x128) offs00, View.ld_unit_zero (S := S1x128) offs00, View.ld_unit_zero (S := S128x128) offs00,
    View.readCov_unit_zero (S := S1x128) _ offs00, View.readCov_unit_zero (S := S128x128) _ offs00]

/-- A middle step: each accumulator's one store holds the update of what the step before left. -/
theorem canonB (c : Dev nD) (i : grid0.Coords)
    (a2 : Memref sig .tc .vmem S8192x128 .f32) (h2 : a2.IsWhole) (a3 : Memref sig .tc .vmem S8x128 .f32) (h3 : a3.IsWhole)
    (a4 : Memref sig .tc .vmem S8x128 .f32) (h4 : a4.IsWhole) (a5 : Memref sig .tc .vmem S128x128 .f32) (h5 : a5.IsWhole)
    (a6 : Memref sig .tc .vmem S1x128 .f32) (h6 : a6.IsWhole) (a7 : Memref sig .tc .vmem S1x128 .f32) (h7 : a7.IsWhole)
    (a8 : Memref sig .tc .vmem S128x128 .f32) (h8 : a8.IsWhole) (hc0 : ¬cond0_0 i) (hc1 : ¬cond0_1 i)
    (x0 : Vec F S8192x128 .f32) (xs0 xs1 : Vec F S1x128 .f32) (xs2 : Vec F S128x128 .f32) :
    View.canon (kernelRun0_B c i a2 h2 a3 h3 a4 h4 a5 h5 a6 h6 a7 h7 a8 h8 hc0 hc1 x0 xs0 xs1 xs2).1 = k0_pay9 x0 xs0
    ∧ View.canon (kernelRun0_B c i a2 h2 a3 h3 a4 h4 a5 h5 a6 h6 a7 h7 a8 h8 hc0 hc1 x0 xs0 xs1 xs2).2.1 = k0_pay10 x0 xs1
    ∧ View.canon (kernelRun0_B c i a2 h2 a3 h3 a4 h4 a5 h5 a6 h6 a7 h7 a8 h8 hc0 hc1 x0 xs0 xs1 xs2).2.2.1 = k0_pay11 x0 xs2 := by
  unfold kernelRun0_B
  dsimp only
  sl_unfold_words
  refine ⟨?_, ?_, ?_⟩
  · rw [View.canon_unit_zero offs00]
    simp only [View.readAt_eq_ld, h2.read_unread, h6.read_unread, h7.read_unread, h8.read_unread,
    View.ld_unit_zero (S := S8192x128) offs00, View.ld_unit_zero (S := S1x128) offs00, View.ld_unit_zero (S := S128x128) offs00,
    View.readCov_unit_zero (S := S1x128) _ offs00, View.readCov_unit_zero (S := S128x128) _ offs00]
  · rw [View.canon_unit_zero offs00]
    simp only [View.readAt_eq_ld, h2.read_unread, h6.read_unread, h7.read_unread, h8.read_unread,
    View.ld_unit_zero (S := S8192x128) offs00, View.ld_unit_zero (S := S1x128) offs00, View.ld_unit_zero (S := S128x128) offs00,
    View.readCov_unit_zero (S := S1x128) _ offs00, View.readCov_unit_zero (S := S128x128) _ offs00]
  · rw [View.canon_unit_zero offs00]
    simp only [View.readAt_eq_ld, h2.read_unread, h6.read_unread, h7.read_unread, h8.read_unread,
    View.ld_unit_zero (S := S8192x128) offs00, View.ld_unit_zero (S := S1x128) offs00, View.ld_unit_zero (S := S128x128) offs00,
    View.readCov_unit_zero (S := S1x128) _ offs00, View.readCov_unit_zero (S := S128x128) _ offs00]

/-- A last step: the accumulators as at a middle step; each result block is stored from the accumulator read back. -/
theorem canonC (c : Dev nD) (i : grid0.Coords)
    (a2 : Memref sig .tc .vmem S8192x128 .f32) (h2 : a2.IsWhole) (a3 : Memref sig .tc .vmem S8x128 .f32) (h3 : a3.IsWhole)
    (a4 : Memref sig .tc .vmem S8x128 .f32) (h4 : a4.IsWhole) (a5 : Memref sig .tc .vmem S128x128 .f32) (h5 : a5.IsWhole)
    (a6 : Memref sig .tc .vmem S1x128 .f32) (h6 : a6.IsWhole) (a7 : Memref sig .tc .vmem S1x128 .f32) (h7 : a7.IsWhole)
    (a8 : Memref sig .tc .vmem S128x128 .f32) (h8 : a8.IsWhole) (hc0 : ¬cond0_0 i) (hc1 : cond0_1 i)
    (x0 : Vec F S8192x128 .f32) (xs0 xs1 : Vec F S1x128 .f32) (xs2 : Vec F S128x128 .f32) :
    View.canon (kernelRun0_C c i a2 h2 a3 h3 a4 h4 a5 h5 a6 h6 a7 h7 a8 h8 hc0 hc1 x0 xs0 xs1 xs2).1 = k0_pay1 (k0_pay9 x0 xs0)
    ∧ View.canon (kernelRun0_C c i a2 h2 a3 h3 a4 h4 a5 h5 a6 h6 a7 h7 a8 h8 hc0 hc1 x0 xs0 xs1 xs2).2.1 = k0_pay2 (k0_pay10 x0 xs1)
    ∧ View.canon (kernelRun0_C c i a2 h2 a3 h3 a4 h4 a5 h5 a6 h6 a7 h7 a8 h8 hc0 hc1 x0 xs0 xs1 xs2).2.2.1 = k0_pay11 x0 xs2
    ∧ View.canon (kernelRun0_C c i a2 h2 a3 h3 a4 h4 a5 h5 a6 h6 a7 h7 a8 h8 hc0 hc1 x0 xs0 xs1 xs2).2.2.2.1 = k0_pay9 x0 xs0
    ∧ View.canon (kernelRun0_C c i a2 h2 a3 h3 a4 h4 a5 h5 a6 h6 a7 h7 a8 h8 hc0 hc1 x0 xs0 xs1 xs2).2.2.2.2.1 = k0_pay10 x0 xs1
    ∧ View.canon (kernelRun0_C c i a2 h2 a3 h3 a4 h4 a5 h5 a6 h6 a7 h7 a8 h8 hc0 hc1 x0 xs0 xs1 xs2).2.2.2.2.2.1 = k0_pay11 x0 xs2 := by
  unfold kernelRun0_C
  dsimp only
  sl_unfold_words
  refine ⟨?_, ?_, ?_, ?_, ?_, ?_⟩
  · rw [View.canon_unit_zero offs00]
    simp only [View.readAt_eq_ld, h2.read_unread, h6.read_unread, h7.read_unread, h8.read_unread,
    View.ld_unit_zero (S := S8192x128) offs00, View.ld_unit_zero (S := S1x128) offs00, View.ld_unit_zero (S := S128x128) offs00,
    View.readCov_unit_zero (S := S1x128) _ offs00, View.readCov_unit_zero (S := S128x128) _ offs00]
  · rw [View.canon_unit_zero offs00]
    simp only [View.readAt_eq_ld, h2.read_unread, h6.read_unread, h7.read_unread, h8.read_unread,
    View.ld_unit_zero (S := S8192x128) offs00, View.ld_unit_zero (S := S1x128) offs00, View.ld_unit_zero (S := S128x128) offs00,
    View.readCov_unit_zero (S := S1x128) _ offs00, View.readCov_unit_zero (S := S128x128) _ offs00]
  · rw [View.canon_unit_zero offs00]
    simp only [View.readAt_eq_ld, h2.read_unread, h6.read_unread, h7.read_unread, h8.read_unread,
    View.ld_unit_zero (S := S8192x128) offs00, View.ld_unit_zero (S := S1x128) offs00, View.ld_unit_zero (S := S128x128) offs00,
    View.readCov_unit_zero (S := S1x128) _ offs00, View.readCov_unit_zero (S := S128x128) _ offs00]
  · rw [View.canon_unit_zero offs00]
    simp only [View.readAt_eq_ld, h2.read_unread, h6.read_unread, h7.read_unread, h8.read_unread,
    View.ld_unit_zero (S := S8192x128) offs00, View.ld_unit_zero (S := S1x128) offs00, View.ld_unit_zero (S := S128x128) offs00,
    View.readCov_unit_zero (S := S1x128) _ offs00, View.readCov_unit_zero (S := S128x128) _ offs00]
  · rw [View.canon_unit_zero offs00]
    simp only [View.readAt_eq_ld, h2.read_unread, h6.read_unread, h7.read_unread, h8.read_unread,
    View.ld_unit_zero (S := S8192x128) offs00, View.ld_unit_zero (S := S1x128) offs00, View.ld_unit_zero (S := S128x128) offs00,
    View.readCov_unit_zero (S := S1x128) _ offs00, View.readCov_unit_zero (S := S128x128) _ offs00]
  · rw [View.canon_unit_zero offs00]
    simp only [View.readAt_eq_ld, h2.read_unread, h6.read_unread, h7.read_unread, h8.read_unread,
    View.ld_unit_zero (S := S8192x128) offs00, View.ld_unit_zero (S := S1x128) offs00, View.ld_unit_zero (S := S128x128) offs00,
    View.readCov_unit_zero (S := S1x128) _ offs00, View.readCov_unit_zero (S := S128x128) _ offs00]

/-! ## What each case leaves, as the body's arithmetic of the point's block and of what the point before left -/

section CaseValues

variable (m : (ℓ : Loc nD τ sig) → Buf (Elt F) ℓ)

/-- First step of a shard: the three accumulators are the block's contribution over the zero they were reset to. -/
theorem scA_eq (c : Dev nD) (t : Fin cfg0.N) (h0 : t.val % 32 = 0) (h1 : ¬t.val % 32 = 31) :
    scA m c t h0 h1 = (k0_pay9 (iblk m c 0 t) k0_pay3, k0_pay10 (iblk m c 0 t) k0_pay4, k0_pay11 (iblk m c 0 t) k0_pay5) := by
  unfold scA
  have e := canonA c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t)
  exact congrArg₂ Prod.mk ((View.read_writes_junk_eq_canon _ _).trans e.1)
    (congrArg₂ Prod.mk ((View.read_writes_junk_eq_canon _ _).trans e.2.1) ((View.read_writes_junk_eq_canon _ _).trans e.2.2))

/-- Middle step: the block's contribution over what the step before left. -/
theorem scB_eq (c : Dev nD) (t : Fin cfg0.N) (h0 : ¬t.val % 32 = 0) (h1 : ¬t.val % 32 = 31) (xs : Sc F) :
    scB m c t h0 h1 xs = (k0_pay9 (iblk m c 0 t) xs.1, k0_pay10 (iblk m c 0 t) xs.2.1, k0_pay11 (iblk m c 0 t) xs.2.2) := by
  unfold scB
  have e := canonB c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) xs.1 xs.2.1 xs.2.2
  exact congrArg₂ Prod.mk ((View.read_writes_junk_eq_canon _ _).trans e.1)
    (congrArg₂ Prod.mk ((View.read_writes_junk_eq_canon _ _).trans e.2.1) ((View.read_writes_junk_eq_canon _ _).trans e.2.2))

/-- Last step: the accumulators likewise, -/
theorem scC_eq (c : Dev nD) (t : Fin cfg0.N) (h0 : ¬t.val % 32 = 0) (h1 : t.val % 32 = 31) (xs : Sc F) :
    scC m c t h0 h1 xs = (k0_pay9 (iblk m c 0 t) xs.1, k0_pay10 (iblk m c 0 t) xs.2.1, k0_pay11 (iblk m c 0 t) xs.2.2) := by
  unfold scC
  have e := canonC c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2
  exact congrArg₂ Prod.mk ((View.read_writes_junk_eq_canon _ _).trans e.2.2.2.1)
    (congrArg₂ Prod.mk ((View.read_writes_junk_eq_canon _ _).trans e.2.2.2.2.1) ((View.read_writes_junk_eq_canon _ _).trans e.2.2.2.2.2))

/-- and the three result blocks: the two column-sum rows repeated over eight rows, and the Gram accumulator itself. -/
theorem outC_eq (c : Dev nD) (t : Fin cfg0.N) (h0 : ¬t.val % 32 = 0) (h1 : t.val % 32 = 31) (xs : Sc F) :
    outC m c t h0 h1 xs = (k0_pay1 (k0_pay9 (iblk m c 0 t) xs.1), k0_pay2 (k0_pay10 (iblk m c 0 t) xs.2.1), k0_pay11 (iblk m c 0 t) xs.2.2) := by
  unfold outC
  have e := canonC c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) xs.1 xs.2.1 xs.2.2
  exact congrArg₂ Prod.mk ((View.read_writes_junk_eq_canon _ _).trans e.1)
    (congrArg₂ Prod.mk ((View.read_writes_junk_eq_canon _ _).trans e.2.1) ((View.read_writes_junk_eq_canon _ _).trans e.2.2.1))

end CaseValues

/-! ## The accumulators at the ideal values: the running sums of the shard's blocks -/

section AtIdeal

open Cert.KernelIdeal.Val
open scoped BigOperators

variable (m : (ℓ : Loc nD τ sig) → Buf (Elt Ideal) ℓ)

/-- The input blocks as a sequence over every natural: the block of grid point `k`, and zero past the grid. -/
def blocks (c : Dev nD) (k : ℕ) : Vec Ideal S8192x128 .f32 :=
  if h : k < cfg0.N then iblk m c 0 ⟨k, h⟩ else fun _ => (0 : EReal)

theorem blocks_of_lt (c : Dev nD) (k : ℕ) (h : k < cfg0.N) : blocks m c k = iblk m c 0 ⟨k, h⟩ := dif_pos h

/-- After point `n` the three accumulators are the running sums over the blocks of `n`'s shard up to `n`: by induction
    on the point, a first step restarting from zero and a later step adding to what the step before left. -/
theorem scAt_eq_acc (c : Dev nD) : ∀ (n : ℕ) (hn : n < cfg0.N),
    scAt (F := Ideal) m c n hn = (accP (blocks m c) n, accN (blocks m c) n, accG (blocks m c) n)
  | 0, hn => by
    rw [show scAt (F := Ideal) m c 0 hn = scA m c ⟨0, hn⟩ (Nat.zero_mod _) (by show ¬(0 % 32 = 31); decide) from rfl,
      scA_eq, accP_reset _ 0 rfl, accN_reset _ 0 rfl, accG_reset _ 0 rfl, blocks_of_lt m c 0 hn]
  | n + 1, hn => by
    have ih := scAt_eq_acc c n (Nat.lt_of_succ_lt hn)
    by_cases h0 : (n + 1) % 32 = 0
    · have h1 : ¬(n + 1) % 32 = 31 := by omega
      rw [show scAt (F := Ideal) m c (n + 1) hn = scA m c ⟨n + 1, hn⟩ h0 h1 from scAt_A m c ⟨n + 1, hn⟩ h0 h1,
        scA_eq, accP_reset _ _ h0, accN_reset _ _ h0, accG_reset _ _ h0, blocks_of_lt m c (n + 1) hn]
    · by_cases h1 : (n + 1) % 32 = 31
      · rw [show scAt (F := Ideal) m c (n + 1) hn = scC m c ⟨n + 1, hn⟩ h0 h1 (scAt m c n (Nat.lt_of_succ_lt hn)) from scAt_C m c ⟨n + 1, hn⟩ h0 h1,
          scC_eq, ih, accP_step _ _ h0, accN_step _ _ h0, accG_step _ _ h0, blocks_of_lt m c (n + 1) hn]
      · rw [show scAt (F := Ideal) m c (n + 1) hn = scB m c ⟨n + 1, hn⟩ h0 h1 (scAt m c n (Nat.lt_of_succ_lt hn)) from scAt_B m c ⟨n + 1, hn⟩ h0 h1,
          scB_eq, ih, accP_step _ _ h0, accN_step _ _ h0, accG_step _ _ h0, blocks_of_lt m c (n + 1) hn]

/-- What a last step of a shard stores into the three result blocks: the two column-sum rows repeated over eight
    rows and the Gram sum, each the running sum after that step. -/
theorem outAt_last (c : Dev nD) (t : Fin cfg0.N) (h1 : t.val % 32 = 31) :
    outAt (F := Ideal) m c t
      = (k0_pay1 (accP (blocks m c) t.val), k0_pay2 (accN (blocks m c) t.val), accG (blocks m c) t.val) := by
  have h0 : ¬t.val % 32 = 0 := by omega
  have e := scAt_eq_acc m c t.val t.isLt
  rw [scAt_C m c t h0 h1, scC_eq] at e
  rw [outAt_C m c t h0 h1, outC_eq]
  obtain ⟨e1, e23⟩ := Prod.mk.inj e
  obtain ⟨e2, e3⟩ := Prod.mk.inj e23
  rw [e1, e2, e3]

/-! ## The input array's entries over natural coordinates -/

/-- The array the kernel reads, as the region finds it. -/
abbrev x2 (c : Dev nD) : Vec Ideal S524288x128 .f32 := V m c main_v0

/-- Its entry at row `R`, column `L` (zero outside the array). -/
def xe (c : Dev nD) (R L : ℕ) : EReal :=
  if h : R < 524288 ∧ L < 128 then x2 m c (ix2 ⟨R, h.1⟩ ⟨L, h.2⟩) else 0

theorem xe_eq (c : Dev nD) (R L : ℕ) (R' : Fin 524288) (l : Fin 128) (hR : R = R'.val) (hL : L = l.val) :
    xe m c R L = x2 m c (ix2 R' l) := by
  subst hR hL
  exact dif_pos ⟨R'.isLt, l.isLt⟩

/-- Block `n` holds rows `8192 n … 8192 n + 8191` of the array. -/
theorem blocks_entry (c : Dev nD) (n : ℕ) (hn : n < 64) (r : Fin 8192) (l : Fin 128) :
    blocks m c n (ix2 r l) = xe m c (8192 * n + r.val) l.val := by
  have hN : n < cfg0.N := by rw [show cfg0.N = 64 from N_0]; exact hn
  rw [blocks_of_lt m c n hN]
  refine (iblk_apply m c ⟨n, hN⟩ r l).trans ?_
  exact (xe_eq m c _ _ ⟨8192 * n + r.val, by omega⟩ l rfl rfl).symm

/-! ## The three result arrays -/

/-- The printed index maps, decided over the grid: the input's block index is the point itself; each result's is the shard. -/
theorem idx_facts : ∀ t : Fin cfg0.N,
    win0_0.index t (0 : Fin 2) = t.val ∧ win0_0.index t (1 : Fin 2) = 0
    ∧ win0_1.index t (0 : Fin 2) = t.val / 32 ∧ win0_1.index t (1 : Fin 2) = 0
    ∧ win0_2.index t (0 : Fin 2) = t.val / 32 ∧ win0_2.index t (1 : Fin 2) = 0
    ∧ win0_3.index t (0 : Fin 2) = t.val / 32 ∧ win0_3.index t (1 : Fin 2) = 0 :=
  (by decide +kernel : ∀ t : Fin grid0.N, _)

/-- Result array 1, whole: at row `ρ`, column `l`, the sum over the 32 blocks of shard `ρ / 8` of the column sums of the kept entries. -/
def G1 (c : Dev nD) : S16x128.Idx → EReal := fun i =>
  ∑ j : Fin 32, ∑ r : Fin 8192, keepP (xe m c (8192 * (32 * ((i 0).val / 8) + j.val) + r.val) (i 1).val)

theorem G1_at (c : Dev nD) (i : S16x128.Idx) (s L : ℕ) (hs : (i 0).val / 8 = s) (hL : (i 1).val = L) :
    G1 m c i = ∑ j : Fin 32, ∑ r : Fin 8192, keepP (xe m c (8192 * (32 * s + j.val) + r.val) L) := by
  subst hs hL; rfl

/-- An index of result array 1 is in point `t`'s block iff each coordinate is in the block's range on its axis. -/
theorem mem_blk1 (t : Fin cfg0.N) (i : S16x128.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v1_0).slice (win0_1.rect t)).set ↔ _
  rw [View.set_slice_whole, Rect.mem_set_unit]
  exact Iff.rfl

/-- What the last step of shard `s` writes back into result array 1 is rows `8 s … 8 s + 7` of `G1`. -/
theorem flushed1_eq (c : Dev nD) (t : Fin cfg0.N) (hf : (cfg0.win 1).flush t = true) :
    (dats (F := Ideal) m 0 c).flushed 1 t = ((cfg0.win 1).blk t).view.read (Elt Ideal) (G1 m c) := by
  have hN : t.val < 64 := lt_of_lt_of_eq t.isLt (show cfg0.N = 64 from N_0)
  have h1 : t.val % 32 = 31 := (flush0_1 t).mp hf
  obtain ⟨s, hs⟩ : ∃ s, t.val = 32 * s + 31 := ⟨t.val / 32, by omega⟩
  have e0 : win0_1.index t (0 : Fin 2) = t.val / 32 := (idx_facts t).2.2.1
  have e1 : win0_1.index t (1 : Fin 2) = 0 := (idx_facts t).2.2.2.1
  show (cfg0.win 1).cut (grid0.coords t) ((dats m 0 c).after 1 t) = _
  rw [after0_1, outAt_last m c t h1]
  funext y
  have hy0 : (y 0).val < 8 := (y 0).isLt
  have hy1 : (y 1).val < 128 := (y 1).isLt
  have hx : (cfg0.win 1).xinj (grid0.coords t) y = ix2 (⟨(y 0).val, hy0⟩ : Fin 8) (⟨(y 1).val, hy1⟩ : Fin 128) := by
    funext a; apply Fin.ext
    match a with
    | ⟨0, _⟩ => rfl
    | ⟨1, _⟩ => rfl
  refine (congrArg (k0_pay1 (F := Ideal) (accP (blocks m c) t.val)) hx).trans ?_
  refine (pay1_apply _ _ _).trans ?_
  refine ((congrArg (fun n => accP (blocks m c) n (ix2 (0 : Fin 1) (⟨(y 1).val, hy1⟩ : Fin 128))) hs).trans
    (accP_last (blocks m c) s _)).trans ?_
  refine ((G1_at m c _ s (y 1).val ?_ ?_).trans ?_).symm
  · show (win0_1.index t (0 : Fin 2) * 8 + 1 * (y 0).val) / 8 = s
    rw [e0]; omega
  · show win0_1.index t (1 : Fin 2) * 128 + 1 * (y 1).val = (y 1).val
    rw [e1]; omega
  · refine Finset.sum_congr rfl fun j _ => Finset.sum_congr rfl fun r _ => ?_
    have hj : j.val < 32 := j.isLt
    exact congrArg keepP (blocks_entry m c (32 * s + j.val) (by omega) r ⟨(y 1).val, hy1⟩).symm

/-- Every row of result array 1 lies in the block its shard's last step writes back. -/
theorem cover1 (i : S16x128.Idx) :
    ∃ t : Fin cfg0.N, (cfg0.win 1).flush t = true ∧ i ∈ ((cfg0.win 1).blk t).view.set := by
  have hi0 : (i 0).val < 16 := (i 0).isLt
  have hi1 : (i 1).val < 128 := (i 1).isLt
  obtain ⟨t, ht⟩ : ∃ t : Fin cfg0.N, t.val = 32 * ((i 0).val / 8) + 31 :=
    ⟨⟨32 * ((i 0).val / 8) + 31, by rw [show cfg0.N = 64 from N_0]; omega⟩, rfl⟩
  have e0 : win0_1.index t (0 : Fin 2) = t.val / 32 := (idx_facts t).2.2.1
  have e1 : win0_1.index t (1 : Fin 2) = 0 := (idx_facts t).2.2.2.1
  refine ⟨t, (flush0_1 t).mpr (by omega), ?_⟩
  rw [mem_blk1]
  intro a
  match a with
  | ⟨0, _⟩ =>
    show win0_1.index t (0 : Fin 2) * 8 ≤ (i 0).val ∧ (i 0).val < win0_1.index t (0 : Fin 2) * 8 + 8
    rw [e0]; omega
  | ⟨1, _⟩ =>
    show win0_1.index t (1 : Fin 2) * 128 ≤ (i 1).val ∧ (i 1).val < win0_1.index t (1 : Fin 2) * 128 + 128
    rw [e1]; omega

/-- So result array 1 ends holding `G1`. -/
theorem final1 (c : Dev nD) : (dats (F := Ideal) m 0 c).arrAt 1 cfg0.N = G1 m c :=
  (dats m 0 c).arrAt_eq_of_cover 1 (G1 m c) (flushed1_eq m c) cover1

/-- Result array 1 at row `8 s + k`, column `l`: the kept entries of column `l` summed over the 32 blocks of shard `s`. -/
theorem arr1_apply (c : Dev nD) (s : Fin 2) (k : Fin 8) (l : Fin 128) :
    (dats (F := Ideal) m 0 c).arrAt 1 cfg0.N (ix2 ⟨8 * s.val + k.val, by omega⟩ l)
      = ∑ j : Fin 32, ∑ r : Fin 8192, keepP (V m c main_v0 (ix2 ⟨(32 * s.val + j.val) * 8192 + r.val, by omega⟩ l)) := by
  refine (congrFun (final1 m c) _).trans ?_
  refine (G1_at m c _ s.val l.val ?_ rfl).trans ?_
  · show (8 * s.val + k.val) / 8 = s.val
    have hk : k.val < 8 := k.isLt
    omega
  · refine Finset.sum_congr rfl fun j _ => Finset.sum_congr rfl fun r _ => congrArg keepP ?_
    exact xe_eq m c _ _ ⟨(32 * s.val + j.val) * 8192 + r.val, by omega⟩ l (by show 8192 * (32 * s.val + j.val) + r.val = (32 * s.val + j.val) * 8192 + r.val; omega) rfl

/-- Result array 2, whole: at row `ρ`, column `l`, the sum over the 32 blocks of shard `ρ / 8` of the column sums of the dropped entries. -/
def G2 (c : Dev nD) : S16x128.Idx → EReal := fun i =>
  ∑ j : Fin 32, ∑ r : Fin 8192, keepN (xe m c (8192 * (32 * ((i 0).val / 8) + j.val) + r.val) (i 1).val)

theorem G2_at (c : Dev nD) (i : S16x128.Idx) (s L : ℕ) (hs : (i 0).val / 8 = s) (hL : (i 1).val = L) :
    G2 m c i = ∑ j : Fin 32, ∑ r : Fin 8192, keepN (xe m c (8192 * (32 * s + j.val) + r.val) L) := by
  subst hs hL; rfl

/-- An index of result array 2 is in point `t`'s block iff each coordinate is in the block's range on its axis. -/
theorem mem_blk2 (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v1_1).slice (win0_2.rect t)).set ↔ _
  rw [View.set_slice_whole, Rect.mem_set_unit]
  exact Iff.rfl

/-- What the last step of shard `s` writes back into result array 2 is rows `8 s … 8 s + 7` of `G2`. -/
theorem flushed2_eq (c : Dev nD) (t : Fin cfg0.N) (hf : (cfg0.win 2).flush t = true) :
    (dats (F := Ideal) m 0 c).flushed 2 t = ((cfg0.win 2).blk t).view.read (Elt Ideal) (G2 m c) := by
  have hN : t.val < 64 := lt_of_lt_of_eq t.isLt (show cfg0.N = 64 from N_0)
  have h1 : t.val % 32 = 31 := (flush0_2 t).mp hf
  obtain ⟨s, hs⟩ : ∃ s, t.val = 32 * s + 31 := ⟨t.val / 32, by omega⟩
  have e0 : win0_2.index t (0 : Fin 2) = t.val / 32 := (idx_facts t).2.2.2.2.1
  have e1 : win0_2.index t (1 : Fin 2) = 0 := (idx_facts t).2.2.2.2.2.1
  show (cfg0.win 2).cut (grid0.coords t) ((dats m 0 c).after 2 t) = _
  rw [after0_2, outAt_last m c t h1]
  funext y
  have hy0 : (y 0).val < 8 := (y 0).isLt
  have hy1 : (y 1).val < 128 := (y 1).isLt
  have hx : (cfg0.win 2).xinj (grid0.coords t) y = ix2 (⟨(y 0).val, hy0⟩ : Fin 8) (⟨(y 1).val, hy1⟩ : Fin 128) := by
    funext a; apply Fin.ext
    match a with
    | ⟨0, _⟩ => rfl
    | ⟨1, _⟩ => rfl
  refine (congrArg (k0_pay2 (F := Ideal) (accN (blocks m c) t.val)) hx).trans ?_
  refine (pay2_apply _ _ _).trans ?_
  refine ((congrArg (fun n => accN (blocks m c) n (ix2 (0 : Fin 1) (⟨(y 1).val, hy1⟩ : Fin 128))) hs).trans
    (accN_last (blocks m c) s _)).trans ?_
  refine ((G2_at m c _ s (y 1).val ?_ ?_).trans ?_).symm
  · show (win0_2.index t (0 : Fin 2) * 8 + 1 * (y 0).val) / 8 = s
    rw [e0]; omega
  · show win0_2.index t (1 : Fin 2) * 128 + 1 * (y 1).val = (y 1).val
    rw [e1]; omega
  · refine Finset.sum_congr rfl fun j _ => Finset.sum_congr rfl fun r _ => ?_
    have hj : j.val < 32 := j.isLt
    exact congrArg keepN (blocks_entry m c (32 * s + j.val) (by omega) r ⟨(y 1).val, hy1⟩).symm

/-- Every row of result array 2 lies in the block its shard's last step writes back. -/
theorem cover2 (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  obtain ⟨t, ht⟩ : ∃ t : Fin cfg0.N, t.val = 32 * ((i 0).val / 8) + 31 :=
    ⟨⟨32 * ((i 0).val / 8) + 31, by rw [show cfg0.N = 64 from N_0]; omega⟩, rfl⟩
  have e0 : win0_2.index t (0 : Fin 2) = t.val / 32 := (idx_facts t).2.2.2.2.1
  have e1 : win0_2.index t (1 : Fin 2) = 0 := (idx_facts t).2.2.2.2.2.1
  refine ⟨t, (flush0_2 t).mpr (by omega), ?_⟩
  rw [mem_blk2]
  intro a
  match a with
  | ⟨0, _⟩ =>
    show win0_2.index t (0 : Fin 2) * 8 ≤ (i 0).val ∧ (i 0).val < win0_2.index t (0 : Fin 2) * 8 + 8
    rw [e0]; omega
  | ⟨1, _⟩ =>
    show win0_2.index t (1 : Fin 2) * 128 ≤ (i 1).val ∧ (i 1).val < win0_2.index t (1 : Fin 2) * 128 + 128
    rw [e1]; omega

/-- So result array 2 ends holding `G2`. -/
theorem final2 (c : Dev nD) : (dats (F := Ideal) m 0 c).arrAt 2 cfg0.N = G2 m c :=
  (dats m 0 c).arrAt_eq_of_cover 2 (G2 m c) (flushed2_eq m c) cover2

/-- Result array 2 at row `8 s + k`, column `l`: the dropped entries of column `l` summed over the 32 blocks of shard `s`. -/
theorem arr2_apply (c : Dev nD) (s : Fin 2) (k : Fin 8) (l : Fin 128) :
    (dats (F := Ideal) m 0 c).arrAt 2 cfg0.N (ix2 ⟨8 * s.val + k.val, by omega⟩ l)
      = ∑ j : Fin 32, ∑ r : Fin 8192, keepN (V m c main_v0 (ix2 ⟨(32 * s.val + j.val) * 8192 + r.val, by omega⟩ l)) := by
  refine (congrFun (final2 m c) _).trans ?_
  refine (G2_at m c _ s.val l.val ?_ rfl).trans ?_
  · show (8 * s.val + k.val) / 8 = s.val
    have hk : k.val < 8 := k.isLt
    omega
  · refine Finset.sum_congr rfl fun j _ => Finset.sum_congr rfl fun r _ => congrArg keepN ?_
    exact xe_eq m c _ _ ⟨(32 * s.val + j.val) * 8192 + r.val, by omega⟩ l (by show 8192 * (32 * s.val + j.val) + r.val = (32 * s.val + j.val) * 8192 + r.val; omega) rfl

/-- Result array 3, whole: at row `ρ`, column `q`, with `p = ρ % 128`, the sum over the 32 blocks of shard `ρ / 128` of the
    products of the kept entries of columns `p` and `q`. -/
def G3 (c : Dev nD) : S256x128.Idx → EReal := fun i =>
  ∑ j : Fin 32, ∑ r : Fin 8192,
    keepP (xe m c (8192 * (32 * ((i 0).val / 128) + j.val) + r.val) ((i 0).val % 128))
      * keepP (xe m c (8192 * (32 * ((i 0).val / 128) + j.val) + r.val) (i 1).val)

theorem G3_at (c : Dev nD) (i : S256x128.Idx) (s P Q : ℕ) (hs : (i 0).val / 128 = s) (hP : (i 0).val % 128 = P) (hQ : (i 1).val = Q) :
    G3 m c i = ∑ j : Fin 32, ∑ r : Fin 8192,
      keepP (xe m c (8192 * (32 * s + j.val) + r.val) P) * keepP (xe m c (8192 * (32 * s + j.val) + r.val) Q) := by
  subst hs hP hQ; rfl

/-- An index of result array 3 is in point `t`'s block iff each coordinate is in the block's range on its axis. -/
theorem mem_blk3 (t : Fin cfg0.N) (i : S256x128.Idx) :
    i ∈ ((cfg0.win 3).blk t).view.set ↔ ∀ a : Fin 2, win0_3.index t a * S128x128.size a ≤ (i a).val ∧ (i a).val < win0_3.index t a * S128x128.size a + S128x128.size a := by
  show i ∈ ((View.whole main_v1_2).slice (win0_3.rect t)).set ↔ _
  rw [View.set_slice_whole, Rect.mem_set_unit]
  exact Iff.rfl

/-- What the last step of shard `s` writes back into result array 3 is rows `128 s … 128 s + 127` of `G3`. -/
theorem flushed3_eq (c : Dev nD) (t : Fin cfg0.N) (hf : (cfg0.win 3).flush t = true) :
    (dats (F := Ideal) m 0 c).flushed 3 t = ((cfg0.win 3).blk t).view.read (Elt Ideal) (G3 m c) := by
  have hN : t.val < 64 := lt_of_lt_of_eq t.isLt (show cfg0.N = 64 from N_0)
  have h1 : t.val % 32 = 31 := (flush0_3 t).mp hf
  obtain ⟨s, hs⟩ : ∃ s, t.val = 32 * s + 31 := ⟨t.val / 32, by omega⟩
  have e0 : win0_3.index t (0 : Fin 2) = t.val / 32 := (idx_facts t).2.2.2.2.2.2.1
  have e1 : win0_3.index t (1 : Fin 2) = 0 := (idx_facts t).2.2.2.2.2.2.2
  show (cfg0.win 3).cut (grid0.coords t) ((dats m 0 c).after 3 t) = _
  rw [after0_3, outAt_last m c t h1]
  funext y
  have hy0 : (y 0).val < 128 := (y 0).isLt
  have hy1 : (y 1).val < 128 := (y 1).isLt
  have hx : (cfg0.win 3).xinj (grid0.coords t) y = ix2 (⟨(y 0).val, hy0⟩ : Fin 128) (⟨(y 1).val, hy1⟩ : Fin 128) := by
    funext a; apply Fin.ext
    match a with
    | ⟨0, _⟩ => rfl
    | ⟨1, _⟩ => rfl
  refine (congrArg (accG (blocks m c) t.val) hx).trans ?_
  refine ((congrArg (fun n => accG (blocks m c) n (ix2 (⟨(y 0).val, hy0⟩ : Fin 128) (⟨(y 1).val, hy1⟩ : Fin 128))) hs).trans
    (accG_last (blocks m c) s _ _)).trans ?_
  refine ((G3_at m c _ s (y 0).val (y 1).val ?_ ?_ ?_).trans ?_).symm
  · show (win0_3.index t (0 : Fin 2) * 128 + 1 * (y 0).val) / 128 = s
    rw [e0]; omega
  · show (win0_3.index t (0 : Fin 2) * 128 + 1 * (y 0).val) % 128 = (y 0).val
    rw [e0]; omega
  · show win0_3.index t (1 : Fin 2) * 128 + 1 * (y 1).val = (y 1).val
    rw [e1]; omega
  · refine Finset.sum_congr rfl fun j _ => Finset.sum_congr rfl fun r _ => ?_
    have hj : j.val < 32 := j.isLt
    rw [blocks_entry m c (32 * s + j.val) (by omega) r ⟨(y 0).val, hy0⟩, blocks_entry m c (32 * s + j.val) (by omega) r ⟨(y 1).val, hy1⟩]

/-- Every row of result array 3 lies in the block its shard's last step writes back. -/
theorem cover3 (i : S256x128.Idx) :
    ∃ t : Fin cfg0.N, (cfg0.win 3).flush t = true ∧ i ∈ ((cfg0.win 3).blk t).view.set := by
  have hi0 : (i 0).val < 256 := (i 0).isLt
  have hi1 : (i 1).val < 128 := (i 1).isLt
  obtain ⟨t, ht⟩ : ∃ t : Fin cfg0.N, t.val = 32 * ((i 0).val / 128) + 31 :=
    ⟨⟨32 * ((i 0).val / 128) + 31, by rw [show cfg0.N = 64 from N_0]; omega⟩, rfl⟩
  have e0 : win0_3.index t (0 : Fin 2) = t.val / 32 := (idx_facts t).2.2.2.2.2.2.1
  have e1 : win0_3.index t (1 : Fin 2) = 0 := (idx_facts t).2.2.2.2.2.2.2
  refine ⟨t, (flush0_3 t).mpr (by omega), ?_⟩
  rw [mem_blk3]
  intro a
  match a with
  | ⟨0, _⟩ =>
    show win0_3.index t (0 : Fin 2) * 128 ≤ (i 0).val ∧ (i 0).val < win0_3.index t (0 : Fin 2) * 128 + 128
    rw [e0]; omega
  | ⟨1, _⟩ =>
    show win0_3.index t (1 : Fin 2) * 128 ≤ (i 1).val ∧ (i 1).val < win0_3.index t (1 : Fin 2) * 128 + 128
    rw [e1]; omega

/-- So result array 3 ends holding `G3`. -/
theorem final3 (c : Dev nD) : (dats (F := Ideal) m 0 c).arrAt 3 cfg0.N = G3 m c :=
  (dats m 0 c).arrAt_eq_of_cover 3 (G3 m c) (flushed3_eq m c) cover3

/-- Result array 3 at row `128 s + p`, column `q`: the products of the kept entries of columns `p` and `q` summed over
    the 32 blocks of shard `s`. -/
theorem arr3_apply (c : Dev nD) (s : Fin 2) (p q : Fin 128) :
    (dats (F := Ideal) m 0 c).arrAt 3 cfg0.N (ix2 ⟨128 * s.val + p.val, by omega⟩ q)
      = ∑ j : Fin 32, ∑ r : Fin 8192,
          keepP (V m c main_v0 (ix2 ⟨(32 * s.val + j.val) * 8192 + r.val, by omega⟩ p))
            * keepP (V m c main_v0 (ix2 ⟨(32 * s.val + j.val) * 8192 + r.val, by omega⟩ q)) := by
  have hp : p.val < 128 := p.isLt
  refine (congrFun (final3 m c) _).trans ?_
  refine (G3_at m c _ s.val p.val q.val ?_ ?_ rfl).trans ?_
  · show (128 * s.val + p.val) / 128 = s.val
    omega
  · show (128 * s.val + p.val) % 128 = p.val
    omega
  · refine Finset.sum_congr rfl fun j _ => Finset.sum_congr rfl fun r _ => ?_
    have hR : 8192 * (32 * s.val + j.val) + r.val = (32 * s.val + j.val) * 8192 + r.val := by omega
    rw [xe_eq m c _ _ ⟨(32 * s.val + j.val) * 8192 + r.val, by omega⟩ p hR rfl,
      xe_eq m c _ _ ⟨(32 * s.val + j.val) * 8192 + r.val, by omega⟩ q hR rfl]

end AtIdeal

end Cert.KernelIdeal.Fr

end
-- ==== Proof.Spec.Algebra.lean ====
import Mathlib.Algebra.BigOperators.Fin
import Mathlib.Data.Fintype.BigOperators
import Mathlib.Logic.Equiv.Fin.Basic
import Mathlib.Data.EReal.Basic

/-!
# Pure algebra behind the batch reduction

Nothing here mentions a program.  The statements are:

* a sum over `Fin (m * n)` is an iterated sum over `Fin m` and `Fin n` (row-major split);
* the batch index `b < 4194304` written as `b = 8 * R + g` with
  `R = (32 * s + j) * 8192 + r`, so that the fourfold sum over `(g, s, j, r)` is the sum over `b`;
* the sum of two shard partials written `(0 + a 0) + a 1`;
* the index arithmetic of the row-major view `[4194304,16] → [524288,128]`;
* the product of two kept values is the kept product under the conjunction of the two masks.
-/

open Finset

namespace Cert.Spec

section Sums

variable {M : Type*} [AddCommMonoid M]

/-- Row-major split of a sum over `Fin (m * n)`: the index `b` is `n * i + k`. -/
theorem sum_fin_mul (m n : ℕ) (h : ℕ → M) :
    ∑ b : Fin (m * n), h b.val = ∑ i : Fin m, ∑ k : Fin n, h (n * i.val + k.val) := by
  rw [← finProdFinEquiv.sum_comp, Fintype.sum_prod_type]
  refine Finset.sum_congr rfl fun i _ => Finset.sum_congr rfl fun k _ => ?_
  simp only [finProdFinEquiv_apply_val, Nat.add_comm]

/-- The same split with the product named: `N = m * n`. -/
theorem sum_fin_split {N : ℕ} (m n : ℕ) (hN : N = m * n) (h : ℕ → M) :
    ∑ b : Fin N, h b.val = ∑ i : Fin m, ∑ k : Fin n, h (n * i.val + k.val) := by
  subst hN
  exact sum_fin_mul m n h

/-- The 524288 rows, walked as 2 shards of 32 steps of 8192 rows. -/
theorem sum_rows (k : ℕ → M) :
    ∑ s : Fin 2, ∑ j : Fin 32, ∑ r : Fin 8192, k ((32 * s.val + j.val) * 8192 + r.val)
      = ∑ R : Fin 524288, k R.val := by
  rw [sum_fin_split 64 8192 (by norm_num) k,
    sum_fin_split 2 32 (by norm_num) (fun t => ∑ r : Fin 8192, k (8192 * t + r.val))]
  refine Finset.sum_congr rfl fun s _ => Finset.sum_congr rfl fun j _ =>
    Finset.sum_congr rfl fun r _ => ?_
  rw [Nat.mul_comm 8192]

/-- The batch, read as 8 groups of 524288 rows: `b = 8 * R + g`. -/
theorem sum_groups (h : ℕ → M) :
    ∑ g : Fin 8, ∑ R : Fin 524288, h (8 * R.val + g.val) = ∑ b : Fin 4194304, h b.val := by
  rw [sum_fin_split 524288 8 (by norm_num) h, Finset.sum_comm]

/-- The fourfold sum over group, shard, step and row is the sum over the batch. -/
theorem regroup (h : ℕ → M) :
    ∑ g : Fin 8, ∑ s : Fin 2, ∑ j : Fin 32, ∑ r : Fin 8192,
        h (8 * ((32 * s.val + j.val) * 8192 + r.val) + g.val)
      = ∑ b : Fin 4194304, h b.val := by
  rw [← sum_groups h]
  refine Finset.sum_congr rfl fun g _ => ?_
  exact sum_rows (fun R => h (8 * R + g.val))

/-- Two shard partials added as `(0 + a 0) + a 1`. -/
theorem two_shards (a : Fin 2 → M) : (0 + a 0) + a 1 = ∑ s : Fin 2, a s := by
  rw [Fin.sum_univ_two, zero_add]

/-- The form in which the two shards arrive: each group's two partials are added to zero. -/
theorem regroup' (h : ℕ → M) :
    ∑ g : Fin 8,
        ((0 + ∑ j : Fin 32, ∑ r : Fin 8192, h (8 * ((32 * 0 + j.val) * 8192 + r.val) + g.val))
          + ∑ j : Fin 32, ∑ r : Fin 8192, h (8 * ((32 * 1 + j.val) * 8192 + r.val) + g.val))
      = ∑ b : Fin 4194304, h b.val := by
  rw [← regroup h]
  refine Finset.sum_congr rfl fun g _ => ?_
  exact two_shards (fun s : Fin 2 =>
    ∑ j : Fin 32, ∑ r : Fin 8192, h (8 * ((32 * s.val + j.val) * 8192 + r.val) + g.val))

end Sums

section ERealSums

/-- `two_shards` over the extended reals. -/
theorem two_shards_ereal (a : Fin 2 → EReal) : ((0 : EReal) + a 0) + a 1 = ∑ s : Fin 2, a s :=
  two_shards a

/-- `regroup` over the extended reals. -/
theorem regroup_ereal (h : ℕ → EReal) :
    ∑ g : Fin 8, ∑ s : Fin 2, ∑ j : Fin 32, ∑ r : Fin 8192,
        h (8 * ((32 * s.val + j.val) * 8192 + r.val) + g.val)
      = ∑ b : Fin 4194304, h b.val :=
  regroup h

/-- `regroup'` over the extended reals. -/
theorem regroup'_ereal (h : ℕ → EReal) :
    ∑ g : Fin 8,
        (((0 : EReal)
            + ∑ j : Fin 32, ∑ r : Fin 8192, h (8 * ((32 * 0 + j.val) * 8192 + r.val) + g.val))
          + ∑ j : Fin 32, ∑ r : Fin 8192, h (8 * ((32 * 1 + j.val) * 8192 + r.val) + g.val))
      = ∑ b : Fin 4194304, h b.val :=
  regroup' h

theorem ereal_zero_add (x : EReal) : (0 : EReal) + x = x := zero_add x

theorem ereal_add_zero (x : EReal) : x + (0 : EReal) = x := add_zero x

/-- Equal sums stay equal after the common scaling. -/
theorem mul_right_congr {x y : EReal} (K : EReal) (hxy : x = y) : x * K = y * K := by
  rw [hxy]

/-- The scaled, zero-started form: `(0 + x) * K = y * K` from `x = y`. -/
theorem zero_add_mul_right_congr {x y : EReal} (K : EReal) (hxy : x = y) :
    ((0 : EReal) + x) * K = y * K := by
  rw [zero_add, hxy]

end ERealSums

section Index

/-- Flat position of `pred[8 R + g, c]` equals flat position of `x2[R, 16 g + c]`. -/
theorem flat_eq (R g c : ℕ) : (8 * R + g) * 16 + c = R * 128 + (16 * g + c) := by omega

theorem lane_div {g c : ℕ} (hc : c < 16) : (16 * g + c) / 16 = g := by omega

theorem lane_mod {g c : ℕ} (hc : c < 16) : (16 * g + c) % 16 = c := by omega

theorem lane_lt {g c : ℕ} (hg : g < 8) (hc : c < 16) : 16 * g + c < 128 := by omega

theorem batch_lt {R g : ℕ} (hR : R < 524288) (hg : g < 8) : 8 * R + g < 4194304 := by omega

theorem row_lt {s j r : ℕ} (hs : s < 2) (hj : j < 32) (hr : r < 8192) :
    (32 * s + j) * 8192 + r < 524288 := by omega

theorem batch_div (R : ℕ) {g : ℕ} (hg : g < 8) : (8 * R + g) / 8 = R := by omega

theorem batch_mod (R : ℕ) {g : ℕ} (hg : g < 8) : (8 * R + g) % 8 = g := by omega

/-- Flat index of the Gram entry `(16 g + i, 16 g + j)` inside the `128 × 128` block. -/
theorem gram_lt {g i j : ℕ} (hg : g < 8) (hi : i < 16) (hj : j < 16) :
    (16 * g + i) * 128 + (16 * g + j) < 16384 := by omega

theorem flat_lt {R l : ℕ} (hR : R < 524288) (hl : l < 128) : R * 128 + l < 67108864 := by omega

theorem pred_flat_lt {b c : ℕ} (hb : b < 4194304) (hc : c < 16) : b * 16 + c < 67108864 := by
  omega

end Index

section Mask

/-- A one-bit word is `0` or `1`. -/
theorem bit_cases (u : BitVec 1) : u = 0#1 ∨ u = 1#1 := by
  obtain ⟨⟨n, hn⟩⟩ := u
  have h2 : n = 0 ∨ n = 1 := by omega
  rcases h2 with rfl | rfl
  · exact Or.inl rfl
  · exact Or.inr rfl

/-- The conjunction of two one-bit words is set exactly when both are. -/
theorem and_eq_one_iff (u v : BitVec 1) : u &&& v = 1#1 ↔ u = 1#1 ∧ v = 1#1 := by
  rcases bit_cases u with rfl | rfl <;> rcases bit_cases v with rfl | rfl <;> decide

variable {α : Type*} [MulZeroClass α]

/-- Product of two kept values: kept product under the conjunction of the masks. -/
theorem keep_mul_keep (u v : BitVec 1) (a b : α) :
    (if u = 1#1 then a else 0) * (if v = 1#1 then b else 0)
      = if u &&& v = 1#1 then a * b else 0 := by
  rcases bit_cases u with rfl | rfl <;> rcases bit_cases v with rfl | rfl <;>
    simp

/-- The same with the conjunction written `BitVec.and`. -/
theorem keep_mul_keep_and (u v : BitVec 1) (a b : α) :
    (if u = 1#1 then a else 0) * (if v = 1#1 then b else 0)
      = if u.and v = 1#1 then a * b else 0 :=
  keep_mul_keep u v a b

/-- The same with the set bit written as the numeral `1`. -/
theorem keep_mul_keep_one (u v : BitVec 1) (a b : α) :
    (if u = 1 then a else 0) * (if v = 1 then b else 0)
      = if u &&& v = 1 then a * b else 0 :=
  keep_mul_keep u v a b

/-- Over the extended reals. -/
theorem keep_mul_keep_ereal (u v : BitVec 1) (a b : EReal) :
    (if u = 1#1 then a else 0) * (if v = 1#1 then b else 0)
      = if u &&& v = 1#1 then a * b else 0 :=
  keep_mul_keep u v a b

end Mask

end Cert.Spec
-- ==== Proof.Reference.Read.lean ====
/-
  The reference's four column statistics, read at an index, at the ideal values (a float is an extended real).

  With x the 4194304 x 16 input, K the literal 2⁻²² as its word reads, keepP e the entry e where 1/2 ≤ e and 0
  elsewhere, and keepN e the entry e where it is below 1/2 and 0 elsewhere:

    posR x at column c   = (0 + ∑ b, keepP x(b, c)) * K
    negR x at column c   = (0 + ∑ b, keepN x(b, c)) * K
    pp10R x at pair p    = (0 + ∑ b, keepP x(b, ci p) * keepP x(b, cj p)) * K      (ten pairs of columns)
    pp4R x at pair p     = (0 + ∑ b, keepP x(b, di p) * keepP x(b, dj p)) * K      (four pairs of columns)

  each sum over the 4194304 rows b. The steps: a sum over the rows started at the zero word and then scaled is
  the initial value plus the sum over the row coordinate, times the scale; a select on a comparison with 1/2, read
  at an index, is keepP or keepN of the entry; a select on the conjunction of two such comparisons between a
  product and zero is the product of the two kept entries; and taking from x the columns listed in a P x 1 table
  of start indices reads, at (b, p), the entry of row b in the column the table names at p (read signed and
  clamped into the sixteen columns). The tables here are literal: their ten and four entries are computed.
-/
import proofs.«416933_j15582141350755_3_alg».proof.Proof.Reference.Run
import proofs.«416933_j15582141350755_3_alg».proof.Proof.KernelIdeal.Payload
import proofs.«416933_j15582141350755_3_alg».proof.Proof.Spec.Algebra
import Idealize.ShloMosaic.PureOps.Ideal
import Idealize.ShloMosaic.PureOps.Ideal.Laws
import Idealize.ShloMosaic.Lib.ValueIdx
import Idealize.ShloMosaic.Lib.IdealHost
import Idealize.ShloMosaic.Lib.StableHlo.Predicate

noncomputable section

namespace Cert.ReferenceIdeal.Hand

open Cert.ReferenceIdeal Idealize.ShloMosaic Idealize.ShloMosaic.ValueIdx
open Cert.KernelIdeal.Val (keepP keepN)
open scoped BigOperators

/-- The product of two kept entries is the product kept under the conjunction of the two comparisons. -/
theorem keepP_mul_keepP (a b : EReal) :
    Scalar.select (IntOp.andi (Ideal.cmp .oge a (Ideal.ofBits .f32 0x3F000000#32))
        (Ideal.cmp .oge b (Ideal.ofBits .f32 0x3F000000#32))) (a * b) 0
      = keepP a * keepP b :=
  (Cert.Spec.keep_mul_keep_one _ _ a b).symm

/-- Sum over the rows of an N x n array, started at zero and scaled. -/
theorem scaled_colsum {N n : Nat}
    (h' : (⟨2, ![N, n]⟩ : Shape).ReducesTo [0] ⟨1, ![n]⟩) (h : (⟨2, ![N, n]⟩ : Shape).Reduces [0] ⟨1, ![n]⟩)
    (hu : 0 < (⟨0, ![]⟩ : Shape).numel) (hb : (⟨0, ![]⟩ : Shape).BroadcastsInDim ⟨1, ![n]⟩ ![])
    (v : FVec Ideal ⟨2, ![N, n]⟩ .f32) (kw : BitVec 32) (c : Fin n) :
    mulf (Host.reduceAdd v (constant (F := Ideal) ⟨0, ![]⟩ .f32 0x00000000#32) h' hu)
        (broadcastInDim ⟨1, ![n]⟩ ![] hb (constant (F := Ideal) ⟨0, ![]⟩ .f32 kw)) (ix1 c)
      = (0 + ∑ b : Fin N, v (ix2 b c)) * Ideal.ofBits .f32 kw := by
  refine (mulf_apply _ _ _).trans ?_
  rw [broadcastInDim_scalar_apply, constant_apply, hostReduceAdd_apply, Ideal.hostReduceAdd_single h' h,
    constant_apply, Ideal.ofBits_zero_f32]
  refine congrArg (fun e : EReal => (0 + e) * Ideal.ofBits .f32 kw) ?_
  refine Finset.sum_congr rfl fun b _ => congrArg v ?_
  funext a
  match a with
  | ⟨0, _⟩ => rfl
  | ⟨1, _⟩ => rfl

/-! ### The kept and the dropped entry, and the kept product, at an index -/

theorem kept_apply {S : Shape} (hb : (⟨0, ![]⟩ : Shape).BroadcastsInDim S ![]) (x : FVec Ideal S .f32) (i : S.Idx) :
    select (cmpf (F := Ideal) .oge x (broadcastInDim S ![] hb (constant (F := Ideal) ⟨0, ![]⟩ .f32 0x3F000000#32))) x
        (broadcastInDim S ![] hb (constant (F := Ideal) ⟨0, ![]⟩ .f32 0x00000000#32)) i
      = keepP (x i) := by
  rw [select_apply, cmpf_apply, broadcastInDim_scalar_apply, broadcastInDim_scalar_apply, constant_apply, constant_apply,
    Ideal.ofBits_zero_f32]
  rfl

theorem dropped_apply {S : Shape} (hb : (⟨0, ![]⟩ : Shape).BroadcastsInDim S ![]) (x : FVec Ideal S .f32) (i : S.Idx) :
    select (cmpf (F := Ideal) .oge x (broadcastInDim S ![] hb (constant (F := Ideal) ⟨0, ![]⟩ .f32 0x3F000000#32)))
        (broadcastInDim S ![] hb (constant (F := Ideal) ⟨0, ![]⟩ .f32 0x00000000#32)) x i
      = keepN (x i) := by
  rw [select_apply, cmpf_apply, broadcastInDim_scalar_apply, broadcastInDim_scalar_apply, constant_apply, constant_apply,
    Ideal.ofBits_zero_f32]
  rfl

theorem kept_pair_apply {S : Shape} (hb : (⟨0, ![]⟩ : Shape).BroadcastsInDim S ![]) (g0 g1 : FVec Ideal S .f32) (i : S.Idx) :
    select (andi (cmpf (F := Ideal) .oge g0 (broadcastInDim S ![] hb (constant (F := Ideal) ⟨0, ![]⟩ .f32 0x3F000000#32)))
          (cmpf (F := Ideal) .oge g1 (broadcastInDim S ![] hb (constant (F := Ideal) ⟨0, ![]⟩ .f32 0x3F000000#32))))
        (mulf g0 g1) (broadcastInDim S ![] hb (constant (F := Ideal) ⟨0, ![]⟩ .f32 0x00000000#32)) i
      = keepP (g0 i) * keepP (g1 i) := by
  rw [select_apply, mulf_apply, broadcastInDim_scalar_apply, constant_apply, Ideal.ofBits_zero_f32]
  show Scalar.select (IntOp.andi (Ideal.cmp .oge (g0 i) (broadcastInDim S ![] hb (constant (F := Ideal) ⟨0, ![]⟩ .f32 0x3F000000#32) i))
      (Ideal.cmp .oge (g1 i) (broadcastInDim S ![] hb (constant (F := Ideal) ⟨0, ![]⟩ .f32 0x3F000000#32) i))) (g0 i * g1 i) 0 = _
  rw [broadcastInDim_scalar_apply, constant_apply]
  exact keepP_mul_keepP (g0 i) (g1 i)

/-! ### The column gather at an index -/

/-- The dimension numbers of "take the columns listed in a P x 1 table" from an N x C array. -/
abbrev colDims (N C P : Nat)
    (wf : GatherDims.WF ⟨2, ![N, C]⟩ ⟨2, ![P, 1]⟩ ⟨2, ![N, P]⟩ [0] [1] [] [1] [] 1 ![N, 1]) :
    GatherDims ⟨2, ![N, C]⟩ ⟨2, ![P, 1]⟩ ⟨2, ![N, P]⟩ where
  offsetDims := [0]
  collapsedSliceDims := [1]
  operandBatchingDims := []
  startIndicesBatchingDims := []
  startIndexMap := [1]
  indexVectorDim := 1
  sliceSizes := ![N, 1]
  wf := wf

theorem gather_cols_apply {α : Type} {N C P w : Nat} (hC : 0 < C)
    (wf : GatherDims.WF ⟨2, ![N, C]⟩ ⟨2, ![P, 1]⟩ ⟨2, ![N, P]⟩ [0] [1] [] [1] [] 1 ![N, 1])
    (x : (⟨2, ![N, C]⟩ : Shape).Idx → α) (idx : IVec ⟨2, ![P, 1]⟩ w) (b : Fin N) (p : Fin P) :
    Host.gather (colDims N C P wf) x idx (ix2 b p)
      = x (ix2 b ⟨min (idx (ix2 p (0 : Fin 1))).toInt.toNat (C - 1), by omega⟩) := by
  unfold Host.gather
  congr 1
  funext a
  refine Fin.ext ?_
  match a with
  | ⟨0, _⟩ =>
    show (colDims N C P wf).start (ix2 b p) idx 0 + (colDims N C P wf).batchCoord (ix2 b p) 0
      + (colDims N C P wf).offCoord (ix2 b p) 0 = b.val
    rw [GatherDims.batchCoord_eq_zero _ _ _ List.not_mem_nil]
    unfold GatherDims.start
    rw [dif_neg (show ¬ (0 : Fin 2) ∈ ([1] : List (Fin 2)) by decide)]
    unfold GatherDims.offCoord
    rw [dif_pos ((GatherDims.mem_sKept (colDims N C P wf) 0).mpr
      ⟨(show ¬ (0 : Fin 2) ∈ ([1] : List (Fin 2)) by decide), List.not_mem_nil⟩)]
    simp only [Nat.zero_add]
    rfl
  | ⟨1, _⟩ =>
    show (colDims N C P wf).start (ix2 b p) idx 1 + (colDims N C P wf).batchCoord (ix2 b p) 1
      + (colDims N C P wf).offCoord (ix2 b p) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims N C P wf).startIndexMap from List.mem_singleton.mpr rfl)]
    have hsi : (colDims N C P wf).siIdx (ix2 b p) ⟨List.idxOf (1 : Fin 2) (colDims N C P wf).startIndexMap,
        List.idxOf_lt_length_iff.2 (List.mem_singleton.mpr rfl)⟩ = ix2 p (0 : Fin 1) := by
      funext c; refine Fin.ext ?_
      match c with
      | ⟨0, _⟩ => rfl
      | ⟨1, _⟩ => rfl
    rw [hsi]
    rfl

/-! ### The four statistics of the reference, read at an index -/

open Cert.ReferenceIdeal.Gen

/-- The first columns of the ten pairs. -/
def ci : Fin 10 → Fin 16 := ![0, 2, 2, 5, 4, 6, 9, 9, 11, 13]
/-- The second columns of the ten pairs. -/
def cj : Fin 10 → Fin 16 := ![1, 5, 6, 6, 8, 11, 11, 14, 14, 14]
/-- The first columns of the four pairs. -/
def di : Fin 4 → Fin 16 := ![1, 1, 8, 8]
/-- The second columns of the four pairs. -/
def dj : Fin 4 → Fin 16 := ![4, 5, 9, 11]

theorem reduces16 : S4194304x16.Reduces [0] S16 := by decide
theorem reduces10 : S4194304x10.Reduces [0] S10 := by decide
theorem reduces4 : S4194304x4.Reduces [0] S4 := by decide

theorem posR_apply (x : (⟨S4194304x16, .f32⟩ : BufTy).Contents (Elt Ideal)) (c : Fin 16) :
    posR (F := Ideal) x (ix1 c)
      = (0 + ∑ b : Fin 4194304, keepP (x (ix2 b c))) * Ideal.ofBits .f32 0x34800000#32 := by
  unfold posR
  refine (scaled_colsum reducesTo_S4194304x16_S16_d0 reduces16 h_S_ bcast_S_S16 _ 0x34800000#32 c).trans ?_
  refine congrArg (fun e : EReal => (0 + e) * Ideal.ofBits .f32 0x34800000#32) ?_
  exact Finset.sum_congr rfl fun b _ => kept_apply bcast_S_S4194304x16 x (ix2 b c)

theorem negR_apply (x : (⟨S4194304x16, .f32⟩ : BufTy).Contents (Elt Ideal)) (c : Fin 16) :
    negR (F := Ideal) x (ix1 c)
      = (0 + ∑ b : Fin 4194304, keepN (x (ix2 b c))) * Ideal.ofBits .f32 0x34800000#32 := by
  unfold negR
  refine (scaled_colsum reducesTo_S4194304x16_S16_d0 reduces16 h_S_ bcast_S_S16 _ 0x34800000#32 c).trans ?_
  refine congrArg (fun e : EReal => (0 + e) * Ideal.ofBits .f32 0x34800000#32) ?_
  exact Finset.sum_congr rfl fun b _ => dropped_apply bcast_S_S4194304x16 x (ix2 b c)

theorem gather10_apply (x : (⟨S4194304x16, .f32⟩ : BufTy).Contents (Elt Ideal)) (idx : IVec S10x1 32)
    (b : Fin 4194304) (p : Fin 10) :
    Host.gather gather_S4194304x16_S10x1_S4194304x10_0_1_n_n_1_1_41943041 x idx (ix2 b p)
      = x (ix2 b ⟨min (idx (ix2 p (0 : Fin 1))).toInt.toNat (16 - 1), by omega⟩) :=
  gather_cols_apply (N := 4194304) (C := 16) (P := 10) (by decide)
    gather_S4194304x16_S10x1_S4194304x10_0_1_n_n_1_1_41943041_wf x idx b p

theorem gather4_apply (x : (⟨S4194304x16, .f32⟩ : BufTy).Contents (Elt Ideal)) (idx : IVec S4x1 32)
    (b : Fin 4194304) (p : Fin 4) :
    Host.gather gather_S4194304x16_S4x1_S4194304x4_0_1_n_n_1_1_41943041 x idx (ix2 b p)
      = x (ix2 b ⟨min (idx (ix2 p (0 : Fin 1))).toInt.toNat (16 - 1), by omega⟩) :=
  gather_cols_apply (N := 4194304) (C := 16) (P := 4) (by decide)
    gather_S4194304x16_S4x1_S4194304x4_0_1_n_n_1_1_41943041_wf x idx b p

theorem pp10R_apply (x : (⟨S4194304x16, .f32⟩ : BufTy).Contents (Elt Ideal)) (p : Fin 10) :
    pp10R (F := Ideal) x (ix1 p)
      = (0 + ∑ b : Fin 4194304, keepP (x (ix2 b (ci p))) * keepP (x (ix2 b (cj p))))
          * Ideal.ofBits .f32 0x34800000#32 := by
  unfold pp10R
  refine (scaled_colsum reducesTo_S4194304x10_S10_d0 reduces10 h_S_ bcast_S_S10 _ 0x34800000#32 p).trans ?_
  refine congrArg (fun e : EReal => (0 + e) * Ideal.ofBits .f32 0x34800000#32) ?_
  refine Finset.sum_congr rfl fun b _ => ?_
  refine (kept_pair_apply bcast_S_S4194304x10 _ _ (ix2 b p)).trans ?_
  refine congrArg₂ (fun u v : EReal => keepP u * keepP v) ?_ ?_
  · refine (gather10_apply x _ b p).trans ?_
    refine congrArg (fun q : Fin 16 => x (ix2 b q)) (Fin.ext ?_)
    revert p; decide
  · refine (gather10_apply x _ b p).trans ?_
    refine congrArg (fun q : Fin 16 => x (ix2 b q)) (Fin.ext ?_)
    revert p; decide

theorem pp4R_apply (x : (⟨S4194304x16, .f32⟩ : BufTy).Contents (Elt Ideal)) (p : Fin 4) :
    pp4R (F := Ideal) x (ix1 p)
      = (0 + ∑ b : Fin 4194304, keepP (x (ix2 b (di p))) * keepP (x (ix2 b (dj p))))
          * Ideal.ofBits .f32 0x34800000#32 := by
  unfold pp4R
  refine (scaled_colsum reducesTo_S4194304x4_S4_d0 reduces4 h_S_ bcast_S_S4 _ 0x34800000#32 p).trans ?_
  refine congrArg (fun e : EReal => (0 + e) * Ideal.ofBits .f32 0x34800000#32) ?_
  refine Finset.sum_congr rfl fun b _ => ?_
  refine (kept_pair_apply bcast_S_S4194304x4 _ _ (ix2 b p)).trans ?_
  refine congrArg₂ (fun u v : EReal => keepP u * keepP v) ?_ ?_
  · refine (gather4_apply x _ b p).trans ?_
    refine congrArg (fun q : Fin 16 => x (ix2 b q)) (Fin.ext ?_)
    revert p; decide
  · refine (gather4_apply x _ b p).trans ?_
    refine congrArg (fun q : Fin 16 => x (ix2 b q)) (Fin.ext ?_)
    revert p; decide

end Cert.ReferenceIdeal.Hand
end
-- ==== Proof.KernelIdeal.TailRead.lean ====
/-
  The four statistics the lines after the region compute from the three result arrays, read at an index, at the
  ideal values (a float is an extended real). K is the literal 2⁻²² as its word reads.

  The two 16 x 128 arrays hold, in rows 0 and 8, the two shards' 128 lane sums; lane 16 g + c belongs to column c
  (8 groups g of 16 columns). So the mean of column c is

    (0 + ∑ g, ((0 + a(0, 16 g + c)) + a(8, 16 g + c))) * K.

  The 256 x 128 array holds the two shards' 128 x 128 Gram sums in its upper and lower half. The pair mean of
  columns (i, j) adds, over the 8 groups, the Gram entries (16 g + i, 16 g + j) of both halves:

    (0 + ∑ g, ((0 + a(16 g + i, 16 g + j)) + a(128 + 16 g + i, 16 g + j))) * K,

  for the ten pairs (ci p, cj p) and the four pairs (di p, dj p). The program reads those entries through a take
  of the row-major flattened Gram sum at literal flat positions: position 8 p + g of the table holds
  (16 g + i) * 128 + (16 g + j); every position lies in 0 … 16383, so the take's range mask is 1 everywhere, its
  move of negative positions changes nothing, and the clamp of the gather is the identity. These facts are
  computed on the literal tables.
-/
import proofs.«416933_j15582141350755_3_alg».proof.Proof.KernelIdeal.Tail
import proofs.«416933_j15582141350755_3_alg».proof.Proof.Reference.Read
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators
open Cert.ReferenceIdeal.Hand (ci cj di dj)

/-! ### Generic readings: a broadcast scalar, a sum started at zero, an all-ones conjunction, a take from a vector -/

/-- A scalar constant broadcast to any shape reads, everywhere, the extended real its word encodes. -/
theorem bcast0_apply {t : Shape} (h : S_.BroadcastsInDim t (![] : Fin 0 → Fin t.rank)) (w : BitVec 32) (j : t.Idx) :
    broadcastInDim t ![] h (constant (F := Ideal) S_ .f32 w) j = Ideal.ofBits .f32 w := rfl

/-- A float sum over ONE axis started at the zero word: zero plus the sum over that axis's coordinates. -/
theorem hostSum0_apply {s t : Shape} {a : Fin s.rank} (x : FVec Ideal s .f32) (h' : s.ReducesTo [a] t) (h : s.Reduces [a] t) (j : t.Idx) :
    Host.reduceAdd (F := Ideal) x (constant (F := Ideal) S_ .f32 0x00000000#32) h' h_S_ j
      = 0 + ∑ k : Fin (s.size a), x (h.lift j k) := by
  show Ideal.hostReduceAdd h' x (Ideal.ofBits .f32 0x00000000#32) j = _
  rw [Ideal.hostReduceAdd_single h' h, Ideal.ofBits_zero_f32]

/-- A left fold by and from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    show List.foldl _ (IntOp.andi 1#1 (f a)) l = _
    rw [hf a]
    exact foldl_andi_one f hf l

/-- A reduction by and, from 1, of an array of ones is 1 at every index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x hx _

/-- The dimension numbers of a take from a vector of N entries at an R x 1 table of start indices. -/
abbrev takeDims1 (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- That take reads, at n, the vector at the n-th start index, read signed and clamped into 0 … N − 1. -/
theorem gather_col_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (n : Fin R) :
    Host.gather (takeDims1 N R wf) x idx (ix1 n)
      = x (ix1 ⟨min (idx (ix2 n (0 : Fin 1))).toInt.toNat (N - 1), by omega⟩) := by
  unfold Host.gather
  congr 1
  funext a
  obtain rfl : a = 0 := Subsingleton.elim _ _
  refine Fin.ext ?_
  show (takeDims1 N R wf).start (ix1 n) idx 0 + (takeDims1 N R wf).batchCoord (ix1 n) 0 + (takeDims1 N R wf).offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeDims1 N R wf).startIndexMap from List.mem_singleton.mpr rfl)]
  have hsi : (takeDims1 N R wf).siIdx (ix1 n) ⟨List.idxOf (0 : Fin 1) (takeDims1 N R wf).startIndexMap,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]
  rfl

/-! ### What the literal position tables hold -/

/-- A flat position as the take normalises it: a negative one moved up by 16384. -/
def norm32 (w : BitVec 32) : BitVec 32 := Scalar.select (IntOp.cmpi .slt w 0#32) (IntOp.addi w 16384#32) w

/-- Position 8 p + g of the first table is the flat position of the Gram entry (16 g + ci p, 16 g + cj p). -/
theorem tab80 : ∀ (p : Fin 10) (g : Fin 8),
    (norm32 (lit0 ⟨8 * p.val + g.val, by omega⟩)).toInt.toNat
      = (16 * g.val + (ci p).val) * 128 + (16 * g.val + (cj p).val) := by decide +kernel

/-- Every position of the first table lies in 0 … 16383. -/
theorem mask80 : ∀ n : Fin 80,
    IntOp.andi (IntOp.cmpi .sge (norm32 (lit0 n)) 0#32) (IntOp.cmpi .sle (norm32 (lit0 n)) 16383#32) = 1#1 := by
  decide +kernel

/-- Position 8 p + g of the second table is the flat position of the Gram entry (16 g + di p, 16 g + dj p). -/
theorem tab32 : ∀ (p : Fin 4) (g : Fin 8),
    (norm32 (lit3 ⟨8 * p.val + g.val, by omega⟩)).toInt.toNat
      = (16 * g.val + (di p).val) * 128 + (16 * g.val + (dj p).val) := by decide +kernel

/-- Every position of the second table lies in 0 … 16383. -/
theorem mask32 : ∀ n : Fin 32,
    IntOp.andi (IntOp.cmpi .sge (norm32 (lit3 n)) 0#32) (IntOp.cmpi .sle (norm32 (lit3 n)) 16383#32) = 1#1 := by
  decide +kernel

/-- The first table as a column of start indices reads, at (n, 0), its n-th position normalised. -/
theorem idx80_apply (n : Fin 80) : idx80 (ix2 n (0 : Fin 1)) = norm32 (lit0 n) := by
  unfold idx80 broadcastInDim
  show norm32 (lit0 (S80.rowMajor _)) = _
  refine congrArg (fun k => norm32 (lit0 k)) (Fin.ext ?_)
  rw [Shape.rowMajor_val_one]
  rfl

/-- The second table likewise. -/
theorem idx32_apply (n : Fin 32) : idx32 (ix2 n (0 : Fin 1)) = norm32 (lit3 n) := by
  unfold idx32 broadcastInDim
  show norm32 (lit3 (S32.rowMajor _)) = _
  refine congrArg (fun k => norm32 (lit3 k)) (Fin.ext ?_)
  rw [Shape.rowMajor_val_one]
  rfl

/-! ### The takes at an index -/

/-- The range mask of the first take is 1 at every n. -/
theorem mask80_apply (n : Fin 80) :
    Host.reduce IntOp.andi
      (andi (cmpi .sge idx80 (broadcastInDim S80x1 ![] bcast_S_S80x1 (constantI S_ 32 0#32)))
        (cmpi .sle idx80
          (broadcastInDim S80x1 ![0, 1] bcast_S1x1_S80x1_0_1 (broadcastInDim S1x1 ![1] bcast_S1_S1x1_1 (constantI S1 32 16383#32)))))
      (constantI S_ 1 1#1) reducesTo_S80x1_S80_d1 h_S_ (ix1 n) = 1#1 := by
  refine reduce_andi_one _ _ _ _ _ rfl fun i => ?_
  obtain ⟨a, u, rfl⟩ : ∃ (a : Fin 80) (u : Fin 1), i = ix2 a u := ⟨i 0, i 1, eq_ix2 i⟩
  obtain rfl : u = 0 := Subsingleton.elim _ _
  show IntOp.andi (IntOp.cmpi .sge (idx80 (ix2 a (0 : Fin 1))) 0#32) (IntOp.cmpi .sle (idx80 (ix2 a (0 : Fin 1))) 16383#32) = 1#1
  rw [idx80_apply]
  exact mask80 a

/-- The range mask of the second take is 1 at every n. -/
theorem mask32_apply (n : Fin 32) :
    Host.reduce IntOp.andi
      (andi (cmpi .sge idx32 (broadcastInDim S32x1 ![] bcast_S_S32x1 (constantI S_ 32 0#32)))
        (cmpi .sle idx32
          (broadcastInDim S32x1 ![0, 1] bcast_S1x1_S32x1_0_1 (broadcastInDim S1x1 ![1] bcast_S1_S1x1_1 (constantI S1 32 16383#32)))))
      (constantI S_ 1 1#1) reducesTo_S32x1_S32_d1 h_S_ (ix1 n) = 1#1 := by
  refine reduce_andi_one _ _ _ _ _ rfl fun i => ?_
  obtain ⟨a, u, rfl⟩ : ∃ (a : Fin 32) (u : Fin 1), i = ix2 a u := ⟨i 0, i 1, eq_ix2 i⟩
  obtain rfl : u = 0 := Subsingleton.elim _ _
  show IntOp.andi (IntOp.cmpi .sge (idx32 (ix2 a (0 : Fin 1))) 0#32) (IntOp.cmpi .sle (idx32 (ix2 a (0 : Fin 1))) 16383#32) = 1#1
  rw [idx32_apply]
  exact mask32 a

/-- The take of 80 reads, at n, the vector at the n-th literal position (normalised, read signed, clamped). -/
theorem take80K_apply (v : FVec Ideal S16384 .f32) (n : Fin 80) :
    take80K (F := Ideal) v (ix1 n)
      = v (ix1 (⟨min (norm32 (lit0 n)).toInt.toNat 16383, by omega⟩ : Fin 16384)) := by
  unfold take80K
  refine (select_apply _ _ _ _).trans ?_
  refine (congrArg (fun c : BitVec 1 => Scalar.select c _ _) (mask80_apply n)).trans ?_
  refine (select_one _ _).trans ?_
  refine (gather_col_apply (N := 16384) (R := 80) (by decide) gather_S16384_S80x1_S80_n_0_n_n_0_1_1_wf v idx80 n).trans ?_
  refine congrArg (fun k : Fin 16384 => v (ix1 k)) (Fin.ext ?_)
  show min (idx80 (ix2 n (0 : Fin 1))).toInt.toNat (16384 - 1) = min (norm32 (lit0 n)).toInt.toNat 16383
  rw [idx80_apply]

/-- The take of 32 likewise. -/
theorem take32K_apply (v : FVec Ideal S16384 .f32) (n : Fin 32) :
    take32K (F := Ideal) v (ix1 n)
      = v (ix1 (⟨min (norm32 (lit3 n)).toInt.toNat 16383, by omega⟩ : Fin 16384)) := by
  unfold take32K
  refine (select_apply _ _ _ _).trans ?_
  refine (congrArg (fun c : BitVec 1 => Scalar.select c _ _) (mask32_apply n)).trans ?_
  refine (select_one _ _).trans ?_
  refine (gather_col_apply (N := 16384) (R := 32) (by decide) gather_S16384_S32x1_S32_n_0_n_n_0_1_1_wf v idx32 n).trans ?_
  refine congrArg (fun k : Fin 16384 => v (ix1 k)) (Fin.ext ?_)
  show min (idx32 (ix2 n (0 : Fin 1))).toInt.toNat (16384 - 1) = min (norm32 (lit3 n)).toInt.toNat 16383
  rw [idx32_apply]

/-! ### The Gram sum and its flattening at an index -/

/-- The Gram sum at (a, b): zero plus the upper half's entry (a, b), plus the lower half's entry (128 + a, b). -/
theorem gramK_apply (a3 : Vec Ideal S256x128 .f32) (a b : Fin 128) (r0 r1 : Fin 256) (h0 : r0.val = a.val)
    (h1 : r1.val = 128 + a.val) :
    gramK (F := Ideal) a3 (ix2 a b) = (0 + a3 (ix2 r0 b)) + a3 (ix2 r1 b) := by
  unfold gramK
  show (Ideal.ofBits .f32 0x00000000#32 + extractStridedSlice S128x128 ![0, 0] a3 slices_S256x128_S128x128_0_0 (ix2 a b))
      + extractStridedSlice S128x128 ![128, 0] a3 slices_S256x128_S128x128_128_0 (ix2 a b) = _
  rw [Ideal.ofBits_zero_f32,
    slice2_axis0_apply 0 a3 slices_S256x128_S128x128_0_0 a b r0 (h0.trans (Nat.zero_add _).symm),
    slice2_axis0_apply 128 a3 slices_S256x128_S128x128_128_0 a b r1 h1]

/-- The flattened Gram sum at flat position a * 128 + b is the Gram sum at (a, b). -/
theorem flatK_apply (a3 : Vec Ideal S256x128 .f32) (q : Fin 16384) (a b : Fin 128) (hq : q.val = a.val * 128 + b.val) :
    flatK (F := Ideal) a3 (ix1 q) = gramK (F := Ideal) a3 (ix2 a b) := by
  unfold flatK
  refine shapeCast_apply _ shapeCasts_S128x128_S16384 (ix1 q) (ix2 a b) ?_
  rw [Shape.rowMajor_val_two, Shape.rowMajor_val_one]
  exact hq.symm

/-! ### The four statistics at an index -/

theorem reduces_S8x16_S16 : S8x16.Reduces [0] S16 := by decide
theorem reduces_S10x8_S10 : S10x8.Reduces [1] S10 := by decide
theorem reduces_S4x8_S4 : S4x8.Reduces [1] S4 := by decide

/-- Column c of the 16 means: the lanes 16 g + c of rows 0 and 8 added onto zero, summed over the 8 groups g, scaled. -/
theorem posK_apply (a1 : Vec Ideal S16x128 .f32) (c : Fin 16) :
    posK (F := Ideal) a1 (ix1 c)
      = (0 + ∑ g : Fin 8, ((0 + a1 (ix2 (0 : Fin 16) (⟨16 * g.val + c.val, by omega⟩ : Fin 128)))
            + a1 (ix2 (8 : Fin 16) (⟨16 * g.val + c.val, by omega⟩ : Fin 128))))
          * Ideal.ofBits .f32 0x34800000#32 := by
  unfold posK
  refine (mulf_apply _ _ _).trans ?_
  refine congrArg (fun e : EReal => e * Ideal.ofBits .f32 0x34800000#32) ?_
  refine (hostSum0_apply _ reducesTo_S8x16_S16_d0 reduces_S8x16_S16 (ix1 c)).trans ?_
  refine congrArg (fun e : EReal => 0 + e) (Finset.sum_congr rfl fun (g : Fin 8) _ => ?_)
  refine (shapeCast_apply _ shapeCasts_S128_S8x16 _ (ix1 (⟨16 * g.val + c.val, by omega⟩ : Fin 128)) ?_).trans ?_
  · rw [Shape.rowMajor_val_one, Shape.rowMajor_val_two]
    show 16 * g.val + c.val = g.val * 16 + c.val
    omega
  show (Ideal.ofBits .f32 0x00000000#32
        + shapeCast S128 (extractStridedSlice S1x128 ![0, 0] a1 slices_S16x128_S1x128_0_0) shapeCasts_S1x128_S128 (ix1 _))
      + shapeCast S128 (extractStridedSlice S1x128 ![8, 0] a1 slices_S16x128_S1x128_8_0) shapeCasts_S1x128_S128 (ix1 _) = _
  rw [Ideal.ofBits_zero_f32, shapeCast_1a_a_apply, shapeCast_1a_a_apply,
    slice2_axis0_apply 0 a1 slices_S16x128_S1x128_0_0 (0 : Fin 1) _ (0 : Fin 16) rfl,
    slice2_axis0_apply 8 a1 slices_S16x128_S1x128_8_0 (0 : Fin 1) _ (8 : Fin 16) rfl]

/-- The same of the second array. -/
theorem negK_apply (a2 : Vec Ideal S16x128 .f32) (c : Fin 16) :
    negK (F := Ideal) a2 (ix1 c)
      = (0 + ∑ g : Fin 8, ((0 + a2 (ix2 (0 : Fin 16) (⟨16 * g.val + c.val, by omega⟩ : Fin 128)))
            + a2 (ix2 (8 : Fin 16) (⟨16 * g.val + c.val, by omega⟩ : Fin 128))))
          * Ideal.ofBits .f32 0x34800000#32 :=
  posK_apply a2 c

/-- Pair p of the ten: the Gram entries (16 g + ci p, 16 g + cj p) of both halves added onto zero, summed over the 8 groups g, scaled. -/
theorem pp10K_apply (a3 : Vec Ideal S256x128 .f32) (p : Fin 10) :
    pp10K (F := Ideal) a3 (ix1 p)
      = (0 + ∑ g : Fin 8,
            ((0 + a3 (ix2 (⟨16 * g.val + (ci p).val, by omega⟩ : Fin 256) (⟨16 * g.val + (cj p).val, by omega⟩ : Fin 128)))
              + a3 (ix2 (⟨128 + 16 * g.val + (ci p).val, by omega⟩ : Fin 256) (⟨16 * g.val + (cj p).val, by omega⟩ : Fin 128))))
          * Ideal.ofBits .f32 0x34800000#32 := by
  unfold pp10K
  refine (mulf_apply _ _ _).trans ?_
  refine congrArg (fun e : EReal => e * Ideal.ofBits .f32 0x34800000#32) ?_
  refine (hostSum0_apply _ reducesTo_S10x8_S10_d1 reduces_S10x8_S10 (ix1 p)).trans ?_
  refine congrArg (fun e : EReal => 0 + e) (Finset.sum_congr rfl fun (g : Fin 8) _ => ?_)
  refine (shapeCast_apply _ shapeCasts_S80_S10x8 _ (ix1 (⟨8 * p.val + g.val, by omega⟩ : Fin 80)) ?_).trans ?_
  · rw [Shape.rowMajor_val_one, Shape.rowMajor_val_two]
    show 8 * p.val + g.val = p.val * 8 + g.val
    omega
  refine (take80K_apply _ _).trans ?_
  have ht := tab80 p g
  refine (flatK_apply a3 _ (⟨16 * g.val + (ci p).val, by omega⟩ : Fin 128) (⟨16 * g.val + (cj p).val, by omega⟩ : Fin 128) ?_).trans ?_
  · show min (norm32 (lit0 ⟨8 * p.val + g.val, _⟩)).toInt.toNat 16383 = _
    rw [ht]
    show min _ 16383 = (16 * g.val + (ci p).val) * 128 + (16 * g.val + (cj p).val)
    omega
  exact gramK_apply a3 _ _ _ _ rfl (by show 128 + 16 * g.val + _ = 128 + (16 * g.val + _); omega)

/-- Pair p of the four: the same with the columns (di p, dj p). -/
theorem pp4K_apply (a3 : Vec Ideal S256x128 .f32) (p : Fin 4) :
    pp4K (F := Ideal) a3 (ix1 p)
      = (0 + ∑ g : Fin 8,
            ((0 + a3 (ix2 (⟨16 * g.val + (di p).val, by omega⟩ : Fin 256) (⟨16 * g.val + (dj p).val, by omega⟩ : Fin 128)))
              + a3 (ix2 (⟨128 + 16 * g.val + (di p).val, by omega⟩ : Fin 256) (⟨16 * g.val + (dj p).val, by omega⟩ : Fin 128))))
          * Ideal.ofBits .f32 0x34800000#32 := by
  unfold pp4K
  refine (mulf_apply _ _ _).trans ?_
  refine congrArg (fun e : EReal => e * Ideal.ofBits .f32 0x34800000#32) ?_
  refine (hostSum0_apply _ reducesTo_S4x8_S4_d1 reduces_S4x8_S4 (ix1 p)).trans ?_
  refine congrArg (fun e : EReal => 0 + e) (Finset.sum_congr rfl fun (g : Fin 8) _ => ?_)
  refine (shapeCast_apply _ shapeCasts_S32_S4x8 _ (ix1 (⟨8 * p.val + g.val, by omega⟩ : Fin 32)) ?_).trans ?_
  · rw [Shape.rowMajor_val_one, Shape.rowMajor_val_two]
    show 8 * p.val + g.val = p.val * 8 + g.val
    omega
  refine (take32K_apply _ _).trans ?_
  have ht := tab32 p g
  refine (flatK_apply a3 _ (⟨16 * g.val + (di p).val, by omega⟩ : Fin 128) (⟨16 * g.val + (dj p).val, by omega⟩ : Fin 128) ?_).trans ?_
  · show min (norm32 (lit3 ⟨8 * p.val + g.val, _⟩)).toInt.toNat 16383 = _
    rw [ht]
    show min _ 16383 = (16 * g.val + (di p).val) * 128 + (16 * g.val + (dj p).val)
    omega
  exact gramK_apply a3 _ _ _ _ rfl (by show 128 + 16 * g.val + _ = 128 + (16 * g.val + _); omega)

end Cert.KernelIdeal.Fr

end
-- ==== Proof.TailSame.lean ====
/-
  The two programs fold their column statistics into their number by the same operations: the same literal column
  tables, the same gathers of the column means at them, the same products, differences, maxima with zero and sums.
  As functions of (pos, neg, pp) the two families' numbers of the kernel program and of the reference program are
  therefore the same terms, the shapes and the gathers' dimension records being per-program names with equal bodies.
-/
import proofs.«416933_j15582141350755_3_alg».proof.Proof.KernelIdeal.Tail
import proofs.«416933_j15582141350755_3_alg».proof.Proof.Reference.Run

set_option maxRecDepth 16384

noncomputable section

namespace Cert.Proof

open Idealize.ShloMosaic

variable {F : FTy → Type} [FloatOps F]

/-- The first family's number is the same function in the two programs. -/
theorem tailPos_same (pos neg : (⟨Cert.KernelIdeal.S16, .f32⟩ : BufTy).Contents (Elt F)) (pp : (⟨Cert.KernelIdeal.S10, .f32⟩ : BufTy).Contents (Elt F)) :
    Cert.KernelIdeal.Fr.tailPosK pos neg pp = Cert.ReferenceIdeal.Hand.tailPosR pos neg pp := rfl

/-- So is the second family's. -/
theorem tailNeg_same (pos neg : (⟨Cert.KernelIdeal.S16, .f32⟩ : BufTy).Contents (Elt F)) (pp : (⟨Cert.KernelIdeal.S4, .f32⟩ : BufTy).Contents (Elt F)) :
    Cert.KernelIdeal.Fr.tailNegK pos neg pp = Cert.ReferenceIdeal.Hand.tailNegR pos neg pp := rfl

end Cert.Proof

end
-- ==== Proof.Bridge.lean ====
/-
  The kernel's result is the reference's, over the extended reals.

  Column sums. The kernel reads the 4194304 x 16 input as 524288 rows of 128 lanes, lane 16 g + c of row R being
  entry (8 R + g, c); a shard's accumulator holds, lane by lane, the sum of the kept (resp. dropped) entries over
  its 32 x 8192 rows; the lines after the region add the two shards onto zero and then the eight groups g of a
  column. Every entry (b, c) of the input is entry (8 R + g, c) for exactly one (g, shard, step, row), so the
  whole is the reference's sum over the batch; only associativity and commutativity of + and 0 + a = a are used.

  Pair sums. The Gram accumulator at (16 g + i, 16 g + j) holds the sum over the shard's rows of the products of
  the kept entries of columns i and j in group g, which is what the reference sums over the batch for the pair
  (i, j).

  The rest of both programs is one and the same function of the four statistics.

  The statements are first proved over arbitrary arrays that satisfy the three readings (the 524288 x 128 view
  of the input, the two lane-sum arrays, the Gram array), and then taken at the arrays of the run.
-/
import proofs.«416933_j15582141350755_3_alg».proof.Proof.KernelIdeal.Value
import proofs.«416933_j15582141350755_3_alg».proof.Proof.KernelIdeal.Arrays
import proofs.«416933_j15582141350755_3_alg».proof.Proof.KernelIdeal.Input
import proofs.«416933_j15582141350755_3_alg».proof.Proof.KernelIdeal.TailRead
import proofs.«416933_j15582141350755_3_alg».proof.Proof.Reference.Read
import proofs.«416933_j15582141350755_3_alg».proof.Proof.Spec.Algebra
import proofs.«416933_j15582141350755_3_alg».proof.Proof.TailSame

set_option maxRecDepth 16384

noncomputable section

namespace Cert.Proof.Bridge

open Idealize.ShloMosaic Idealize.ShloMosaic.ValueIdx
open Cert.KernelIdeal Cert.KernelIdeal.Fr Cert.KernelIdeal.Val
open Cert.ReferenceIdeal.Hand (ci cj di dj posR negR pp10R pp4R refOut posR_apply negR_apply pp10R_apply pp4R_apply)
open Cert.Spec
open scoped BigOperators

/-- A function of the batch index extended by zero to all naturals (the regrouping lemma sums such functions). -/
def ext (f : Fin 4194304 → EReal) (n : ℕ) : EReal := if h : n < 4194304 then f ⟨n, h⟩ else 0

theorem ext_val (f : Fin 4194304 → EReal) (b : Fin 4194304) : ext f b.val = f b := by
  unfold ext; rw [dif_pos b.isLt]

theorem ext_lt (f : Fin 4194304 → EReal) (n : ℕ) (h : n < 4194304) : ext f n = f ⟨n, h⟩ := by
  unfold ext; rw [dif_pos h]

section Core

variable (x : S4194304x16.Idx → EReal) (x2 : S524288x128.Idx → EReal)
  (hx2 : ∀ (R : Fin 524288) (l : Fin 128),
    x2 (ix2 R l) = x (ix2 (⟨8 * R.val + l.val / 16, by omega⟩ : Fin 4194304) (⟨l.val % 16, by omega⟩ : Fin 16)))

include hx2 in
/-- Lane 16 g + col of row R of the 524288 x 128 view is entry (8 R + g, col) of the input. -/
theorem lane (R : Fin 524288) (g : Fin 8) (col : Fin 16) :
    x2 (ix2 R (⟨16 * g.val + col.val, by omega⟩ : Fin 128))
      = x (ix2 (⟨8 * R.val + g.val, by omega⟩ : Fin 4194304) col) := by
  refine (hx2 R _).trans ?_
  refine congrArg₂ (fun (a : Fin 4194304) (b : Fin 16) => x (ix2 a b)) (Fin.ext ?_) (Fin.ext ?_)
  · show 8 * R.val + (16 * g.val + col.val) / 16 = 8 * R.val + g.val
    omega
  · show (16 * g.val + col.val) % 16 = col.val
    omega

/-! ### Column sums -/

include hx2 in
/-- The eight groups of the two shards' lane sums of a column are the sum of that column over the batch. -/
theorem colsum_bridge (f : EReal → EReal) (a : S16x128.Idx → EReal)
    (ha : ∀ (s : Fin 2) (k : Fin 8) (l : Fin 128), a (ix2 (⟨8 * s.val + k.val, by omega⟩ : Fin 16) l)
      = ∑ j : Fin 32, ∑ r : Fin 8192, f (x2 (ix2 (⟨(32 * s.val + j.val) * 8192 + r.val, by omega⟩ : Fin 524288) l)))
    (c : Fin 16) :
    ∑ g : Fin 8, ((0 + a (ix2 (0 : Fin 16) (⟨16 * g.val + c.val, by omega⟩ : Fin 128)))
        + a (ix2 (8 : Fin 16) (⟨16 * g.val + c.val, by omega⟩ : Fin 128)))
      = ∑ b : Fin 4194304, f (x (ix2 b c)) := by
  refine Eq.trans ?_ ((regroup'_ereal (ext fun b => f (x (ix2 b c)))).trans
    (Finset.sum_congr rfl fun b _ => ext_val _ b))
  refine Finset.sum_congr rfl fun g _ => ?_
  have hterm : ∀ (s : Fin 2) (j : Fin 32) (r : Fin 8192),
      f (x2 (ix2 (⟨(32 * s.val + j.val) * 8192 + r.val, by omega⟩ : Fin 524288) (⟨16 * g.val + c.val, by omega⟩ : Fin 128)))
        = ext (fun b => f (x (ix2 b c))) (8 * ((32 * s.val + j.val) * 8192 + r.val) + g.val) := fun s j r => by
    rw [lane x x2 hx2 _ g c, ext_lt _ _ (by omega)]
  refine congrArg₂ (fun u v : EReal => (0 + u) + v) ?_ ?_
  · refine (ha 0 0 _).trans ?_
    exact Finset.sum_congr rfl fun j _ => Finset.sum_congr rfl fun r _ => hterm 0 j r
  · refine (ha 1 0 _).trans ?_
    exact Finset.sum_congr rfl fun j _ => Finset.sum_congr rfl fun r _ => hterm 1 j r

/-! ### Pair sums -/

include hx2 in
/-- The eight diagonal blocks of the two shards' Gram sums, at columns (i, j), are the sum over the batch of the
    products of the kept entries of the two columns. -/
theorem gram_bridge (a3 : S256x128.Idx → EReal)
    (h3 : ∀ (s : Fin 2) (p q : Fin 128), a3 (ix2 (⟨128 * s.val + p.val, by omega⟩ : Fin 256) q)
      = ∑ j : Fin 32, ∑ r : Fin 8192,
          keepP (x2 (ix2 (⟨(32 * s.val + j.val) * 8192 + r.val, by omega⟩ : Fin 524288) p))
            * keepP (x2 (ix2 (⟨(32 * s.val + j.val) * 8192 + r.val, by omega⟩ : Fin 524288) q)))
    (i j : Fin 16) :
    ∑ g : Fin 8, ((0 + a3 (ix2 (⟨16 * g.val + i.val, by omega⟩ : Fin 256) (⟨16 * g.val + j.val, by omega⟩ : Fin 128)))
        + a3 (ix2 (⟨128 + 16 * g.val + i.val, by omega⟩ : Fin 256) (⟨16 * g.val + j.val, by omega⟩ : Fin 128)))
      = ∑ b : Fin 4194304, keepP (x (ix2 b i)) * keepP (x (ix2 b j)) := by
  refine Eq.trans ?_ ((regroup'_ereal (ext fun b => keepP (x (ix2 b i)) * keepP (x (ix2 b j)))).trans
    (Finset.sum_congr rfl fun b _ => ext_val _ b))
  refine Finset.sum_congr rfl fun g _ => ?_
  have hterm : ∀ (s : Fin 2) (jj : Fin 32) (r : Fin 8192),
      keepP (x2 (ix2 (⟨(32 * s.val + jj.val) * 8192 + r.val, by omega⟩ : Fin 524288) (⟨16 * g.val + i.val, by omega⟩ : Fin 128)))
          * keepP (x2 (ix2 (⟨(32 * s.val + jj.val) * 8192 + r.val, by omega⟩ : Fin 524288) (⟨16 * g.val + j.val, by omega⟩ : Fin 128)))
        = ext (fun b => keepP (x (ix2 b i)) * keepP (x (ix2 b j))) (8 * ((32 * s.val + jj.val) * 8192 + r.val) + g.val) :=
    fun s jj r => by
      rw [lane x x2 hx2 _ g i, lane x x2 hx2 _ g j, ext_lt _ _ (by omega)]
  refine congrArg₂ (fun u v : EReal => (0 + u) + v) ?_ ?_
  · have e0 : (⟨16 * g.val + i.val, by omega⟩ : Fin 256)
        = (⟨128 * (0 : Fin 2).val + (⟨16 * g.val + i.val, by omega⟩ : Fin 128).val, by
            show 128 * 0 + (16 * g.val + i.val) < 256; omega⟩ : Fin 256) :=
      Fin.ext (by show 16 * g.val + i.val = 128 * 0 + (16 * g.val + i.val); omega)
    refine (congrArg (fun t : Fin 256 => a3 (ix2 t (⟨16 * g.val + j.val, by omega⟩ : Fin 128))) e0).trans ?_
    refine (h3 0 (⟨16 * g.val + i.val, by omega⟩ : Fin 128) (⟨16 * g.val + j.val, by omega⟩ : Fin 128)).trans ?_
    exact Finset.sum_congr rfl fun jj _ => Finset.sum_congr rfl fun r _ => hterm 0 jj r
  · have e1 : (⟨128 + 16 * g.val + i.val, by omega⟩ : Fin 256)
        = (⟨128 * (1 : Fin 2).val + (⟨16 * g.val + i.val, by omega⟩ : Fin 128).val, by
            show 128 * 1 + (16 * g.val + i.val) < 256; omega⟩ : Fin 256) :=
      Fin.ext (by show 128 + 16 * g.val + i.val = 128 * 1 + (16 * g.val + i.val); omega)
    refine (congrArg (fun t : Fin 256 => a3 (ix2 t (⟨16 * g.val + j.val, by omega⟩ : Fin 128))) e1).trans ?_
    refine (h3 1 (⟨16 * g.val + i.val, by omega⟩ : Fin 128) (⟨16 * g.val + j.val, by omega⟩ : Fin 128)).trans ?_
    exact Finset.sum_congr rfl fun jj _ => Finset.sum_congr rfl fun r _ => hterm 1 jj r

end Core

/-! ### The four statistics agree -/

section Stats

variable (x : S4194304x16.Idx → EReal) (x2 : S524288x128.Idx → EReal)
  (hx2 : ∀ (R : Fin 524288) (l : Fin 128),
    x2 (ix2 R l) = x (ix2 (⟨8 * R.val + l.val / 16, by omega⟩ : Fin 4194304) (⟨l.val % 16, by omega⟩ : Fin 16)))
  (a1 a2 : S16x128.Idx → EReal) (a3 : S256x128.Idx → EReal)
  (h1 : ∀ (s : Fin 2) (k : Fin 8) (l : Fin 128), a1 (ix2 (⟨8 * s.val + k.val, by omega⟩ : Fin 16) l)
    = ∑ j : Fin 32, ∑ r : Fin 8192, keepP (x2 (ix2 (⟨(32 * s.val + j.val) * 8192 + r.val, by omega⟩ : Fin 524288) l)))
  (h2 : ∀ (s : Fin 2) (k : Fin 8) (l : Fin 128), a2 (ix2 (⟨8 * s.val + k.val, by omega⟩ : Fin 16) l)
    = ∑ j : Fin 32, ∑ r : Fin 8192, keepN (x2 (ix2 (⟨(32 * s.val + j.val) * 8192 + r.val, by omega⟩ : Fin 524288) l)))
  (h3 : ∀ (s : Fin 2) (p q : Fin 128), a3 (ix2 (⟨128 * s.val + p.val, by omega⟩ : Fin 256) q)
    = ∑ j : Fin 32, ∑ r : Fin 8192,
        keepP (x2 (ix2 (⟨(32 * s.val + j.val) * 8192 + r.val, by omega⟩ : Fin 524288) p))
          * keepP (x2 (ix2 (⟨(32 * s.val + j.val) * 8192 + r.val, by omega⟩ : Fin 524288) q)))

include hx2 h1 in
theorem pos_eq_of : posK (F := Ideal) a1 = posR (F := Ideal) x := by
  funext i
  rw [eq_ix1 i]
  refine (posK_apply a1 (i 0)).trans (Eq.trans ?_ (posR_apply x (i 0)).symm)
  exact congrArg (fun e : EReal => (0 + e) * Ideal.ofBits .f32 0x34800000#32) (colsum_bridge x x2 hx2 keepP a1 h1 (i 0))

include hx2 h2 in
theorem neg_eq_of : negK (F := Ideal) a2 = negR (F := Ideal) x := by
  funext i
  rw [eq_ix1 i]
  refine (negK_apply a2 (i 0)).trans (Eq.trans ?_ (negR_apply x (i 0)).symm)
  exact congrArg (fun e : EReal => (0 + e) * Ideal.ofBits .f32 0x34800000#32) (colsum_bridge x x2 hx2 keepN a2 h2 (i 0))

include hx2 h3 in
theorem pp10_eq_of : pp10K (F := Ideal) a3 = pp10R (F := Ideal) x := by
  funext i
  rw [eq_ix1 i]
  refine (pp10K_apply a3 (i 0)).trans (Eq.trans ?_ (pp10R_apply x (i 0)).symm)
  exact congrArg (fun e : EReal => (0 + e) * Ideal.ofBits .f32 0x34800000#32) (gram_bridge x x2 hx2 a3 h3 (ci (i 0)) (cj (i 0)))

include hx2 h3 in
theorem pp4_eq_of : pp4K (F := Ideal) a3 = pp4R (F := Ideal) x := by
  funext i
  rw [eq_ix1 i]
  refine (pp4K_apply a3 (i 0)).trans (Eq.trans ?_ (pp4R_apply x (i 0)).symm)
  exact congrArg (fun e : EReal => (0 + e) * Ideal.ofBits .f32 0x34800000#32) (gram_bridge x x2 hx2 a3 h3 (di (i 0)) (dj (i 0)))

include hx2 h1 h2 h3 in
theorem out_eq_of : tailOut (F := Ideal) a1 a2 a3 = refOut (F := Ideal) x := by
  unfold tailOut refOut
  rw [pos_eq_of x x2 hx2 a1 h1, neg_eq_of x x2 hx2 a2 h2, pp10_eq_of x x2 hx2 a3 h3, pp4_eq_of x x2 hx2 a3 h3,
    Cert.Proof.tailPos_same, Cert.Proof.tailNeg_same]

end Stats

/-! ### At the kernel's arrays -/

section AtRun

open Idealize.ShloMosaic.TcCoe Idealize.SL Idealize.SL.Sem Cert.KernelIdeal.Gen

variable (m : (ℓ : Loc nD τ sig) → Buf (Elt Ideal) ℓ) (c : Dev nD)

/-- The input array on core c. -/
abbrev xin : S4194304x16.Idx → EReal := m ((c : Thread nD τ).loc main_arg0)

theorem pos_eq : posK (F := Ideal) ((dats (F := Ideal) m 0 c).arrAt 1 cfg0.N) = posR (F := Ideal) (xin m c) :=
  pos_eq_of (xin m c) (V m c main_v0) (x2_apply m c) _ (arr1_apply m c)

theorem neg_eq : negK (F := Ideal) ((dats (F := Ideal) m 0 c).arrAt 2 cfg0.N) = negR (F := Ideal) (xin m c) :=
  neg_eq_of (xin m c) (V m c main_v0) (x2_apply m c) _ (arr2_apply m c)

theorem pp10_eq : pp10K (F := Ideal) ((dats (F := Ideal) m 0 c).arrAt 3 cfg0.N) = pp10R (F := Ideal) (xin m c) :=
  pp10_eq_of (xin m c) (V m c main_v0) (x2_apply m c) _ (arr3_apply m c)

theorem pp4_eq : pp4K (F := Ideal) ((dats (F := Ideal) m 0 c).arrAt 3 cfg0.N) = pp4R (F := Ideal) (xin m c) :=
  pp4_eq_of (xin m c) (V m c main_v0) (x2_apply m c) _ (arr3_apply m c)

theorem kernel_eq_ref :
    tailOut (F := Ideal) ((dats (F := Ideal) m 0 c).arrAt 1 cfg0.N) ((dats (F := Ideal) m 0 c).arrAt 2 cfg0.N)
        ((dats (F := Ideal) m 0 c).arrAt 3 cfg0.N)
      = refOut (F := Ideal) (xin m c) :=
  out_eq_of (xin m c) (V m c main_v0) (x2_apply m c) _ _ _ (arr1_apply m c) (arr2_apply m c) (arr3_apply m c)

end AtRun

end Cert.Proof.Bridge
end
-- ==== Proof.lean ====
/-
  The certificate of the column-statistics kernel against its jnp reference.
  The kernel reads the 4194304 x 16 input as 524288 x 128, and on a 2 x 32 grid accumulates per shard the column
  sums of the entries at or above one half, of the entries below it, and the Gram matrix of the former; the host
  lines after it add the two shards and the eight lane groups, pick the fourteen pair sums out of the Gram matrix,
  scale by 2^-22 and combine the statistics into one number. The reference computes the same statistics by
  whole-array sums over the batch and combines them by the same operations.
  Frames: the word-level and the idealized kernel program run to the end with their arguments unchanged (the
  pipeline's frame run, its body obligation discharged case by case); the reference is a straight host program.
  The idealization rewrote nothing, so there is nothing to preserve. Over the extended reals the two results are
  equal: the kernel's sums are the reference's sums regrouped (associativity and commutativity of addition and
  0 + a = a), and a product of two kept entries is the kept product.
-/
import proofs.«416933_j15582141350755_3_alg».proof.Defs
import proofs.«416933_j15582141350755_3_alg».proof.Proof.Gen.Kernel
import proofs.«416933_j15582141350755_3_alg».proof.Proof.Gen.KernelIdeal
import proofs.«416933_j15582141350755_3_alg».proof.Proof.Gen.ReferenceIdeal
import proofs.«416933_j15582141350755_3_alg».proof.Proof.Gen.Pre_finite_inputs
import proofs.«416933_j15582141350755_3_alg».proof.Proof.Kernel.Frame
import proofs.«416933_j15582141350755_3_alg».proof.Proof.KernelIdeal.Value
import proofs.«416933_j15582141350755_3_alg».proof.Proof.Reference.Run
import proofs.«416933_j15582141350755_3_alg».proof.Proof.Bridge

noncomputable section

namespace Cert.Proof

open Idealize.ShloMosaic Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => ⟨(h c).2.1, (h c).2.2⟩) (Cert.ReferenceIdeal.Hand.run (F := Ideal) m ρ)

/-- Both idealized programs end with the same number: the kernel's run names its result as the host lines' function of
    the three result arrays, which is the reference's function of the input. -/
theorem algebraic : Cert.algebraic_KernelIdeal_ReferenceIdeal := by
  intro m ρ m' ρ' _ hagree
  refine ⟨fun c => Cert.ReferenceIdeal.Hand.refOut (F := Ideal) (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.Proof.Bridge.kernel_eq_ref m c), (h c).2.1, (h c).2.2⟩)
      (Cert.KernelIdeal.Fr.value_run (F := Ideal) m ρ)
  · exact (θ_run Cert.ReferenceIdeal.defs _ _).mono
      (fun _ h c => ⟨(h c).1.trans (by rw [(hagree c).1]), (h c).2.1, (h c).2.2⟩)
      (Cert.ReferenceIdeal.Hand.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
